-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v792) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x62001x64 : Shape := ⟨3, ![16, 62001, 64]⟩
abbrev S62001 : Shape := ⟨1, ![62001]⟩
abbrev S_ : Shape := ⟨0, ![]⟩

class Facts : Prop where
  bcast_S_S16x62001x64 : S_.BroadcastsInDim S16x62001x64 (![] : Fin 0 → Fin S16x62001x64.rank)
  reducesTo_S16x62001x64_S_d0_1_2 : S16x62001x64.ReducesTo [0, 1, 2] S_
  h_S_ : 0 < S_.numel

variable [Facts]

def fn {F : FTy → Type} [FloatOps F] (main_arg0 : FVec F S16x62001x64 .f32) (main_arg1 : IVec S62001 32) : IVec S_ 1 :=
  let main_v0 : FVec F S16x62001x64 .f32 := Host.absf main_arg0
  let main_cst : FVec F S_ .f32 := constant S_ .f32 0x7F800000#32
  let main_v1 : FVec F S16x62001x64 .f32 := broadcastInDim S16x62001x64 ![] bcast_S_S16x62001x64 main_cst
  let main_v2 : IVec S16x62001x64 1 := cmpf .olt main_v0 main_v1
  let main_c : IVec S_ 1 := constantI S_ 1 1#1
  let main_v3 : IVec S_ 1 := (fun x v => Host.reduce IntOp.andi x v reducesTo_S16x62001x64_S_d0_1_2 h_S_) main_v2 main_c
  main_v3
-- ==== Kernel.lean ====
abbrev S16x62001x64 : Shape := ⟨3, ![16, 62001, 64]⟩
abbrev S62001 : Shape := ⟨1, ![62001]⟩
abbrev S_ : Shape := ⟨0, ![]⟩
abbrev S62001x1 : Shape := ⟨2, ![62001, 1]⟩
abbrev S16x249x249x64 : Shape := ⟨4, ![16, 249, 249, 64]⟩
abbrev S62001x64 : Shape := ⟨2, ![62001, 64]⟩
abbrev S249x249x64 : Shape := ⟨3, ![249, 249, 64]⟩
abbrev S256x256 : Shape := ⟨2, ![256, 256]⟩
abbrev S2x83x249x64 : Shape := ⟨4, ![2, 83, 249, 64]⟩
abbrev S2 : Shape := ⟨1, ![2]⟩
abbrev S1 : Shape := ⟨1, ![1]⟩
abbrev S1x83x249x64 : Shape := ⟨4, ![1, 83, 249, 64]⟩
abbrev S83x249x64 : Shape := ⟨3, ![83, 249, 64]⟩
abbrev S64x83x249 : Shape := ⟨3, ![64, 83, 249]⟩
abbrev S1x83x249 : Shape := ⟨3, ![1, 83, 249]⟩
abbrev S83x249 : Shape := ⟨2, ![83, 249]⟩
abbrev S16x256x256 : Shape := ⟨3, ![16, 256, 256]⟩
abbrev S1x256x256 : Shape := ⟨3, ![1, 256, 256]⟩
abbrev S1x249x249x64 : Shape := ⟨4, ![1, 249, 249, 64]⟩
abbrev S2x8x256x256 : Shape := ⟨4, ![2, 8, 256, 256]⟩

abbrev nBuf : Space → Nat
  | .hbm => 31
  | .vmem => 6
  | .smem => 0
  | _ => 0

abbrev bufTy : (tb : Table) → Fin (tcTables nBuf tb) → BufTy
  | .hbm, ⟨0, _⟩ => ⟨S16x62001x64, .f32⟩
  | .hbm, ⟨1, _⟩ => ⟨S62001, .i32⟩
  | .hbm, ⟨2, _⟩ => ⟨S_, .f32⟩
  | .hbm, ⟨3, _⟩ => ⟨S16x62001x64, .f32⟩
  | .hbm, ⟨4, _⟩ => ⟨S_, .i32⟩
  | .hbm, ⟨5, _⟩ => ⟨S62001, .i32⟩
  | .hbm, ⟨6, _⟩ => ⟨S62001, .i1⟩
  | .hbm, ⟨7, _⟩ => ⟨S_, .i32⟩
  | .hbm, ⟨8, _⟩ => ⟨S62001, .i32⟩
  | .hbm, ⟨9, _⟩ => ⟨S62001, .i32⟩
  | .hbm, ⟨10, _⟩ => ⟨S62001, .i32⟩
  | .hbm, ⟨11, _⟩ => ⟨S62001x1, .i32⟩
  | .hbm, ⟨12, _⟩ => ⟨S16x62001x64, .f32⟩
  | .hbm, ⟨13, _⟩ => ⟨S16x249x249x64, .f32⟩
  | .hbm, ⟨14, _⟩ => ⟨S_, .f32⟩
  | .hbm, ⟨15, _⟩ => ⟨S62001x64, .f32⟩
  | .hbm, ⟨16, _⟩ => ⟨S_, .i32⟩
  | .hbm, ⟨17, _⟩ => ⟨S62001, .i32⟩
  | .hbm, ⟨18, _⟩ => ⟨S62001, .i1⟩
  | .hbm, ⟨19, _⟩ => ⟨S_, .i32⟩
  | .hbm, ⟨20, _⟩ => ⟨S62001, .i32⟩
  | .hbm, ⟨21, _⟩ => ⟨S62001, .i32⟩
  | .hbm, ⟨22, _⟩ => ⟨S62001, .i32⟩
  | .hbm, ⟨23, _⟩ => ⟨S62001x1, .i32⟩
  | .hbm, ⟨24, _⟩ => ⟨S_, .f32⟩
  | .hbm, ⟨25, _⟩ => ⟨S62001x64, .f32⟩
  | .hbm, ⟨26, _⟩ => ⟨S62001x64, .f32⟩
  | .hbm, ⟨27, _⟩ => ⟨S249x249x64, .f32⟩
  | .hbm, ⟨28, _⟩ => ⟨S256x256, .f32⟩
  | .hbm, ⟨29, _⟩ => ⟨S16x256x256, .f32⟩
  | .hbm, ⟨30, _⟩ => ⟨S2x8x256x256, .f32⟩
  | .local _ .vmem, ⟨0, _⟩ => ⟨S256x256, .f32⟩
  | .local _ .vmem, ⟨1, _⟩ => ⟨S2x83x249x64, .f32⟩
  | .local _ .vmem, ⟨2, _⟩ => ⟨S256x256, .f32⟩
  | .local _ .vmem, ⟨3, _⟩ => ⟨S1x256x256, .f32⟩
  | .local _ .vmem, ⟨4, _⟩ => ⟨S1x256x256, .f32⟩
  | .local _ .vmem, ⟨5, _⟩ => ⟨S2x83x249x64, .f32⟩
  | _, _ => ⟨S16x62001x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_scratch0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_scratch0 : Ref sig .tc := ⟨.vmem, 5, rfl⟩
abbrev cc0_sem0_0 : DmaSem sig := 0
abbrev cc1_sem0_0 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![16], ![false]⟩

def k1_off1 (i : grid1.Coords) : Fin 4 → Nat :=
  let arg0 : BitVec 32 := BitVec.ofNat 32 (i 0).val
  let c0_i32_6 : BitVec 32 := 0#32
  let c0_i32_7 : BitVec 32 := 0#32
  let c0_i32_8 : BitVec 32 := 0#32
  ![arg0.toNat, 0, 0, 0]
def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S16x62001x64 : S_.BroadcastsInDim S16x62001x64 (![] : Fin 0 → Fin S16x62001x64.rank)
  bcast_S_S62001 : S_.BroadcastsInDim S62001 (![] : Fin 0 → Fin S62001.rank)
  bcast_S62001_S62001x1_0 : S62001.BroadcastsInDim S62001x1 (![0] : Fin 1 → Fin S62001x1.rank)
  shapeCasts_S16x62001x64_S16x249x249x64 : S16x62001x64.ShapeCasts S16x249x249x64
  bcast_S_S62001x64 : S_.BroadcastsInDim S62001x64 (![] : Fin 0 → Fin S62001x64.rank)
  shapeCasts_S62001x64_S249x249x64 : S62001x64.ShapeCasts S249x249x64
  inb_S256x256_S256x256_0_0 : ∀ a, (![0, 0] : Fin 2 → Nat) a + S256x256.size a ≤ S256x256.size a
  h_S256x256 : 0 < S256x256.numel
  inb_S2_S1_0 : ∀ a, (![0] : Fin 1 → Nat) a + S1.size a ≤ S2.size a
  squeezes_S1_S_ : S1.Squeezes S_
  inb_S2x83x249x64_S1x83x249x64_0_0_0_0 : ∀ a, (![0, 0, 0, 0] : Fin 4 → Nat) a + S1x83x249x64.size a ≤ S2x83x249x64.size a
  squeezes_S1x83x249x64_S83x249x64 : S1x83x249x64.Squeezes S83x249x64
  inb_S249x249x64_S83x249x64_0_0_0 : ∀ a, (![0, 0, 0] : Fin 3 → Nat) a + S83x249x64.size a ≤ S249x249x64.size a
  inb_S2_S1_1 : ∀ a, (![1] : Fin 1 → Nat) a + S1.size a ≤ S2.size a
  inb_S2x83x249x64_S1x83x249x64_1_0_0_0 : ∀ a, (![1, 0, 0, 0] : Fin 4 → Nat) a + S1x83x249x64.size a ≤ S2x83x249x64.size a
  inb_S249x249x64_S83x249x64_83_0_0 : ∀ a, (![83, 0, 0] : Fin 3 → Nat) a + S83x249x64.size a ≤ S249x249x64.size a
  h_S1x83x249x64 : 0 < S1x83x249x64.numel
  shapeCasts_S1x83x249x64_S83x249x64 : S1x83x249x64.ShapeCasts S83x249x64
  transposes_S83x249x64_p2_0_1_S64x83x249 : S83x249x64.Transposes [2, 0, 1] S64x83x249
  slices_S64x83x249_o0_0_0_S1x83x249 : S64x83x249.Slices ![0, 0, 0] S1x83x249
  shapeCasts_S1x83x249_S83x249 : S1x83x249.ShapeCasts S83x249
  inb_S256x256_S83x249_0_0 : ∀ a, (![0, 0] : Fin 2 → Nat) a + S83x249.size a ≤ S256x256.size a
  h_S83x249 : 0 < S83x249.numel
  shapeCasts_S83x249_S83x249 : S83x249.ShapeCasts S83x249
  slices_S64x83x249_o1_0_0_S1x83x249 : S64x83x249.Slices ![1, 0, 0] S1x83x249
  inb_S256x256_S83x249_0_1 : ∀ a, (![0, 1] : Fin 2 → Nat) a + S83x249.size a ≤ S256x256.size a
  slices_S64x83x249_o2_0_0_S1x83x249 : S64x83x249.Slices ![2, 0, 0] S1x83x249
  inb_S256x256_S83x249_0_2 : ∀ a, (![0, 2] : Fin 2 → Nat) a + S83x249.size a ≤ S256x256.size a
  slices_S64x83x249_o3_0_0_S1x83x249 : S64x83x249.Slices ![3, 0, 0] S1x83x249
  inb_S256x256_S83x249_0_3 : ∀ a, (![0, 3] : Fin 2 → Nat) a + S83x249.size a ≤ S256x256.size a
  slices_S64x83x249_o4_0_0_S1x83x249 : S64x83x249.Slices ![4, 0, 0] S1x83x249
  inb_S256x256_S83x249_0_4 : ∀ a, (![0, 4] : Fin 2 → Nat) a + S83x249.size a ≤ S256x256.size a
  slices_S64x83x249_o5_0_0_S1x83x249 : S64x83x249.Slices ![5, 0, 0] S1x83x249
  inb_S256x256_S83x249_0_5 : ∀ a, (![0, 5] : Fin 2 → Nat) a + S83x249.size a ≤ S256x256.size a
  slices_S64x83x249_o6_0_0_S1x83x249 : S64x83x249.Slices ![6, 0, 0] S1x83x249
  inb_S256x256_S83x249_0_6 : ∀ a, (![0, 6] : Fin 2 → Nat) a + S83x249.size a ≤ S256x256.size a
  slices_S64x83x249_o7_0_0_S1x83x249 : S64x83x249.Slices ![7, 0, 0] S1x83x249
  inb_S256x256_S83x249_0_7 : ∀ a, (![0, 7] : Fin 2 → Nat) a + S83x249.size a ≤ S256x256.size a
  slices_S64x83x249_o8_0_0_S1x83x249 : S64x83x249.Slices ![8, 0, 0] S1x83x249
  inb_S256x256_S83x249_1_0 : ∀ a, (![1, 0] : Fin 2 → Nat) a + S83x249.size a ≤ S256x256.size a
  slices_S64x83x249_o9_0_0_S1x83x249 : S64x83x249.Slices ![9, 0, 0] S1x83x249
  inb_S256x256_S83x249_1_1 : ∀ a, (![1, 1] : Fin 2 → Nat) a + S83x249.size a ≤ S256x256.size a
  slices_S64x83x249_o10_0_0_S1x83x249 : S64x83x249.Slices ![10, 0, 0] S1x83x249
  inb_S256x256_S83x249_1_2 : ∀ a, (![1, 2] : Fin 2 → Nat) a + S83x249.size a ≤ S256x256.size a
  slices_S64x83x249_o11_0_0_S1x83x249 : S64x83x249.Slices ![11, 0, 0] S1x83x249
  inb_S256x256_S83x249_1_3 : ∀ a, (![1, 3] : Fin 2 → Nat) a + S83x249.size a ≤ S256x256.size a
  slices_S64x83x249_o12_0_0_S1x83x249 : S64x83x249.Slices ![12, 0, 0] S1x83x249
  inb_S256x256_S83x249_1_4 : ∀ a, (![1, 4] : Fin 2 → Nat) a + S83x249.size a ≤ S256x256.size a
  slices_S64x83x249_o13_0_0_S1x83x249 : S64x83x249.Slices ![13, 0, 0] S1x83x249
  inb_S256x256_S83x249_1_5 : ∀ a, (![1, 5] : Fin 2 → Nat) a + S83x249.size a ≤ S256x256.size a
  slices_S64x83x249_o14_0_0_S1x83x249 : S64x83x249.Slices ![14, 0, 0] S1x83x249
  inb_S256x256_S83x249_1_6 : ∀ a, (![1, 6] : Fin 2 → Nat) a + S83x249.size a ≤ S256x256.size a
  slices_S64x83x249_o15_0_0_S1x83x249 : S64x83x249.Slices ![15, 0, 0] S1x83x249
  inb_S256x256_S83x249_1_7 : ∀ a, (![1, 7] : Fin 2 → Nat) a + S83x249.size a ≤ S256x256.size a
  slices_S64x83x249_o16_0_0_S1x83x249 : S64x83x249.Slices ![16, 0, 0] S1x83x249
  inb_S256x256_S83x249_2_0 : ∀ a, (![2, 0] : Fin 2 → Nat) a + S83x249.size a ≤ S256x256.size a
  slices_S64x83x249_o17_0_0_S1x83x249 : S64x83x249.Slices ![17, 0, 0] S1x83x249
  inb_S256x256_S83x249_2_1 : ∀ a, (![2, 1] : Fin 2 → Nat) a + S83x249.size a ≤ S256x256.size a
  slices_S64x83x249_o18_0_0_S1x83x249 : S64x83x249.Slices ![18, 0, 0] S1x83x249
  inb_S256x256_S83x249_2_2 : ∀ a, (![2, 2] : Fin 2 → Nat) a + S83x249.size a ≤ S256x256.size a
  slices_S64x83x249_o19_0_0_S1x83x249 : S64x83x249.Slices ![19, 0, 0] S1x83x249
  inb_S256x256_S83x249_2_3 : ∀ a, (![2, 3] : Fin 2 → Nat) a + S83x249.size a ≤ S256x256.size a
  slices_S64x83x249_o20_0_0_S1x83x249 : S64x83x249.Slices ![20, 0, 0] S1x83x249
  inb_S256x256_S83x249_2_4 : ∀ a, (![2, 4] : Fin 2 → Nat) a + S83x249.size a ≤ S256x256.size a
  slices_S64x83x249_o21_0_0_S1x83x249 : S64x83x249.Slices ![21, 0, 0] S1x83x249
  inb_S256x256_S83x249_2_5 : ∀ a, (![2, 5] : Fin 2 → Nat) a + S83x249.size a ≤ S256x256.size a
  slices_S64x83x249_o22_0_0_S1x83x249 : S64x83x249.Slices ![22, 0, 0] S1x83x249
  inb_S256x256_S83x249_2_6 : ∀ a, (![2, 6] : Fin 2 → Nat) a + S83x249.size a ≤ S256x256.size a
  slices_S64x83x249_o23_0_0_S1x83x249 : S64x83x249.Slices ![23, 0, 0] S1x83x249
  inb_S256x256_S83x249_2_7 : ∀ a, (![2, 7] : Fin 2 → Nat) a + S83x249.size a ≤ S256x256.size a
  slices_S64x83x249_o24_0_0_S1x83x249 : S64x83x249.Slices ![24, 0, 0] S1x83x249
  inb_S256x256_S83x249_3_0 : ∀ a, (![3, 0] : Fin 2 → Nat) a + S83x249.size a ≤ S256x256.size a
  slices_S64x83x249_o25_0_0_S1x83x249 : S64x83x249.Slices ![25, 0, 0] S1x83x249
  inb_S256x256_S83x249_3_1 : ∀ a, (![3, 1] : Fin 2 → Nat) a + S83x249.size a ≤ S256x256.size a
  slices_S64x83x249_o26_0_0_S1x83x249 : S64x83x249.Slices ![26, 0, 0] S1x83x249
  inb_S256x256_S83x249_3_2 : ∀ a, (![3, 2] : Fin 2 → Nat) a + S83x249.size a ≤ S256x256.size a
  slices_S64x83x249_o27_0_0_S1x83x249 : S64x83x249.Slices ![27, 0, 0] S1x83x249
  inb_S256x256_S83x249_3_3 : ∀ a, (![3, 3] : Fin 2 → Nat) a + S83x249.size a ≤ S256x256.size a
  slices_S64x83x249_o28_0_0_S1x83x249 : S64x83x249.Slices ![28, 0, 0] S1x83x249
  inb_S256x256_S83x249_3_4 : ∀ a, (![3, 4] : Fin 2 → Nat) a + S83x249.size a ≤ S256x256.size a
  slices_S64x83x249_o29_0_0_S1x83x249 : S64x83x249.Slices ![29, 0, 0] S1x83x249
  inb_S256x256_S83x249_3_5 : ∀ a, (![3, 5] : Fin 2 → Nat) a + S83x249.size a ≤ S256x256.size a
  slices_S64x83x249_o30_0_0_S1x83x249 : S64x83x249.Slices ![30, 0, 0] S1x83x249
  inb_S256x256_S83x249_3_6 : ∀ a, (![3, 6] : Fin 2 → Nat) a + S83x249.size a ≤ S256x256.size a
  slices_S64x83x249_o31_0_0_S1x83x249 : S64x83x249.Slices ![31, 0, 0] S1x83x249
  inb_S256x256_S83x249_3_7 : ∀ a, (![3, 7] : Fin 2 → Nat) a + S83x249.size a ≤ S256x256.size a
  slices_S64x83x249_o32_0_0_S1x83x249 : S64x83x249.Slices ![32, 0, 0] S1x83x249
  inb_S256x256_S83x249_4_0 : ∀ a, (![4, 0] : Fin 2 → Nat) a + S83x249.size a ≤ S256x256.size a
  slices_S64x83x249_o33_0_0_S1x83x249 : S64x83x249.Slices ![33, 0, 0] S1x83x249
  inb_S256x256_S83x249_4_1 : ∀ a, (![4, 1] : Fin 2 → Nat) a + S83x249.size a ≤ S256x256.size a
  slices_S64x83x249_o34_0_0_S1x83x249 : S64x83x249.Slices ![34, 0, 0] S1x83x249
  inb_S256x256_S83x249_4_2 : ∀ a, (![4, 2] : Fin 2 → Nat) a + S83x249.size a ≤ S256x256.size a
  slices_S64x83x249_o35_0_0_S1x83x249 : S64x83x249.Slices ![35, 0, 0] S1x83x249
  inb_S256x256_S83x249_4_3 : ∀ a, (![4, 3] : Fin 2 → Nat) a + S83x249.size a ≤ S256x256.size a
  slices_S64x83x249_o36_0_0_S1x83x249 : S64x83x249.Slices ![36, 0, 0] S1x83x249
  inb_S256x256_S83x249_4_4 : ∀ a, (![4, 4] : Fin 2 → Nat) a + S83x249.size a ≤ S256x256.size a
  slices_S64x83x249_o37_0_0_S1x83x249 : S64x83x249.Slices ![37, 0, 0] S1x83x249
  inb_S256x256_S83x249_4_5 : ∀ a, (![4, 5] : Fin 2 → Nat) a + S83x249.size a ≤ S256x256.size a
  slices_S64x83x249_o38_0_0_S1x83x249 : S64x83x249.Slices ![38, 0, 0] S1x83x249
  inb_S256x256_S83x249_4_6 : ∀ a, (![4, 6] : Fin 2 → Nat) a + S83x249.size a ≤ S256x256.size a
  slices_S64x83x249_o39_0_0_S1x83x249 : S64x83x249.Slices ![39, 0, 0] S1x83x249
  inb_S256x256_S83x249_4_7 : ∀ a, (![4, 7] : Fin 2 → Nat) a + S83x249.size a ≤ S256x256.size a
  slices_S64x83x249_o40_0_0_S1x83x249 : S64x83x249.Slices ![40, 0, 0] S1x83x249
  inb_S256x256_S83x249_5_0 : ∀ a, (![5, 0] : Fin 2 → Nat) a + S83x249.size a ≤ S256x256.size a
  slices_S64x83x249_o41_0_0_S1x83x249 : S64x83x249.Slices ![41, 0, 0] S1x83x249
  inb_S256x256_S83x249_5_1 : ∀ a, (![5, 1] : Fin 2 → Nat) a + S83x249.size a ≤ S256x256.size a
  slices_S64x83x249_o42_0_0_S1x83x249 : S64x83x249.Slices ![42, 0, 0] S1x83x249
  inb_S256x256_S83x249_5_2 : ∀ a, (![5, 2] : Fin 2 → Nat) a + S83x249.size a ≤ S256x256.size a
  slices_S64x83x249_o43_0_0_S1x83x249 : S64x83x249.Slices ![43, 0, 0] S1x83x249
  inb_S256x256_S83x249_5_3 : ∀ a, (![5, 3] : Fin 2 → Nat) a + S83x249.size a ≤ S256x256.size a
  slices_S64x83x249_o44_0_0_S1x83x249 : S64x83x249.Slices ![44, 0, 0] S1x83x249
  inb_S256x256_S83x249_5_4 : ∀ a, (![5, 4] : Fin 2 → Nat) a + S83x249.size a ≤ S256x256.size a
  slices_S64x83x249_o45_0_0_S1x83x249 : S64x83x249.Slices ![45, 0, 0] S1x83x249
  inb_S256x256_S83x249_5_5 : ∀ a, (![5, 5] : Fin 2 → Nat) a + S83x249.size a ≤ S256x256.size a
  slices_S64x83x249_o46_0_0_S1x83x249 : S64x83x249.Slices ![46, 0, 0] S1x83x249
  inb_S256x256_S83x249_5_6 : ∀ a, (![5, 6] : Fin 2 → Nat) a + S83x249.size a ≤ S256x256.size a
  slices_S64x83x249_o47_0_0_S1x83x249 : S64x83x249.Slices ![47, 0, 0] S1x83x249
  inb_S256x256_S83x249_5_7 : ∀ a, (![5, 7] : Fin 2 → Nat) a + S83x249.size a ≤ S256x256.size a
  slices_S64x83x249_o48_0_0_S1x83x249 : S64x83x249.Slices ![48, 0, 0] S1x83x249
  inb_S256x256_S83x249_6_0 : ∀ a, (![6, 0] : Fin 2 → Nat) a + S83x249.size a ≤ S256x256.size a
  slices_S64x83x249_o49_0_0_S1x83x249 : S64x83x249.Slices ![49, 0, 0] S1x83x249
  inb_S256x256_S83x249_6_1 : ∀ a, (![6, 1] : Fin 2 → Nat) a + S83x249.size a ≤ S256x256.size a
  slices_S64x83x249_o50_0_0_S1x83x249 : S64x83x249.Slices ![50, 0, 0] S1x83x249
  inb_S256x256_S83x249_6_2 : ∀ a, (![6, 2] : Fin 2 → Nat) a + S83x249.size a ≤ S256x256.size a
  slices_S64x83x249_o51_0_0_S1x83x249 : S64x83x249.Slices ![51, 0, 0] S1x83x249
  inb_S256x256_S83x249_6_3 : ∀ a, (![6, 3] : Fin 2 → Nat) a + S83x249.size a ≤ S256x256.size a
  slices_S64x83x249_o52_0_0_S1x83x249 : S64x83x249.Slices ![52, 0, 0] S1x83x249
  inb_S256x256_S83x249_6_4 : ∀ a, (![6, 4] : Fin 2 → Nat) a + S83x249.size a ≤ S256x256.size a
  slices_S64x83x249_o53_0_0_S1x83x249 : S64x83x249.Slices ![53, 0, 0] S1x83x249
  inb_S256x256_S83x249_6_5 : ∀ a, (![6, 5] : Fin 2 → Nat) a + S83x249.size a ≤ S256x256.size a
  slices_S64x83x249_o54_0_0_S1x83x249 : S64x83x249.Slices ![54, 0, 0] S1x83x249
  inb_S256x256_S83x249_6_6 : ∀ a, (![6, 6] : Fin 2 → Nat) a + S83x249.size a ≤ S256x256.size a
  slices_S64x83x249_o55_0_0_S1x83x249 : S64x83x249.Slices ![55, 0, 0] S1x83x249
  inb_S256x256_S83x249_6_7 : ∀ a, (![6, 7] : Fin 2 → Nat) a + S83x249.size a ≤ S256x256.size a
  slices_S64x83x249_o56_0_0_S1x83x249 : S64x83x249.Slices ![56, 0, 0] S1x83x249
  inb_S256x256_S83x249_7_0 : ∀ a, (![7, 0] : Fin 2 → Nat) a + S83x249.size a ≤ S256x256.size a
  slices_S64x83x249_o57_0_0_S1x83x249 : S64x83x249.Slices ![57, 0, 0] S1x83x249
  inb_S256x256_S83x249_7_1 : ∀ a, (![7, 1] : Fin 2 → Nat) a + S83x249.size a ≤ S256x256.size a
  slices_S64x83x249_o58_0_0_S1x83x249 : S64x83x249.Slices ![58, 0, 0] S1x83x249
  inb_S256x256_S83x249_7_2 : ∀ a, (![7, 2] : Fin 2 → Nat) a + S83x249.size a ≤ S256x256.size a
  slices_S64x83x249_o59_0_0_S1x83x249 : S64x83x249.Slices ![59, 0, 0] S1x83x249
  inb_S256x256_S83x249_7_3 : ∀ a, (![7, 3] : Fin 2 → Nat) a + S83x249.size a ≤ S256x256.size a
  slices_S64x83x249_o60_0_0_S1x83x249 : S64x83x249.Slices ![60, 0, 0] S1x83x249
  inb_S256x256_S83x249_7_4 : ∀ a, (![7, 4] : Fin 2 → Nat) a + S83x249.size a ≤ S256x256.size a
  slices_S64x83x249_o61_0_0_S1x83x249 : S64x83x249.Slices ![61, 0, 0] S1x83x249
  inb_S256x256_S83x249_7_5 : ∀ a, (![7, 5] : Fin 2 → Nat) a + S83x249.size a ≤ S256x256.size a
  slices_S64x83x249_o62_0_0_S1x83x249 : S64x83x249.Slices ![62, 0, 0] S1x83x249
  inb_S256x256_S83x249_7_6 : ∀ a, (![7, 6] : Fin 2 → Nat) a + S83x249.size a ≤ S256x256.size a
  slices_S64x83x249_o63_0_0_S1x83x249 : S64x83x249.Slices ![63, 0, 0] S1x83x249
  inb_S256x256_S83x249_7_7 : ∀ a, (![7, 7] : Fin 2 → Nat) a + S83x249.size a ≤ S256x256.size a
  inb_S249x249x64_S83x249x64_166_0_0 : ∀ a, (![166, 0, 0] : Fin 3 → Nat) a + S83x249x64.size a ≤ S249x249x64.size a
  inb_S256x256_S83x249_83_0 : ∀ a, (![83, 0] : Fin 2 → Nat) a + S83x249.size a ≤ S256x256.size a
  inb_S256x256_S83x249_83_1 : ∀ a, (![83, 1] : Fin 2 → Nat) a + S83x249.size a ≤ S256x256.size a
  inb_S256x256_S83x249_83_2 : ∀ a, (![83, 2] : Fin 2 → Nat) a + S83x249.size a ≤ S256x256.size a
  inb_S256x256_S83x249_83_3 : ∀ a, (![83, 3] : Fin 2 → Nat) a + S83x249.size a ≤ S256x256.size a
  inb_S256x256_S83x249_83_4 : ∀ a, (![83, 4] : Fin 2 → Nat) a + S83x249.size a ≤ S256x256.size a
  inb_S256x256_S83x249_83_5 : ∀ a, (![83, 5] : Fin 2 → Nat) a + S83x249.size a ≤ S256x256.size a
  inb_S256x256_S83x249_83_6 : ∀ a, (![83, 6] : Fin 2 → Nat) a + S83x249.size a ≤ S256x256.size a
  inb_S256x256_S83x249_83_7 : ∀ a, (![83, 7] : Fin 2 → Nat) a + S83x249.size a ≤ S256x256.size a
  inb_S256x256_S83x249_84_0 : ∀ a, (![84, 0] : Fin 2 → Nat) a + S83x249.size a ≤ S256x256.size a
  inb_S256x256_S83x249_84_1 : ∀ a, (![84, 1] : Fin 2 → Nat) a + S83x249.size a ≤ S256x256.size a
  inb_S256x256_S83x249_84_2 : ∀ a, (![84, 2] : Fin 2 → Nat) a + S83x249.size a ≤ S256x256.size a
  inb_S256x256_S83x249_84_3 : ∀ a, (![84, 3] : Fin 2 → Nat) a + S83x249.size a ≤ S256x256.size a
  inb_S256x256_S83x249_84_4 : ∀ a, (![84, 4] : Fin 2 → Nat) a + S83x249.size a ≤ S256x256.size a
  inb_S256x256_S83x249_84_5 : ∀ a, (![84, 5] : Fin 2 → Nat) a + S83x249.size a ≤ S256x256.size a
  inb_S256x256_S83x249_84_6 : ∀ a, (![84, 6] : Fin 2 → Nat) a + S83x249.size a ≤ S256x256.size a
  inb_S256x256_S83x249_84_7 : ∀ a, (![84, 7] : Fin 2 → Nat) a + S83x249.size a ≤ S256x256.size a
  inb_S256x256_S83x249_85_0 : ∀ a, (![85, 0] : Fin 2 → Nat) a + S83x249.size a ≤ S256x256.size a
  inb_S256x256_S83x249_85_1 : ∀ a, (![85, 1] : Fin 2 → Nat) a + S83x249.size a ≤ S256x256.size a
  inb_S256x256_S83x249_85_2 : ∀ a, (![85, 2] : Fin 2 → Nat) a + S83x249.size a ≤ S256x256.size a
  inb_S256x256_S83x249_85_3 : ∀ a, (![85, 3] : Fin 2 → Nat) a + S83x249.size a ≤ S256x256.size a
  inb_S256x256_S83x249_85_4 : ∀ a, (![85, 4] : Fin 2 → Nat) a + S83x249.size a ≤ S256x256.size a
  inb_S256x256_S83x249_85_5 : ∀ a, (![85, 5] : Fin 2 → Nat) a + S83x249.size a ≤ S256x256.size a
  inb_S256x256_S83x249_85_6 : ∀ a, (![85, 6] : Fin 2 → Nat) a + S83x249.size a ≤ S256x256.size a
  inb_S256x256_S83x249_85_7 : ∀ a, (![85, 7] : Fin 2 → Nat) a + S83x249.size a ≤ S256x256.size a
  inb_S256x256_S83x249_86_0 : ∀ a, (![86, 0] : Fin 2 → Nat) a + S83x249.size a ≤ S256x256.size a
  inb_S256x256_S83x249_86_1 : ∀ a, (![86, 1] : Fin 2 → Nat) a + S83x249.size a ≤ S256x256.size a
  inb_S256x256_S83x249_86_2 : ∀ a, (![86, 2] : Fin 2 → Nat) a + S83x249.size a ≤ S256x256.size a
  inb_S256x256_S83x249_86_3 : ∀ a, (![86, 3] : Fin 2 → Nat) a + S83x249.size a ≤ S256x256.size a
  inb_S256x256_S83x249_86_4 : ∀ a, (![86, 4] : Fin 2 → Nat) a + S83x249.size a ≤ S256x256.size a
  inb_S256x256_S83x249_86_5 : ∀ a, (![86, 5] : Fin 2 → Nat) a + S83x249.size a ≤ S256x256.size a
  inb_S256x256_S83x249_86_6 : ∀ a, (![86, 6] : Fin 2 → Nat) a + S83x249.size a ≤ S256x256.size a
  inb_S256x256_S83x249_86_7 : ∀ a, (![86, 7] : Fin 2 → Nat) a + S83x249.size a ≤ S256x256.size a
  inb_S256x256_S83x249_87_0 : ∀ a, (![87, 0] : Fin 2 → Nat) a + S83x249.size a ≤ S256x256.size a
  inb_S256x256_S83x249_87_1 : ∀ a, (![87, 1] : Fin 2 → Nat) a + S83x249.size a ≤ S256x256.size a
  inb_S256x256_S83x249_87_2 : ∀ a, (![87, 2] : Fin 2 → Nat) a + S83x249.size a ≤ S256x256.size a
  inb_S256x256_S83x249_87_3 : ∀ a, (![87, 3] : Fin 2 → Nat) a + S83x249.size a ≤ S256x256.size a
  inb_S256x256_S83x249_87_4 : ∀ a, (![87, 4] : Fin 2 → Nat) a + S83x249.size a ≤ S256x256.size a
  inb_S256x256_S83x249_87_5 : ∀ a, (![87, 5] : Fin 2 → Nat) a + S83x249.size a ≤ S256x256.size a
  inb_S256x256_S83x249_87_6 : ∀ a, (![87, 6] : Fin 2 → Nat) a + S83x249.size a ≤ S256x256.size a
  inb_S256x256_S83x249_87_7 : ∀ a, (![87, 7] : Fin 2 → Nat) a + S83x249.size a ≤ S256x256.size a
  inb_S256x256_S83x249_88_0 : ∀ a, (![88, 0] : Fin 2 → Nat) a + S83x249.size a ≤ S256x256.size a
  inb_S256x256_S83x249_88_1 : ∀ a, (![88, 1] : Fin 2 → Nat) a + S83x249.size a ≤ S256x256.size a
  inb_S256x256_S83x249_88_2 : ∀ a, (![88, 2] : Fin 2 → Nat) a + S83x249.size a ≤ S256x256.size a
  inb_S256x256_S83x249_88_3 : ∀ a, (![88, 3] : Fin 2 → Nat) a + S83x249.size a ≤ S256x256.size a
  inb_S256x256_S83x249_88_4 : ∀ a, (![88, 4] : Fin 2 → Nat) a + S83x249.size a ≤ S256x256.size a
  inb_S256x256_S83x249_88_5 : ∀ a, (![88, 5] : Fin 2 → Nat) a + S83x249.size a ≤ S256x256.size a
  inb_S256x256_S83x249_88_6 : ∀ a, (![88, 6] : Fin 2 → Nat) a + S83x249.size a ≤ S256x256.size a
  inb_S256x256_S83x249_88_7 : ∀ a, (![88, 7] : Fin 2 → Nat) a + S83x249.size a ≤ S256x256.size a
  inb_S256x256_S83x249_89_0 : ∀ a, (![89, 0] : Fin 2 → Nat) a + S83x249.size a ≤ S256x256.size a
  inb_S256x256_S83x249_89_1 : ∀ a, (![89, 1] : Fin 2 → Nat) a + S83x249.size a ≤ S256x256.size a
  inb_S256x256_S83x249_89_2 : ∀ a, (![89, 2] : Fin 2 → Nat) a + S83x249.size a ≤ S256x256.size a
  inb_S256x256_S83x249_89_3 : ∀ a, (![89, 3] : Fin 2 → Nat) a + S83x249.size a ≤ S256x256.size a
  inb_S256x256_S83x249_89_4 : ∀ a, (![89, 4] : Fin 2 → Nat) a + S83x249.size a ≤ S256x256.size a
  inb_S256x256_S83x249_89_5 : ∀ a, (![89, 5] : Fin 2 → Nat) a + S83x249.size a ≤ S256x256.size a
  inb_S256x256_S83x249_89_6 : ∀ a, (![89, 6] : Fin 2 → Nat) a + S83x249.size a ≤ S256x256.size a
  inb_S256x256_S83x249_89_7 : ∀ a, (![89, 7] : Fin 2 → Nat) a + S83x249.size a ≤ S256x256.size a
  inb_S256x256_S83x249_90_0 : ∀ a, (![90, 0] : Fin 2 → Nat) a + S83x249.size a ≤ S256x256.size a
  inb_S256x256_S83x249_90_1 : ∀ a, (![90, 1] : Fin 2 → Nat) a + S83x249.size a ≤ S256x256.size a
  inb_S256x256_S83x249_90_2 : ∀ a, (![90, 2] : Fin 2 → Nat) a + S83x249.size a ≤ S256x256.size a
  inb_S256x256_S83x249_90_3 : ∀ a, (![90, 3] : Fin 2 → Nat) a + S83x249.size a ≤ S256x256.size a
  inb_S256x256_S83x249_90_4 : ∀ a, (![90, 4] : Fin 2 → Nat) a + S83x249.size a ≤ S256x256.size a
  inb_S256x256_S83x249_90_5 : ∀ a, (![90, 5] : Fin 2 → Nat) a + S83x249.size a ≤ S256x256.size a
  inb_S256x256_S83x249_90_6 : ∀ a, (![90, 6] : Fin 2 → Nat) a + S83x249.size a ≤ S256x256.size a
  inb_S256x256_S83x249_90_7 : ∀ a, (![90, 7] : Fin 2 → Nat) a + S83x249.size a ≤ S256x256.size a
  inb_S256x256_S83x249_166_0 : ∀ a, (![166, 0] : Fin 2 → Nat) a + S83x249.size a ≤ S256x256.size a
  inb_S256x256_S83x249_166_1 : ∀ a, (![166, 1] : Fin 2 → Nat) a + S83x249.size a ≤ S256x256.size a
  inb_S256x256_S83x249_166_2 : ∀ a, (![166, 2] : Fin 2 → Nat) a + S83x249.size a ≤ S256x256.size a
  inb_S256x256_S83x249_166_3 : ∀ a, (![166, 3] : Fin 2 → Nat) a + S83x249.size a ≤ S256x256.size a
  inb_S256x256_S83x249_166_4 : ∀ a, (![166, 4] : Fin 2 → Nat) a + S83x249.size a ≤ S256x256.size a
  inb_S256x256_S83x249_166_5 : ∀ a, (![166, 5] : Fin 2 → Nat) a + S83x249.size a ≤ S256x256.size a
  inb_S256x256_S83x249_166_6 : ∀ a, (![166, 6] : Fin 2 → Nat) a + S83x249.size a ≤ S256x256.size a
  inb_S256x256_S83x249_166_7 : ∀ a, (![166, 7] : Fin 2 → Nat) a + S83x249.size a ≤ S256x256.size a
  inb_S256x256_S83x249_167_0 : ∀ a, (![167, 0] : Fin 2 → Nat) a + S83x249.size a ≤ S256x256.size a
  inb_S256x256_S83x249_167_1 : ∀ a, (![167, 1] : Fin 2 → Nat) a + S83x249.size a ≤ S256x256.size a
  inb_S256x256_S83x249_167_2 : ∀ a, (![167, 2] : Fin 2 → Nat) a + S83x249.size a ≤ S256x256.size a
  inb_S256x256_S83x249_167_3 : ∀ a, (![167, 3] : Fin 2 → Nat) a + S83x249.size a ≤ S256x256.size a
  inb_S256x256_S83x249_167_4 : ∀ a, (![167, 4] : Fin 2 → Nat) a + S83x249.size a ≤ S256x256.size a
  inb_S256x256_S83x249_167_5 : ∀ a, (![167, 5] : Fin 2 → Nat) a + S83x249.size a ≤ S256x256.size a
  inb_S256x256_S83x249_167_6 : ∀ a, (![167, 6] : Fin 2 → Nat) a + S83x249.size a ≤ S256x256.size a
  inb_S256x256_S83x249_167_7 : ∀ a, (![167, 7] : Fin 2 → Nat) a + S83x249.size a ≤ S256x256.size a
  inb_S256x256_S83x249_168_0 : ∀ a, (![168, 0] : Fin 2 → Nat) a + S83x249.size a ≤ S256x256.size a
  inb_S256x256_S83x249_168_1 : ∀ a, (![168, 1] : Fin 2 → Nat) a + S83x249.size a ≤ S256x256.size a
  inb_S256x256_S83x249_168_2 : ∀ a, (![168, 2] : Fin 2 → Nat) a + S83x249.size a ≤ S256x256.size a
  inb_S256x256_S83x249_168_3 : ∀ a, (![168, 3] : Fin 2 → Nat) a + S83x249.size a ≤ S256x256.size a
  inb_S256x256_S83x249_168_4 : ∀ a, (![168, 4] : Fin 2 → Nat) a + S83x249.size a ≤ S256x256.size a
  inb_S256x256_S83x249_168_5 : ∀ a, (![168, 5] : Fin 2 → Nat) a + S83x249.size a ≤ S256x256.size a
  inb_S256x256_S83x249_168_6 : ∀ a, (![168, 6] : Fin 2 → Nat) a + S83x249.size a ≤ S256x256.size a
  inb_S256x256_S83x249_168_7 : ∀ a, (![168, 7] : Fin 2 → Nat) a + S83x249.size a ≤ S256x256.size a
  inb_S256x256_S83x249_169_0 : ∀ a, (![169, 0] : Fin 2 → Nat) a + S83x249.size a ≤ S256x256.size a
  inb_S256x256_S83x249_169_1 : ∀ a, (![169, 1] : Fin 2 → Nat) a + S83x249.size a ≤ S256x256.size a
  inb_S256x256_S83x249_169_2 : ∀ a, (![169, 2] : Fin 2 → Nat) a + S83x249.size a ≤ S256x256.size a
  inb_S256x256_S83x249_169_3 : ∀ a, (![169, 3] : Fin 2 → Nat) a + S83x249.size a ≤ S256x256.size a
  inb_S256x256_S83x249_169_4 : ∀ a, (![169, 4] : Fin 2 → Nat) a + S83x249.size a ≤ S256x256.size a
  inb_S256x256_S83x249_169_5 : ∀ a, (![169, 5] : Fin 2 → Nat) a + S83x249.size a ≤ S256x256.size a
  inb_S256x256_S83x249_169_6 : ∀ a, (![169, 6] : Fin 2 → Nat) a + S83x249.size a ≤ S256x256.size a
  inb_S256x256_S83x249_169_7 : ∀ a, (![169, 7] : Fin 2 → Nat) a + S83x249.size a ≤ S256x256.size a
  inb_S256x256_S83x249_170_0 : ∀ a, (![170, 0] : Fin 2 → Nat) a + S83x249.size a ≤ S256x256.size a
  inb_S256x256_S83x249_170_1 : ∀ a, (![170, 1] : Fin 2 → Nat) a + S83x249.size a ≤ S256x256.size a
  inb_S256x256_S83x249_170_2 : ∀ a, (![170, 2] : Fin 2 → Nat) a + S83x249.size a ≤ S256x256.size a
  inb_S256x256_S83x249_170_3 : ∀ a, (![170, 3] : Fin 2 → Nat) a + S83x249.size a ≤ S256x256.size a
  inb_S256x256_S83x249_170_4 : ∀ a, (![170, 4] : Fin 2 → Nat) a + S83x249.size a ≤ S256x256.size a
  inb_S256x256_S83x249_170_5 : ∀ a, (![170, 5] : Fin 2 → Nat) a + S83x249.size a ≤ S256x256.size a
  inb_S256x256_S83x249_170_6 : ∀ a, (![170, 6] : Fin 2 → Nat) a + S83x249.size a ≤ S256x256.size a
  inb_S256x256_S83x249_170_7 : ∀ a, (![170, 7] : Fin 2 → Nat) a + S83x249.size a ≤ S256x256.size a
  inb_S256x256_S83x249_171_0 : ∀ a, (![171, 0] : Fin 2 → Nat) a + S83x249.size a ≤ S256x256.size a
  inb_S256x256_S83x249_171_1 : ∀ a, (![171, 1] : Fin 2 → Nat) a + S83x249.size a ≤ S256x256.size a
  inb_S256x256_S83x249_171_2 : ∀ a, (![171, 2] : Fin 2 → Nat) a + S83x249.size a ≤ S256x256.size a
  inb_S256x256_S83x249_171_3 : ∀ a, (![171, 3] : Fin 2 → Nat) a + S83x249.size a ≤ S256x256.size a
  inb_S256x256_S83x249_171_4 : ∀ a, (![171, 4] : Fin 2 → Nat) a + S83x249.size a ≤ S256x256.size a
  inb_S256x256_S83x249_171_5 : ∀ a, (![171, 5] : Fin 2 → Nat) a + S83x249.size a ≤ S256x256.size a
  inb_S256x256_S83x249_171_6 : ∀ a, (![171, 6] : Fin 2 → Nat) a + S83x249.size a ≤ S256x256.size a
  inb_S256x256_S83x249_171_7 : ∀ a, (![171, 7] : Fin 2 → Nat) a + S83x249.size a ≤ S256x256.size a
  inb_S256x256_S83x249_172_0 : ∀ a, (![172, 0] : Fin 2 → Nat) a + S83x249.size a ≤ S256x256.size a
  inb_S256x256_S83x249_172_1 : ∀ a, (![172, 1] : Fin 2 → Nat) a + S83x249.size a ≤ S256x256.size a
  inb_S256x256_S83x249_172_2 : ∀ a, (![172, 2] : Fin 2 → Nat) a + S83x249.size a ≤ S256x256.size a
  inb_S256x256_S83x249_172_3 : ∀ a, (![172, 3] : Fin 2 → Nat) a + S83x249.size a ≤ S256x256.size a
  inb_S256x256_S83x249_172_4 : ∀ a, (![172, 4] : Fin 2 → Nat) a + S83x249.size a ≤ S256x256.size a
  inb_S256x256_S83x249_172_5 : ∀ a, (![172, 5] : Fin 2 → Nat) a + S83x249.size a ≤ S256x256.size a
  inb_S256x256_S83x249_172_6 : ∀ a, (![172, 6] : Fin 2 → Nat) a + S83x249.size a ≤ S256x256.size a
  inb_S256x256_S83x249_172_7 : ∀ a, (![172, 7] : Fin 2 → Nat) a + S83x249.size a ≤ S256x256.size a
  inb_S256x256_S83x249_173_0 : ∀ a, (![173, 0] : Fin 2 → Nat) a + S83x249.size a ≤ S256x256.size a
  inb_S256x256_S83x249_173_1 : ∀ a, (![173, 1] : Fin 2 → Nat) a + S83x249.size a ≤ S256x256.size a
  inb_S256x256_S83x249_173_2 : ∀ a, (![173, 2] : Fin 2 → Nat) a + S83x249.size a ≤ S256x256.size a
  inb_S256x256_S83x249_173_3 : ∀ a, (![173, 3] : Fin 2 → Nat) a + S83x249.size a ≤ S256x256.size a
  inb_S256x256_S83x249_173_4 : ∀ a, (![173, 4] : Fin 2 → Nat) a + S83x249.size a ≤ S256x256.size a
  inb_S256x256_S83x249_173_5 : ∀ a, (![173, 5] : Fin 2 → Nat) a + S83x249.size a ≤ S256x256.size a
  inb_S256x256_S83x249_173_6 : ∀ a, (![173, 6] : Fin 2 → Nat) a + S83x249.size a ≤ S256x256.size a
  inb_S256x256_S83x249_173_7 : ∀ a, (![173, 7] : Fin 2 → Nat) a + S83x249.size a ≤ S256x256.size a
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  squeezes_S1x249x249x64_S249x249x64 : S1x249x249x64.Squeezes S249x249x64
  inb_S1x256x256_S1x83x249_0_0_0 : ∀ a, (![0, 0, 0] : Fin 3 → Nat) a + S1x83x249.size a ≤ S1x256x256.size a
  h_S1x83x249 : 0 < S1x83x249.numel
  shapeCasts_S83x249_S1x83x249 : S83x249.ShapeCasts S1x83x249
  inb_S1x256x256_S1x83x249_0_0_1 : ∀ a, (![0, 0, 1] : Fin 3 → Nat) a + S1x83x249.size a ≤ S1x256x256.size a
  inb_S1x256x256_S1x83x249_0_0_2 : ∀ a, (![0, 0, 2] : Fin 3 → Nat) a + S1x83x249.size a ≤ S1x256x256.size a
  inb_S1x256x256_S1x83x249_0_0_3 : ∀ a, (![0, 0, 3] : Fin 3 → Nat) a + S1x83x249.size a ≤ S1x256x256.size a
  inb_S1x256x256_S1x83x249_0_0_4 : ∀ a, (![0, 0, 4] : Fin 3 → Nat) a + S1x83x249.size a ≤ S1x256x256.size a
  inb_S1x256x256_S1x83x249_0_0_5 : ∀ a, (![0, 0, 5] : Fin 3 → Nat) a + S1x83x249.size a ≤ S1x256x256.size a
  inb_S1x256x256_S1x83x249_0_0_6 : ∀ a, (![0, 0, 6] : Fin 3 → Nat) a + S1x83x249.size a ≤ S1x256x256.size a
  inb_S1x256x256_S1x83x249_0_0_7 : ∀ a, (![0, 0, 7] : Fin 3 → Nat) a + S1x83x249.size a ≤ S1x256x256.size a
  inb_S1x256x256_S1x83x249_0_1_0 : ∀ a, (![0, 1, 0] : Fin 3 → Nat) a + S1x83x249.size a ≤ S1x256x256.size a
  inb_S1x256x256_S1x83x249_0_1_1 : ∀ a, (![0, 1, 1] : Fin 3 → Nat) a + S1x83x249.size a ≤ S1x256x256.size a
  inb_S1x256x256_S1x83x249_0_1_2 : ∀ a, (![0, 1, 2] : Fin 3 → Nat) a + S1x83x249.size a ≤ S1x256x256.size a
  inb_S1x256x256_S1x83x249_0_1_3 : ∀ a, (![0, 1, 3] : Fin 3 → Nat) a + S1x83x249.size a ≤ S1x256x256.size a
  inb_S1x256x256_S1x83x249_0_1_4 : ∀ a, (![0, 1, 4] : Fin 3 → Nat) a + S1x83x249.size a ≤ S1x256x256.size a
  inb_S1x256x256_S1x83x249_0_1_5 : ∀ a, (![0, 1, 5] : Fin 3 → Nat) a + S1x83x249.size a ≤ S1x256x256.size a
  inb_S1x256x256_S1x83x249_0_1_6 : ∀ a, (![0, 1, 6] : Fin 3 → Nat) a + S1x83x249.size a ≤ S1x256x256.size a
  inb_S1x256x256_S1x83x249_0_1_7 : ∀ a, (![0, 1, 7] : Fin 3 → Nat) a + S1x83x249.size a ≤ S1x256x256.size a
  inb_S1x256x256_S1x83x249_0_2_0 : ∀ a, (![0, 2, 0] : Fin 3 → Nat) a + S1x83x249.size a ≤ S1x256x256.size a
  inb_S1x256x256_S1x83x249_0_2_1 : ∀ a, (![0, 2, 1] : Fin 3 → Nat) a + S1x83x249.size a ≤ S1x256x256.size a
  inb_S1x256x256_S1x83x249_0_2_2 : ∀ a, (![0, 2, 2] : Fin 3 → Nat) a + S1x83x249.size a ≤ S1x256x256.size a
  inb_S1x256x256_S1x83x249_0_2_3 : ∀ a, (![0, 2, 3] : Fin 3 → Nat) a + S1x83x249.size a ≤ S1x256x256.size a
  inb_S1x256x256_S1x83x249_0_2_4 : ∀ a, (![0, 2, 4] : Fin 3 → Nat) a + S1x83x249.size a ≤ S1x256x256.size a
  inb_S1x256x256_S1x83x249_0_2_5 : ∀ a, (![0, 2, 5] : Fin 3 → Nat) a + S1x83x249.size a ≤ S1x256x256.size a
  inb_S1x256x256_S1x83x249_0_2_6 : ∀ a, (![0, 2, 6] : Fin 3 → Nat) a + S1x83x249.size a ≤ S1x256x256.size a
  inb_S1x256x256_S1x83x249_0_2_7 : ∀ a, (![0, 2, 7] : Fin 3 → Nat) a + S1x83x249.size a ≤ S1x256x256.size a
  inb_S1x256x256_S1x83x249_0_3_0 : ∀ a, (![0, 3, 0] : Fin 3 → Nat) a + S1x83x249.size a ≤ S1x256x256.size a
  inb_S1x256x256_S1x83x249_0_3_1 : ∀ a, (![0, 3, 1] : Fin 3 → Nat) a + S1x83x249.size a ≤ S1x256x256.size a
  inb_S1x256x256_S1x83x249_0_3_2 : ∀ a, (![0, 3, 2] : Fin 3 → Nat) a + S1x83x249.size a ≤ S1x256x256.size a
  inb_S1x256x256_S1x83x249_0_3_3 : ∀ a, (![0, 3, 3] : Fin 3 → Nat) a + S1x83x249.size a ≤ S1x256x256.size a
  inb_S1x256x256_S1x83x249_0_3_4 : ∀ a, (![0, 3, 4] : Fin 3 → Nat) a + S1x83x249.size a ≤ S1x256x256.size a
  inb_S1x256x256_S1x83x249_0_3_5 : ∀ a, (![0, 3, 5] : Fin 3 → Nat) a + S1x83x249.size a ≤ S1x256x256.size a
  inb_S1x256x256_S1x83x249_0_3_6 : ∀ a, (![0, 3, 6] : Fin 3 → Nat) a + S1x83x249.size a ≤ S1x256x256.size a
  inb_S1x256x256_S1x83x249_0_3_7 : ∀ a, (![0, 3, 7] : Fin 3 → Nat) a + S1x83x249.size a ≤ S1x256x256.size a
  inb_S1x256x256_S1x83x249_0_4_0 : ∀ a, (![0, 4, 0] : Fin 3 → Nat) a + S1x83x249.size a ≤ S1x256x256.size a
  inb_S1x256x256_S1x83x249_0_4_1 : ∀ a, (![0, 4, 1] : Fin 3 → Nat) a + S1x83x249.size a ≤ S1x256x256.size a
  inb_S1x256x256_S1x83x249_0_4_2 : ∀ a, (![0, 4, 2] : Fin 3 → Nat) a + S1x83x249.size a ≤ S1x256x256.size a
  inb_S1x256x256_S1x83x249_0_4_3 : ∀ a, (![0, 4, 3] : Fin 3 → Nat) a + S1x83x249.size a ≤ S1x256x256.size a
  inb_S1x256x256_S1x83x249_0_4_4 : ∀ a, (![0, 4, 4] : Fin 3 → Nat) a + S1x83x249.size a ≤ S1x256x256.size a
  inb_S1x256x256_S1x83x249_0_4_5 : ∀ a, (![0, 4, 5] : Fin 3 → Nat) a + S1x83x249.size a ≤ S1x256x256.size a
  inb_S1x256x256_S1x83x249_0_4_6 : ∀ a, (![0, 4, 6] : Fin 3 → Nat) a + S1x83x249.size a ≤ S1x256x256.size a
  inb_S1x256x256_S1x83x249_0_4_7 : ∀ a, (![0, 4, 7] : Fin 3 → Nat) a + S1x83x249.size a ≤ S1x256x256.size a
  inb_S1x256x256_S1x83x249_0_5_0 : ∀ a, (![0, 5, 0] : Fin 3 → Nat) a + S1x83x249.size a ≤ S1x256x256.size a
  inb_S1x256x256_S1x83x249_0_5_1 : ∀ a, (![0, 5, 1] : Fin 3 → Nat) a + S1x83x249.size a ≤ S1x256x256.size a
  inb_S1x256x256_S1x83x249_0_5_2 : ∀ a, (![0, 5, 2] : Fin 3 → Nat) a + S1x83x249.size a ≤ S1x256x256.size a
  inb_S1x256x256_S1x83x249_0_5_3 : ∀ a, (![0, 5, 3] : Fin 3 → Nat) a + S1x83x249.size a ≤ S1x256x256.size a
  inb_S1x256x256_S1x83x249_0_5_4 : ∀ a, (![0, 5, 4] : Fin 3 → Nat) a + S1x83x249.size a ≤ S1x256x256.size a
  inb_S1x256x256_S1x83x249_0_5_5 : ∀ a, (![0, 5, 5] : Fin 3 → Nat) a + S1x83x249.size a ≤ S1x256x256.size a
  inb_S1x256x256_S1x83x249_0_5_6 : ∀ a, (![0, 5, 6] : Fin 3 → Nat) a + S1x83x249.size a ≤ S1x256x256.size a
  inb_S1x256x256_S1x83x249_0_5_7 : ∀ a, (![0, 5, 7] : Fin 3 → Nat) a + S1x83x249.size a ≤ S1x256x256.size a
  inb_S1x256x256_S1x83x249_0_6_0 : ∀ a, (![0, 6, 0] : Fin 3 → Nat) a + S1x83x249.size a ≤ S1x256x256.size a
  inb_S1x256x256_S1x83x249_0_6_1 : ∀ a, (![0, 6, 1] : Fin 3 → Nat) a + S1x83x249.size a ≤ S1x256x256.size a
  inb_S1x256x256_S1x83x249_0_6_2 : ∀ a, (![0, 6, 2] : Fin 3 → Nat) a + S1x83x249.size a ≤ S1x256x256.size a
  inb_S1x256x256_S1x83x249_0_6_3 : ∀ a, (![0, 6, 3] : Fin 3 → Nat) a + S1x83x249.size a ≤ S1x256x256.size a
  inb_S1x256x256_S1x83x249_0_6_4 : ∀ a, (![0, 6, 4] : Fin 3 → Nat) a + S1x83x249.size a ≤ S1x256x256.size a
  inb_S1x256x256_S1x83x249_0_6_5 : ∀ a, (![0, 6, 5] : Fin 3 → Nat) a + S1x83x249.size a ≤ S1x256x256.size a
  inb_S1x256x256_S1x83x249_0_6_6 : ∀ a, (![0, 6, 6] : Fin 3 → Nat) a + S1x83x249.size a ≤ S1x256x256.size a
  inb_S1x256x256_S1x83x249_0_6_7 : ∀ a, (![0, 6, 7] : Fin 3 → Nat) a + S1x83x249.size a ≤ S1x256x256.size a
  inb_S1x256x256_S1x83x249_0_7_0 : ∀ a, (![0, 7, 0] : Fin 3 → Nat) a + S1x83x249.size a ≤ S1x256x256.size a
  inb_S1x256x256_S1x83x249_0_7_1 : ∀ a, (![0, 7, 1] : Fin 3 → Nat) a + S1x83x249.size a ≤ S1x256x256.size a
  inb_S1x256x256_S1x83x249_0_7_2 : ∀ a, (![0, 7, 2] : Fin 3 → Nat) a + S1x83x249.size a ≤ S1x256x256.size a
  inb_S1x256x256_S1x83x249_0_7_3 : ∀ a, (![0, 7, 3] : Fin 3 → Nat) a + S1x83x249.size a ≤ S1x256x256.size a
  inb_S1x256x256_S1x83x249_0_7_4 : ∀ a, (![0, 7, 4] : Fin 3 → Nat) a + S1x83x249.size a ≤ S1x256x256.size a
  inb_S1x256x256_S1x83x249_0_7_5 : ∀ a, (![0, 7, 5] : Fin 3 → Nat) a + S1x83x249.size a ≤ S1x256x256.size a
  inb_S1x256x256_S1x83x249_0_7_6 : ∀ a, (![0, 7, 6] : Fin 3 → Nat) a + S1x83x249.size a ≤ S1x256x256.size a
  inb_S1x256x256_S1x83x249_0_7_7 : ∀ a, (![0, 7, 7] : Fin 3 → Nat) a + S1x83x249.size a ≤ S1x256x256.size a
  inb_S1x256x256_S1x83x249_0_83_0 : ∀ a, (![0, 83, 0] : Fin 3 → Nat) a + S1x83x249.size a ≤ S1x256x256.size a
  inb_S1x256x256_S1x83x249_0_83_1 : ∀ a, (![0, 83, 1] : Fin 3 → Nat) a + S1x83x249.size a ≤ S1x256x256.size a
  inb_S1x256x256_S1x83x249_0_83_2 : ∀ a, (![0, 83, 2] : Fin 3 → Nat) a + S1x83x249.size a ≤ S1x256x256.size a
  inb_S1x256x256_S1x83x249_0_83_3 : ∀ a, (![0, 83, 3] : Fin 3 → Nat) a + S1x83x249.size a ≤ S1x256x256.size a
  inb_S1x256x256_S1x83x249_0_83_4 : ∀ a, (![0, 83, 4] : Fin 3 → Nat) a + S1x83x249.size a ≤ S1x256x256.size a
  inb_S1x256x256_S1x83x249_0_83_5 : ∀ a, (![0, 83, 5] : Fin 3 → Nat) a + S1x83x249.size a ≤ S1x256x256.size a
  inb_S1x256x256_S1x83x249_0_83_6 : ∀ a, (![0, 83, 6] : Fin 3 → Nat) a + S1x83x249.size a ≤ S1x256x256.size a
  inb_S1x256x256_S1x83x249_0_83_7 : ∀ a, (![0, 83, 7] : Fin 3 → Nat) a + S1x83x249.size a ≤ S1x256x256.size a
  inb_S1x256x256_S1x83x249_0_84_0 : ∀ a, (![0, 84, 0] : Fin 3 → Nat) a + S1x83x249.size a ≤ S1x256x256.size a
  inb_S1x256x256_S1x83x249_0_84_1 : ∀ a, (![0, 84, 1] : Fin 3 → Nat) a + S1x83x249.size a ≤ S1x256x256.size a
  inb_S1x256x256_S1x83x249_0_84_2 : ∀ a, (![0, 84, 2] : Fin 3 → Nat) a + S1x83x249.size a ≤ S1x256x256.size a
  inb_S1x256x256_S1x83x249_0_84_3 : ∀ a, (![0, 84, 3] : Fin 3 → Nat) a + S1x83x249.size a ≤ S1x256x256.size a
  inb_S1x256x256_S1x83x249_0_84_4 : ∀ a, (![0, 84, 4] : Fin 3 → Nat) a + S1x83x249.size a ≤ S1x256x256.size a
  inb_S1x256x256_S1x83x249_0_84_5 : ∀ a, (![0, 84, 5] : Fin 3 → Nat) a + S1x83x249.size a ≤ S1x256x256.size a
  inb_S1x256x256_S1x83x249_0_84_6 : ∀ a, (![0, 84, 6] : Fin 3 → Nat) a + S1x83x249.size a ≤ S1x256x256.size a
  inb_S1x256x256_S1x83x249_0_84_7 : ∀ a, (![0, 84, 7] : Fin 3 → Nat) a + S1x83x249.size a ≤ S1x256x256.size a
  inb_S1x256x256_S1x83x249_0_85_0 : ∀ a, (![0, 85, 0] : Fin 3 → Nat) a + S1x83x249.size a ≤ S1x256x256.size a
  inb_S1x256x256_S1x83x249_0_85_1 : ∀ a, (![0, 85, 1] : Fin 3 → Nat) a + S1x83x249.size a ≤ S1x256x256.size a
  inb_S1x256x256_S1x83x249_0_85_2 : ∀ a, (![0, 85, 2] : Fin 3 → Nat) a + S1x83x249.size a ≤ S1x256x256.size a
  inb_S1x256x256_S1x83x249_0_85_3 : ∀ a, (![0, 85, 3] : Fin 3 → Nat) a + S1x83x249.size a ≤ S1x256x256.size a
  inb_S1x256x256_S1x83x249_0_85_4 : ∀ a, (![0, 85, 4] : Fin 3 → Nat) a + S1x83x249.size a ≤ S1x256x256.size a
  inb_S1x256x256_S1x83x249_0_85_5 : ∀ a, (![0, 85, 5] : Fin 3 → Nat) a + S1x83x249.size a ≤ S1x256x256.size a
  inb_S1x256x256_S1x83x249_0_85_6 : ∀ a, (![0, 85, 6] : Fin 3 → Nat) a + S1x83x249.size a ≤ S1x256x256.size a
  inb_S1x256x256_S1x83x249_0_85_7 : ∀ a, (![0, 85, 7] : Fin 3 → Nat) a + S1x83x249.size a ≤ S1x256x256.size a
  inb_S1x256x256_S1x83x249_0_86_0 : ∀ a, (![0, 86, 0] : Fin 3 → Nat) a + S1x83x249.size a ≤ S1x256x256.size a
  inb_S1x256x256_S1x83x249_0_86_1 : ∀ a, (![0, 86, 1] : Fin 3 → Nat) a + S1x83x249.size a ≤ S1x256x256.size a
  inb_S1x256x256_S1x83x249_0_86_2 : ∀ a, (![0, 86, 2] : Fin 3 → Nat) a + S1x83x249.size a ≤ S1x256x256.size a
  inb_S1x256x256_S1x83x249_0_86_3 : ∀ a, (![0, 86, 3] : Fin 3 → Nat) a + S1x83x249.size a ≤ S1x256x256.size a
  inb_S1x256x256_S1x83x249_0_86_4 : ∀ a, (![0, 86, 4] : Fin 3 → Nat) a + S1x83x249.size a ≤ S1x256x256.size a
  inb_S1x256x256_S1x83x249_0_86_5 : ∀ a, (![0, 86, 5] : Fin 3 → Nat) a + S1x83x249.size a ≤ S1x256x256.size a
  inb_S1x256x256_S1x83x249_0_86_6 : ∀ a, (![0, 86, 6] : Fin 3 → Nat) a + S1x83x249.size a ≤ S1x256x256.size a
  inb_S1x256x256_S1x83x249_0_86_7 : ∀ a, (![0, 86, 7] : Fin 3 → Nat) a + S1x83x249.size a ≤ S1x256x256.size a
  inb_S1x256x256_S1x83x249_0_87_0 : ∀ a, (![0, 87, 0] : Fin 3 → Nat) a + S1x83x249.size a ≤ S1x256x256.size a
  inb_S1x256x256_S1x83x249_0_87_1 : ∀ a, (![0, 87, 1] : Fin 3 → Nat) a + S1x83x249.size a ≤ S1x256x256.size a
  inb_S1x256x256_S1x83x249_0_87_2 : ∀ a, (![0, 87, 2] : Fin 3 → Nat) a + S1x83x249.size a ≤ S1x256x256.size a
  inb_S1x256x256_S1x83x249_0_87_3 : ∀ a, (![0, 87, 3] : Fin 3 → Nat) a + S1x83x249.size a ≤ S1x256x256.size a
  inb_S1x256x256_S1x83x249_0_87_4 : ∀ a, (![0, 87, 4] : Fin 3 → Nat) a + S1x83x249.size a ≤ S1x256x256.size a
  inb_S1x256x256_S1x83x249_0_87_5 : ∀ a, (![0, 87, 5] : Fin 3 → Nat) a + S1x83x249.size a ≤ S1x256x256.size a
  inb_S1x256x256_S1x83x249_0_87_6 : ∀ a, (![0, 87, 6] : Fin 3 → Nat) a + S1x83x249.size a ≤ S1x256x256.size a
  inb_S1x256x256_S1x83x249_0_87_7 : ∀ a, (![0, 87, 7] : Fin 3 → Nat) a + S1x83x249.size a ≤ S1x256x256.size a
  inb_S1x256x256_S1x83x249_0_88_0 : ∀ a, (![0, 88, 0] : Fin 3 → Nat) a + S1x83x249.size a ≤ S1x256x256.size a
  inb_S1x256x256_S1x83x249_0_88_1 : ∀ a, (![0, 88, 1] : Fin 3 → Nat) a + S1x83x249.size a ≤ S1x256x256.size a
  inb_S1x256x256_S1x83x249_0_88_2 : ∀ a, (![0, 88, 2] : Fin 3 → Nat) a + S1x83x249.size a ≤ S1x256x256.size a
  inb_S1x256x256_S1x83x249_0_88_3 : ∀ a, (![0, 88, 3] : Fin 3 → Nat) a + S1x83x249.size a ≤ S1x256x256.size a
  inb_S1x256x256_S1x83x249_0_88_4 : ∀ a, (![0, 88, 4] : Fin 3 → Nat) a + S1x83x249.size a ≤ S1x256x256.size a
  inb_S1x256x256_S1x83x249_0_88_5 : ∀ a, (![0, 88, 5] : Fin 3 → Nat) a + S1x83x249.size a ≤ S1x256x256.size a
  inb_S1x256x256_S1x83x249_0_88_6 : ∀ a, (![0, 88, 6] : Fin 3 → Nat) a + S1x83x249.size a ≤ S1x256x256.size a
  inb_S1x256x256_S1x83x249_0_88_7 : ∀ a, (![0, 88, 7] : Fin 3 → Nat) a + S1x83x249.size a ≤ S1x256x256.size a
  inb_S1x256x256_S1x83x249_0_89_0 : ∀ a, (![0, 89, 0] : Fin 3 → Nat) a + S1x83x249.size a ≤ S1x256x256.size a
  inb_S1x256x256_S1x83x249_0_89_1 : ∀ a, (![0, 89, 1] : Fin 3 → Nat) a + S1x83x249.size a ≤ S1x256x256.size a
  inb_S1x256x256_S1x83x249_0_89_2 : ∀ a, (![0, 89, 2] : Fin 3 → Nat) a + S1x83x249.size a ≤ S1x256x256.size a
  inb_S1x256x256_S1x83x249_0_89_3 : ∀ a, (![0, 89, 3] : Fin 3 → Nat) a + S1x83x249.size a ≤ S1x256x256.size a
  inb_S1x256x256_S1x83x249_0_89_4 : ∀ a, (![0, 89, 4] : Fin 3 → Nat) a + S1x83x249.size a ≤ S1x256x256.size a
  inb_S1x256x256_S1x83x249_0_89_5 : ∀ a, (![0, 89, 5] : Fin 3 → Nat) a + S1x83x249.size a ≤ S1x256x256.size a
  inb_S1x256x256_S1x83x249_0_89_6 : ∀ a, (![0, 89, 6] : Fin 3 → Nat) a + S1x83x249.size a ≤ S1x256x256.size a
  inb_S1x256x256_S1x83x249_0_89_7 : ∀ a, (![0, 89, 7] : Fin 3 → Nat) a + S1x83x249.size a ≤ S1x256x256.size a
  inb_S1x256x256_S1x83x249_0_90_0 : ∀ a, (![0, 90, 0] : Fin 3 → Nat) a + S1x83x249.size a ≤ S1x256x256.size a
  inb_S1x256x256_S1x83x249_0_90_1 : ∀ a, (![0, 90, 1] : Fin 3 → Nat) a + S1x83x249.size a ≤ S1x256x256.size a
  inb_S1x256x256_S1x83x249_0_90_2 : ∀ a, (![0, 90, 2] : Fin 3 → Nat) a + S1x83x249.size a ≤ S1x256x256.size a
  inb_S1x256x256_S1x83x249_0_90_3 : ∀ a, (![0, 90, 3] : Fin 3 → Nat) a + S1x83x249.size a ≤ S1x256x256.size a
  inb_S1x256x256_S1x83x249_0_90_4 : ∀ a, (![0, 90, 4] : Fin 3 → Nat) a + S1x83x249.size a ≤ S1x256x256.size a
  inb_S1x256x256_S1x83x249_0_90_5 : ∀ a, (![0, 90, 5] : Fin 3 → Nat) a + S1x83x249.size a ≤ S1x256x256.size a
  inb_S1x256x256_S1x83x249_0_90_6 : ∀ a, (![0, 90, 6] : Fin 3 → Nat) a + S1x83x249.size a ≤ S1x256x256.size a
  inb_S1x256x256_S1x83x249_0_90_7 : ∀ a, (![0, 90, 7] : Fin 3 → Nat) a + S1x83x249.size a ≤ S1x256x256.size a
  inb_S1x256x256_S1x83x249_0_166_0 : ∀ a, (![0, 166, 0] : Fin 3 → Nat) a + S1x83x249.size a ≤ S1x256x256.size a
  inb_S1x256x256_S1x83x249_0_166_1 : ∀ a, (![0, 166, 1] : Fin 3 → Nat) a + S1x83x249.size a ≤ S1x256x256.size a
  inb_S1x256x256_S1x83x249_0_166_2 : ∀ a, (![0, 166, 2] : Fin 3 → Nat) a + S1x83x249.size a ≤ S1x256x256.size a
  inb_S1x256x256_S1x83x249_0_166_3 : ∀ a, (![0, 166, 3] : Fin 3 → Nat) a + S1x83x249.size a ≤ S1x256x256.size a
  inb_S1x256x256_S1x83x249_0_166_4 : ∀ a, (![0, 166, 4] : Fin 3 → Nat) a + S1x83x249.size a ≤ S1x256x256.size a
  inb_S1x256x256_S1x83x249_0_166_5 : ∀ a, (![0, 166, 5] : Fin 3 → Nat) a + S1x83x249.size a ≤ S1x256x256.size a
  inb_S1x256x256_S1x83x249_0_166_6 : ∀ a, (![0, 166, 6] : Fin 3 → Nat) a + S1x83x249.size a ≤ S1x256x256.size a
  inb_S1x256x256_S1x83x249_0_166_7 : ∀ a, (![0, 166, 7] : Fin 3 → Nat) a + S1x83x249.size a ≤ S1x256x256.size a
  inb_S1x256x256_S1x83x249_0_167_0 : ∀ a, (![0, 167, 0] : Fin 3 → Nat) a + S1x83x249.size a ≤ S1x256x256.size a
  inb_S1x256x256_S1x83x249_0_167_1 : ∀ a, (![0, 167, 1] : Fin 3 → Nat) a + S1x83x249.size a ≤ S1x256x256.size a
  inb_S1x256x256_S1x83x249_0_167_2 : ∀ a, (![0, 167, 2] : Fin 3 → Nat) a + S1x83x249.size a ≤ S1x256x256.size a
  inb_S1x256x256_S1x83x249_0_167_3 : ∀ a, (![0, 167, 3] : Fin 3 → Nat) a + S1x83x249.size a ≤ S1x256x256.size a
  inb_S1x256x256_S1x83x249_0_167_4 : ∀ a, (![0, 167, 4] : Fin 3 → Nat) a + S1x83x249.size a ≤ S1x256x256.size a
  inb_S1x256x256_S1x83x249_0_167_5 : ∀ a, (![0, 167, 5] : Fin 3 → Nat) a + S1x83x249.size a ≤ S1x256x256.size a
  inb_S1x256x256_S1x83x249_0_167_6 : ∀ a, (![0, 167, 6] : Fin 3 → Nat) a + S1x83x249.size a ≤ S1x256x256.size a
  inb_S1x256x256_S1x83x249_0_167_7 : ∀ a, (![0, 167, 7] : Fin 3 → Nat) a + S1x83x249.size a ≤ S1x256x256.size a
  inb_S1x256x256_S1x83x249_0_168_0 : ∀ a, (![0, 168, 0] : Fin 3 → Nat) a + S1x83x249.size a ≤ S1x256x256.size a
  inb_S1x256x256_S1x83x249_0_168_1 : ∀ a, (![0, 168, 1] : Fin 3 → Nat) a + S1x83x249.size a ≤ S1x256x256.size a
  inb_S1x256x256_S1x83x249_0_168_2 : ∀ a, (![0, 168, 2] : Fin 3 → Nat) a + S1x83x249.size a ≤ S1x256x256.size a
  inb_S1x256x256_S1x83x249_0_168_3 : ∀ a, (![0, 168, 3] : Fin 3 → Nat) a + S1x83x249.size a ≤ S1x256x256.size a
  inb_S1x256x256_S1x83x249_0_168_4 : ∀ a, (![0, 168, 4] : Fin 3 → Nat) a + S1x83x249.size a ≤ S1x256x256.size a
  inb_S1x256x256_S1x83x249_0_168_5 : ∀ a, (![0, 168, 5] : Fin 3 → Nat) a + S1x83x249.size a ≤ S1x256x256.size a
  inb_S1x256x256_S1x83x249_0_168_6 : ∀ a, (![0, 168, 6] : Fin 3 → Nat) a + S1x83x249.size a ≤ S1x256x256.size a
  inb_S1x256x256_S1x83x249_0_168_7 : ∀ a, (![0, 168, 7] : Fin 3 → Nat) a + S1x83x249.size a ≤ S1x256x256.size a
  inb_S1x256x256_S1x83x249_0_169_0 : ∀ a, (![0, 169, 0] : Fin 3 → Nat) a + S1x83x249.size a ≤ S1x256x256.size a
  inb_S1x256x256_S1x83x249_0_169_1 : ∀ a, (![0, 169, 1] : Fin 3 → Nat) a + S1x83x249.size a ≤ S1x256x256.size a
  inb_S1x256x256_S1x83x249_0_169_2 : ∀ a, (![0, 169, 2] : Fin 3 → Nat) a + S1x83x249.size a ≤ S1x256x256.size a
  inb_S1x256x256_S1x83x249_0_169_3 : ∀ a, (![0, 169, 3] : Fin 3 → Nat) a + S1x83x249.size a ≤ S1x256x256.size a
  inb_S1x256x256_S1x83x249_0_169_4 : ∀ a, (![0, 169, 4] : Fin 3 → Nat) a + S1x83x249.size a ≤ S1x256x256.size a
  inb_S1x256x256_S1x83x249_0_169_5 : ∀ a, (![0, 169, 5] : Fin 3 → Nat) a + S1x83x249.size a ≤ S1x256x256.size a
  inb_S1x256x256_S1x83x249_0_169_6 : ∀ a, (![0, 169, 6] : Fin 3 → Nat) a + S1x83x249.size a ≤ S1x256x256.size a
  inb_S1x256x256_S1x83x249_0_169_7 : ∀ a, (![0, 169, 7] : Fin 3 → Nat) a + S1x83x249.size a ≤ S1x256x256.size a
  inb_S1x256x256_S1x83x249_0_170_0 : ∀ a, (![0, 170, 0] : Fin 3 → Nat) a + S1x83x249.size a ≤ S1x256x256.size a
  inb_S1x256x256_S1x83x249_0_170_1 : ∀ a, (![0, 170, 1] : Fin 3 → Nat) a + S1x83x249.size a ≤ S1x256x256.size a
  inb_S1x256x256_S1x83x249_0_170_2 : ∀ a, (![0, 170, 2] : Fin 3 → Nat) a + S1x83x249.size a ≤ S1x256x256.size a
  inb_S1x256x256_S1x83x249_0_170_3 : ∀ a, (![0, 170, 3] : Fin 3 → Nat) a + S1x83x249.size a ≤ S1x256x256.size a
  inb_S1x256x256_S1x83x249_0_170_4 : ∀ a, (![0, 170, 4] : Fin 3 → Nat) a + S1x83x249.size a ≤ S1x256x256.size a
  inb_S1x256x256_S1x83x249_0_170_5 : ∀ a, (![0, 170, 5] : Fin 3 → Nat) a + S1x83x249.size a ≤ S1x256x256.size a
  inb_S1x256x256_S1x83x249_0_170_6 : ∀ a, (![0, 170, 6] : Fin 3 → Nat) a + S1x83x249.size a ≤ S1x256x256.size a
  inb_S1x256x256_S1x83x249_0_170_7 : ∀ a, (![0, 170, 7] : Fin 3 → Nat) a + S1x83x249.size a ≤ S1x256x256.size a
  inb_S1x256x256_S1x83x249_0_171_0 : ∀ a, (![0, 171, 0] : Fin 3 → Nat) a + S1x83x249.size a ≤ S1x256x256.size a
  inb_S1x256x256_S1x83x249_0_171_1 : ∀ a, (![0, 171, 1] : Fin 3 → Nat) a + S1x83x249.size a ≤ S1x256x256.size a
  inb_S1x256x256_S1x83x249_0_171_2 : ∀ a, (![0, 171, 2] : Fin 3 → Nat) a + S1x83x249.size a ≤ S1x256x256.size a
  inb_S1x256x256_S1x83x249_0_171_3 : ∀ a, (![0, 171, 3] : Fin 3 → Nat) a + S1x83x249.size a ≤ S1x256x256.size a
  inb_S1x256x256_S1x83x249_0_171_4 : ∀ a, (![0, 171, 4] : Fin 3 → Nat) a + S1x83x249.size a ≤ S1x256x256.size a
  inb_S1x256x256_S1x83x249_0_171_5 : ∀ a, (![0, 171, 5] : Fin 3 → Nat) a + S1x83x249.size a ≤ S1x256x256.size a
  inb_S1x256x256_S1x83x249_0_171_6 : ∀ a, (![0, 171, 6] : Fin 3 → Nat) a + S1x83x249.size a ≤ S1x256x256.size a
  inb_S1x256x256_S1x83x249_0_171_7 : ∀ a, (![0, 171, 7] : Fin 3 → Nat) a + S1x83x249.size a ≤ S1x256x256.size a
  inb_S1x256x256_S1x83x249_0_172_0 : ∀ a, (![0, 172, 0] : Fin 3 → Nat) a + S1x83x249.size a ≤ S1x256x256.size a
  inb_S1x256x256_S1x83x249_0_172_1 : ∀ a, (![0, 172, 1] : Fin 3 → Nat) a + S1x83x249.size a ≤ S1x256x256.size a
  inb_S1x256x256_S1x83x249_0_172_2 : ∀ a, (![0, 172, 2] : Fin 3 → Nat) a + S1x83x249.size a ≤ S1x256x256.size a
  inb_S1x256x256_S1x83x249_0_172_3 : ∀ a, (![0, 172, 3] : Fin 3 → Nat) a + S1x83x249.size a ≤ S1x256x256.size a
  inb_S1x256x256_S1x83x249_0_172_4 : ∀ a, (![0, 172, 4] : Fin 3 → Nat) a + S1x83x249.size a ≤ S1x256x256.size a
  inb_S1x256x256_S1x83x249_0_172_5 : ∀ a, (![0, 172, 5] : Fin 3 → Nat) a + S1x83x249.size a ≤ S1x256x256.size a
  inb_S1x256x256_S1x83x249_0_172_6 : ∀ a, (![0, 172, 6] : Fin 3 → Nat) a + S1x83x249.size a ≤ S1x256x256.size a
  inb_S1x256x256_S1x83x249_0_172_7 : ∀ a, (![0, 172, 7] : Fin 3 → Nat) a + S1x83x249.size a ≤ S1x256x256.size a
  inb_S1x256x256_S1x83x249_0_173_0 : ∀ a, (![0, 173, 0] : Fin 3 → Nat) a + S1x83x249.size a ≤ S1x256x256.size a
  inb_S1x256x256_S1x83x249_0_173_1 : ∀ a, (![0, 173, 1] : Fin 3 → Nat) a + S1x83x249.size a ≤ S1x256x256.size a
  inb_S1x256x256_S1x83x249_0_173_2 : ∀ a, (![0, 173, 2] : Fin 3 → Nat) a + S1x83x249.size a ≤ S1x256x256.size a
  inb_S1x256x256_S1x83x249_0_173_3 : ∀ a, (![0, 173, 3] : Fin 3 → Nat) a + S1x83x249.size a ≤ S1x256x256.size a
  inb_S1x256x256_S1x83x249_0_173_4 : ∀ a, (![0, 173, 4] : Fin 3 → Nat) a + S1x83x249.size a ≤ S1x256x256.size a
  inb_S1x256x256_S1x83x249_0_173_5 : ∀ a, (![0, 173, 5] : Fin 3 → Nat) a + S1x83x249.size a ≤ S1x256x256.size a
  inb_S1x256x256_S1x83x249_0_173_6 : ∀ a, (![0, 173, 6] : Fin 3 → Nat) a + S1x83x249.size a ≤ S1x256x256.size a
  inb_S1x256x256_S1x83x249_0_173_7 : ∀ a, (![0, 173, 7] : Fin 3 → Nat) a + S1x83x249.size a ≤ S1x256x256.size a
  shapeCasts_S256x256_S256x256 : S256x256.ShapeCasts S256x256
  shapeCasts_S16x256x256_S2x8x256x256 : S16x256x256.ShapeCasts S2x8x256x256
  scatter_S16x62001x64_S62001x1_S16x62001x64_02_1_1_1_wf : ScatterDims.WF S16x62001x64 S62001x1 S16x62001x64 [0, 2] [1] [1] 1
  scatter_S62001x64_S62001x1_S62001x64_1_0_0_1_wf : ScatterDims.WF S62001x64 S62001x1 S62001x64 [1] [0] [0] 1
  hcc0_scratch1 : 1 + S2.numel ≤ 8
  hcc1_scratch1 : 6 + S2.numel ≤ 8
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S256x256.size a ≤ S256x256.size a
  hwx0_0 : ∀ i : grid0.Coords, EltTy.bits .f32 = 32 ∨ (Rect.block (s := S256x256) S256x256.size (cc0_transform_1 i) (hinb0_0 i)).WholeWords (EltTy.packing .f32)
  hrank1 : 0 < grid1.rank
  k1_off1_inb : ∀ i : grid1.Coords, ∀ a, (k1_off1 i) a + S1x249x249x64.size a ≤ S16x249x249x64.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S256x256.size a ≤ S256x256.size a
  hwx1_0 : ∀ i : grid1.Coords, EltTy.bits .f32 = 32 ∨ (Rect.block (s := S256x256) S256x256.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x256x256.size a ≤ S16x256x256.size a
  hwx1_1 : ∀ i : grid1.Coords, EltTy.bits .f32 = 32 ∨ (Rect.block (s := S16x256x256) S1x256x256.size (cc1_transform_2 i) (hinb1_1 i)).WholeWords (EltTy.packing .f32)

variable [Facts₀]

abbrev cc0_scratch1 : DmaSems sig S2 := SemArray.consecutive 1 S2 hcc0_scratch1
abbrev cc1_scratch1 : DmaSems sig S2 := SemArray.consecutive 6 S2 hcc1_scratch1
def scatter_S16x62001x64_S62001x1_S16x62001x64_02_1_1_1 : ScatterDims S16x62001x64 S62001x1 S16x62001x64 where
  updateWindowDims := [0, 2]
  insertedWindowDims := [1]
  scatterDimsToOperandDims := [1]
  indexVectorDim := 1
  wf := scatter_S16x62001x64_S62001x1_S16x62001x64_02_1_1_1_wf
def scatter_S62001x64_S62001x1_S62001x64_1_0_0_1 : ScatterDims S62001x64 S62001x1 S62001x64 where
  updateWindowDims := [1]
  insertedWindowDims := [0]
  scatterDimsToOperandDims := [0]
  indexVectorDim := 1
  wf := scatter_S62001x64_S62001x1_S62001x64_1_0_0_1_wf

abbrev win0_0 : Pipeline.Window sig grid0 :=
  Pipeline.Window.ofSpec (Memref.whole main_v19) S256x256.size cc0_transform_1 reads0_0 true true 1 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev win1_0 : Pipeline.Window sig grid1 :=
  Pipeline.Window.ofSpec (Memref.whole main_v19) S256x256.size cc1_transform_1 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x256x256.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x62001x64 : Shape := ⟨3, ![16, 62001, 64]⟩
abbrev S62001 : Shape := ⟨1, ![62001]⟩
abbrev S_ : Shape := ⟨0, ![]⟩
abbrev S62001x1 : Shape := ⟨2, ![62001, 1]⟩
abbrev S16x249x249x8x8 : Shape := ⟨5, ![16, 249, 249, 8, 8]⟩
abbrev S16x256x256 : Shape := ⟨3, ![16, 256, 256]⟩
abbrev S16x249x249x1x1 : Shape := ⟨5, ![16, 249, 249, 1, 1]⟩
abbrev S16x249x249 : Shape := ⟨3, ![16, 249, 249]⟩
abbrev S1 : Shape := ⟨1, ![1]⟩
abbrev S2 : Shape := ⟨1, ![2]⟩
abbrev S62001x64 : Shape := ⟨2, ![62001, 64]⟩
abbrev S249x249x8x8 : Shape := ⟨4, ![249, 249, 8, 8]⟩
abbrev S256x256 : Shape := ⟨2, ![256, 256]⟩
abbrev S249x249x1x1 : Shape := ⟨4, ![249, 249, 1, 1]⟩
abbrev S249x249 : Shape := ⟨2, ![249, 249]⟩
abbrev S1x256x256 : Shape := ⟨3, ![1, 256, 256]⟩
abbrev S2x8x256x256 : Shape := ⟨4, ![2, 8, 256, 256]⟩

abbrev nBuf : Space → Nat
  | .hbm => 1060
  | .vmem => 0
  | .smem => 0
  | _ => 0

abbrev hbmTy0_0 (i : Nat) : BufTy := match i % 128 with
  | 0 => ⟨S16x62001x64, .f32⟩
  | 1 => ⟨S62001, .i32⟩
  | 2 => ⟨S_, .f32⟩
  | 3 => ⟨S16x62001x64, .f32⟩
  | 4 => ⟨S_, .i32⟩
  | 5 => ⟨S62001, .i32⟩
  | 6 => ⟨S62001, .i1⟩
  | 7 => ⟨S_, .i32⟩
  | 8 => ⟨S62001, .i32⟩
  | 9 => ⟨S62001, .i32⟩
  | 10 => ⟨S62001, .i32⟩
  | 11 => ⟨S62001x1, .i32⟩
  | 12 => ⟨S16x62001x64, .f32⟩
  | 13 => ⟨S16x249x249x8x8, .f32⟩
  | 14 => ⟨S_, .f32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_1 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_2 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_3 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S16x249x249x1x1, .f32⟩
  | 17 => ⟨S16x249x249, .f32⟩
  | 18 => ⟨S_, .i32⟩
  | 19 => ⟨S1, .i32⟩
  | 20 => ⟨S_, .i32⟩
  | 21 => ⟨S1, .i32⟩
  | 22 => ⟨S2, .i32⟩
  | 23 => ⟨S16x256x256, .f32⟩
  | 24 => ⟨S16x249x249x1x1, .f32⟩
  | 25 => ⟨S16x249x249, .f32⟩
  | 26 => ⟨S_, .i32⟩
  | 27 => ⟨S1, .i32⟩
  | 28 => ⟨S_, .i32⟩
  | 29 => ⟨S1, .i32⟩
  | 30 => ⟨S2, .i32⟩
  | 31 => ⟨S16x256x256, .f32⟩
  | 32 => ⟨S16x249x249x1x1, .f32⟩
  | 33 => ⟨S16x249x249, .f32⟩
  | 34 => ⟨S_, .i32⟩
  | 35 => ⟨S1, .i32⟩
  | 36 => ⟨S_, .i32⟩
  | 37 => ⟨S1, .i32⟩
  | 38 => ⟨S2, .i32⟩
  | 39 => ⟨S16x256x256, .f32⟩
  | 40 => ⟨S16x249x249x1x1, .f32⟩
  | 41 => ⟨S16x249x249, .f32⟩
  | 42 => ⟨S_, .i32⟩
  | 43 => ⟨S1, .i32⟩
  | 44 => ⟨S_, .i32⟩
  | 45 => ⟨S1, .i32⟩
  | 46 => ⟨S2, .i32⟩
  | 47 => ⟨S16x256x256, .f32⟩
  | 48 => ⟨S16x249x249x1x1, .f32⟩
  | 49 => ⟨S16x249x249, .f32⟩
  | 50 => ⟨S_, .i32⟩
  | 51 => ⟨S1, .i32⟩
  | 52 => ⟨S_, .i32⟩
  | 53 => ⟨S1, .i32⟩
  | 54 => ⟨S2, .i32⟩
  | 55 => ⟨S16x256x256, .f32⟩
  | 56 => ⟨S16x249x249x1x1, .f32⟩
  | 57 => ⟨S16x249x249, .f32⟩
  | 58 => ⟨S_, .i32⟩
  | 59 => ⟨S1, .i32⟩
  | 60 => ⟨S_, .i32⟩
  | 61 => ⟨S1, .i32⟩
  | 62 => ⟨S2, .i32⟩
  | 63 => ⟨S16x256x256, .f32⟩
  | 64 => ⟨S16x249x249x1x1, .f32⟩
  | 65 => ⟨S16x249x249, .f32⟩
  | 66 => ⟨S_, .i32⟩
  | 67 => ⟨S1, .i32⟩
  | 68 => ⟨S_, .i32⟩
  | 69 => ⟨S1, .i32⟩
  | 70 => ⟨S2, .i32⟩
  | 71 => ⟨S16x256x256, .f32⟩
  | 72 => ⟨S16x249x249x1x1, .f32⟩
  | 73 => ⟨S16x249x249, .f32⟩
  | 74 => ⟨S_, .i32⟩
  | 75 => ⟨S1, .i32⟩
  | 76 => ⟨S_, .i32⟩
  | 77 => ⟨S1, .i32⟩
  | 78 => ⟨S2, .i32⟩
  | 79 => ⟨S16x256x256, .f32⟩
  | 80 => ⟨S16x249x249x1x1, .f32⟩
  | 81 => ⟨S16x249x249, .f32⟩
  | 82 => ⟨S_, .i32⟩
  | 83 => ⟨S1, .i32⟩
  | 84 => ⟨S_, .i32⟩
  | 85 => ⟨S1, .i32⟩
  | 86 => ⟨S2, .i32⟩
  | 87 => ⟨S16x256x256, .f32⟩
  | 88 => ⟨S16x249x249x1x1, .f32⟩
  | 89 => ⟨S16x249x249, .f32⟩
  | 90 => ⟨S_, .i32⟩
  | 91 => ⟨S1, .i32⟩
  | 92 => ⟨S_, .i32⟩
  | 93 => ⟨S1, .i32⟩
  | 94 => ⟨S2, .i32⟩
  | 95 => ⟨S16x256x256, .f32⟩
  | 96 => ⟨S16x249x249x1x1, .f32⟩
  | 97 => ⟨S16x249x249, .f32⟩
  | 98 => ⟨S_, .i32⟩
  | 99 => ⟨S1, .i32⟩
  | 100 => ⟨S_, .i32⟩
  | 101 => ⟨S1, .i32⟩
  | 102 => ⟨S2, .i32⟩
  | 103 => ⟨S16x256x256, .f32⟩
  | 104 => ⟨S16x249x249x1x1, .f32⟩
  | 105 => ⟨S16x249x249, .f32⟩
  | 106 => ⟨S_, .i32⟩
  | 107 => ⟨S1, .i32⟩
  | 108 => ⟨S_, .i32⟩
  | 109 => ⟨S1, .i32⟩
  | 110 => ⟨S2, .i32⟩
  | 111 => ⟨S16x256x256, .f32⟩
  | 112 => ⟨S16x249x249x1x1, .f32⟩
  | 113 => ⟨S16x249x249, .f32⟩
  | 114 => ⟨S_, .i32⟩
  | 115 => ⟨S1, .i32⟩
  | 116 => ⟨S_, .i32⟩
  | 117 => ⟨S1, .i32⟩
  | 118 => ⟨S2, .i32⟩
  | 119 => ⟨S16x256x256, .f32⟩
  | 120 => ⟨S16x249x249x1x1, .f32⟩
  | 121 => ⟨S16x249x249, .f32⟩
  | 122 => ⟨S_, .i32⟩
  | 123 => ⟨S1, .i32⟩
  | 124 => ⟨S_, .i32⟩
  | 125 => ⟨S1, .i32⟩
  | 126 => ⟨S2, .i32⟩
  | 127 => ⟨S16x256x256, .f32⟩
  | _ => ⟨S16x62001x64, .f32⟩

abbrev hbmTy0_4 (i : Nat) : BufTy := match i % 128 with
  | 0 => ⟨S16x249x249x1x1, .f32⟩
  | 1 => ⟨S16x249x249, .f32⟩
  | 2 => ⟨S_, .i32⟩
  | 3 => ⟨S1, .i32⟩
  | 4 => ⟨S_, .i32⟩
  | 5 => ⟨S1, .i32⟩
  | 6 => ⟨S2, .i32⟩
  | 7 => ⟨S16x256x256, .f32⟩
  | 8 => ⟨S16x249x249x1x1, .f32⟩
  | 9 => ⟨S16x249x249, .f32⟩
  | 10 => ⟨S_, .i32⟩
  | 11 => ⟨S1, .i32⟩
  | 12 => ⟨S_, .i32⟩
  | 13 => ⟨S1, .i32⟩
  | 14 => ⟨S2, .i32⟩
  | 15 => ⟨S16x256x256, .f32⟩
  | 16 => ⟨S_, .f32⟩
  | 17 => ⟨S62001x64, .f32⟩
  | 18 => ⟨S_, .i32⟩
  | 19 => ⟨S62001, .i32⟩
  | 20 => ⟨S62001, .i1⟩
  | 21 => ⟨S_, .i32⟩
  | 22 => ⟨S62001, .i32⟩
  | 23 => ⟨S62001, .i32⟩
  | 24 => ⟨S62001, .i32⟩
  | 25 => ⟨S62001x1, .i32⟩
  | 26 => ⟨S_, .f32⟩
  | 27 => ⟨S62001x64, .f32⟩
  | 28 => ⟨S62001x64, .f32⟩
  | 29 => ⟨S249x249x8x8, .f32⟩
  | 30 => ⟨S_, .f32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_5 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_6 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_7 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S249x249x1x1, .f32⟩
  | 33 => ⟨S249x249, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S249x249x1x1, .f32⟩
  | 41 => ⟨S249x249, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S249x249x1x1, .f32⟩
  | 49 => ⟨S249x249, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S249x249x1x1, .f32⟩
  | 57 => ⟨S249x249, .f32⟩
  | 58 => ⟨S_, .i32⟩
  | 59 => ⟨S1, .i32⟩
  | 60 => ⟨S_, .i32⟩
  | 61 => ⟨S1, .i32⟩
  | 62 => ⟨S2, .i32⟩
  | 63 => ⟨S256x256, .f32⟩
  | 64 => ⟨S249x249x1x1, .f32⟩
  | 65 => ⟨S249x249, .f32⟩
  | 66 => ⟨S_, .i32⟩
  | 67 => ⟨S1, .i32⟩
  | 68 => ⟨S_, .i32⟩
  | 69 => ⟨S1, .i32⟩
  | 70 => ⟨S2, .i32⟩
  | 71 => ⟨S256x256, .f32⟩
  | 72 => ⟨S249x249x1x1, .f32⟩
  | 73 => ⟨S249x249, .f32⟩
  | 74 => ⟨S_, .i32⟩
  | 75 => ⟨S1, .i32⟩
  | 76 => ⟨S_, .i32⟩
  | 77 => ⟨S1, .i32⟩
  | 78 => ⟨S2, .i32⟩
  | 79 => ⟨S256x256, .f32⟩
  | 80 => ⟨S249x249x1x1, .f32⟩
  | 81 => ⟨S249x249, .f32⟩
  | 82 => ⟨S_, .i32⟩
  | 83 => ⟨S1, .i32⟩
  | 84 => ⟨S_, .i32⟩
  | 85 => ⟨S1, .i32⟩
  | 86 => ⟨S2, .i32⟩
  | 87 => ⟨S256x256, .f32⟩
  | 88 => ⟨S249x249x1x1, .f32⟩
  | 89 => ⟨S249x249, .f32⟩
  | 90 => ⟨S_, .i32⟩
  | 91 => ⟨S1, .i32⟩
  | 92 => ⟨S_, .i32⟩
  | 93 => ⟨S1, .i32⟩
  | 94 => ⟨S2, .i32⟩
  | 95 => ⟨S256x256, .f32⟩
  | 96 => ⟨S249x249x1x1, .f32⟩
  | 97 => ⟨S249x249, .f32⟩
  | 98 => ⟨S_, .i32⟩
  | 99 => ⟨S1, .i32⟩
  | 100 => ⟨S_, .i32⟩
  | 101 => ⟨S1, .i32⟩
  | 102 => ⟨S2, .i32⟩
  | 103 => ⟨S256x256, .f32⟩
  | 104 => ⟨S249x249x1x1, .f32⟩
  | 105 => ⟨S249x249, .f32⟩
  | 106 => ⟨S_, .i32⟩
  | 107 => ⟨S1, .i32⟩
  | 108 => ⟨S_, .i32⟩
  | 109 => ⟨S1, .i32⟩
  | 110 => ⟨S2, .i32⟩
  | 111 => ⟨S256x256, .f32⟩
  | 112 => ⟨S249x249x1x1, .f32⟩
  | 113 => ⟨S249x249, .f32⟩
  | 114 => ⟨S_, .i32⟩
  | 115 => ⟨S1, .i32⟩
  | 116 => ⟨S_, .i32⟩
  | 117 => ⟨S1, .i32⟩
  | 118 => ⟨S2, .i32⟩
  | 119 => ⟨S256x256, .f32⟩
  | 120 => ⟨S249x249x1x1, .f32⟩
  | 121 => ⟨S249x249, .f32⟩
  | 122 => ⟨S_, .i32⟩
  | 123 => ⟨S1, .i32⟩
  | 124 => ⟨S_, .i32⟩
  | 125 => ⟨S1, .i32⟩
  | 126 => ⟨S2, .i32⟩
  | 127 => ⟨S256x256, .f32⟩
  | _ => ⟨S16x62001x64, .f32⟩

abbrev hbmTy0_8 (i : Nat) : BufTy := match i % 128 with
  | 0 => ⟨S249x249x1x1, .f32⟩
  | 1 => ⟨S249x249, .f32⟩
  | 2 => ⟨S_, .i32⟩
  | 3 => ⟨S1, .i32⟩
  | 4 => ⟨S_, .i32⟩
  | 5 => ⟨S1, .i32⟩
  | 6 => ⟨S2, .i32⟩
  | 7 => ⟨S256x256, .f32⟩
  | 8 => ⟨S249x249x1x1, .f32⟩
  | 9 => ⟨S249x249, .f32⟩
  | 10 => ⟨S_, .i32⟩
  | 11 => ⟨S1, .i32⟩
  | 12 => ⟨S_, .i32⟩
  | 13 => ⟨S1, .i32⟩
  | 14 => ⟨S2, .i32⟩
  | 15 => ⟨S256x256, .f32⟩
  | 16 => ⟨S249x249x1x1, .f32⟩
  | 17 => ⟨S249x249, .f32⟩
  | 18 => ⟨S_, .i32⟩
  | 19 => ⟨S1, .i32⟩
  | 20 => ⟨S_, .i32⟩
  | 21 => ⟨S1, .i32⟩
  | 22 => ⟨S2, .i32⟩
  | 23 => ⟨S256x256, .f32⟩
  | 24 => ⟨S249x249x1x1, .f32⟩
  | 25 => ⟨S249x249, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S1x256x256, .f32⟩
  | 33 => ⟨S16x256x256, .f32⟩
  | 34 => ⟨S16x256x256, .f32⟩
  | 35 => ⟨S2x8x256x256, .f32⟩
  | _ => ⟨S16x62001x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x62001x64, .f32⟩

abbrev bufTy : (tb : Table) → Fin (tcTables nBuf tb) → BufTy
  | .hbm, ⟨i, _⟩ => hbmTy i
  | _, _ => ⟨S16x62001x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_c_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_12 : Ref sig .tc := ⟨.hbm, 58, rfl⟩
abbrev main_v42 : Ref sig .tc := ⟨.hbm, 59, rfl⟩
abbrev main_c_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_14 : Ref sig .tc := ⟨.hbm, 66, rfl⟩
abbrev main_v48 : Ref sig .tc := ⟨.hbm, 67, rfl⟩
abbrev main_c_15 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_16 : Ref sig .tc := ⟨.hbm, 74, rfl⟩
abbrev main_v54 : Ref sig .tc := ⟨.hbm, 75, rfl⟩
abbrev main_c_17 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_18 : Ref sig .tc := ⟨.hbm, 82, rfl⟩
abbrev main_v60 : Ref sig .tc := ⟨.hbm, 83, rfl⟩
abbrev main_c_19 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_20 : Ref sig .tc := ⟨.hbm, 90, rfl⟩
abbrev main_v66 : Ref sig .tc := ⟨.hbm, 91, rfl⟩
abbrev main_c_21 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_22 : Ref sig .tc := ⟨.hbm, 98, rfl⟩
abbrev main_v72 : Ref sig .tc := ⟨.hbm, 99, rfl⟩
abbrev main_c_23 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_24 : Ref sig .tc := ⟨.hbm, 106, rfl⟩
abbrev main_v78 : Ref sig .tc := ⟨.hbm, 107, rfl⟩
abbrev main_c_25 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_26 : Ref sig .tc := ⟨.hbm, 114, rfl⟩
abbrev main_v84 : Ref sig .tc := ⟨.hbm, 115, rfl⟩
abbrev main_c_27 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_28 : Ref sig .tc := ⟨.hbm, 122, rfl⟩
abbrev main_v90 : Ref sig .tc := ⟨.hbm, 123, rfl⟩
abbrev main_c_29 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_30 : Ref sig .tc := ⟨.hbm, 130, rfl⟩
abbrev main_v96 : Ref sig .tc := ⟨.hbm, 131, rfl⟩
abbrev main_c_31 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_32 : Ref sig .tc := ⟨.hbm, 138, rfl⟩
abbrev main_v102 : Ref sig .tc := ⟨.hbm, 139, rfl⟩
abbrev main_c_33 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_34 : Ref sig .tc := ⟨.hbm, 146, rfl⟩
abbrev main_v108 : Ref sig .tc := ⟨.hbm, 147, rfl⟩
abbrev main_c_35 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_36 : Ref sig .tc := ⟨.hbm, 154, rfl⟩
abbrev main_v114 : Ref sig .tc := ⟨.hbm, 155, rfl⟩
abbrev main_c_37 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_38 : Ref sig .tc := ⟨.hbm, 162, rfl⟩
abbrev main_v120 : Ref sig .tc := ⟨.hbm, 163, rfl⟩
abbrev main_c_39 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_40 : Ref sig .tc := ⟨.hbm, 170, rfl⟩
abbrev main_v126 : Ref sig .tc := ⟨.hbm, 171, rfl⟩
abbrev main_c_41 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_42 : Ref sig .tc := ⟨.hbm, 178, rfl⟩
abbrev main_v132 : Ref sig .tc := ⟨.hbm, 179, rfl⟩
abbrev main_c_43 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_44 : Ref sig .tc := ⟨.hbm, 186, rfl⟩
abbrev main_v138 : Ref sig .tc := ⟨.hbm, 187, rfl⟩
abbrev main_c_45 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_c_46 : Ref sig .tc := ⟨.hbm, 194, rfl⟩
abbrev main_v144 : Ref sig .tc := ⟨.hbm, 195, rfl⟩
abbrev main_c_47 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_48 : Ref sig .tc := ⟨.hbm, 202, rfl⟩
abbrev main_v150 : Ref sig .tc := ⟨.hbm, 203, rfl⟩
abbrev main_c_49 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_c_50 : Ref sig .tc := ⟨.hbm, 210, rfl⟩
abbrev main_v156 : Ref sig .tc := ⟨.hbm, 211, rfl⟩
abbrev main_c_51 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_c_52 : Ref sig .tc := ⟨.hbm, 218, rfl⟩
abbrev main_v162 : Ref sig .tc := ⟨.hbm, 219, rfl⟩
abbrev main_c_53 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_54 : Ref sig .tc := ⟨.hbm, 226, rfl⟩
abbrev main_v168 : Ref sig .tc := ⟨.hbm, 227, rfl⟩
abbrev main_c_55 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_c_57 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_c_58 : Ref sig .tc := ⟨.hbm, 242, rfl⟩
abbrev main_v180 : Ref sig .tc := ⟨.hbm, 243, rfl⟩
abbrev main_c_59 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_c_60 : Ref sig .tc := ⟨.hbm, 250, rfl⟩
abbrev main_v186 : Ref sig .tc := ⟨.hbm, 251, rfl⟩
abbrev main_c_61 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_c_62 : Ref sig .tc := ⟨.hbm, 258, rfl⟩
abbrev main_v192 : Ref sig .tc := ⟨.hbm, 259, rfl⟩
abbrev main_c_63 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_c_64 : Ref sig .tc := ⟨.hbm, 266, rfl⟩
abbrev main_v198 : Ref sig .tc := ⟨.hbm, 267, rfl⟩
abbrev main_c_65 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_c_66 : Ref sig .tc := ⟨.hbm, 274, rfl⟩
abbrev main_v204 : Ref sig .tc := ⟨.hbm, 275, rfl⟩
abbrev main_c_67 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_c_68 : Ref sig .tc := ⟨.hbm, 282, rfl⟩
abbrev main_v210 : Ref sig .tc := ⟨.hbm, 283, rfl⟩
abbrev main_c_69 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_c_70 : Ref sig .tc := ⟨.hbm, 290, rfl⟩
abbrev main_v216 : Ref sig .tc := ⟨.hbm, 291, rfl⟩
abbrev main_c_71 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_c_72 : Ref sig .tc := ⟨.hbm, 298, rfl⟩
abbrev main_v222 : Ref sig .tc := ⟨.hbm, 299, rfl⟩
abbrev main_c_73 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_c_74 : Ref sig .tc := ⟨.hbm, 306, rfl⟩
abbrev main_v228 : Ref sig .tc := ⟨.hbm, 307, rfl⟩
abbrev main_c_75 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_c_76 : Ref sig .tc := ⟨.hbm, 314, rfl⟩
abbrev main_v234 : Ref sig .tc := ⟨.hbm, 315, rfl⟩
abbrev main_c_77 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_c_78 : Ref sig .tc := ⟨.hbm, 322, rfl⟩
abbrev main_v240 : Ref sig .tc := ⟨.hbm, 323, rfl⟩
abbrev main_c_79 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_c_80 : Ref sig .tc := ⟨.hbm, 330, rfl⟩
abbrev main_v246 : Ref sig .tc := ⟨.hbm, 331, rfl⟩
abbrev main_c_81 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_c_82 : Ref sig .tc := ⟨.hbm, 338, rfl⟩
abbrev main_v252 : Ref sig .tc := ⟨.hbm, 339, rfl⟩
abbrev main_c_83 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_c_84 : Ref sig .tc := ⟨.hbm, 346, rfl⟩
abbrev main_v258 : Ref sig .tc := ⟨.hbm, 347, rfl⟩
abbrev main_c_85 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_c_86 : Ref sig .tc := ⟨.hbm, 354, rfl⟩
abbrev main_v264 : Ref sig .tc := ⟨.hbm, 355, rfl⟩
abbrev main_c_87 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_c_88 : Ref sig .tc := ⟨.hbm, 362, rfl⟩
abbrev main_v270 : Ref sig .tc := ⟨.hbm, 363, rfl⟩
abbrev main_c_89 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_c_90 : Ref sig .tc := ⟨.hbm, 370, rfl⟩
abbrev main_v276 : Ref sig .tc := ⟨.hbm, 371, rfl⟩
abbrev main_c_91 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_c_92 : Ref sig .tc := ⟨.hbm, 378, rfl⟩
abbrev main_v282 : Ref sig .tc := ⟨.hbm, 379, rfl⟩
abbrev main_c_93 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_c_94 : Ref sig .tc := ⟨.hbm, 386, rfl⟩
abbrev main_v288 : Ref sig .tc := ⟨.hbm, 387, rfl⟩
abbrev main_c_95 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_c_96 : Ref sig .tc := ⟨.hbm, 394, rfl⟩
abbrev main_v294 : Ref sig .tc := ⟨.hbm, 395, rfl⟩
abbrev main_c_97 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_c_98 : Ref sig .tc := ⟨.hbm, 402, rfl⟩
abbrev main_v300 : Ref sig .tc := ⟨.hbm, 403, rfl⟩
abbrev main_c_99 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_c_100 : Ref sig .tc := ⟨.hbm, 410, rfl⟩
abbrev main_v306 : Ref sig .tc := ⟨.hbm, 411, rfl⟩
abbrev main_c_101 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_c_102 : Ref sig .tc := ⟨.hbm, 418, rfl⟩
abbrev main_v312 : Ref sig .tc := ⟨.hbm, 419, rfl⟩
abbrev main_c_103 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_c_104 : Ref sig .tc := ⟨.hbm, 426, rfl⟩
abbrev main_v318 : Ref sig .tc := ⟨.hbm, 427, rfl⟩
abbrev main_c_105 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_c_106 : Ref sig .tc := ⟨.hbm, 434, rfl⟩
abbrev main_v324 : Ref sig .tc := ⟨.hbm, 435, rfl⟩
abbrev main_c_107 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_c_108 : Ref sig .tc := ⟨.hbm, 442, rfl⟩
abbrev main_v330 : Ref sig .tc := ⟨.hbm, 443, rfl⟩
abbrev main_c_109 : Ref sig .tc := ⟨.hbm, 444, rfl⟩
abbrev main_v331 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_c_110 : Ref sig .tc := ⟨.hbm, 450, rfl⟩
abbrev main_v336 : Ref sig .tc := ⟨.hbm, 451, rfl⟩
abbrev main_c_111 : Ref sig .tc := ⟨.hbm, 452, rfl⟩
abbrev main_v337 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_c_112 : Ref sig .tc := ⟨.hbm, 458, rfl⟩
abbrev main_v342 : Ref sig .tc := ⟨.hbm, 459, rfl⟩
abbrev main_c_113 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_c_114 : Ref sig .tc := ⟨.hbm, 466, rfl⟩
abbrev main_v348 : Ref sig .tc := ⟨.hbm, 467, rfl⟩
abbrev main_c_115 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_c_116 : Ref sig .tc := ⟨.hbm, 474, rfl⟩
abbrev main_v354 : Ref sig .tc := ⟨.hbm, 475, rfl⟩
abbrev main_c_117 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_c_118 : Ref sig .tc := ⟨.hbm, 482, rfl⟩
abbrev main_v360 : Ref sig .tc := ⟨.hbm, 483, rfl⟩
abbrev main_c_119 : Ref sig .tc := ⟨.hbm, 484, rfl⟩
abbrev main_v361 : Ref sig .tc := ⟨.hbm, 485, rfl⟩
abbrev main_v362 : Ref sig .tc := ⟨.hbm, 486, rfl⟩
abbrev main_v363 : Ref sig .tc := ⟨.hbm, 487, rfl⟩
abbrev main_v364 : Ref sig .tc := ⟨.hbm, 488, rfl⟩
abbrev main_v365 : Ref sig .tc := ⟨.hbm, 489, rfl⟩
abbrev main_c_120 : Ref sig .tc := ⟨.hbm, 490, rfl⟩
abbrev main_v366 : Ref sig .tc := ⟨.hbm, 491, rfl⟩
abbrev main_c_121 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_c_122 : Ref sig .tc := ⟨.hbm, 498, rfl⟩
abbrev main_v372 : Ref sig .tc := ⟨.hbm, 499, rfl⟩
abbrev main_c_123 : Ref sig .tc := ⟨.hbm, 500, rfl⟩
abbrev main_v373 : Ref sig .tc := ⟨.hbm, 501, rfl⟩
abbrev main_v374 : Ref sig .tc := ⟨.hbm, 502, rfl⟩
abbrev main_v375 : Ref sig .tc := ⟨.hbm, 503, rfl⟩
abbrev main_v376 : Ref sig .tc := ⟨.hbm, 504, rfl⟩
abbrev main_v377 : Ref sig .tc := ⟨.hbm, 505, rfl⟩
abbrev main_c_124 : Ref sig .tc := ⟨.hbm, 506, rfl⟩
abbrev main_v378 : Ref sig .tc := ⟨.hbm, 507, rfl⟩
abbrev main_c_125 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_c_126 : Ref sig .tc := ⟨.hbm, 514, rfl⟩
abbrev main_v384 : Ref sig .tc := ⟨.hbm, 515, rfl⟩
abbrev main_c_127 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_v388 : Ref sig .tc := ⟨.hbm, 520, rfl⟩
abbrev main_v389 : Ref sig .tc := ⟨.hbm, 521, rfl⟩
abbrev main_c_128 : Ref sig .tc := ⟨.hbm, 522, rfl⟩
abbrev main_v390 : Ref sig .tc := ⟨.hbm, 523, rfl⟩
abbrev main_c_129 : Ref sig .tc := ⟨.hbm, 524, rfl⟩
abbrev main_v391 : Ref sig .tc := ⟨.hbm, 525, rfl⟩
abbrev main_v392 : Ref sig .tc := ⟨.hbm, 526, rfl⟩
abbrev main_v393 : Ref sig .tc := ⟨.hbm, 527, rfl⟩
abbrev main_cst_130 : Ref sig .tc := ⟨.hbm, 528, rfl⟩
abbrev main_v394 : Ref sig .tc := ⟨.hbm, 529, rfl⟩
abbrev main_c_131 : Ref sig .tc := ⟨.hbm, 530, rfl⟩
abbrev main_v395 : Ref sig .tc := ⟨.hbm, 531, rfl⟩
abbrev main_v396 : Ref sig .tc := ⟨.hbm, 532, rfl⟩
abbrev main_c_132 : Ref sig .tc := ⟨.hbm, 533, rfl⟩
abbrev main_v397 : Ref sig .tc := ⟨.hbm, 534, rfl⟩
abbrev main_v398 : Ref sig .tc := ⟨.hbm, 535, rfl⟩
abbrev main_v399 : Ref sig .tc := ⟨.hbm, 536, rfl⟩
abbrev main_v400 : Ref sig .tc := ⟨.hbm, 537, rfl⟩
abbrev main_cst_133 : Ref sig .tc := ⟨.hbm, 538, rfl⟩
abbrev main_v401 : Ref sig .tc := ⟨.hbm, 539, rfl⟩
abbrev main_v402 : Ref sig .tc := ⟨.hbm, 540, rfl⟩
abbrev main_v403 : Ref sig .tc := ⟨.hbm, 541, rfl⟩
abbrev main_cst_134 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_c_135 : Ref sig .tc := ⟨.hbm, 546, rfl⟩
abbrev main_v407 : Ref sig .tc := ⟨.hbm, 547, rfl⟩
abbrev main_c_136 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_c_137 : Ref sig .tc := ⟨.hbm, 554, rfl⟩
abbrev main_v413 : Ref sig .tc := ⟨.hbm, 555, rfl⟩
abbrev main_c_138 : Ref sig .tc := ⟨.hbm, 556, rfl⟩
abbrev main_v414 : Ref sig .tc := ⟨.hbm, 557, rfl⟩
abbrev main_v415 : Ref sig .tc := ⟨.hbm, 558, rfl⟩
abbrev main_v416 : Ref sig .tc := ⟨.hbm, 559, rfl⟩
abbrev main_v417 : Ref sig .tc := ⟨.hbm, 560, rfl⟩
abbrev main_v418 : Ref sig .tc := ⟨.hbm, 561, rfl⟩
abbrev main_c_139 : Ref sig .tc := ⟨.hbm, 562, rfl⟩
abbrev main_v419 : Ref sig .tc := ⟨.hbm, 563, rfl⟩
abbrev main_c_140 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_v423 : Ref sig .tc := ⟨.hbm, 568, rfl⟩
abbrev main_v424 : Ref sig .tc := ⟨.hbm, 569, rfl⟩
abbrev main_c_141 : Ref sig .tc := ⟨.hbm, 570, rfl⟩
abbrev main_v425 : Ref sig .tc := ⟨.hbm, 571, rfl⟩
abbrev main_c_142 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_v429 : Ref sig .tc := ⟨.hbm, 576, rfl⟩
abbrev main_v430 : Ref sig .tc := ⟨.hbm, 577, rfl⟩
abbrev main_c_143 : Ref sig .tc := ⟨.hbm, 578, rfl⟩
abbrev main_v431 : Ref sig .tc := ⟨.hbm, 579, rfl⟩
abbrev main_c_144 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_v436 : Ref sig .tc := ⟨.hbm, 585, rfl⟩
abbrev main_c_145 : Ref sig .tc := ⟨.hbm, 586, rfl⟩
abbrev main_v437 : Ref sig .tc := ⟨.hbm, 587, rfl⟩
abbrev main_c_146 : Ref sig .tc := ⟨.hbm, 588, rfl⟩
abbrev main_v438 : Ref sig .tc := ⟨.hbm, 589, rfl⟩
abbrev main_v439 : Ref sig .tc := ⟨.hbm, 590, rfl⟩
abbrev main_v440 : Ref sig .tc := ⟨.hbm, 591, rfl⟩
abbrev main_v441 : Ref sig .tc := ⟨.hbm, 592, rfl⟩
abbrev main_v442 : Ref sig .tc := ⟨.hbm, 593, rfl⟩
abbrev main_c_147 : Ref sig .tc := ⟨.hbm, 594, rfl⟩
abbrev main_v443 : Ref sig .tc := ⟨.hbm, 595, rfl⟩
abbrev main_c_148 : Ref sig .tc := ⟨.hbm, 596, rfl⟩
abbrev main_v444 : Ref sig .tc := ⟨.hbm, 597, rfl⟩
abbrev main_v445 : Ref sig .tc := ⟨.hbm, 598, rfl⟩
abbrev main_v446 : Ref sig .tc := ⟨.hbm, 599, rfl⟩
abbrev main_v447 : Ref sig .tc := ⟨.hbm, 600, rfl⟩
abbrev main_v448 : Ref sig .tc := ⟨.hbm, 601, rfl⟩
abbrev main_c_149 : Ref sig .tc := ⟨.hbm, 602, rfl⟩
abbrev main_v449 : Ref sig .tc := ⟨.hbm, 603, rfl⟩
abbrev main_c_150 : Ref sig .tc := ⟨.hbm, 604, rfl⟩
abbrev main_v450 : Ref sig .tc := ⟨.hbm, 605, rfl⟩
abbrev main_v451 : Ref sig .tc := ⟨.hbm, 606, rfl⟩
abbrev main_v452 : Ref sig .tc := ⟨.hbm, 607, rfl⟩
abbrev main_v453 : Ref sig .tc := ⟨.hbm, 608, rfl⟩
abbrev main_v454 : Ref sig .tc := ⟨.hbm, 609, rfl⟩
abbrev main_c_151 : Ref sig .tc := ⟨.hbm, 610, rfl⟩
abbrev main_v455 : Ref sig .tc := ⟨.hbm, 611, rfl⟩
abbrev main_c_152 : Ref sig .tc := ⟨.hbm, 612, rfl⟩
abbrev main_v456 : Ref sig .tc := ⟨.hbm, 613, rfl⟩
abbrev main_v457 : Ref sig .tc := ⟨.hbm, 614, rfl⟩
abbrev main_v458 : Ref sig .tc := ⟨.hbm, 615, rfl⟩
abbrev main_v459 : Ref sig .tc := ⟨.hbm, 616, rfl⟩
abbrev main_v460 : Ref sig .tc := ⟨.hbm, 617, rfl⟩
abbrev main_c_153 : Ref sig .tc := ⟨.hbm, 618, rfl⟩
abbrev main_v461 : Ref sig .tc := ⟨.hbm, 619, rfl⟩
abbrev main_c_154 : Ref sig .tc := ⟨.hbm, 620, rfl⟩
abbrev main_v462 : Ref sig .tc := ⟨.hbm, 621, rfl⟩
abbrev main_v463 : Ref sig .tc := ⟨.hbm, 622, rfl⟩
abbrev main_v464 : Ref sig .tc := ⟨.hbm, 623, rfl⟩
abbrev main_v465 : Ref sig .tc := ⟨.hbm, 624, rfl⟩
abbrev main_v466 : Ref sig .tc := ⟨.hbm, 625, rfl⟩
abbrev main_c_155 : Ref sig .tc := ⟨.hbm, 626, rfl⟩
abbrev main_v467 : Ref sig .tc := ⟨.hbm, 627, rfl⟩
abbrev main_c_156 : Ref sig .tc := ⟨.hbm, 628, rfl⟩
abbrev main_v468 : Ref sig .tc := ⟨.hbm, 629, rfl⟩
abbrev main_v469 : Ref sig .tc := ⟨.hbm, 630, rfl⟩
abbrev main_v470 : Ref sig .tc := ⟨.hbm, 631, rfl⟩
abbrev main_v471 : Ref sig .tc := ⟨.hbm, 632, rfl⟩
abbrev main_v472 : Ref sig .tc := ⟨.hbm, 633, rfl⟩
abbrev main_c_157 : Ref sig .tc := ⟨.hbm, 634, rfl⟩
abbrev main_v473 : Ref sig .tc := ⟨.hbm, 635, rfl⟩
abbrev main_c_158 : Ref sig .tc := ⟨.hbm, 636, rfl⟩
abbrev main_v474 : Ref sig .tc := ⟨.hbm, 637, rfl⟩
abbrev main_v475 : Ref sig .tc := ⟨.hbm, 638, rfl⟩
abbrev main_v476 : Ref sig .tc := ⟨.hbm, 639, rfl⟩
abbrev main_v477 : Ref sig .tc := ⟨.hbm, 640, rfl⟩
abbrev main_v478 : Ref sig .tc := ⟨.hbm, 641, rfl⟩
abbrev main_c_159 : Ref sig .tc := ⟨.hbm, 642, rfl⟩
abbrev main_v479 : Ref sig .tc := ⟨.hbm, 643, rfl⟩
abbrev main_c_160 : Ref sig .tc := ⟨.hbm, 644, rfl⟩
abbrev main_v480 : Ref sig .tc := ⟨.hbm, 645, rfl⟩
abbrev main_v481 : Ref sig .tc := ⟨.hbm, 646, rfl⟩
abbrev main_v482 : Ref sig .tc := ⟨.hbm, 647, rfl⟩
abbrev main_v483 : Ref sig .tc := ⟨.hbm, 648, rfl⟩
abbrev main_v484 : Ref sig .tc := ⟨.hbm, 649, rfl⟩
abbrev main_c_161 : Ref sig .tc := ⟨.hbm, 650, rfl⟩
abbrev main_v485 : Ref sig .tc := ⟨.hbm, 651, rfl⟩
abbrev main_c_162 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_v490 : Ref sig .tc := ⟨.hbm, 657, rfl⟩
abbrev main_c_163 : Ref sig .tc := ⟨.hbm, 658, rfl⟩
abbrev main_v491 : Ref sig .tc := ⟨.hbm, 659, rfl⟩
abbrev main_c_164 : Ref sig .tc := ⟨.hbm, 660, rfl⟩
abbrev main_v492 : Ref sig .tc := ⟨.hbm, 661, rfl⟩
abbrev main_v493 : Ref sig .tc := ⟨.hbm, 662, rfl⟩
abbrev main_v494 : Ref sig .tc := ⟨.hbm, 663, rfl⟩
abbrev main_v495 : Ref sig .tc := ⟨.hbm, 664, rfl⟩
abbrev main_v496 : Ref sig .tc := ⟨.hbm, 665, rfl⟩
abbrev main_c_165 : Ref sig .tc := ⟨.hbm, 666, rfl⟩
abbrev main_v497 : Ref sig .tc := ⟨.hbm, 667, rfl⟩
abbrev main_c_166 : Ref sig .tc := ⟨.hbm, 668, rfl⟩
abbrev main_v498 : Ref sig .tc := ⟨.hbm, 669, rfl⟩
abbrev main_v499 : Ref sig .tc := ⟨.hbm, 670, rfl⟩
abbrev main_v500 : Ref sig .tc := ⟨.hbm, 671, rfl⟩
abbrev main_v501 : Ref sig .tc := ⟨.hbm, 672, rfl⟩
abbrev main_v502 : Ref sig .tc := ⟨.hbm, 673, rfl⟩
abbrev main_c_167 : Ref sig .tc := ⟨.hbm, 674, rfl⟩
abbrev main_v503 : Ref sig .tc := ⟨.hbm, 675, rfl⟩
abbrev main_c_168 : Ref sig .tc := ⟨.hbm, 676, rfl⟩
abbrev main_v504 : Ref sig .tc := ⟨.hbm, 677, rfl⟩
abbrev main_v505 : Ref sig .tc := ⟨.hbm, 678, rfl⟩
abbrev main_v506 : Ref sig .tc := ⟨.hbm, 679, rfl⟩
abbrev main_v507 : Ref sig .tc := ⟨.hbm, 680, rfl⟩
abbrev main_v508 : Ref sig .tc := ⟨.hbm, 681, rfl⟩
abbrev main_c_169 : Ref sig .tc := ⟨.hbm, 682, rfl⟩
abbrev main_v509 : Ref sig .tc := ⟨.hbm, 683, rfl⟩
abbrev main_c_170 : Ref sig .tc := ⟨.hbm, 684, rfl⟩
abbrev main_v510 : Ref sig .tc := ⟨.hbm, 685, rfl⟩
abbrev main_v511 : Ref sig .tc := ⟨.hbm, 686, rfl⟩
abbrev main_v512 : Ref sig .tc := ⟨.hbm, 687, rfl⟩
abbrev main_v513 : Ref sig .tc := ⟨.hbm, 688, rfl⟩
abbrev main_v514 : Ref sig .tc := ⟨.hbm, 689, rfl⟩
abbrev main_c_171 : Ref sig .tc := ⟨.hbm, 690, rfl⟩
abbrev main_v515 : Ref sig .tc := ⟨.hbm, 691, rfl⟩
abbrev main_c_172 : Ref sig .tc := ⟨.hbm, 692, rfl⟩
abbrev main_v516 : Ref sig .tc := ⟨.hbm, 693, rfl⟩
abbrev main_v517 : Ref sig .tc := ⟨.hbm, 694, rfl⟩
abbrev main_v518 : Ref sig .tc := ⟨.hbm, 695, rfl⟩
abbrev main_v519 : Ref sig .tc := ⟨.hbm, 696, rfl⟩
abbrev main_v520 : Ref sig .tc := ⟨.hbm, 697, rfl⟩
abbrev main_c_173 : Ref sig .tc := ⟨.hbm, 698, rfl⟩
abbrev main_v521 : Ref sig .tc := ⟨.hbm, 699, rfl⟩
abbrev main_c_174 : Ref sig .tc := ⟨.hbm, 700, rfl⟩
abbrev main_v522 : Ref sig .tc := ⟨.hbm, 701, rfl⟩
abbrev main_v523 : Ref sig .tc := ⟨.hbm, 702, rfl⟩
abbrev main_v524 : Ref sig .tc := ⟨.hbm, 703, rfl⟩
abbrev main_v525 : Ref sig .tc := ⟨.hbm, 704, rfl⟩
abbrev main_v526 : Ref sig .tc := ⟨.hbm, 705, rfl⟩
abbrev main_c_175 : Ref sig .tc := ⟨.hbm, 706, rfl⟩
abbrev main_v527 : Ref sig .tc := ⟨.hbm, 707, rfl⟩
abbrev main_c_176 : Ref sig .tc := ⟨.hbm, 708, rfl⟩
abbrev main_v528 : Ref sig .tc := ⟨.hbm, 709, rfl⟩
abbrev main_v529 : Ref sig .tc := ⟨.hbm, 710, rfl⟩
abbrev main_v530 : Ref sig .tc := ⟨.hbm, 711, rfl⟩
abbrev main_v531 : Ref sig .tc := ⟨.hbm, 712, rfl⟩
abbrev main_v532 : Ref sig .tc := ⟨.hbm, 713, rfl⟩
abbrev main_c_177 : Ref sig .tc := ⟨.hbm, 714, rfl⟩
abbrev main_v533 : Ref sig .tc := ⟨.hbm, 715, rfl⟩
abbrev main_c_178 : Ref sig .tc := ⟨.hbm, 716, rfl⟩
abbrev main_v534 : Ref sig .tc := ⟨.hbm, 717, rfl⟩
abbrev main_v535 : Ref sig .tc := ⟨.hbm, 718, rfl⟩
abbrev main_v536 : Ref sig .tc := ⟨.hbm, 719, rfl⟩
abbrev main_v537 : Ref sig .tc := ⟨.hbm, 720, rfl⟩
abbrev main_v538 : Ref sig .tc := ⟨.hbm, 721, rfl⟩
abbrev main_c_179 : Ref sig .tc := ⟨.hbm, 722, rfl⟩
abbrev main_v539 : Ref sig .tc := ⟨.hbm, 723, rfl⟩
abbrev main_c_180 : Ref sig .tc := ⟨.hbm, 724, rfl⟩
abbrev main_v540 : Ref sig .tc := ⟨.hbm, 725, rfl⟩
abbrev main_v541 : Ref sig .tc := ⟨.hbm, 726, rfl⟩
abbrev main_v542 : Ref sig .tc := ⟨.hbm, 727, rfl⟩
abbrev main_v543 : Ref sig .tc := ⟨.hbm, 728, rfl⟩
abbrev main_v544 : Ref sig .tc := ⟨.hbm, 729, rfl⟩
abbrev main_c_181 : Ref sig .tc := ⟨.hbm, 730, rfl⟩
abbrev main_v545 : Ref sig .tc := ⟨.hbm, 731, rfl⟩
abbrev main_c_182 : Ref sig .tc := ⟨.hbm, 732, rfl⟩
abbrev main_v546 : Ref sig .tc := ⟨.hbm, 733, rfl⟩
abbrev main_v547 : Ref sig .tc := ⟨.hbm, 734, rfl⟩
abbrev main_v548 : Ref sig .tc := ⟨.hbm, 735, rfl⟩
abbrev main_v549 : Ref sig .tc := ⟨.hbm, 736, rfl⟩
abbrev main_v550 : Ref sig .tc := ⟨.hbm, 737, rfl⟩
abbrev main_c_183 : Ref sig .tc := ⟨.hbm, 738, rfl⟩
abbrev main_v551 : Ref sig .tc := ⟨.hbm, 739, rfl⟩
abbrev main_c_184 : Ref sig .tc := ⟨.hbm, 740, rfl⟩
abbrev main_v552 : Ref sig .tc := ⟨.hbm, 741, rfl⟩
abbrev main_v553 : Ref sig .tc := ⟨.hbm, 742, rfl⟩
abbrev main_v554 : Ref sig .tc := ⟨.hbm, 743, rfl⟩
abbrev main_v555 : Ref sig .tc := ⟨.hbm, 744, rfl⟩
abbrev main_v556 : Ref sig .tc := ⟨.hbm, 745, rfl⟩
abbrev main_c_185 : Ref sig .tc := ⟨.hbm, 746, rfl⟩
abbrev main_v557 : Ref sig .tc := ⟨.hbm, 747, rfl⟩
abbrev main_c_186 : Ref sig .tc := ⟨.hbm, 748, rfl⟩
abbrev main_v558 : Ref sig .tc := ⟨.hbm, 749, rfl⟩
abbrev main_v559 : Ref sig .tc := ⟨.hbm, 750, rfl⟩
abbrev main_v560 : Ref sig .tc := ⟨.hbm, 751, rfl⟩
abbrev main_v561 : Ref sig .tc := ⟨.hbm, 752, rfl⟩
abbrev main_v562 : Ref sig .tc := ⟨.hbm, 753, rfl⟩
abbrev main_c_187 : Ref sig .tc := ⟨.hbm, 754, rfl⟩
abbrev main_v563 : Ref sig .tc := ⟨.hbm, 755, rfl⟩
abbrev main_c_188 : Ref sig .tc := ⟨.hbm, 756, rfl⟩
abbrev main_v564 : Ref sig .tc := ⟨.hbm, 757, rfl⟩
abbrev main_v565 : Ref sig .tc := ⟨.hbm, 758, rfl⟩
abbrev main_v566 : Ref sig .tc := ⟨.hbm, 759, rfl⟩
abbrev main_v567 : Ref sig .tc := ⟨.hbm, 760, rfl⟩
abbrev main_v568 : Ref sig .tc := ⟨.hbm, 761, rfl⟩
abbrev main_c_189 : Ref sig .tc := ⟨.hbm, 762, rfl⟩
abbrev main_v569 : Ref sig .tc := ⟨.hbm, 763, rfl⟩
abbrev main_c_190 : Ref sig .tc := ⟨.hbm, 764, rfl⟩
abbrev main_v570 : Ref sig .tc := ⟨.hbm, 765, rfl⟩
abbrev main_v571 : Ref sig .tc := ⟨.hbm, 766, rfl⟩
abbrev main_v572 : Ref sig .tc := ⟨.hbm, 767, rfl⟩
abbrev main_v573 : Ref sig .tc := ⟨.hbm, 768, rfl⟩
abbrev main_v574 : Ref sig .tc := ⟨.hbm, 769, rfl⟩
abbrev main_c_191 : Ref sig .tc := ⟨.hbm, 770, rfl⟩
abbrev main_v575 : Ref sig .tc := ⟨.hbm, 771, rfl⟩
abbrev main_c_192 : Ref sig .tc := ⟨.hbm, 772, rfl⟩
abbrev main_v576 : Ref sig .tc := ⟨.hbm, 773, rfl⟩
abbrev main_v577 : Ref sig .tc := ⟨.hbm, 774, rfl⟩
abbrev main_v578 : Ref sig .tc := ⟨.hbm, 775, rfl⟩
abbrev main_v579 : Ref sig .tc := ⟨.hbm, 776, rfl⟩
abbrev main_v580 : Ref sig .tc := ⟨.hbm, 777, rfl⟩
abbrev main_c_193 : Ref sig .tc := ⟨.hbm, 778, rfl⟩
abbrev main_v581 : Ref sig .tc := ⟨.hbm, 779, rfl⟩
abbrev main_c_194 : Ref sig .tc := ⟨.hbm, 780, rfl⟩
abbrev main_v582 : Ref sig .tc := ⟨.hbm, 781, rfl⟩
abbrev main_v583 : Ref sig .tc := ⟨.hbm, 782, rfl⟩
abbrev main_v584 : Ref sig .tc := ⟨.hbm, 783, rfl⟩
abbrev main_v585 : Ref sig .tc := ⟨.hbm, 784, rfl⟩
abbrev main_v586 : Ref sig .tc := ⟨.hbm, 785, rfl⟩
abbrev main_c_195 : Ref sig .tc := ⟨.hbm, 786, rfl⟩
abbrev main_v587 : Ref sig .tc := ⟨.hbm, 787, rfl⟩
abbrev main_c_196 : Ref sig .tc := ⟨.hbm, 788, rfl⟩
abbrev main_v588 : Ref sig .tc := ⟨.hbm, 789, rfl⟩
abbrev main_v589 : Ref sig .tc := ⟨.hbm, 790, rfl⟩
abbrev main_v590 : Ref sig .tc := ⟨.hbm, 791, rfl⟩
abbrev main_v591 : Ref sig .tc := ⟨.hbm, 792, rfl⟩
abbrev main_v592 : Ref sig .tc := ⟨.hbm, 793, rfl⟩
abbrev main_c_197 : Ref sig .tc := ⟨.hbm, 794, rfl⟩
abbrev main_v593 : Ref sig .tc := ⟨.hbm, 795, rfl⟩
abbrev main_c_198 : Ref sig .tc := ⟨.hbm, 796, rfl⟩
abbrev main_v594 : Ref sig .tc := ⟨.hbm, 797, rfl⟩
abbrev main_v595 : Ref sig .tc := ⟨.hbm, 798, rfl⟩
abbrev main_v596 : Ref sig .tc := ⟨.hbm, 799, rfl⟩
abbrev main_v597 : Ref sig .tc := ⟨.hbm, 800, rfl⟩
abbrev main_v598 : Ref sig .tc := ⟨.hbm, 801, rfl⟩
abbrev main_c_199 : Ref sig .tc := ⟨.hbm, 802, rfl⟩
abbrev main_v599 : Ref sig .tc := ⟨.hbm, 803, rfl⟩
abbrev main_c_200 : Ref sig .tc := ⟨.hbm, 804, rfl⟩
abbrev main_v600 : Ref sig .tc := ⟨.hbm, 805, rfl⟩
abbrev main_v601 : Ref sig .tc := ⟨.hbm, 806, rfl⟩
abbrev main_v602 : Ref sig .tc := ⟨.hbm, 807, rfl⟩
abbrev main_v603 : Ref sig .tc := ⟨.hbm, 808, rfl⟩
abbrev main_v604 : Ref sig .tc := ⟨.hbm, 809, rfl⟩
abbrev main_c_201 : Ref sig .tc := ⟨.hbm, 810, rfl⟩
abbrev main_v605 : Ref sig .tc := ⟨.hbm, 811, rfl⟩
abbrev main_c_202 : Ref sig .tc := ⟨.hbm, 812, rfl⟩
abbrev main_v606 : Ref sig .tc := ⟨.hbm, 813, rfl⟩
abbrev main_v607 : Ref sig .tc := ⟨.hbm, 814, rfl⟩
abbrev main_v608 : Ref sig .tc := ⟨.hbm, 815, rfl⟩
abbrev main_v609 : Ref sig .tc := ⟨.hbm, 816, rfl⟩
abbrev main_v610 : Ref sig .tc := ⟨.hbm, 817, rfl⟩
abbrev main_c_203 : Ref sig .tc := ⟨.hbm, 818, rfl⟩
abbrev main_v611 : Ref sig .tc := ⟨.hbm, 819, rfl⟩
abbrev main_c_204 : Ref sig .tc := ⟨.hbm, 820, rfl⟩
abbrev main_v612 : Ref sig .tc := ⟨.hbm, 821, rfl⟩
abbrev main_v613 : Ref sig .tc := ⟨.hbm, 822, rfl⟩
abbrev main_v614 : Ref sig .tc := ⟨.hbm, 823, rfl⟩
abbrev main_v615 : Ref sig .tc := ⟨.hbm, 824, rfl⟩
abbrev main_v616 : Ref sig .tc := ⟨.hbm, 825, rfl⟩
abbrev main_c_205 : Ref sig .tc := ⟨.hbm, 826, rfl⟩
abbrev main_v617 : Ref sig .tc := ⟨.hbm, 827, rfl⟩
abbrev main_c_206 : Ref sig .tc := ⟨.hbm, 828, rfl⟩
abbrev main_v618 : Ref sig .tc := ⟨.hbm, 829, rfl⟩
abbrev main_v619 : Ref sig .tc := ⟨.hbm, 830, rfl⟩
abbrev main_v620 : Ref sig .tc := ⟨.hbm, 831, rfl⟩
abbrev main_v621 : Ref sig .tc := ⟨.hbm, 832, rfl⟩
abbrev main_v622 : Ref sig .tc := ⟨.hbm, 833, rfl⟩
abbrev main_c_207 : Ref sig .tc := ⟨.hbm, 834, rfl⟩
abbrev main_v623 : Ref sig .tc := ⟨.hbm, 835, rfl⟩
abbrev main_c_208 : Ref sig .tc := ⟨.hbm, 836, rfl⟩
abbrev main_v624 : Ref sig .tc := ⟨.hbm, 837, rfl⟩
abbrev main_v625 : Ref sig .tc := ⟨.hbm, 838, rfl⟩
abbrev main_v626 : Ref sig .tc := ⟨.hbm, 839, rfl⟩
abbrev main_v627 : Ref sig .tc := ⟨.hbm, 840, rfl⟩
abbrev main_v628 : Ref sig .tc := ⟨.hbm, 841, rfl⟩
abbrev main_c_209 : Ref sig .tc := ⟨.hbm, 842, rfl⟩
abbrev main_v629 : Ref sig .tc := ⟨.hbm, 843, rfl⟩
abbrev main_c_210 : Ref sig .tc := ⟨.hbm, 844, rfl⟩
abbrev main_v630 : Ref sig .tc := ⟨.hbm, 845, rfl⟩
abbrev main_v631 : Ref sig .tc := ⟨.hbm, 846, rfl⟩
abbrev main_v632 : Ref sig .tc := ⟨.hbm, 847, rfl⟩
abbrev main_v633 : Ref sig .tc := ⟨.hbm, 848, rfl⟩
abbrev main_v634 : Ref sig .tc := ⟨.hbm, 849, rfl⟩
abbrev main_c_211 : Ref sig .tc := ⟨.hbm, 850, rfl⟩
abbrev main_v635 : Ref sig .tc := ⟨.hbm, 851, rfl⟩
abbrev main_c_212 : Ref sig .tc := ⟨.hbm, 852, rfl⟩
abbrev main_v636 : Ref sig .tc := ⟨.hbm, 853, rfl⟩
abbrev main_v637 : Ref sig .tc := ⟨.hbm, 854, rfl⟩
abbrev main_v638 : Ref sig .tc := ⟨.hbm, 855, rfl⟩
abbrev main_v639 : Ref sig .tc := ⟨.hbm, 856, rfl⟩
abbrev main_v640 : Ref sig .tc := ⟨.hbm, 857, rfl⟩
abbrev main_c_213 : Ref sig .tc := ⟨.hbm, 858, rfl⟩
abbrev main_v641 : Ref sig .tc := ⟨.hbm, 859, rfl⟩
abbrev main_c_214 : Ref sig .tc := ⟨.hbm, 860, rfl⟩
abbrev main_v642 : Ref sig .tc := ⟨.hbm, 861, rfl⟩
abbrev main_v643 : Ref sig .tc := ⟨.hbm, 862, rfl⟩
abbrev main_v644 : Ref sig .tc := ⟨.hbm, 863, rfl⟩
abbrev main_v645 : Ref sig .tc := ⟨.hbm, 864, rfl⟩
abbrev main_v646 : Ref sig .tc := ⟨.hbm, 865, rfl⟩
abbrev main_c_215 : Ref sig .tc := ⟨.hbm, 866, rfl⟩
abbrev main_v647 : Ref sig .tc := ⟨.hbm, 867, rfl⟩
abbrev main_c_216 : Ref sig .tc := ⟨.hbm, 868, rfl⟩
abbrev main_v648 : Ref sig .tc := ⟨.hbm, 869, rfl⟩
abbrev main_v649 : Ref sig .tc := ⟨.hbm, 870, rfl⟩
abbrev main_v650 : Ref sig .tc := ⟨.hbm, 871, rfl⟩
abbrev main_v651 : Ref sig .tc := ⟨.hbm, 872, rfl⟩
abbrev main_v652 : Ref sig .tc := ⟨.hbm, 873, rfl⟩
abbrev main_c_217 : Ref sig .tc := ⟨.hbm, 874, rfl⟩
abbrev main_v653 : Ref sig .tc := ⟨.hbm, 875, rfl⟩
abbrev main_c_218 : Ref sig .tc := ⟨.hbm, 876, rfl⟩
abbrev main_v654 : Ref sig .tc := ⟨.hbm, 877, rfl⟩
abbrev main_v655 : Ref sig .tc := ⟨.hbm, 878, rfl⟩
abbrev main_v656 : Ref sig .tc := ⟨.hbm, 879, rfl⟩
abbrev main_v657 : Ref sig .tc := ⟨.hbm, 880, rfl⟩
abbrev main_v658 : Ref sig .tc := ⟨.hbm, 881, rfl⟩
abbrev main_c_219 : Ref sig .tc := ⟨.hbm, 882, rfl⟩
abbrev main_v659 : Ref sig .tc := ⟨.hbm, 883, rfl⟩
abbrev main_c_220 : Ref sig .tc := ⟨.hbm, 884, rfl⟩
abbrev main_v660 : Ref sig .tc := ⟨.hbm, 885, rfl⟩
abbrev main_v661 : Ref sig .tc := ⟨.hbm, 886, rfl⟩
abbrev main_v662 : Ref sig .tc := ⟨.hbm, 887, rfl⟩
abbrev main_v663 : Ref sig .tc := ⟨.hbm, 888, rfl⟩
abbrev main_v664 : Ref sig .tc := ⟨.hbm, 889, rfl⟩
abbrev main_c_221 : Ref sig .tc := ⟨.hbm, 890, rfl⟩
abbrev main_v665 : Ref sig .tc := ⟨.hbm, 891, rfl⟩
abbrev main_c_222 : Ref sig .tc := ⟨.hbm, 892, rfl⟩
abbrev main_v666 : Ref sig .tc := ⟨.hbm, 893, rfl⟩
abbrev main_v667 : Ref sig .tc := ⟨.hbm, 894, rfl⟩
abbrev main_v668 : Ref sig .tc := ⟨.hbm, 895, rfl⟩
abbrev main_v669 : Ref sig .tc := ⟨.hbm, 896, rfl⟩
abbrev main_v670 : Ref sig .tc := ⟨.hbm, 897, rfl⟩
abbrev main_c_223 : Ref sig .tc := ⟨.hbm, 898, rfl⟩
abbrev main_v671 : Ref sig .tc := ⟨.hbm, 899, rfl⟩
abbrev main_c_224 : Ref sig .tc := ⟨.hbm, 900, rfl⟩
abbrev main_v672 : Ref sig .tc := ⟨.hbm, 901, rfl⟩
abbrev main_v673 : Ref sig .tc := ⟨.hbm, 902, rfl⟩
abbrev main_v674 : Ref sig .tc := ⟨.hbm, 903, rfl⟩
abbrev main_v675 : Ref sig .tc := ⟨.hbm, 904, rfl⟩
abbrev main_v676 : Ref sig .tc := ⟨.hbm, 905, rfl⟩
abbrev main_c_225 : Ref sig .tc := ⟨.hbm, 906, rfl⟩
abbrev main_v677 : Ref sig .tc := ⟨.hbm, 907, rfl⟩
abbrev main_c_226 : Ref sig .tc := ⟨.hbm, 908, rfl⟩
abbrev main_v678 : Ref sig .tc := ⟨.hbm, 909, rfl⟩
abbrev main_v679 : Ref sig .tc := ⟨.hbm, 910, rfl⟩
abbrev main_v680 : Ref sig .tc := ⟨.hbm, 911, rfl⟩
abbrev main_v681 : Ref sig .tc := ⟨.hbm, 912, rfl⟩
abbrev main_v682 : Ref sig .tc := ⟨.hbm, 913, rfl⟩
abbrev main_c_227 : Ref sig .tc := ⟨.hbm, 914, rfl⟩
abbrev main_v683 : Ref sig .tc := ⟨.hbm, 915, rfl⟩
abbrev main_c_228 : Ref sig .tc := ⟨.hbm, 916, rfl⟩
abbrev main_v684 : Ref sig .tc := ⟨.hbm, 917, rfl⟩
abbrev main_v685 : Ref sig .tc := ⟨.hbm, 918, rfl⟩
abbrev main_v686 : Ref sig .tc := ⟨.hbm, 919, rfl⟩
abbrev main_v687 : Ref sig .tc := ⟨.hbm, 920, rfl⟩
abbrev main_v688 : Ref sig .tc := ⟨.hbm, 921, rfl⟩
abbrev main_c_229 : Ref sig .tc := ⟨.hbm, 922, rfl⟩
abbrev main_v689 : Ref sig .tc := ⟨.hbm, 923, rfl⟩
abbrev main_c_230 : Ref sig .tc := ⟨.hbm, 924, rfl⟩
abbrev main_v690 : Ref sig .tc := ⟨.hbm, 925, rfl⟩
abbrev main_v691 : Ref sig .tc := ⟨.hbm, 926, rfl⟩
abbrev main_v692 : Ref sig .tc := ⟨.hbm, 927, rfl⟩
abbrev main_v693 : Ref sig .tc := ⟨.hbm, 928, rfl⟩
abbrev main_v694 : Ref sig .tc := ⟨.hbm, 929, rfl⟩
abbrev main_c_231 : Ref sig .tc := ⟨.hbm, 930, rfl⟩
abbrev main_v695 : Ref sig .tc := ⟨.hbm, 931, rfl⟩
abbrev main_c_232 : Ref sig .tc := ⟨.hbm, 932, rfl⟩
abbrev main_v696 : Ref sig .tc := ⟨.hbm, 933, rfl⟩
abbrev main_v697 : Ref sig .tc := ⟨.hbm, 934, rfl⟩
abbrev main_v698 : Ref sig .tc := ⟨.hbm, 935, rfl⟩
abbrev main_v699 : Ref sig .tc := ⟨.hbm, 936, rfl⟩
abbrev main_v700 : Ref sig .tc := ⟨.hbm, 937, rfl⟩
abbrev main_c_233 : Ref sig .tc := ⟨.hbm, 938, rfl⟩
abbrev main_v701 : Ref sig .tc := ⟨.hbm, 939, rfl⟩
abbrev main_c_234 : Ref sig .tc := ⟨.hbm, 940, rfl⟩
abbrev main_v702 : Ref sig .tc := ⟨.hbm, 941, rfl⟩
abbrev main_v703 : Ref sig .tc := ⟨.hbm, 942, rfl⟩
abbrev main_v704 : Ref sig .tc := ⟨.hbm, 943, rfl⟩
abbrev main_v705 : Ref sig .tc := ⟨.hbm, 944, rfl⟩
abbrev main_v706 : Ref sig .tc := ⟨.hbm, 945, rfl⟩
abbrev main_c_235 : Ref sig .tc := ⟨.hbm, 946, rfl⟩
abbrev main_v707 : Ref sig .tc := ⟨.hbm, 947, rfl⟩
abbrev main_c_236 : Ref sig .tc := ⟨.hbm, 948, rfl⟩
abbrev main_v708 : Ref sig .tc := ⟨.hbm, 949, rfl⟩
abbrev main_v709 : Ref sig .tc := ⟨.hbm, 950, rfl⟩
abbrev main_v710 : Ref sig .tc := ⟨.hbm, 951, rfl⟩
abbrev main_v711 : Ref sig .tc := ⟨.hbm, 952, rfl⟩
abbrev main_v712 : Ref sig .tc := ⟨.hbm, 953, rfl⟩
abbrev main_c_237 : Ref sig .tc := ⟨.hbm, 954, rfl⟩
abbrev main_v713 : Ref sig .tc := ⟨.hbm, 955, rfl⟩
abbrev main_c_238 : Ref sig .tc := ⟨.hbm, 956, rfl⟩
abbrev main_v714 : Ref sig .tc := ⟨.hbm, 957, rfl⟩
abbrev main_v715 : Ref sig .tc := ⟨.hbm, 958, rfl⟩
abbrev main_v716 : Ref sig .tc := ⟨.hbm, 959, rfl⟩
abbrev main_v717 : Ref sig .tc := ⟨.hbm, 960, rfl⟩
abbrev main_v718 : Ref sig .tc := ⟨.hbm, 961, rfl⟩
abbrev main_c_239 : Ref sig .tc := ⟨.hbm, 962, rfl⟩
abbrev main_v719 : Ref sig .tc := ⟨.hbm, 963, rfl⟩
abbrev main_c_240 : Ref sig .tc := ⟨.hbm, 964, rfl⟩
abbrev main_v720 : Ref sig .tc := ⟨.hbm, 965, rfl⟩
abbrev main_v721 : Ref sig .tc := ⟨.hbm, 966, rfl⟩
abbrev main_v722 : Ref sig .tc := ⟨.hbm, 967, rfl⟩
abbrev main_v723 : Ref sig .tc := ⟨.hbm, 968, rfl⟩
abbrev main_v724 : Ref sig .tc := ⟨.hbm, 969, rfl⟩
abbrev main_c_241 : Ref sig .tc := ⟨.hbm, 970, rfl⟩
abbrev main_v725 : Ref sig .tc := ⟨.hbm, 971, rfl⟩
abbrev main_c_242 : Ref sig .tc := ⟨.hbm, 972, rfl⟩
abbrev main_v726 : Ref sig .tc := ⟨.hbm, 973, rfl⟩
abbrev main_v727 : Ref sig .tc := ⟨.hbm, 974, rfl⟩
abbrev main_v728 : Ref sig .tc := ⟨.hbm, 975, rfl⟩
abbrev main_v729 : Ref sig .tc := ⟨.hbm, 976, rfl⟩
abbrev main_v730 : Ref sig .tc := ⟨.hbm, 977, rfl⟩
abbrev main_c_243 : Ref sig .tc := ⟨.hbm, 978, rfl⟩
abbrev main_v731 : Ref sig .tc := ⟨.hbm, 979, rfl⟩
abbrev main_c_244 : Ref sig .tc := ⟨.hbm, 980, rfl⟩
abbrev main_v732 : Ref sig .tc := ⟨.hbm, 981, rfl⟩
abbrev main_v733 : Ref sig .tc := ⟨.hbm, 982, rfl⟩
abbrev main_v734 : Ref sig .tc := ⟨.hbm, 983, rfl⟩
abbrev main_v735 : Ref sig .tc := ⟨.hbm, 984, rfl⟩
abbrev main_v736 : Ref sig .tc := ⟨.hbm, 985, rfl⟩
abbrev main_c_245 : Ref sig .tc := ⟨.hbm, 986, rfl⟩
abbrev main_v737 : Ref sig .tc := ⟨.hbm, 987, rfl⟩
abbrev main_c_246 : Ref sig .tc := ⟨.hbm, 988, rfl⟩
abbrev main_v738 : Ref sig .tc := ⟨.hbm, 989, rfl⟩
abbrev main_v739 : Ref sig .tc := ⟨.hbm, 990, rfl⟩
abbrev main_v740 : Ref sig .tc := ⟨.hbm, 991, rfl⟩
abbrev main_v741 : Ref sig .tc := ⟨.hbm, 992, rfl⟩
abbrev main_v742 : Ref sig .tc := ⟨.hbm, 993, rfl⟩
abbrev main_c_247 : Ref sig .tc := ⟨.hbm, 994, rfl⟩
abbrev main_v743 : Ref sig .tc := ⟨.hbm, 995, rfl⟩
abbrev main_c_248 : Ref sig .tc := ⟨.hbm, 996, rfl⟩
abbrev main_v744 : Ref sig .tc := ⟨.hbm, 997, rfl⟩
abbrev main_v745 : Ref sig .tc := ⟨.hbm, 998, rfl⟩
abbrev main_v746 : Ref sig .tc := ⟨.hbm, 999, rfl⟩
abbrev main_v747 : Ref sig .tc := ⟨.hbm, 1000, rfl⟩
abbrev main_v748 : Ref sig .tc := ⟨.hbm, 1001, rfl⟩
abbrev main_c_249 : Ref sig .tc := ⟨.hbm, 1002, rfl⟩
abbrev main_v749 : Ref sig .tc := ⟨.hbm, 1003, rfl⟩
abbrev main_c_250 : Ref sig .tc := ⟨.hbm, 1004, rfl⟩
abbrev main_v750 : Ref sig .tc := ⟨.hbm, 1005, rfl⟩
abbrev main_v751 : Ref sig .tc := ⟨.hbm, 1006, rfl⟩
abbrev main_v752 : Ref sig .tc := ⟨.hbm, 1007, rfl⟩
abbrev main_v753 : Ref sig .tc := ⟨.hbm, 1008, rfl⟩
abbrev main_v754 : Ref sig .tc := ⟨.hbm, 1009, rfl⟩
abbrev main_c_251 : Ref sig .tc := ⟨.hbm, 1010, rfl⟩
abbrev main_v755 : Ref sig .tc := ⟨.hbm, 1011, rfl⟩
abbrev main_c_252 : Ref sig .tc := ⟨.hbm, 1012, rfl⟩
abbrev main_v756 : Ref sig .tc := ⟨.hbm, 1013, rfl⟩
abbrev main_v757 : Ref sig .tc := ⟨.hbm, 1014, rfl⟩
abbrev main_v758 : Ref sig .tc := ⟨.hbm, 1015, rfl⟩
abbrev main_v759 : Ref sig .tc := ⟨.hbm, 1016, rfl⟩
abbrev main_v760 : Ref sig .tc := ⟨.hbm, 1017, rfl⟩
abbrev main_c_253 : Ref sig .tc := ⟨.hbm, 1018, rfl⟩
abbrev main_v761 : Ref sig .tc := ⟨.hbm, 1019, rfl⟩
abbrev main_c_254 : Ref sig .tc := ⟨.hbm, 1020, rfl⟩
abbrev main_v762 : Ref sig .tc := ⟨.hbm, 1021, rfl⟩
abbrev main_v763 : Ref sig .tc := ⟨.hbm, 1022, rfl⟩
abbrev main_v764 : Ref sig .tc := ⟨.hbm, 1023, rfl⟩
abbrev main_v765 : Ref sig .tc := ⟨.hbm, 1024, rfl⟩
abbrev main_v766 : Ref sig .tc := ⟨.hbm, 1025, rfl⟩
abbrev main_c_255 : Ref sig .tc := ⟨.hbm, 1026, rfl⟩
abbrev main_v767 : Ref sig .tc := ⟨.hbm, 1027, rfl⟩
abbrev main_c_256 : Ref sig .tc := ⟨.hbm, 1028, rfl⟩
abbrev main_v768 : Ref sig .tc := ⟨.hbm, 1029, rfl⟩
abbrev main_v769 : Ref sig .tc := ⟨.hbm, 1030, rfl⟩
abbrev main_v770 : Ref sig .tc := ⟨.hbm, 1031, rfl⟩
abbrev main_v771 : Ref sig .tc := ⟨.hbm, 1032, rfl⟩
abbrev main_v772 : Ref sig .tc := ⟨.hbm, 1033, rfl⟩
abbrev main_c_257 : Ref sig .tc := ⟨.hbm, 1034, rfl⟩
abbrev main_v773 : Ref sig .tc := ⟨.hbm, 1035, rfl⟩
abbrev main_c_258 : Ref sig .tc := ⟨.hbm, 1036, rfl⟩
abbrev main_v774 : Ref sig .tc := ⟨.hbm, 1037, rfl⟩
abbrev main_v775 : Ref sig .tc := ⟨.hbm, 1038, rfl⟩
abbrev main_v776 : Ref sig .tc := ⟨.hbm, 1039, rfl⟩
abbrev main_v777 : Ref sig .tc := ⟨.hbm, 1040, rfl⟩
abbrev main_v778 : Ref sig .tc := ⟨.hbm, 1041, rfl⟩
abbrev main_c_259 : Ref sig .tc := ⟨.hbm, 1042, rfl⟩
abbrev main_v779 : Ref sig .tc := ⟨.hbm, 1043, rfl⟩
abbrev main_c_260 : Ref sig .tc := ⟨.hbm, 1044, rfl⟩
abbrev main_v780 : Ref sig .tc := ⟨.hbm, 1045, rfl⟩
abbrev main_v781 : Ref sig .tc := ⟨.hbm, 1046, rfl⟩
abbrev main_v782 : Ref sig .tc := ⟨.hbm, 1047, rfl⟩
abbrev main_v783 : Ref sig .tc := ⟨.hbm, 1048, rfl⟩
abbrev main_v784 : Ref sig .tc := ⟨.hbm, 1049, rfl⟩
abbrev main_c_261 : Ref sig .tc := ⟨.hbm, 1050, rfl⟩
abbrev main_v785 : Ref sig .tc := ⟨.hbm, 1051, rfl⟩
abbrev main_c_262 : Ref sig .tc := ⟨.hbm, 1052, rfl⟩
abbrev main_v786 : Ref sig .tc := ⟨.hbm, 1053, rfl⟩
abbrev main_v787 : Ref sig .tc := ⟨.hbm, 1054, rfl⟩
abbrev main_v788 : Ref sig .tc := ⟨.hbm, 1055, rfl⟩
abbrev main_v789 : Ref sig .tc := ⟨.hbm, 1056, rfl⟩
abbrev main_v790 : Ref sig .tc := ⟨.hbm, 1057, rfl⟩
abbrev main_v791 : Ref sig .tc := ⟨.hbm, 1058, rfl⟩
abbrev main_v792 : Ref sig .tc := ⟨.hbm, 1059, rfl⟩

abbrev nD : Nat := 1
abbrev τ : Topo := Topo.v7x

variable {F : FTy → Type} [FloatOps F]

class Facts₀ : Prop where
  bcast_S_S16x62001x64 : S_.BroadcastsInDim S16x62001x64 (![] : Fin 0 → Fin S16x62001x64.rank)
  bcast_S_S62001 : S_.BroadcastsInDim S62001 (![] : Fin 0 → Fin S62001.rank)
  bcast_S62001_S62001x1_0 : S62001.BroadcastsInDim S62001x1 (![0] : Fin 1 → Fin S62001x1.rank)
  shapeCasts_S16x62001x64_S16x249x249x8x8 : S16x62001x64.ShapeCasts S16x249x249x8x8
  bcast_S_S16x256x256 : S_.BroadcastsInDim S16x256x256 (![] : Fin 0 → Fin S16x256x256.rank)
  slices_S16x249x249x8x8_S16x249x249x1x1_0_0_0_0_0 : S16x249x249x8x8.Slices ![0, 0, 0, 0, 0] S16x249x249x1x1
  shapeCasts_S16x249x249x1x1_S16x249x249 : S16x249x249x1x1.ShapeCasts S16x249x249
  bcast_S_S1 : S_.BroadcastsInDim S1 (![] : Fin 0 → Fin S1.rank)
  concatenates_S1_S1_S2_d0 : Shape.Concatenates [S1, S1] S2 0
  slices_S16x249x249x8x8_S16x249x249x1x1_0_0_0_0_1 : S16x249x249x8x8.Slices ![0, 0, 0, 0, 1] S16x249x249x1x1
  slices_S16x249x249x8x8_S16x249x249x1x1_0_0_0_0_2 : S16x249x249x8x8.Slices ![0, 0, 0, 0, 2] S16x249x249x1x1
  slices_S16x249x249x8x8_S16x249x249x1x1_0_0_0_0_3 : S16x249x249x8x8.Slices ![0, 0, 0, 0, 3] S16x249x249x1x1
  slices_S16x249x249x8x8_S16x249x249x1x1_0_0_0_0_4 : S16x249x249x8x8.Slices ![0, 0, 0, 0, 4] S16x249x249x1x1
  slices_S16x249x249x8x8_S16x249x249x1x1_0_0_0_0_5 : S16x249x249x8x8.Slices ![0, 0, 0, 0, 5] S16x249x249x1x1
  slices_S16x249x249x8x8_S16x249x249x1x1_0_0_0_0_6 : S16x249x249x8x8.Slices ![0, 0, 0, 0, 6] S16x249x249x1x1
  slices_S16x249x249x8x8_S16x249x249x1x1_0_0_0_0_7 : S16x249x249x8x8.Slices ![0, 0, 0, 0, 7] S16x249x249x1x1
  slices_S16x249x249x8x8_S16x249x249x1x1_0_0_0_1_0 : S16x249x249x8x8.Slices ![0, 0, 0, 1, 0] S16x249x249x1x1
  slices_S16x249x249x8x8_S16x249x249x1x1_0_0_0_1_1 : S16x249x249x8x8.Slices ![0, 0, 0, 1, 1] S16x249x249x1x1
  slices_S16x249x249x8x8_S16x249x249x1x1_0_0_0_1_2 : S16x249x249x8x8.Slices ![0, 0, 0, 1, 2] S16x249x249x1x1
  slices_S16x249x249x8x8_S16x249x249x1x1_0_0_0_1_3 : S16x249x249x8x8.Slices ![0, 0, 0, 1, 3] S16x249x249x1x1
  slices_S16x249x249x8x8_S16x249x249x1x1_0_0_0_1_4 : S16x249x249x8x8.Slices ![0, 0, 0, 1, 4] S16x249x249x1x1
  slices_S16x249x249x8x8_S16x249x249x1x1_0_0_0_1_5 : S16x249x249x8x8.Slices ![0, 0, 0, 1, 5] S16x249x249x1x1
  slices_S16x249x249x8x8_S16x249x249x1x1_0_0_0_1_6 : S16x249x249x8x8.Slices ![0, 0, 0, 1, 6] S16x249x249x1x1
  slices_S16x249x249x8x8_S16x249x249x1x1_0_0_0_1_7 : S16x249x249x8x8.Slices ![0, 0, 0, 1, 7] S16x249x249x1x1
  slices_S16x249x249x8x8_S16x249x249x1x1_0_0_0_2_0 : S16x249x249x8x8.Slices ![0, 0, 0, 2, 0] S16x249x249x1x1
  slices_S16x249x249x8x8_S16x249x249x1x1_0_0_0_2_1 : S16x249x249x8x8.Slices ![0, 0, 0, 2, 1] S16x249x249x1x1
  slices_S16x249x249x8x8_S16x249x249x1x1_0_0_0_2_2 : S16x249x249x8x8.Slices ![0, 0, 0, 2, 2] S16x249x249x1x1
  slices_S16x249x249x8x8_S16x249x249x1x1_0_0_0_2_3 : S16x249x249x8x8.Slices ![0, 0, 0, 2, 3] S16x249x249x1x1
  slices_S16x249x249x8x8_S16x249x249x1x1_0_0_0_2_4 : S16x249x249x8x8.Slices ![0, 0, 0, 2, 4] S16x249x249x1x1
  slices_S16x249x249x8x8_S16x249x249x1x1_0_0_0_2_5 : S16x249x249x8x8.Slices ![0, 0, 0, 2, 5] S16x249x249x1x1
  slices_S16x249x249x8x8_S16x249x249x1x1_0_0_0_2_6 : S16x249x249x8x8.Slices ![0, 0, 0, 2, 6] S16x249x249x1x1
  slices_S16x249x249x8x8_S16x249x249x1x1_0_0_0_2_7 : S16x249x249x8x8.Slices ![0, 0, 0, 2, 7] S16x249x249x1x1
  slices_S16x249x249x8x8_S16x249x249x1x1_0_0_0_3_0 : S16x249x249x8x8.Slices ![0, 0, 0, 3, 0] S16x249x249x1x1
  slices_S16x249x249x8x8_S16x249x249x1x1_0_0_0_3_1 : S16x249x249x8x8.Slices ![0, 0, 0, 3, 1] S16x249x249x1x1
  slices_S16x249x249x8x8_S16x249x249x1x1_0_0_0_3_2 : S16x249x249x8x8.Slices ![0, 0, 0, 3, 2] S16x249x249x1x1
  slices_S16x249x249x8x8_S16x249x249x1x1_0_0_0_3_3 : S16x249x249x8x8.Slices ![0, 0, 0, 3, 3] S16x249x249x1x1
  slices_S16x249x249x8x8_S16x249x249x1x1_0_0_0_3_4 : S16x249x249x8x8.Slices ![0, 0, 0, 3, 4] S16x249x249x1x1
  slices_S16x249x249x8x8_S16x249x249x1x1_0_0_0_3_5 : S16x249x249x8x8.Slices ![0, 0, 0, 3, 5] S16x249x249x1x1
  slices_S16x249x249x8x8_S16x249x249x1x1_0_0_0_3_6 : S16x249x249x8x8.Slices ![0, 0, 0, 3, 6] S16x249x249x1x1
  slices_S16x249x249x8x8_S16x249x249x1x1_0_0_0_3_7 : S16x249x249x8x8.Slices ![0, 0, 0, 3, 7] S16x249x249x1x1
  slices_S16x249x249x8x8_S16x249x249x1x1_0_0_0_4_0 : S16x249x249x8x8.Slices ![0, 0, 0, 4, 0] S16x249x249x1x1
  slices_S16x249x249x8x8_S16x249x249x1x1_0_0_0_4_1 : S16x249x249x8x8.Slices ![0, 0, 0, 4, 1] S16x249x249x1x1
  slices_S16x249x249x8x8_S16x249x249x1x1_0_0_0_4_2 : S16x249x249x8x8.Slices ![0, 0, 0, 4, 2] S16x249x249x1x1
  slices_S16x249x249x8x8_S16x249x249x1x1_0_0_0_4_3 : S16x249x249x8x8.Slices ![0, 0, 0, 4, 3] S16x249x249x1x1
  slices_S16x249x249x8x8_S16x249x249x1x1_0_0_0_4_4 : S16x249x249x8x8.Slices ![0, 0, 0, 4, 4] S16x249x249x1x1
  slices_S16x249x249x8x8_S16x249x249x1x1_0_0_0_4_5 : S16x249x249x8x8.Slices ![0, 0, 0, 4, 5] S16x249x249x1x1
  slices_S16x249x249x8x8_S16x249x249x1x1_0_0_0_4_6 : S16x249x249x8x8.Slices ![0, 0, 0, 4, 6] S16x249x249x1x1
  slices_S16x249x249x8x8_S16x249x249x1x1_0_0_0_4_7 : S16x249x249x8x8.Slices ![0, 0, 0, 4, 7] S16x249x249x1x1
  slices_S16x249x249x8x8_S16x249x249x1x1_0_0_0_5_0 : S16x249x249x8x8.Slices ![0, 0, 0, 5, 0] S16x249x249x1x1
  slices_S16x249x249x8x8_S16x249x249x1x1_0_0_0_5_1 : S16x249x249x8x8.Slices ![0, 0, 0, 5, 1] S16x249x249x1x1
  slices_S16x249x249x8x8_S16x249x249x1x1_0_0_0_5_2 : S16x249x249x8x8.Slices ![0, 0, 0, 5, 2] S16x249x249x1x1
  slices_S16x249x249x8x8_S16x249x249x1x1_0_0_0_5_3 : S16x249x249x8x8.Slices ![0, 0, 0, 5, 3] S16x249x249x1x1
  slices_S16x249x249x8x8_S16x249x249x1x1_0_0_0_5_4 : S16x249x249x8x8.Slices ![0, 0, 0, 5, 4] S16x249x249x1x1
  slices_S16x249x249x8x8_S16x249x249x1x1_0_0_0_5_5 : S16x249x249x8x8.Slices ![0, 0, 0, 5, 5] S16x249x249x1x1
  slices_S16x249x249x8x8_S16x249x249x1x1_0_0_0_5_6 : S16x249x249x8x8.Slices ![0, 0, 0, 5, 6] S16x249x249x1x1
  slices_S16x249x249x8x8_S16x249x249x1x1_0_0_0_5_7 : S16x249x249x8x8.Slices ![0, 0, 0, 5, 7] S16x249x249x1x1
  slices_S16x249x249x8x8_S16x249x249x1x1_0_0_0_6_0 : S16x249x249x8x8.Slices ![0, 0, 0, 6, 0] S16x249x249x1x1
  slices_S16x249x249x8x8_S16x249x249x1x1_0_0_0_6_1 : S16x249x249x8x8.Slices ![0, 0, 0, 6, 1] S16x249x249x1x1
  slices_S16x249x249x8x8_S16x249x249x1x1_0_0_0_6_2 : S16x249x249x8x8.Slices ![0, 0, 0, 6, 2] S16x249x249x1x1
  slices_S16x249x249x8x8_S16x249x249x1x1_0_0_0_6_3 : S16x249x249x8x8.Slices ![0, 0, 0, 6, 3] S16x249x249x1x1
  slices_S16x249x249x8x8_S16x249x249x1x1_0_0_0_6_4 : S16x249x249x8x8.Slices ![0, 0, 0, 6, 4] S16x249x249x1x1
  slices_S16x249x249x8x8_S16x249x249x1x1_0_0_0_6_5 : S16x249x249x8x8.Slices ![0, 0, 0, 6, 5] S16x249x249x1x1
  slices_S16x249x249x8x8_S16x249x249x1x1_0_0_0_6_6 : S16x249x249x8x8.Slices ![0, 0, 0, 6, 6] S16x249x249x1x1
  slices_S16x249x249x8x8_S16x249x249x1x1_0_0_0_6_7 : S16x249x249x8x8.Slices ![0, 0, 0, 6, 7] S16x249x249x1x1
  slices_S16x249x249x8x8_S16x249x249x1x1_0_0_0_7_0 : S16x249x249x8x8.Slices ![0, 0, 0, 7, 0] S16x249x249x1x1
  slices_S16x249x249x8x8_S16x249x249x1x1_0_0_0_7_1 : S16x249x249x8x8.Slices ![0, 0, 0, 7, 1] S16x249x249x1x1
  slices_S16x249x249x8x8_S16x249x249x1x1_0_0_0_7_2 : S16x249x249x8x8.Slices ![0, 0, 0, 7, 2] S16x249x249x1x1
  slices_S16x249x249x8x8_S16x249x249x1x1_0_0_0_7_3 : S16x249x249x8x8.Slices ![0, 0, 0, 7, 3] S16x249x249x1x1
  slices_S16x249x249x8x8_S16x249x249x1x1_0_0_0_7_4 : S16x249x249x8x8.Slices ![0, 0, 0, 7, 4] S16x249x249x1x1
  slices_S16x249x249x8x8_S16x249x249x1x1_0_0_0_7_5 : S16x249x249x8x8.Slices ![0, 0, 0, 7, 5] S16x249x249x1x1
  slices_S16x249x249x8x8_S16x249x249x1x1_0_0_0_7_6 : S16x249x249x8x8.Slices ![0, 0, 0, 7, 6] S16x249x249x1x1
  slices_S16x249x249x8x8_S16x249x249x1x1_0_0_0_7_7 : S16x249x249x8x8.Slices ![0, 0, 0, 7, 7] S16x249x249x1x1
  bcast_S_S62001x64 : S_.BroadcastsInDim S62001x64 (![] : Fin 0 → Fin S62001x64.rank)
  shapeCasts_S62001x64_S249x249x8x8 : S62001x64.ShapeCasts S249x249x8x8
  bcast_S_S256x256 : S_.BroadcastsInDim S256x256 (![] : Fin 0 → Fin S256x256.rank)
  slices_S249x249x8x8_S249x249x1x1_0_0_0_0 : S249x249x8x8.Slices ![0, 0, 0, 0] S249x249x1x1
  shapeCasts_S249x249x1x1_S249x249 : S249x249x1x1.ShapeCasts S249x249
  slices_S249x249x8x8_S249x249x1x1_0_0_0_1 : S249x249x8x8.Slices ![0, 0, 0, 1] S249x249x1x1
  slices_S249x249x8x8_S249x249x1x1_0_0_0_2 : S249x249x8x8.Slices ![0, 0, 0, 2] S249x249x1x1
  slices_S249x249x8x8_S249x249x1x1_0_0_0_3 : S249x249x8x8.Slices ![0, 0, 0, 3] S249x249x1x1
  slices_S249x249x8x8_S249x249x1x1_0_0_0_4 : S249x249x8x8.Slices ![0, 0, 0, 4] S249x249x1x1
  slices_S249x249x8x8_S249x249x1x1_0_0_0_5 : S249x249x8x8.Slices ![0, 0, 0, 5] S249x249x1x1
  slices_S249x249x8x8_S249x249x1x1_0_0_0_6 : S249x249x8x8.Slices ![0, 0, 0, 6] S249x249x1x1
  slices_S249x249x8x8_S249x249x1x1_0_0_0_7 : S249x249x8x8.Slices ![0, 0, 0, 7] S249x249x1x1
  slices_S249x249x8x8_S249x249x1x1_0_0_1_0 : S249x249x8x8.Slices ![0, 0, 1, 0] S249x249x1x1
  slices_S249x249x8x8_S249x249x1x1_0_0_1_1 : S249x249x8x8.Slices ![0, 0, 1, 1] S249x249x1x1
  slices_S249x249x8x8_S249x249x1x1_0_0_1_2 : S249x249x8x8.Slices ![0, 0, 1, 2] S249x249x1x1
  slices_S249x249x8x8_S249x249x1x1_0_0_1_3 : S249x249x8x8.Slices ![0, 0, 1, 3] S249x249x1x1
  slices_S249x249x8x8_S249x249x1x1_0_0_1_4 : S249x249x8x8.Slices ![0, 0, 1, 4] S249x249x1x1
  slices_S249x249x8x8_S249x249x1x1_0_0_1_5 : S249x249x8x8.Slices ![0, 0, 1, 5] S249x249x1x1
  slices_S249x249x8x8_S249x249x1x1_0_0_1_6 : S249x249x8x8.Slices ![0, 0, 1, 6] S249x249x1x1
  slices_S249x249x8x8_S249x249x1x1_0_0_1_7 : S249x249x8x8.Slices ![0, 0, 1, 7] S249x249x1x1
  slices_S249x249x8x8_S249x249x1x1_0_0_2_0 : S249x249x8x8.Slices ![0, 0, 2, 0] S249x249x1x1
  slices_S249x249x8x8_S249x249x1x1_0_0_2_1 : S249x249x8x8.Slices ![0, 0, 2, 1] S249x249x1x1
  slices_S249x249x8x8_S249x249x1x1_0_0_2_2 : S249x249x8x8.Slices ![0, 0, 2, 2] S249x249x1x1
  slices_S249x249x8x8_S249x249x1x1_0_0_2_3 : S249x249x8x8.Slices ![0, 0, 2, 3] S249x249x1x1
  slices_S249x249x8x8_S249x249x1x1_0_0_2_4 : S249x249x8x8.Slices ![0, 0, 2, 4] S249x249x1x1
  slices_S249x249x8x8_S249x249x1x1_0_0_2_5 : S249x249x8x8.Slices ![0, 0, 2, 5] S249x249x1x1
  slices_S249x249x8x8_S249x249x1x1_0_0_2_6 : S249x249x8x8.Slices ![0, 0, 2, 6] S249x249x1x1
  slices_S249x249x8x8_S249x249x1x1_0_0_2_7 : S249x249x8x8.Slices ![0, 0, 2, 7] S249x249x1x1
  slices_S249x249x8x8_S249x249x1x1_0_0_3_0 : S249x249x8x8.Slices ![0, 0, 3, 0] S249x249x1x1
  slices_S249x249x8x8_S249x249x1x1_0_0_3_1 : S249x249x8x8.Slices ![0, 0, 3, 1] S249x249x1x1
  slices_S249x249x8x8_S249x249x1x1_0_0_3_2 : S249x249x8x8.Slices ![0, 0, 3, 2] S249x249x1x1
  slices_S249x249x8x8_S249x249x1x1_0_0_3_3 : S249x249x8x8.Slices ![0, 0, 3, 3] S249x249x1x1
  slices_S249x249x8x8_S249x249x1x1_0_0_3_4 : S249x249x8x8.Slices ![0, 0, 3, 4] S249x249x1x1
  slices_S249x249x8x8_S249x249x1x1_0_0_3_5 : S249x249x8x8.Slices ![0, 0, 3, 5] S249x249x1x1
  slices_S249x249x8x8_S249x249x1x1_0_0_3_6 : S249x249x8x8.Slices ![0, 0, 3, 6] S249x249x1x1
  slices_S249x249x8x8_S249x249x1x1_0_0_3_7 : S249x249x8x8.Slices ![0, 0, 3, 7] S249x249x1x1
  slices_S249x249x8x8_S249x249x1x1_0_0_4_0 : S249x249x8x8.Slices ![0, 0, 4, 0] S249x249x1x1
  slices_S249x249x8x8_S249x249x1x1_0_0_4_1 : S249x249x8x8.Slices ![0, 0, 4, 1] S249x249x1x1
  slices_S249x249x8x8_S249x249x1x1_0_0_4_2 : S249x249x8x8.Slices ![0, 0, 4, 2] S249x249x1x1
  slices_S249x249x8x8_S249x249x1x1_0_0_4_3 : S249x249x8x8.Slices ![0, 0, 4, 3] S249x249x1x1
  slices_S249x249x8x8_S249x249x1x1_0_0_4_4 : S249x249x8x8.Slices ![0, 0, 4, 4] S249x249x1x1
  slices_S249x249x8x8_S249x249x1x1_0_0_4_5 : S249x249x8x8.Slices ![0, 0, 4, 5] S249x249x1x1
  slices_S249x249x8x8_S249x249x1x1_0_0_4_6 : S249x249x8x8.Slices ![0, 0, 4, 6] S249x249x1x1
  slices_S249x249x8x8_S249x249x1x1_0_0_4_7 : S249x249x8x8.Slices ![0, 0, 4, 7] S249x249x1x1
  slices_S249x249x8x8_S249x249x1x1_0_0_5_0 : S249x249x8x8.Slices ![0, 0, 5, 0] S249x249x1x1
  slices_S249x249x8x8_S249x249x1x1_0_0_5_1 : S249x249x8x8.Slices ![0, 0, 5, 1] S249x249x1x1
  slices_S249x249x8x8_S249x249x1x1_0_0_5_2 : S249x249x8x8.Slices ![0, 0, 5, 2] S249x249x1x1
  slices_S249x249x8x8_S249x249x1x1_0_0_5_3 : S249x249x8x8.Slices ![0, 0, 5, 3] S249x249x1x1
  slices_S249x249x8x8_S249x249x1x1_0_0_5_4 : S249x249x8x8.Slices ![0, 0, 5, 4] S249x249x1x1
  slices_S249x249x8x8_S249x249x1x1_0_0_5_5 : S249x249x8x8.Slices ![0, 0, 5, 5] S249x249x1x1
  slices_S249x249x8x8_S249x249x1x1_0_0_5_6 : S249x249x8x8.Slices ![0, 0, 5, 6] S249x249x1x1
  slices_S249x249x8x8_S249x249x1x1_0_0_5_7 : S249x249x8x8.Slices ![0, 0, 5, 7] S249x249x1x1
  slices_S249x249x8x8_S249x249x1x1_0_0_6_0 : S249x249x8x8.Slices ![0, 0, 6, 0] S249x249x1x1
  slices_S249x249x8x8_S249x249x1x1_0_0_6_1 : S249x249x8x8.Slices ![0, 0, 6, 1] S249x249x1x1
  slices_S249x249x8x8_S249x249x1x1_0_0_6_2 : S249x249x8x8.Slices ![0, 0, 6, 2] S249x249x1x1
  slices_S249x249x8x8_S249x249x1x1_0_0_6_3 : S249x249x8x8.Slices ![0, 0, 6, 3] S249x249x1x1
  slices_S249x249x8x8_S249x249x1x1_0_0_6_4 : S249x249x8x8.Slices ![0, 0, 6, 4] S249x249x1x1
  slices_S249x249x8x8_S249x249x1x1_0_0_6_5 : S249x249x8x8.Slices ![0, 0, 6, 5] S249x249x1x1
  slices_S249x249x8x8_S249x249x1x1_0_0_6_6 : S249x249x8x8.Slices ![0, 0, 6, 6] S249x249x1x1
  slices_S249x249x8x8_S249x249x1x1_0_0_6_7 : S249x249x8x8.Slices ![0, 0, 6, 7] S249x249x1x1
  slices_S249x249x8x8_S249x249x1x1_0_0_7_0 : S249x249x8x8.Slices ![0, 0, 7, 0] S249x249x1x1
  slices_S249x249x8x8_S249x249x1x1_0_0_7_1 : S249x249x8x8.Slices ![0, 0, 7, 1] S249x249x1x1
  slices_S249x249x8x8_S249x249x1x1_0_0_7_2 : S249x249x8x8.Slices ![0, 0, 7, 2] S249x249x1x1
  slices_S249x249x8x8_S249x249x1x1_0_0_7_3 : S249x249x8x8.Slices ![0, 0, 7, 3] S249x249x1x1
  slices_S249x249x8x8_S249x249x1x1_0_0_7_4 : S249x249x8x8.Slices ![0, 0, 7, 4] S249x249x1x1
  slices_S249x249x8x8_S249x249x1x1_0_0_7_5 : S249x249x8x8.Slices ![0, 0, 7, 5] S249x249x1x1
  slices_S249x249x8x8_S249x249x1x1_0_0_7_6 : S249x249x8x8.Slices ![0, 0, 7, 6] S249x249x1x1
  slices_S249x249x8x8_S249x249x1x1_0_0_7_7 : S249x249x8x8.Slices ![0, 0, 7, 7] S249x249x1x1
  bcast_S256x256_S1x256x256_1_2 : S256x256.BroadcastsInDim S1x256x256 (![1, 2] : Fin 2 → Fin S1x256x256.rank)
  bcast_S1x256x256_S16x256x256_0_1_2 : S1x256x256.BroadcastsInDim S16x256x256 (![0, 1, 2] : Fin 3 → Fin S16x256x256.rank)
  shapeCasts_S16x256x256_S2x8x256x256 : S16x256x256.ShapeCasts S2x8x256x256
  scatter_S16x62001x64_S62001x1_S16x62001x64_02_1_1_1_wf : ScatterDims.WF S16x62001x64 S62001x1 S16x62001x64 [0, 2] [1] [1] 1
  scatter_S16x256x256_S2_S16x249x249_012_n_12_0_wf : ScatterDims.WF S16x256x256 S2 S16x249x249 [0, 1, 2] [] [1, 2] 0
  scatter_S62001x64_S62001x1_S62001x64_1_0_0_1_wf : ScatterDims.WF S62001x64 S62001x1 S62001x64 [1] [0] [0] 1
  scatter_S256x256_S2_S249x249_01_n_01_0_wf : ScatterDims.WF S256x256 S2 S249x249 [0, 1] [] [0, 1] 0

variable [Facts₀]

def scatter_S16x62001x64_S62001x1_S16x62001x64_02_1_1_1 : ScatterDims S16x62001x64 S62001x1 S16x62001x64 where
  updateWindowDims := [0, 2]
  insertedWindowDims := [1]
  scatterDimsToOperandDims := [1]
  indexVectorDim := 1
  wf := scatter_S16x62001x64_S62001x1_S16x62001x64_02_1_1_1_wf
def scatter_S16x256x256_S2_S16x249x249_012_n_12_0 : ScatterDims S16x256x256 S2 S16x249x249 where
  updateWindowDims := [0, 1, 2]
  insertedWindowDims := []
  scatterDimsToOperandDims := [1, 2]
  indexVectorDim := 0
  wf := scatter_S16x256x256_S2_S16x249x249_012_n_12_0_wf
def scatter_S62001x64_S62001x1_S62001x64_1_0_0_1 : ScatterDims S62001x64 S62001x1 S62001x64 where
  updateWindowDims := [1]
  insertedWindowDims := [0]
  scatterDimsToOperandDims := [0]
  indexVectorDim := 1
  wf := scatter_S62001x64_S62001x1_S62001x64_1_0_0_1_wf
def scatter_S256x256_S2_S249x249_01_n_01_0 : ScatterDims S256x256 S2 S249x249 where
  updateWindowDims := [0, 1]
  insertedWindowDims := []
  scatterDimsToOperandDims := [0, 1]
  indexVectorDim := 0
  wf := scatter_S256x256_S2_S249x249_01_n_01_0_wf

class Facts : Prop extends Facts₀ where

variable [Facts]
-- ==== Proof.FoldSpec.lean ====
/-
  The overlap-add fold, stated once for both programs.

  A patch array `X` of shape [249, 249, 64] holds, for every window position (a, b) of a 256 × 256 image under an
  8 × 8 patch, the 64 patch entries; entry k = 8 i + j of position (a, b) lands on pixel (a + i, b + j). The folded
  image at pixel (y, x) is the sum over the offsets k of the entry of position (y - i, x - j), where that position
  exists. Both programs build this sum by adding whole rectangular slabs into an image that starts at zero: the
  reference one offset at a time (64 slabs of 249 × 249), the kernel one offset of one band of 83 window rows at a
  time (192 slabs of 83 × 249). `addWin` is one such addition, `accR` and `accK` the two orders of accumulation, and
  `fold` the sum they both reach. All of it is over the extended reals, whose addition is a commutative monoid, so no
  finiteness is used anywhere.
-/
import Idealize.ShloMosaic.PureOps.Ideal
import Idealize.ShloMosaic.Lib.ValueIdx
import Mathlib.Algebra.BigOperators.Fin

noncomputable section

namespace Cert.FoldSpec

open Idealize.ShloMosaic Idealize.ShloMosaic.ValueIdx

abbrev SImg : Shape := ⟨2, ![256, 256]⟩
abbrev SPatch : Shape := ⟨3, ![249, 249, 64]⟩

/-- The patch array read at natural-number coordinates: zero outside the array. -/
def ext (X : SPatch.Idx → EReal) (a b k : ℕ) : EReal :=
  if h : a < 249 ∧ b < 249 ∧ k < 64 then X (ix3 ⟨a, h.1⟩ ⟨b, h.2.1⟩ ⟨k, h.2.2⟩) else 0

/-- One overlap-add: the slab `S`, of `nr` rows and `nc` columns, added into the image `A` with its corner at
    pixel (r0, c0); pixels outside the slab keep their value. -/
def addWin (A : SImg.Idx → EReal) (r0 c0 nr nc : ℕ) (S : ℕ → ℕ → EReal) : SImg.Idx → EReal := fun p =>
  if r0 ≤ (p 0).val ∧ (p 0).val < r0 + nr ∧ c0 ≤ (p 1).val ∧ (p 1).val < c0 + nc
  then A p + S ((p 0).val - r0) ((p 1).val - c0) else A p

/-- The reference's order: after `n` offsets, offset k = 8 i + j adding the whole 249 × 249 slab at corner (i, j). -/
def accR (X : SPatch.Idx → EReal) : ℕ → SImg.Idx → EReal
  | 0 => fun _ => 0
  | n + 1 => addWin (accR X n) (n / 8) (n % 8) 249 249 (fun a b => ext X a b n)

/-- The kernel's order: step s = 64 r + k adds offset k of the band of window rows [83 r, 83 r + 83), a slab of
    83 × 249 at corner (83 r + i, j). -/
def accK (X : SPatch.Idx → EReal) : ℕ → SImg.Idx → EReal
  | 0 => fun _ => 0
  | s + 1 => addWin (accK X s) (83 * (s / 64) + (s % 64) / 8) ((s % 64) % 8) 83 249
      (fun a b => ext X (83 * (s / 64) + a) b (s % 64))

/-- What offset k contributes to pixel (y, x). -/
def term (X : SPatch.Idx → EReal) (k y x : ℕ) : EReal :=
  if k / 8 ≤ y ∧ y < k / 8 + 249 ∧ k % 8 ≤ x ∧ x < k % 8 + 249 then ext X (y - k / 8) (x - k % 8) k else 0

/-- The folded image. -/
def fold (X : SPatch.Idx → EReal) : SImg.Idx → EReal := fun p =>
  ∑ k ∈ Finset.range 64, term X k (p 0).val (p 1).val

end Cert.FoldSpec

end
-- ==== Proof.FoldBatch.lean ====
/-
  The batch of images and the slabs the reference scatters, read at natural-number coordinates.

  The reference folds a batch of 16 images at once: every slab it adds is a [16, 249, 249] array, one 249 × 249 slab
  per image, and the overlap counts are folded separately as one image with [249, 249] slabs. `item` takes one image
  out of the batch; `ext2` and `ext3` read a slab at natural-number coordinates, zero outside it, which is the form
  `addWin` takes its slab in.
-/
import proofs.«116354_j4801773436971_2_alg».proof.Proof.FoldSpec

noncomputable section

namespace Cert.FoldSpec

open Idealize.ShloMosaic Idealize.ShloMosaic.ValueIdx

abbrev SImgs : Shape := ⟨3, ![16, 256, 256]⟩
abbrev SUpd3 : Shape := ⟨3, ![16, 249, 249]⟩
abbrev SUpd2 : Shape := ⟨2, ![249, 249]⟩
abbrev SIx2 : Shape := ⟨1, ![2]⟩

/-- Image `n` of a batch. -/
def item (A : SImgs.Idx → EReal) (n : Fin 16) : SImg.Idx → EReal := fun p =>
  A (ix3 n ⟨(p 0).val, idx2_lt0 p⟩ ⟨(p 1).val, idx2_lt1 p⟩)

/-- A 249 × 249 slab at natural-number coordinates, zero outside. -/
def ext2 (U : SUpd2.Idx → EReal) (a b : ℕ) : EReal :=
  if h : a < 249 ∧ b < 249 then U (ix2 ⟨a, h.1⟩ ⟨b, h.2⟩) else 0

/-- Image `n`'s slab of a batch of slabs, at natural-number coordinates, zero outside. -/
def ext3 (U : SUpd3.Idx → EReal) (n : Fin 16) (a b : ℕ) : EReal :=
  if h : a < 249 ∧ b < 249 then U (ix3 n ⟨a, h.1⟩ ⟨b, h.2⟩) else 0

abbrev SPatches : Shape := ⟨4, ![16, 249, 249, 64]⟩
abbrev SPatches5 : Shape := ⟨5, ![16, 249, 249, 8, 8]⟩
abbrev SPatch4 : Shape := ⟨4, ![249, 249, 8, 8]⟩

/-- Image `n`'s patch array, out of the batch laid out [16, 249, 249, 64]. -/
def patch4 (P : SPatches.Idx → EReal) (n : Fin 16) : SPatch.Idx → EReal := fun q =>
  P (ix4 n ⟨(q 0).val, (q 0).isLt⟩ ⟨(q 1).val, (q 1).isLt⟩ ⟨(q 2).val, (q 2).isLt⟩)

/-- The same out of the batch laid out [16, 249, 249, 8, 8]: entry k = 8 i + j is at (i, j). -/
def patch5 (P : SPatches5.Idx → EReal) (n : Fin 16) : SPatch.Idx → EReal := fun q =>
  P (ix5 n ⟨(q 0).val, (q 0).isLt⟩ ⟨(q 1).val, (q 1).isLt⟩ ⟨(q 2).val / 8, by have h : (q 2).val < 64 := (q 2).isLt; omega⟩
    ⟨(q 2).val % 8, Nat.mod_lt _ (by decide)⟩)

/-- The counts' patch array laid out [249, 249, 8, 8], as [249, 249, 64]. -/
def patchQ4 (Q : SPatch4.Idx → EReal) : SPatch.Idx → EReal := fun q =>
  Q (ix4 ⟨(q 0).val, (q 0).isLt⟩ ⟨(q 1).val, (q 1).isLt⟩ ⟨(q 2).val / 8, by have h : (q 2).val < 64 := (q 2).isLt; omega⟩
    ⟨(q 2).val % 8, Nat.mod_lt _ (by decide)⟩)

/-- The pixel (y, x) of an image index. -/
def pix (q : SImgs.Idx) : SImg.Idx := ix2 ⟨(q 1).val, (q 1).isLt⟩ ⟨(q 2).val, (q 2).isLt⟩

/-- What both programs compute before their common last reshape: image n's fold over the counts' fold, pixel by
    pixel (the quotient of the extended reals, whatever the counts are). `X n` is image n's patch array, `Q` the
    counts' patch array. -/
def normed (X : Fin 16 → SPatch.Idx → EReal) (Q : SPatch.Idx → EReal) : SImgs.Idx → EReal := fun q =>
  Ideal.div (fold (X ⟨(q 0).val, (q 0).isLt⟩) (pix q)) (fold Q (pix q))

end Cert.FoldSpec

end
-- ==== Proof.BandStep.lean ====
/-
  One step of the kernel's accumulation, and the slab it adds.

  A store through a rectangle R of an array with contents A and payload w leaves `R.overlay A w`: w on the
  rectangle (read through the rectangle's embedding), A off it. When R has unit strides, corner (r0, c0) and
  extent nr × nc, and the payload at the rectangle's own index x is what was there plus a slab entry S (x 0) (x 1),
  this is the overlap-add `addWin A r0 c0 nr nc S`: a pixel of the rectangle is (r0 + x 0, c0 + x 1), so its own
  index is recovered by subtracting the corner, and a pixel inside the window r0 ≤ y < r0 + nr, c0 ≤ x < c0 + nc is
  a pixel of the rectangle. The same holds for an image kept as a batch of one, [1, 256, 256], with rectangles
  [1, nr, nc].

  The slab of offset k is cut out of a band's chunk v of shape [1, 83, 249, 64] by dropping the unit axis, moving the
  offset axis to the front ([83, 249, 64] to [64, 83, 249]), taking the unit slice at k and dropping its unit axis;
  read at (a, b) it is v (0, a, b, k). Each of the four layout operations is read at an index through the operand
  index with the same row-major position (reshapes), the permuted coordinates (transpose) or the shifted
  coordinates (slice).
-/
import proofs.«116354_j4801773436971_2_alg».proof.Proof.FoldBatch
import Idealize.ShloMosaic.Lib.Pipeline.Value
import Idealize.ShloMosaic.Lib.Memref

noncomputable section

namespace Cert.FoldSpec

open Idealize.ShloMosaic Idealize.ShloMosaic.ValueIdx

abbrev SImg1 : Shape := ⟨3, ![1, 256, 256]⟩

/-- An image seen as a batch of one. -/
def lift1 (A : SImg.Idx → EReal) : SImg1.Idx → EReal := fun q => A (ix2 ⟨(q 1).val, (q 1).isLt⟩ ⟨(q 2).val, (q 2).isLt⟩)

/-- A store of "what was there plus a slab" through a unit-stride rectangle is the overlap-add of the slab at the
    rectangle's corner. -/
theorem overlay_eq_addWin (A : SImg.Idx → EReal) (R : Rect SImg) (r0 c0 nr nc : ℕ)
    (ho0 : R.off 0 = r0) (ho1 : R.off 1 = c0) (hs0 : R.size 0 = nr) (hs1 : R.size 1 = nc) (hst : ∀ a, R.stride a = 1)
    (w : R.shape.Idx → EReal) (S : ℕ → ℕ → EReal) (hw : ∀ x : R.shape.Idx, w x = A (R.emb x) + S (x 0).val (x 1).val) :
    R.overlay A w = addWin A r0 c0 nr nc S := by
  funext p
  by_cases hp : p ∈ R.set
  · -- a pixel of the rectangle: (r0 + x 0, c0 + x 1)
    obtain ⟨x, rfl⟩ := R.exists_idx_of_mem hp
    change R.overlay A w (R.emb x) = addWin A r0 c0 nr nc S (R.emb x)
    rw [Rect.overlay_emb, hw]
    have l0 : (x 0).val < R.size 0 := (x 0).isLt
    have l1 : (x 1).val < R.size 1 := (x 1).isLt
    have e0 : (R.emb x 0).val = r0 + (x 0).val := by rw [Rect.emb_apply, hst, ho0, Nat.one_mul]
    have e1 : (R.emb x 1).val = c0 + (x 1).val := by rw [Rect.emb_apply, hst, ho1, Nat.one_mul]
    have a0 : (R.emb x 0).val - r0 = (x 0).val := by omega
    have a1 : (R.emb x 1).val - c0 = (x 1).val := by omega
    unfold addWin
    rw [if_pos ⟨by omega, by omega, by omega, by omega⟩, a0, a1]
  · -- a pixel off the rectangle is outside the window
    rw [Rect.overlay_of_not_mem R A w hp]
    unfold addWin
    rw [if_neg]
    intro hwin
    apply hp
    rw [LoadRect.mem_set]
    intro a
    match a with
    | ⟨0, _⟩ =>
      refine ⟨(p 0).val - r0, ?_, ?_⟩
      · show (p 0).val - r0 < R.size 0
        omega
      · show (p 0).val = R.off 0 + R.stride 0 * ((p 0).val - r0)
        rw [hst, ho0]; omega
    | ⟨1, _⟩ =>
      refine ⟨(p 1).val - c0, ?_, ?_⟩
      · show (p 1).val - c0 < R.size 1
        omega
      · show (p 1).val = R.off 1 + R.stride 1 * ((p 1).val - c0)
        rw [hst, ho1]; omega

/-- The same for an image kept as a batch of one, stored through a [1, nr, nc] rectangle. -/
theorem overlay1_eq_addWin (A : SImg.Idx → EReal) (R : Rect SImg1) (r0 c0 nr nc : ℕ)
    (ho0 : R.off 0 = 0) (ho1 : R.off 1 = r0) (ho2 : R.off 2 = c0) (hs0 : R.size 0 = 1) (hs1 : R.size 1 = nr)
    (hs2 : R.size 2 = nc) (hst : ∀ a, R.stride a = 1)
    (w : R.shape.Idx → EReal) (S : ℕ → ℕ → EReal)
    (hw : ∀ x : R.shape.Idx, w x = lift1 A (R.emb x) + S (x 1).val (x 2).val) :
    R.overlay (lift1 A) w = lift1 (addWin A r0 c0 nr nc S) := by
  funext p
  by_cases hp : p ∈ R.set
  · obtain ⟨x, rfl⟩ := R.exists_idx_of_mem hp
    change R.overlay (lift1 A) w (R.emb x) = lift1 (addWin A r0 c0 nr nc S) (R.emb x)
    rw [Rect.overlay_emb, hw]
    have l1 : (x 1).val < R.size 1 := (x 1).isLt
    have l2 : (x 2).val < R.size 2 := (x 2).isLt
    have e1 : (R.emb x 1).val = r0 + (x 1).val := by rw [Rect.emb_apply, hst, ho1, Nat.one_mul]
    have e2 : (R.emb x 2).val = c0 + (x 2).val := by rw [Rect.emb_apply, hst, ho2, Nat.one_mul]
    have a1 : (R.emb x 1).val - r0 = (x 1).val := by omega
    have a2 : (R.emb x 2).val - c0 = (x 2).val := by omega
    unfold lift1 addWin
    show A _ + S (x 1).val (x 2).val
      = if r0 ≤ (R.emb x 1).val ∧ (R.emb x 1).val < r0 + nr ∧ c0 ≤ (R.emb x 2).val ∧ (R.emb x 2).val < c0 + nc
        then A _ + S ((R.emb x 1).val - r0) ((R.emb x 2).val - c0) else A _
    rw [if_pos ⟨by omega, by omega, by omega, by omega⟩, a1, a2]
  · rw [Rect.overlay_of_not_mem R (lift1 A) w hp]
    unfold lift1 addWin
    show A _ = if r0 ≤ (p 1).val ∧ (p 1).val < r0 + nr ∧ c0 ≤ (p 2).val ∧ (p 2).val < c0 + nc
        then A _ + S ((p 1).val - r0) ((p 2).val - c0) else A _
    rw [if_neg]
    intro hwin
    apply hp
    rw [LoadRect.mem_set]
    intro a
    match a with
    | ⟨0, _⟩ =>
      have hp0 : (p 0).val < 1 := (p 0).isLt
      refine ⟨0, ?_, ?_⟩
      · show 0 < R.size 0
        omega
      · show (p 0).val = R.off 0 + R.stride 0 * 0
        rw [ho0]; omega
    | ⟨1, _⟩ =>
      refine ⟨(p 1).val - r0, ?_, ?_⟩
      · show (p 1).val - r0 < R.size 1
        omega
      · show (p 1).val = R.off 1 + R.stride 1 * ((p 1).val - r0)
        rw [hst, ho1]; omega
    | ⟨2, _⟩ =>
      refine ⟨(p 2).val - c0, ?_, ?_⟩
      · show (p 2).val - c0 < R.size 2
        omega
      · show (p 2).val = R.off 2 + R.stride 2 * ((p 2).val - c0)
        rw [hst, ho2]; omega

abbrev SChunk1 : Shape := ⟨4, ![1, 83, 249, 64]⟩
abbrev SChunk : Shape := ⟨3, ![83, 249, 64]⟩
abbrev SChunkT : Shape := ⟨3, ![64, 83, 249]⟩
abbrev SSlab1 : Shape := ⟨3, ![1, 83, 249]⟩
abbrev SSlab : Shape := ⟨2, ![83, 249]⟩

/-- The unit slice at offset k of the transposed chunk, read at (z, a, b) with z the unit coordinate, is the chunk at
    (0, a, b, k). -/
theorem slab1_apply (v : SChunk1.Idx → EReal) (h1 : SChunk1.ShapeCasts SChunk) (h2 : SChunk.Transposes [2, 0, 1] SChunkT)
    (kk : ℕ) (hk : kk < 64) (hs : SChunkT.Slices ![kk, 0, 0] SSlab1) (z : Fin 1) (a : Fin 83) (b : Fin 249) :
    extractStridedSlice SSlab1 ![kk, 0, 0] (transpose SChunkT [2, 0, 1] (shapeCast SChunk v h1) h2) hs (ix3 z a b)
      = v (ix4 0 a b ⟨kk, hk⟩) := by
  have hz : z.val < 1 := z.isLt
  -- the slice at (k, 0, 0): [1, 83, 249] at (z, a, b) reads [64, 83, 249] at (k, a, b)
  refine (extractStridedSlice_apply _ _ hs (ix3 z a b) (ix3 (⟨kk, hk⟩ : Fin 64) a b) (fun c => match c with
    | ⟨0, _⟩ => by show kk = kk + z.val; omega
    | ⟨1, _⟩ => by show a.val = 0 + a.val; omega
    | ⟨2, _⟩ => by show b.val = 0 + b.val; omega)).trans ?_
  -- the transpose [2, 0, 1]: [64, 83, 249] at (k, a, b) reads [83, 249, 64] at (a, b, k)
  refine (transpose_apply _ _ h2 (ix3 (⟨kk, hk⟩ : Fin 64) a b) (ix3 a b (⟨kk, hk⟩ : Fin 64)) (fun c => match c with
    | ⟨0, _⟩ => rfl
    | ⟨1, _⟩ => rfl
    | ⟨2, _⟩ => rfl)).trans ?_
  -- the reshape dropping the unit axis: [83, 249, 64] at (a, b, k) reads [1, 83, 249, 64] at (0, a, b, k)
  exact shapeCast_apply v h1 (ix3 a b (⟨kk, hk⟩ : Fin 64)) (ix4 0 a b ⟨kk, hk⟩) (by
    rw [Shape.rowMajor_val_four, Shape.rowMajor_val_three]
    show ((0 * 83 + a.val) * 249 + b.val) * 64 + kk = (a.val * 249 + b.val) * 64 + kk
    omega)

/-- The slab of offset k, its unit axis dropped, read at (a, b) is the chunk at (0, a, b, k). -/
theorem slab_apply (v : SChunk1.Idx → EReal) (h1 : SChunk1.ShapeCasts SChunk) (h2 : SChunk.Transposes [2, 0, 1] SChunkT)
    (kk : ℕ) (hk : kk < 64) (hs : SChunkT.Slices ![kk, 0, 0] SSlab1) (hc : SSlab1.ShapeCasts SSlab)
    (a : Fin 83) (b : Fin 249) :
    shapeCast SSlab (extractStridedSlice SSlab1 ![kk, 0, 0] (transpose SChunkT [2, 0, 1] (shapeCast SChunk v h1) h2) hs)
        hc (ix2 a b)
      = v (ix4 0 a b ⟨kk, hk⟩) := by
  -- the reshape dropping the unit axis: [83, 249] at (a, b) reads [1, 83, 249] at (0, a, b)
  refine (shapeCast_apply _ hc (ix2 a b) (ix3 (0 : Fin 1) a b) (by
    rw [Shape.rowMajor_val_three, Shape.rowMajor_val_two]
    show (0 * 83 + a.val) * 249 + b.val = a.val * 249 + b.val
    omega)).trans ?_
  exact slab1_apply v h1 h2 kk hk hs 0 a b

end Cert.FoldSpec

end
-- ==== Proof.FoldAlgebra.lean ====
/-
  The two orders of accumulation reach the fold.

  Each accumulation adds one rectangular slab per step into an image that starts at zero, so at a fixed pixel the
  image after n steps is the sum over the first n steps of what each step contributes to that pixel (a step whose slab
  misses the pixel contributes zero). For the reference's order the contribution of step k is by definition the term
  of offset k, and 64 steps give the fold. For the kernel's order step t = 64 r + k contributes the entry of offset k
  when the pixel's row lies in the band [83 r + i, 83 r + i + 83) (i = k / 8) and its column in [j, j + 249)
  (j = k % 8); the 192 steps split into the three bands r = 0, 1, 2, and since the three row bands tile
  [i, i + 249) exactly, for each offset k exactly one band contributes when the term of offset k is present and none
  otherwise. Addition on the extended reals is a commutative monoid, which is all the regrouping uses.
-/
import proofs.«116354_j4801773436971_2_alg».proof.Proof.FoldSpec

noncomputable section

namespace Cert.FoldSpec

open Idealize.ShloMosaic Idealize.ShloMosaic.ValueIdx

/-- After n steps of the reference's order a pixel holds the sum of the first n offset terms. -/
theorem accR_apply (X : SPatch.Idx → EReal) (n : ℕ) (p : SImg.Idx) :
    accR X n p = ∑ k ∈ Finset.range n, term X k (p 0).val (p 1).val := by
  induction n with
  | zero => simp [accR]
  | succ n ih =>
    rw [Finset.sum_range_succ, ← ih]
    show addWin (accR X n) (n / 8) (n % 8) 249 249 (fun a b => ext X a b n) p = _
    unfold addWin term
    by_cases h : n / 8 ≤ (p 0).val ∧ (p 0).val < n / 8 + 249 ∧ n % 8 ≤ (p 1).val ∧ (p 1).val < n % 8 + 249
    · rw [if_pos h, if_pos h]
    · rw [if_neg h, if_neg h, add_zero]

theorem accR_eq_fold (X : SPatch.Idx → EReal) : accR X 64 = fold X := by
  funext p
  rw [accR_apply]
  rfl

/-- What step t = 64 r + k of the kernel's order contributes to pixel (y, x). -/
def termK (X : SPatch.Idx → EReal) (t y x : ℕ) : EReal :=
  if 83 * (t / 64) + (t % 64) / 8 ≤ y ∧ y < 83 * (t / 64) + (t % 64) / 8 + 83
      ∧ (t % 64) % 8 ≤ x ∧ x < (t % 64) % 8 + 249
  then ext X (y - (t % 64) / 8) (x - (t % 64) % 8) (t % 64) else 0

/-- After s steps of the kernel's order a pixel holds the sum of the first s step contributions. -/
theorem accK_apply (X : SPatch.Idx → EReal) (s : ℕ) (p : SImg.Idx) :
    accK X s p = ∑ t ∈ Finset.range s, termK X t (p 0).val (p 1).val := by
  induction s with
  | zero => simp [accK]
  | succ s ih =>
    rw [Finset.sum_range_succ, ← ih]
    show addWin (accK X s) (83 * (s / 64) + (s % 64) / 8) ((s % 64) % 8) 83 249
      (fun a b => ext X (83 * (s / 64) + a) b (s % 64)) p = _
    unfold addWin termK
    by_cases h : 83 * (s / 64) + (s % 64) / 8 ≤ (p 0).val ∧ (p 0).val < 83 * (s / 64) + (s % 64) / 8 + 83
        ∧ (s % 64) % 8 ≤ (p 1).val ∧ (p 1).val < (s % 64) % 8 + 249
    · rw [if_pos h, if_pos h]
      have e : 83 * (s / 64) + ((p 0).val - (83 * (s / 64) + (s % 64) / 8)) = (p 0).val - (s % 64) / 8 := by
        omega
      beta_reduce
      rw [e]
    · rw [if_neg h, if_neg h, add_zero]

/-- Step 64 r + k with k < 64 is offset k of band r. -/
theorem termK_band (X : SPatch.Idx → EReal) (r k y x : ℕ) (hk : k < 64) :
    termK X (64 * r + k) y x =
      if 83 * r + k / 8 ≤ y ∧ y < 83 * r + k / 8 + 83 ∧ k % 8 ≤ x ∧ x < k % 8 + 249
      then ext X (y - k / 8) (x - k % 8) k else 0 := by
  have h1 : (64 * r + k) / 64 = r := by omega
  have h2 : (64 * r + k) % 64 = k := by omega
  unfold termK
  rw [h1, h2]

/-- The three bands of offset k together give the term of offset k. -/
theorem bands_eq_term (X : SPatch.Idx → EReal) (k y x : ℕ) (hk : k < 64) :
    termK X k y x + termK X (64 + k) y x + termK X (128 + k) y x = term X k y x := by
  have e0 := termK_band X 0 k y x hk
  have e1 := termK_band X 1 k y x hk
  have e2 := termK_band X 2 k y x hk
  simp only [Nat.mul_zero, Nat.mul_one, Nat.zero_add] at e0 e1 e2
  rw [e0, e1, e2]
  unfold term
  by_cases hx : k % 8 ≤ x ∧ x < k % 8 + 249
  · by_cases h0 : k / 8 ≤ y ∧ y < k / 8 + 83
    · rw [if_pos (by omega), if_neg (by omega), if_neg (by omega), if_pos (by omega), add_zero, add_zero]
    · by_cases h1 : 83 + k / 8 ≤ y ∧ y < 83 + k / 8 + 83
      · rw [if_neg (by omega), if_pos (by omega), if_neg (by omega), if_pos (by omega), zero_add, add_zero]
      · by_cases h2 : 166 + k / 8 ≤ y ∧ y < 166 + k / 8 + 83
        · rw [if_neg (by omega), if_neg (by omega), if_pos (by omega), if_pos (by omega), zero_add, zero_add]
        · rw [if_neg (by omega), if_neg (by omega), if_neg (by omega), if_neg (by omega), add_zero, add_zero]
  · rw [if_neg (by omega), if_neg (by omega), if_neg (by omega), if_neg (by omega), add_zero, add_zero]

theorem accK_eq_fold (X : SPatch.Idx → EReal) : accK X 192 = fold X := by
  funext p
  rw [accK_apply]
  show ∑ t ∈ Finset.range (64 + 64 + 64), termK X t (p 0).val (p 1).val = _
  rw [Finset.sum_range_add, Finset.sum_range_add, ← Finset.sum_add_distrib, ← Finset.sum_add_distrib]
  unfold fold
  apply Finset.sum_congr rfl
  intro k hk
  have hk' : k < 64 := Finset.mem_range.mp hk
  have e : 64 + 64 + k = 128 + k := by omega
  rw [e]
  exact bands_eq_term X k _ _ hk'

end Cert.FoldSpec

end
-- ==== Proof.BandChain.lean ====
/-
  The image buffer after a body's stores, as the accumulation.

  A body's stores into the image buffer arrive as a list of pieces, last store first. The first store writes zeros over
  the whole image; every later one writes, through a unit-stride rectangle with corner (r0 s, c0 s) and nr × nc
  entries, what the buffer held there after the earlier stores plus a slab. What the list leaves, its canonical
  contents, is then the accumulation `accG` (start at zero, add slab s at corner (r0 s, c0 s) for each step s): by
  induction along the list, each step being one overlap-add. With the kernel's corners and slabs `accG` is the
  kernel's order of accumulation `accK`, and 192 steps give the fold. The second kernel keeps the image as a batch
  of one and ends with one more store over the whole buffer, the quotient by a second image, so it leaves the
  quotient of the fold by that image, pixel by pixel.
-/
import proofs.«116354_j4801773436971_2_alg».proof.Proof.BandStep
import proofs.«116354_j4801773436971_2_alg».proof.Proof.FoldAlgebra
import Idealize.ShloMosaic.Lib.Pipeline.FrameBody

noncomputable section

namespace Cert.FoldSpec

open Idealize.ShloMosaic Idealize.ShloMosaic.ValueIdx

/-- The general accumulation: step s adds slab s at corner (r0 s, c0 s). -/
def accG (r0 c0 : ℕ → ℕ) (nr nc : ℕ) (slab : ℕ → ℕ → ℕ → EReal) : ℕ → SImg.Idx → EReal
  | 0 => fun _ => 0
  | s + 1 => addWin (accG r0 c0 nr nc slab s) (r0 s) (c0 s) nr nc (slab s)

/-- A list of stores (last first) that starts with zeros over the whole image and then, step by step, stores what was
    there plus slab s through the rectangle with corner (r0 s, c0 s). -/
inductive Chain (r0 c0 : ℕ → ℕ) (nr nc : ℕ) (slab : ℕ → ℕ → ℕ → EReal) :
    ℕ → List (View.Piece (Elt Ideal) SImg .f32) → Prop
  | zero (R : Rect SImg) (w : R.shape.Idx → EReal) (hR : ∀ y : SImg.Idx, y ∈ R.set) (hw : ∀ x, w x = 0) :
      Chain r0 c0 nr nc slab 0 [⟨R, w⟩]
  | step {s : ℕ} {L : List (View.Piece (Elt Ideal) SImg .f32)} (h : Chain r0 c0 nr nc slab s L) (R : Rect SImg)
      (w : R.shape.Idx → EReal)
      (ho0 : R.off 0 = r0 s) (ho1 : R.off 1 = c0 s) (hs0 : R.size 0 = nr) (hs1 : R.size 1 = nc)
      (hst : ∀ a, R.stride a = 1)
      (hw : ∀ x : R.shape.Idx, w x = View.canon L (R.emb x) + slab s (x 0).val (x 1).val) :
      Chain r0 c0 nr nc slab (s + 1) (⟨R, w⟩ :: L)

/-- What such a list leaves is the accumulation. -/
theorem Chain.canon_eq {r0 c0 : ℕ → ℕ} {nr nc : ℕ} {slab : ℕ → ℕ → ℕ → EReal} {s : ℕ}
    {L : List (View.Piece (Elt Ideal) SImg .f32)} (h : Chain r0 c0 nr nc slab s L) :
    View.canon L = accG r0 c0 nr nc slab s := by
  induction h with
  | zero R w hR hw =>
    -- zeros over the whole image: every pixel is a pixel of the rectangle
    funext y
    obtain ⟨x, rfl⟩ := R.exists_idx_of_mem (hR y)
    show View.canon [(⟨R, w⟩ : View.Piece (Elt Ideal) SImg .f32)] (R.emb x) = 0
    rw [View.canon_cons_emb, hw]
  | @step s L h R w ho0 ho1 hs0 hs1 hst hw ih =>
    -- one more store: an overlay of the earlier contents, which is one overlap-add
    rw [View.canon_cons, ih]
    rw [ih] at hw
    exact overlay_eq_addWin (accG r0 c0 nr nc slab s) R (r0 s) (c0 s) nr nc ho0 ho1 hs0 hs1 hst w (slab s) hw

/-- The kernel's corners and slabs: band r = s / 64 of 83 window rows, offset k = s % 64. -/
def kr0 (s : ℕ) : ℕ := 83 * (s / 64) + (s % 64) / 8
def kc0 (s : ℕ) : ℕ := (s % 64) % 8
def kslab (X : SPatch.Idx → EReal) (s a b : ℕ) : EReal := ext X (83 * (s / 64) + a) b (s % 64)

/-- With the kernel's corners and slabs the general accumulation is the kernel's order. -/
theorem accG_kernel (X : SPatch.Idx → EReal) (s : ℕ) : accG kr0 kc0 83 249 (kslab X) s = accK X s := by
  induction s with
  | zero => rfl
  | succ s ih =>
    show addWin (accG kr0 kc0 83 249 (kslab X) s) (kr0 s) (kc0 s) 83 249 (kslab X s)
      = addWin (accK X s) (83 * (s / 64) + (s % 64) / 8) ((s % 64) % 8) 83 249
          (fun a b => ext X (83 * (s / 64) + a) b (s % 64))
    rw [ih]
    rfl

/-- The kernel's 192 stores leave the fold. -/
theorem Chain.fold {X : SPatch.Idx → EReal} {L : List (View.Piece (Elt Ideal) SImg .f32)}
    (h : Chain kr0 kc0 83 249 (kslab X) 192 L) : View.canon L = fold X := by
  rw [h.canon_eq, accG_kernel, accK_eq_fold]

/-- The same list of stores into an image kept as a batch of one. -/
inductive Chain1 (r0 c0 : ℕ → ℕ) (nr nc : ℕ) (slab : ℕ → ℕ → ℕ → EReal) :
    ℕ → List (View.Piece (Elt Ideal) SImg1 .f32) → Prop
  | zero (R : Rect SImg1) (w : R.shape.Idx → EReal) (hR : ∀ y : SImg1.Idx, y ∈ R.set) (hw : ∀ x, w x = 0) :
      Chain1 r0 c0 nr nc slab 0 [⟨R, w⟩]
  | step {s : ℕ} {L : List (View.Piece (Elt Ideal) SImg1 .f32)} (h : Chain1 r0 c0 nr nc slab s L) (R : Rect SImg1)
      (w : R.shape.Idx → EReal)
      (ho0 : R.off 0 = 0) (ho1 : R.off 1 = r0 s) (ho2 : R.off 2 = c0 s)
      (hs0 : R.size 0 = 1) (hs1 : R.size 1 = nr) (hs2 : R.size 2 = nc) (hst : ∀ a, R.stride a = 1)
      (hw : ∀ x : R.shape.Idx, w x = View.canon L (R.emb x) + slab s (x 1).val (x 2).val) :
      Chain1 r0 c0 nr nc slab (s + 1) (⟨R, w⟩ :: L)

/-- What it leaves is the accumulation, as a batch of one. -/
theorem Chain1.canon_eq {r0 c0 : ℕ → ℕ} {nr nc : ℕ} {slab : ℕ → ℕ → ℕ → EReal} {s : ℕ}
    {L : List (View.Piece (Elt Ideal) SImg1 .f32)} (h : Chain1 r0 c0 nr nc slab s L) :
    View.canon L = lift1 (accG r0 c0 nr nc slab s) := by
  induction h with
  | zero R w hR hw =>
    funext y
    obtain ⟨x, rfl⟩ := R.exists_idx_of_mem (hR y)
    show View.canon [(⟨R, w⟩ : View.Piece (Elt Ideal) SImg1 .f32)] (R.emb x) = 0
    rw [View.canon_cons_emb, hw]
  | @step s L h R w ho0 ho1 ho2 hs0 hs1 hs2 hst hw ih =>
    rw [View.canon_cons, ih]
    rw [ih] at hw
    exact overlay1_eq_addWin (accG r0 c0 nr nc slab s) R (r0 s) (c0 s) nr nc ho0 ho1 ho2 hs0 hs1 hs2 hst w (slab s) hw

/-- The second kernel's last store, the quotient by a second image over the whole buffer, leaves the fold over that
    image, pixel by pixel. -/
theorem Chain1.quotient {X : SPatch.Idx → EReal} {L : List (View.Piece (Elt Ideal) SImg1 .f32)}
    (h : Chain1 kr0 kc0 83 249 (kslab X) 192 L) (D : SImg.Idx → EReal) (R : Rect SImg1) (w : R.shape.Idx → EReal)
    (hR : ∀ y : SImg1.Idx, y ∈ R.set)
    (hw : ∀ x : R.shape.Idx, w x = Ideal.div (View.canon L (R.emb x)) (lift1 D (R.emb x))) :
    View.canon (⟨R, w⟩ :: L) = lift1 (fun p => Ideal.div (fold X p) (D p)) := by
  funext y
  obtain ⟨x, rfl⟩ := R.exists_idx_of_mem (hR y)
  change View.canon (⟨R, w⟩ :: L) (R.emb x) = _
  rw [View.canon_cons_emb, hw, h.canon_eq, accG_kernel, accK_eq_fold]
  rfl

end Cert.FoldSpec

end
-- ==== Proof.BandPayload.lean ====
/-
  What one band step stores, read at an index of its rectangle.

  A band step of the first kernel loads the step's own rectangle of the image buffer (after the earlier stores), adds
  the slab of one offset, cut out of the band's chunk, and stores the sum back through the same rectangle. Read at an
  index x of the rectangle, the stored value is the buffer's contents after the earlier stores at the rectangle's x,
  plus the chunk's entry (0, x 0, x 1, k): a load after a list of stores reads the list's canonical contents through
  its rectangle, a reshape to the same shape is the identity, the sum of two arrays is read entry by entry, and the
  slab's entry is the chunk's. The second kernel keeps a leading unit axis on its buffer, so the sum is formed on
  [83, 249] and reshaped to [1, 83, 249]; a reshape that adds or drops a leading unit axis keeps the other
  coordinates. Its last store is the quotient, entry by entry, of the whole buffer by a second image, formed on
  [256, 256] and reshaped to [1, 256, 256]; its rectangle is the whole buffer, so its offsets are zero.
-/
import proofs.«116354_j4801773436971_2_alg».proof.Proof.BandStep
import Idealize.ShloMosaic.Lib.Pipeline.FrameBody
import Idealize.ShloMosaic.Lib.ValueIdx

noncomputable section

namespace Cert.FoldSpec

open Idealize.ShloMosaic Idealize.ShloMosaic.ValueIdx

/-- A reshape that adds a leading unit axis, [n, m] to [1, n, m], read at x is the operand at (x 1, x 2). -/
theorem addUnit2_apply {n m : ℕ} {α : Type} (f : (⟨2, ![n, m]⟩ : Shape).Idx → α)
    (h : (⟨2, ![n, m]⟩ : Shape).ShapeCasts ⟨3, ![1, n, m]⟩) (x : (⟨3, ![1, n, m]⟩ : Shape).Idx) :
    shapeCast ⟨3, ![1, n, m]⟩ f h x = f (ix2 ⟨(x 1).val, (x 1).isLt⟩ ⟨(x 2).val, (x 2).isLt⟩) := by
  have h0 : (x 0).val < 1 := (x 0).isLt
  have z0 : (x 0).val = 0 := by omega
  exact shapeCast_apply f h x _ (by
    rw [Shape.rowMajor_val_two, Shape.rowMajor_val_three]
    show (x 1).val * m + (x 2).val = (((x 0).val * n + (x 1).val) * m + (x 2).val)
    rw [z0, Nat.zero_mul, Nat.zero_add])

/-- A reshape that drops a leading unit axis, [1, n, m] to [n, m], read at (x 1, x 2) is the operand at x. -/
theorem dropUnit2_apply {n m : ℕ} {α : Type} (g : (⟨3, ![1, n, m]⟩ : Shape).Idx → α)
    (h : (⟨3, ![1, n, m]⟩ : Shape).ShapeCasts ⟨2, ![n, m]⟩) (x : (⟨3, ![1, n, m]⟩ : Shape).Idx) :
    shapeCast ⟨2, ![n, m]⟩ g h (ix2 ⟨(x 1).val, (x 1).isLt⟩ ⟨(x 2).val, (x 2).isLt⟩) = g x := by
  have h0 : (x 0).val < 1 := (x 0).isLt
  have z0 : (x 0).val = 0 := by omega
  exact shapeCast_apply g h _ x (by
    rw [Shape.rowMajor_val_three, Shape.rowMajor_val_two]
    show (((x 0).val * n + (x 1).val) * m + (x 2).val) = (x 1).val * m + (x 2).val
    rw [z0, Nat.zero_mul, Nat.zero_add])

/-- One band step's payload at an index of its rectangle: what the earlier stores left there, plus the chunk's entry
    of offset k. -/
theorem band_hw {sig : RefSig} {κ : Kind} {sp : Space} (v : View sig κ sp SImg .f32)
    (L : List (View.Piece (Elt Ideal) SImg .f32))
    (off : Fin 2 → ℕ) (inb : ∀ a, off a + SSlab.size a ≤ SImg.size a) (C : SChunk1.Idx → EReal) (kk : ℕ) (hk : kk < 64)
    (h1 : SChunk1.ShapeCasts SChunk) (h2 : SChunk.Transposes [2, 0, 1] SChunkT) (hs : SChunkT.Slices ![kk, 0, 0] SSlab1)
    (hc : SSlab1.ShapeCasts SSlab) (hcc : SSlab.ShapeCasts SSlab)
    (x : (Rect.unit (s := SImg) off SSlab.size inb).shape.Idx) :
    addf (F := Ideal) (φ := .f32) (shapeCast SSlab (v.readCov L (Rect.unit (s := SImg) off SSlab.size inb).toLoadRect) hcc)
        (shapeCast SSlab (extractStridedSlice SSlab1 ![kk, 0, 0] (transpose SChunkT [2, 0, 1] (shapeCast SChunk C h1) h2) hs) hc) x
      = View.canon L ((Rect.unit (s := SImg) off SSlab.size inb).emb x)
        + C (ix4 0 ⟨(x 0).val, (x 0).isLt⟩ ⟨(x 1).val, (x 1).isLt⟩ ⟨kk, hk⟩) := by
  refine (addf_apply _ _ _).trans ?_
  refine congrArg₂ (fun a b : EReal => a + b) ?_ ?_
  · -- the load, reshaped to its own shape, is the canonical contents through the rectangle
    refine (congrFun (shapeCast_self (s := SSlab) _ hcc) x).trans ?_
    rw [View.readCov_eq_canon']
    rfl
  · -- the slab's entry is the chunk's
    have e := slab_apply C h1 h2 kk hk hs hc ⟨(x 0).val, (x 0).isLt⟩ ⟨(x 1).val, (x 1).isLt⟩
    have hx : (ix2 (⟨(x 0).val, (x 0).isLt⟩ : Fin 83) (⟨(x 1).val, (x 1).isLt⟩ : Fin 249) : SSlab.Idx) = x :=
      funext fun a => match a with | ⟨0, _⟩ => rfl | ⟨1, _⟩ => rfl
    rw [hx] at e
    exact e

/-- The same for the buffer with a leading unit axis: the sum formed on [83, 249] and reshaped to [1, 83, 249]. -/
theorem band1_hw {sig : RefSig} {κ : Kind} {sp : Space} (v : View sig κ sp SImg1 .f32)
    (L : List (View.Piece (Elt Ideal) SImg1 .f32))
    (off : Fin 3 → ℕ) (inb : ∀ a, off a + SSlab1.size a ≤ SImg1.size a) (C : SChunk1.Idx → EReal) (kk : ℕ) (hk : kk < 64)
    (h1 : SChunk1.ShapeCasts SChunk) (h2 : SChunk.Transposes [2, 0, 1] SChunkT) (hs : SChunkT.Slices ![kk, 0, 0] SSlab1)
    (hc : SSlab1.ShapeCasts SSlab) (hc1 : SSlab.ShapeCasts SSlab1) (hcl : SSlab1.ShapeCasts SSlab)
    (x : (Rect.unit (s := SImg1) off SSlab1.size inb).shape.Idx) :
    shapeCast SSlab1 (addf (F := Ideal) (φ := .f32)
        (shapeCast SSlab (v.readCov L (Rect.unit (s := SImg1) off SSlab1.size inb).toLoadRect) hcl)
        (shapeCast SSlab (extractStridedSlice SSlab1 ![kk, 0, 0] (transpose SChunkT [2, 0, 1] (shapeCast SChunk C h1) h2) hs) hc))
        hc1 x
      = View.canon L ((Rect.unit (s := SImg1) off SSlab1.size inb).emb x)
        + C (ix4 0 ⟨(x 1).val, (x 1).isLt⟩ ⟨(x 2).val, (x 2).isLt⟩ ⟨kk, hk⟩) := by
  refine (addUnit2_apply _ hc1 x).trans ?_
  refine (addf_apply _ _ _).trans ?_
  refine congrArg₂ (fun a b : EReal => a + b) ?_ ?_
  · refine (dropUnit2_apply _ hcl x).trans ?_
    rw [View.readCov_eq_canon']
    rfl
  · exact slab_apply C h1 h2 kk hk hs hc ⟨(x 1).val, (x 1).isLt⟩ ⟨(x 2).val, (x 2).isLt⟩

/-- The last store of the second kernel at an index of its rectangle, the whole buffer: what the earlier stores left
    there over the second image's entry. -/
theorem quot1_hw {sig : RefSig} {κ : Kind} {sp : Space} (v : View sig κ sp SImg1 .f32)
    (L : List (View.Piece (Elt Ideal) SImg1 .f32))
    (off : Fin 3 → ℕ) (inb : ∀ a, off a + SImg1.size a ≤ SImg1.size a) (D : SImg.Idx → EReal)
    (ha : SImg1.ShapeCasts SImg) (hb : SImg.ShapeCasts SImg) (hd : SImg.ShapeCasts SImg1)
    (x : (Rect.unit (s := SImg1) off SImg1.size inb).shape.Idx) :
    shapeCast SImg1 (divf (F := Ideal) (φ := .f32)
        (shapeCast SImg (v.readCov L (Rect.unit (s := SImg1) off SImg1.size inb).toLoadRect) ha)
        (shapeCast SImg D hb)) hd x
      = Ideal.div (View.canon L ((Rect.unit (s := SImg1) off SImg1.size inb).emb x))
          (lift1 D ((Rect.unit (s := SImg1) off SImg1.size inb).emb x)) := by
  -- the rectangle is the whole buffer: its offsets are zero
  have o1 : off 1 + 256 ≤ 256 := inb 1
  have o2 : off 2 + 256 ≤ 256 := inb 2
  refine (addUnit2_apply _ hd x).trans ?_
  refine (divf_apply _ _ _).trans ?_
  refine congrArg₂ Ideal.div ?_ ?_
  · refine (dropUnit2_apply _ ha x).trans ?_
    rw [View.readCov_eq_canon']
    rfl
  · rw [shapeCast_self]
    unfold lift1
    refine congrArg D (funext fun a => match a with
      | ⟨0, _⟩ => Fin.ext ?_
      | ⟨1, _⟩ => Fin.ext ?_)
    · show (x 1).val = off 1 + 1 * (x 1).val
      omega
    · show (x 2).val = off 2 + 1 * (x 2).val
      omega

end Cert.FoldSpec

end
-- ==== Proof.BandF.lean ====
/-
  The accumulation, its chain of stores and the stores' payloads, at any float family.

  The image buffer after a body's stores was described over the extended reals; nothing in that description used
  their algebra, only that a store through a rectangle overlays its payload on what was there. Here it is said once
  more with the family's own operations: the sum is the family's addition, the zero the value of the program's zero
  constant, the quotient the family's division. The list of stores leaves the accumulation `accGF`, it covers the
  whole image (its first store does and stays in the list), and each step's payload read at an index of its rectangle
  is what the earlier stores left there plus the chunk's entry. At the extended reals the family's operations are
  the usual ones, so `accGF` is `accG` there and the kernel's 192 stores leave the fold.
-/
import proofs.«116354_j4801773436971_2_alg».proof.Proof.BandChain
import proofs.«116354_j4801773436971_2_alg».proof.Proof.BandPayload
import Idealize.ShloMosaic.PureOps.Ideal.Laws

noncomputable section

namespace Cert.FoldSpec

open Idealize.ShloMosaic Idealize.ShloMosaic.ValueIdx

variable {F : FTy → Type} [FloatOps F]

/-! ## The accumulation at any family -/

/-- The value of the program's zero constant. -/
def zF : F .f32 := Scalar.ofBits .f32 0x00000000#32

/-- The patch array read at natural-number coordinates: the zero constant outside the array. -/
def extF (X : SPatch.Idx → F .f32) (a b k : ℕ) : F .f32 :=
  if h : a < 249 ∧ b < 249 ∧ k < 64 then X (ix3 ⟨a, h.1⟩ ⟨b, h.2.1⟩ ⟨k, h.2.2⟩) else zF

/-- One overlap-add with the family's addition. -/
def addWinF (A : SImg.Idx → F .f32) (r0 c0 nr nc : ℕ) (S : ℕ → ℕ → F .f32) : SImg.Idx → F .f32 := fun p =>
  if r0 ≤ (p 0).val ∧ (p 0).val < r0 + nr ∧ c0 ≤ (p 1).val ∧ (p 1).val < c0 + nc
  then FloatOps.addf (A p) (S ((p 0).val - r0) ((p 1).val - c0)) else A p

/-- The general accumulation: start at the zero constant, step s adds slab s at corner (r0 s, c0 s). -/
def accGF (r0 c0 : ℕ → ℕ) (nr nc : ℕ) (slab : ℕ → ℕ → ℕ → F .f32) : ℕ → SImg.Idx → F .f32
  | 0 => fun _ => zF
  | s + 1 => addWinF (accGF r0 c0 nr nc slab s) (r0 s) (c0 s) nr nc (slab s)

/-- An image seen as a batch of one. -/
def lift1F (A : SImg.Idx → F .f32) : SImg1.Idx → F .f32 :=
  fun q => A (ix2 ⟨(q 1).val, (q 1).isLt⟩ ⟨(q 2).val, (q 2).isLt⟩)

/-- The kernel's slabs: band r = s / 64 of 83 window rows, offset k = s % 64. -/
def kslabF (X : SPatch.Idx → F .f32) (s a b : ℕ) : F .f32 := extF X (83 * (s / 64) + a) b (s % 64)

/-! ## One store is one overlap-add -/

/-- A store of "what was there plus a slab" through a unit-stride rectangle is the overlap-add of the slab at the
    rectangle's corner. -/
theorem overlay_eq_addWinF (A : SImg.Idx → F .f32) (R : Rect SImg) (r0 c0 nr nc : ℕ)
    (ho0 : R.off 0 = r0) (ho1 : R.off 1 = c0) (hs0 : R.size 0 = nr) (hs1 : R.size 1 = nc) (hst : ∀ a, R.stride a = 1)
    (w : R.shape.Idx → F .f32) (S : ℕ → ℕ → F .f32)
    (hw : ∀ x : R.shape.Idx, w x = FloatOps.addf (A (R.emb x)) (S (x 0).val (x 1).val)) :
    R.overlay A w = addWinF A r0 c0 nr nc S := by
  funext p
  by_cases hp : p ∈ R.set
  · obtain ⟨x, rfl⟩ := R.exists_idx_of_mem hp
    change R.overlay A w (R.emb x) = addWinF A r0 c0 nr nc S (R.emb x)
    rw [Rect.overlay_emb, hw]
    have l0 : (x 0).val < R.size 0 := (x 0).isLt
    have l1 : (x 1).val < R.size 1 := (x 1).isLt
    have e0 : (R.emb x 0).val = r0 + (x 0).val := by rw [Rect.emb_apply, hst, ho0, Nat.one_mul]
    have e1 : (R.emb x 1).val = c0 + (x 1).val := by rw [Rect.emb_apply, hst, ho1, Nat.one_mul]
    have a0 : (R.emb x 0).val - r0 = (x 0).val := by omega
    have a1 : (R.emb x 1).val - c0 = (x 1).val := by omega
    unfold addWinF
    rw [if_pos ⟨by omega, by omega, by omega, by omega⟩, a0, a1]
  · rw [Rect.overlay_of_not_mem R A w hp]
    unfold addWinF
    rw [if_neg]
    intro hwin
    apply hp
    rw [LoadRect.mem_set]
    intro a
    match a with
    | ⟨0, _⟩ =>
      refine ⟨(p 0).val - r0, ?_, ?_⟩
      · show (p 0).val - r0 < R.size 0
        omega
      · show (p 0).val = R.off 0 + R.stride 0 * ((p 0).val - r0)
        rw [hst, ho0]; omega
    | ⟨1, _⟩ =>
      refine ⟨(p 1).val - c0, ?_, ?_⟩
      · show (p 1).val - c0 < R.size 1
        omega
      · show (p 1).val = R.off 1 + R.stride 1 * ((p 1).val - c0)
        rw [hst, ho1]; omega

/-- The same for an image kept as a batch of one, stored through a [1, nr, nc] rectangle. -/
theorem overlay1_eq_addWinF (A : SImg.Idx → F .f32) (R : Rect SImg1) (r0 c0 nr nc : ℕ)
    (ho0 : R.off 0 = 0) (ho1 : R.off 1 = r0) (ho2 : R.off 2 = c0) (hs0 : R.size 0 = 1) (hs1 : R.size 1 = nr)
    (hs2 : R.size 2 = nc) (hst : ∀ a, R.stride a = 1)
    (w : R.shape.Idx → F .f32) (S : ℕ → ℕ → F .f32)
    (hw : ∀ x : R.shape.Idx, w x = FloatOps.addf (lift1F A (R.emb x)) (S (x 1).val (x 2).val)) :
    R.overlay (lift1F A) w = lift1F (addWinF A r0 c0 nr nc S) := by
  funext p
  by_cases hp : p ∈ R.set
  · obtain ⟨x, rfl⟩ := R.exists_idx_of_mem hp
    change R.overlay (lift1F A) w (R.emb x) = lift1F (addWinF A r0 c0 nr nc S) (R.emb x)
    rw [Rect.overlay_emb, hw]
    have l1 : (x 1).val < R.size 1 := (x 1).isLt
    have l2 : (x 2).val < R.size 2 := (x 2).isLt
    have e1 : (R.emb x 1).val = r0 + (x 1).val := by rw [Rect.emb_apply, hst, ho1, Nat.one_mul]
    have e2 : (R.emb x 2).val = c0 + (x 2).val := by rw [Rect.emb_apply, hst, ho2, Nat.one_mul]
    have a1 : (R.emb x 1).val - r0 = (x 1).val := by omega
    have a2 : (R.emb x 2).val - c0 = (x 2).val := by omega
    unfold lift1F addWinF
    show FloatOps.addf (A _) (S (x 1).val (x 2).val)
      = if r0 ≤ (R.emb x 1).val ∧ (R.emb x 1).val < r0 + nr ∧ c0 ≤ (R.emb x 2).val ∧ (R.emb x 2).val < c0 + nc
        then FloatOps.addf (A _) (S ((R.emb x 1).val - r0) ((R.emb x 2).val - c0)) else A _
    rw [if_pos ⟨by omega, by omega, by omega, by omega⟩, a1, a2]
  · rw [Rect.overlay_of_not_mem R (lift1F A) w hp]
    unfold lift1F addWinF
    show A _ = if r0 ≤ (p 1).val ∧ (p 1).val < r0 + nr ∧ c0 ≤ (p 2).val ∧ (p 2).val < c0 + nc
        then FloatOps.addf (A _) (S ((p 1).val - r0) ((p 2).val - c0)) else A _
    rw [if_neg]
    intro hwin
    apply hp
    rw [LoadRect.mem_set]
    intro a
    match a with
    | ⟨0, _⟩ =>
      have hp0 : (p 0).val < 1 := (p 0).isLt
      refine ⟨0, ?_, ?_⟩
      · show 0 < R.size 0
        omega
      · show (p 0).val = R.off 0 + R.stride 0 * 0
        rw [ho0]; omega
    | ⟨1, _⟩ =>
      refine ⟨(p 1).val - r0, ?_, ?_⟩
      · show (p 1).val - r0 < R.size 1
        omega
      · show (p 1).val = R.off 1 + R.stride 1 * ((p 1).val - r0)
        rw [hst, ho1]; omega
    | ⟨2, _⟩ =>
      refine ⟨(p 2).val - c0, ?_, ?_⟩
      · show (p 2).val - c0 < R.size 2
        omega
      · show (p 2).val = R.off 2 + R.stride 2 * ((p 2).val - c0)
        rw [hst, ho2]; omega

/-! ## The list of stores -/

/-- A list of stores (last first) that starts with the zero constant over the whole image and then, step by step,
    stores what was there plus slab s through the rectangle with corner (r0 s, c0 s). -/
inductive ChainF (r0 c0 : ℕ → ℕ) (nr nc : ℕ) (slab : ℕ → ℕ → ℕ → F .f32) :
    ℕ → List (View.Piece (Elt F) SImg .f32) → Prop
  | zero (R : Rect SImg) (w : R.shape.Idx → F .f32) (hR : ∀ y : SImg.Idx, y ∈ R.set) (hw : ∀ x, w x = zF) :
      ChainF r0 c0 nr nc slab 0 [⟨R, w⟩]
  | step {s : ℕ} {L : List (View.Piece (Elt F) SImg .f32)} (h : ChainF r0 c0 nr nc slab s L) (R : Rect SImg)
      (w : R.shape.Idx → F .f32)
      (ho0 : R.off 0 = r0 s) (ho1 : R.off 1 = c0 s) (hs0 : R.size 0 = nr) (hs1 : R.size 1 = nc)
      (hst : ∀ a, R.stride a = 1)
      (hw : ∀ x : R.shape.Idx, w x = FloatOps.addf (View.canon L (R.emb x)) (slab s (x 0).val (x 1).val)) :
      ChainF r0 c0 nr nc slab (s + 1) (⟨R, w⟩ :: L)

/-- What such a list leaves is the accumulation. -/
theorem ChainF.canon_eq {r0 c0 : ℕ → ℕ} {nr nc : ℕ} {slab : ℕ → ℕ → ℕ → F .f32} {s : ℕ}
    {L : List (View.Piece (Elt F) SImg .f32)} (h : ChainF r0 c0 nr nc slab s L) :
    View.canon L = accGF r0 c0 nr nc slab s := by
  induction h with
  | zero R w hR hw =>
    funext y
    obtain ⟨x, rfl⟩ := R.exists_idx_of_mem (hR y)
    show View.canon [(⟨R, w⟩ : View.Piece (Elt F) SImg .f32)] (R.emb x) = zF
    rw [View.canon_cons_emb, hw]
  | @step s L h R w ho0 ho1 hs0 hs1 hst hw ih =>
    rw [View.canon_cons, ih]
    rw [ih] at hw
    exact overlay_eq_addWinF (accGF r0 c0 nr nc slab s) R (r0 s) (c0 s) nr nc ho0 ho1 hs0 hs1 hst w (slab s) hw

/-- Such a list covers the image: its first store does, and stays in the list. -/
theorem ChainF.cover {r0 c0 : ℕ → ℕ} {nr nc : ℕ} {slab : ℕ → ℕ → ℕ → F .f32} {s : ℕ}
    {L : List (View.Piece (Elt F) SImg .f32)} (h : ChainF r0 c0 nr nc slab s L) :
    ∀ y : SImg.Idx, ∃ p ∈ L, y ∈ p.1.set := by
  induction h with
  | zero R w hR hw => exact fun y => ⟨⟨R, w⟩, List.mem_cons_self, hR y⟩
  | @step s L h R w ho0 ho1 hs0 hs1 hst hw ih =>
    intro y
    obtain ⟨p, hp, hy⟩ := ih y
    exact ⟨p, List.mem_cons_of_mem _ hp, hy⟩

/-- The same list of stores into an image kept as a batch of one. -/
inductive Chain1F (r0 c0 : ℕ → ℕ) (nr nc : ℕ) (slab : ℕ → ℕ → ℕ → F .f32) :
    ℕ → List (View.Piece (Elt F) SImg1 .f32) → Prop
  | zero (R : Rect SImg1) (w : R.shape.Idx → F .f32) (hR : ∀ y : SImg1.Idx, y ∈ R.set) (hw : ∀ x, w x = zF) :
      Chain1F r0 c0 nr nc slab 0 [⟨R, w⟩]
  | step {s : ℕ} {L : List (View.Piece (Elt F) SImg1 .f32)} (h : Chain1F r0 c0 nr nc slab s L) (R : Rect SImg1)
      (w : R.shape.Idx → F .f32)
      (ho0 : R.off 0 = 0) (ho1 : R.off 1 = r0 s) (ho2 : R.off 2 = c0 s)
      (hs0 : R.size 0 = 1) (hs1 : R.size 1 = nr) (hs2 : R.size 2 = nc) (hst : ∀ a, R.stride a = 1)
      (hw : ∀ x : R.shape.Idx, w x = FloatOps.addf (View.canon L (R.emb x)) (slab s (x 1).val (x 2).val)) :
      Chain1F r0 c0 nr nc slab (s + 1) (⟨R, w⟩ :: L)

/-- What it leaves is the accumulation, as a batch of one. -/
theorem Chain1F.canon_eq {r0 c0 : ℕ → ℕ} {nr nc : ℕ} {slab : ℕ → ℕ → ℕ → F .f32} {s : ℕ}
    {L : List (View.Piece (Elt F) SImg1 .f32)} (h : Chain1F r0 c0 nr nc slab s L) :
    View.canon L = lift1F (accGF r0 c0 nr nc slab s) := by
  induction h with
  | zero R w hR hw =>
    funext y
    obtain ⟨x, rfl⟩ := R.exists_idx_of_mem (hR y)
    show View.canon [(⟨R, w⟩ : View.Piece (Elt F) SImg1 .f32)] (R.emb x) = zF
    rw [View.canon_cons_emb, hw]
  | @step s L h R w ho0 ho1 ho2 hs0 hs1 hs2 hst hw ih =>
    rw [View.canon_cons, ih]
    rw [ih] at hw
    exact overlay1_eq_addWinF (accGF r0 c0 nr nc slab s) R (r0 s) (c0 s) nr nc ho0 ho1 ho2 hs0 hs1 hs2 hst w (slab s) hw

/-- It covers the buffer. -/
theorem Chain1F.cover {r0 c0 : ℕ → ℕ} {nr nc : ℕ} {slab : ℕ → ℕ → ℕ → F .f32} {s : ℕ}
    {L : List (View.Piece (Elt F) SImg1 .f32)} (h : Chain1F r0 c0 nr nc slab s L) :
    ∀ y : SImg1.Idx, ∃ p ∈ L, y ∈ p.1.set := by
  induction h with
  | zero R w hR hw => exact fun y => ⟨⟨R, w⟩, List.mem_cons_self, hR y⟩
  | @step s L h R w ho0 ho1 ho2 hs0 hs1 hs2 hst hw ih =>
    intro y
    obtain ⟨p, hp, hy⟩ := ih y
    exact ⟨p, List.mem_cons_of_mem _ hp, hy⟩

/-- One more store over the whole buffer, the quotient by a second image, leaves the accumulation over that image,
    pixel by pixel. -/
theorem Chain1F.quotient {r0 c0 : ℕ → ℕ} {nr nc : ℕ} {slab : ℕ → ℕ → ℕ → F .f32} {s : ℕ}
    {L : List (View.Piece (Elt F) SImg1 .f32)} (h : Chain1F r0 c0 nr nc slab s L) (D : SImg.Idx → F .f32)
    (R : Rect SImg1) (w : R.shape.Idx → F .f32) (hR : ∀ y : SImg1.Idx, y ∈ R.set)
    (hw : ∀ x : R.shape.Idx, w x = FloatOps.divf (View.canon L (R.emb x)) (lift1F D (R.emb x))) :
    View.canon (⟨R, w⟩ :: L) = lift1F (fun p => FloatOps.divf (accGF r0 c0 nr nc slab s p) (D p)) := by
  funext y
  obtain ⟨x, rfl⟩ := R.exists_idx_of_mem (hR y)
  change View.canon ((⟨R, w⟩ : View.Piece (Elt F) SImg1 .f32) :: L) (R.emb x) = _
  rw [View.canon_cons_emb, hw, h.canon_eq]
  rfl

/-! ## The payloads -/

/-- The unit slice at offset k of the transposed chunk, read at (z, a, b) with z the unit coordinate, is the chunk at
    (0, a, b, k). -/
theorem slab1F_apply {α : Type} (v : SChunk1.Idx → α) (h1 : SChunk1.ShapeCasts SChunk)
    (h2 : SChunk.Transposes [2, 0, 1] SChunkT) (kk : ℕ) (hk : kk < 64) (hs : SChunkT.Slices ![kk, 0, 0] SSlab1)
    (z : Fin 1) (a : Fin 83) (b : Fin 249) :
    extractStridedSlice SSlab1 ![kk, 0, 0] (transpose SChunkT [2, 0, 1] (shapeCast SChunk v h1) h2) hs (ix3 z a b)
      = v (ix4 0 a b ⟨kk, hk⟩) := by
  have hz : z.val < 1 := z.isLt
  refine (extractStridedSlice_apply _ _ hs (ix3 z a b) (ix3 (⟨kk, hk⟩ : Fin 64) a b) (fun c => match c with
    | ⟨0, _⟩ => by show kk = kk + z.val; omega
    | ⟨1, _⟩ => by show a.val = 0 + a.val; omega
    | ⟨2, _⟩ => by show b.val = 0 + b.val; omega)).trans ?_
  refine (transpose_apply _ _ h2 (ix3 (⟨kk, hk⟩ : Fin 64) a b) (ix3 a b (⟨kk, hk⟩ : Fin 64)) (fun c => match c with
    | ⟨0, _⟩ => rfl
    | ⟨1, _⟩ => rfl
    | ⟨2, _⟩ => rfl)).trans ?_
  exact shapeCast_apply v h1 (ix3 a b (⟨kk, hk⟩ : Fin 64)) (ix4 0 a b ⟨kk, hk⟩) (by
    rw [Shape.rowMajor_val_four, Shape.rowMajor_val_three]
    show ((0 * 83 + a.val) * 249 + b.val) * 64 + kk = (a.val * 249 + b.val) * 64 + kk
    omega)

/-- The slab of offset k, its unit axis dropped, read at (a, b) is the chunk at (0, a, b, k). -/
theorem slabF_apply {α : Type} (v : SChunk1.Idx → α) (h1 : SChunk1.ShapeCasts SChunk)
    (h2 : SChunk.Transposes [2, 0, 1] SChunkT) (kk : ℕ) (hk : kk < 64) (hs : SChunkT.Slices ![kk, 0, 0] SSlab1)
    (hc : SSlab1.ShapeCasts SSlab) (a : Fin 83) (b : Fin 249) :
    shapeCast SSlab (extractStridedSlice SSlab1 ![kk, 0, 0] (transpose SChunkT [2, 0, 1] (shapeCast SChunk v h1) h2) hs)
        hc (ix2 a b)
      = v (ix4 0 a b ⟨kk, hk⟩) := by
  refine (shapeCast_apply _ hc (ix2 a b) (ix3 (0 : Fin 1) a b) (by
    rw [Shape.rowMajor_val_three, Shape.rowMajor_val_two]
    show (0 * 83 + a.val) * 249 + b.val = a.val * 249 + b.val
    omega)).trans ?_
  exact slab1F_apply v h1 h2 kk hk hs 0 a b

/-- One band step's payload at an index of its rectangle: what the earlier stores left there, plus the chunk's entry
    of offset k. -/
theorem band_hwF {sig : RefSig} {κ : Kind} {sp : Space} (v : View sig κ sp SImg .f32)
    (L : List (View.Piece (Elt F) SImg .f32))
    (off : Fin 2 → ℕ) (inb : ∀ a, off a + SSlab.size a ≤ SImg.size a) (C : SChunk1.Idx → F .f32) (kk : ℕ) (hk : kk < 64)
    (h1 : SChunk1.ShapeCasts SChunk) (h2 : SChunk.Transposes [2, 0, 1] SChunkT) (hs : SChunkT.Slices ![kk, 0, 0] SSlab1)
    (hc : SSlab1.ShapeCasts SSlab) (hcc : SSlab.ShapeCasts SSlab)
    (x : (Rect.unit (s := SImg) off SSlab.size inb).shape.Idx) :
    addf (F := F) (φ := .f32) (shapeCast SSlab (v.readCov L (Rect.unit (s := SImg) off SSlab.size inb).toLoadRect) hcc)
        (shapeCast SSlab (extractStridedSlice SSlab1 ![kk, 0, 0] (transpose SChunkT [2, 0, 1] (shapeCast SChunk C h1) h2) hs) hc) x
      = FloatOps.addf (View.canon L ((Rect.unit (s := SImg) off SSlab.size inb).emb x))
          (C (ix4 0 ⟨(x 0).val, (x 0).isLt⟩ ⟨(x 1).val, (x 1).isLt⟩ ⟨kk, hk⟩)) := by
  show FloatOps.addf (shapeCast SSlab (v.readCov L _) hcc x) (shapeCast SSlab _ hc x) = _
  refine congrArg₂ FloatOps.addf ?_ ?_
  · refine (congrFun (shapeCast_self (s := SSlab) _ hcc) x).trans ?_
    rw [View.readCov_eq_canon']
    rfl
  · have e := slabF_apply C h1 h2 kk hk hs hc ⟨(x 0).val, (x 0).isLt⟩ ⟨(x 1).val, (x 1).isLt⟩
    have hx : (ix2 (⟨(x 0).val, (x 0).isLt⟩ : Fin 83) (⟨(x 1).val, (x 1).isLt⟩ : Fin 249) : SSlab.Idx) = x :=
      funext fun a => match a with | ⟨0, _⟩ => rfl | ⟨1, _⟩ => rfl
    rw [hx] at e
    exact e

/-- The same for the buffer with a leading unit axis: the sum formed on [83, 249] and reshaped to [1, 83, 249]. -/
theorem band1_hwF {sig : RefSig} {κ : Kind} {sp : Space} (v : View sig κ sp SImg1 .f32)
    (L : List (View.Piece (Elt F) SImg1 .f32))
    (off : Fin 3 → ℕ) (inb : ∀ a, off a + SSlab1.size a ≤ SImg1.size a) (C : SChunk1.Idx → F .f32) (kk : ℕ) (hk : kk < 64)
    (h1 : SChunk1.ShapeCasts SChunk) (h2 : SChunk.Transposes [2, 0, 1] SChunkT) (hs : SChunkT.Slices ![kk, 0, 0] SSlab1)
    (hc : SSlab1.ShapeCasts SSlab) (hc1 : SSlab.ShapeCasts SSlab1) (hcl : SSlab1.ShapeCasts SSlab)
    (x : (Rect.unit (s := SImg1) off SSlab1.size inb).shape.Idx) :
    shapeCast SSlab1 (addf (F := F) (φ := .f32)
        (shapeCast SSlab (v.readCov L (Rect.unit (s := SImg1) off SSlab1.size inb).toLoadRect) hcl)
        (shapeCast SSlab (extractStridedSlice SSlab1 ![kk, 0, 0] (transpose SChunkT [2, 0, 1] (shapeCast SChunk C h1) h2) hs) hc))
        hc1 x
      = FloatOps.addf (View.canon L ((Rect.unit (s := SImg1) off SSlab1.size inb).emb x))
          (C (ix4 0 ⟨(x 1).val, (x 1).isLt⟩ ⟨(x 2).val, (x 2).isLt⟩ ⟨kk, hk⟩)) := by
  refine (addUnit2_apply _ hc1 x).trans ?_
  show FloatOps.addf (shapeCast SSlab (v.readCov L _) hcl _) (shapeCast SSlab _ hc _) = _
  refine congrArg₂ FloatOps.addf ?_ ?_
  · refine (dropUnit2_apply _ hcl x).trans ?_
    rw [View.readCov_eq_canon']
    rfl
  · exact slabF_apply C h1 h2 kk hk hs hc ⟨(x 1).val, (x 1).isLt⟩ ⟨(x 2).val, (x 2).isLt⟩

/-- The last store of the second kernel at an index of its rectangle, the whole buffer: what the earlier stores left
    there over the second image's entry. -/
theorem quot1_hwF {sig : RefSig} {κ : Kind} {sp : Space} (v : View sig κ sp SImg1 .f32)
    (L : List (View.Piece (Elt F) SImg1 .f32))
    (off : Fin 3 → ℕ) (inb : ∀ a, off a + SImg1.size a ≤ SImg1.size a) (D : SImg.Idx → F .f32)
    (ha : SImg1.ShapeCasts SImg) (hb : SImg.ShapeCasts SImg) (hd : SImg.ShapeCasts SImg1)
    (x : (Rect.unit (s := SImg1) off SImg1.size inb).shape.Idx) :
    shapeCast SImg1 (divf (F := F) (φ := .f32)
        (shapeCast SImg (v.readCov L (Rect.unit (s := SImg1) off SImg1.size inb).toLoadRect) ha)
        (shapeCast SImg D hb)) hd x
      = FloatOps.divf (View.canon L ((Rect.unit (s := SImg1) off SImg1.size inb).emb x))
          (lift1F D ((Rect.unit (s := SImg1) off SImg1.size inb).emb x)) := by
  have o1 : off 1 + 256 ≤ 256 := inb 1
  have o2 : off 2 + 256 ≤ 256 := inb 2
  refine (addUnit2_apply _ hd x).trans ?_
  show FloatOps.divf (shapeCast SImg (v.readCov L _) ha _) (shapeCast SImg D hb _) = _
  refine congrArg₂ FloatOps.divf ?_ ?_
  · refine (dropUnit2_apply _ ha x).trans ?_
    rw [View.readCov_eq_canon']
    rfl
  · rw [shapeCast_self]
    unfold lift1F
    refine congrArg D (funext fun a => match a with
      | ⟨0, _⟩ => Fin.ext ?_
      | ⟨1, _⟩ => Fin.ext ?_)
    · show (x 1).val = off 1 + 1 * (x 1).val
      omega
    · show (x 2).val = off 2 + 1 * (x 2).val
      omega

/-! ## At the extended reals -/

/-- The zero constant is zero. -/
theorem zF_ideal : (zF : Ideal .f32) = 0 := Ideal.ofBits_zero_f32

/-- The patch array read at natural-number coordinates is the one of the fold. -/
theorem extF_ideal (X : SPatch.Idx → EReal) (a b k : ℕ) : extF (F := Ideal) X a b k = ext X a b k := by
  unfold extF ext
  by_cases h : a < 249 ∧ b < 249 ∧ k < 64
  · rw [dif_pos h, dif_pos h]
  · rw [dif_neg h, dif_neg h, zF_ideal]

/-- The kernel's slabs are the ones of the fold. -/
theorem kslabF_ideal (X : SPatch.Idx → EReal) : kslabF (F := Ideal) X = kslab X := by
  funext s a b
  exact extF_ideal X _ _ _

/-- The overlap-add is the one of the fold. -/
theorem addWinF_ideal (A : SImg.Idx → EReal) (r0 c0 nr nc : ℕ) (S : ℕ → ℕ → EReal) :
    addWinF (F := Ideal) A r0 c0 nr nc S = addWin A r0 c0 nr nc S := rfl

/-- An image as a batch of one, likewise. -/
theorem lift1F_ideal (A : SImg.Idx → EReal) : lift1F (F := Ideal) A = lift1 A := rfl

/-- The accumulation is the one of the fold. -/
theorem accGF_ideal (r0 c0 : ℕ → ℕ) (nr nc : ℕ) (slab : ℕ → ℕ → ℕ → EReal) (s : ℕ) :
    accGF (F := Ideal) r0 c0 nr nc slab s = accG r0 c0 nr nc slab s := by
  induction s with
  | zero =>
    funext p
    show (zF : Ideal .f32) = 0
    exact zF_ideal
  | succ s ih =>
    show addWinF (F := Ideal) (accGF (F := Ideal) r0 c0 nr nc slab s) (r0 s) (c0 s) nr nc (slab s)
      = addWin (accG r0 c0 nr nc slab s) (r0 s) (c0 s) nr nc (slab s)
    rw [ih, addWinF_ideal]

/-- The kernel's 192 stores, at the extended reals, leave the fold. -/
theorem ChainF.fold_ideal {X : SPatch.Idx → EReal} {L : List (View.Piece (Elt Ideal) SImg .f32)}
    (h : ChainF (F := Ideal) kr0 kc0 83 249 (kslab X) 192 L) : View.canon L = fold X := by
  rw [h.canon_eq, accGF_ideal, accG_kernel, accK_eq_fold]

end Cert.FoldSpec

end
-- ==== Proof.BandF2.lean ====
/-
  The band steps' payloads in the form the chain of stores asks for.

  Each step of the chain asks that the stored payload, read at an index x of the step's rectangle, be what the earlier
  stores left there plus a slab entry at (x 0, x 1). The slab is the band's chunk read at natural-number coordinates,
  the zero constant outside it (`cextF`); inside the rectangle the coordinates are in range, so this is the chunk's
  entry, and the offset k is in range because the unit slice at k fits in the transposed chunk. The accumulation
  reads a step's slab only inside the step's window, at coordinates below the window's extent, so two families of
  slabs that agree there give the same accumulation.
-/
import proofs.«116354_j4801773436971_2_alg».proof.Proof.BandF

noncomputable section

namespace Cert.FoldSpec

open Idealize.ShloMosaic Idealize.ShloMosaic.ValueIdx

variable {F : FTy → Type} [FloatOps F]

/-- A band's chunk read at natural-number coordinates: the zero constant outside the chunk. -/
def cextF (C : SChunk1.Idx → F .f32) (a b k : ℕ) : F .f32 :=
  if h : a < 83 ∧ b < 249 ∧ k < 64 then C (ix4 0 ⟨a, h.1⟩ ⟨b, h.2.1⟩ ⟨k, h.2.2⟩) else zF

/-- The unit slice at offset k fits in the transposed chunk, so k is an offset. -/
theorem lt_of_slices {kk : ℕ} (hs : SChunkT.Slices ![kk, 0, 0] SSlab1) : kk < 64 := by
  obtain ⟨_, hb⟩ := hs
  exact Nat.lt_of_succ_le (show kk + 1 ≤ 64 from hb 0)

/-- One band step: what the earlier stores left at the rectangle's x plus the chunk's entry is the step's payload
    at x. -/
theorem band_stepF {sig : RefSig} {κ : Kind} {sp : Space} (v : View sig κ sp SImg .f32)
    (L : List (View.Piece (Elt F) SImg .f32))
    (off : Fin 2 → ℕ) (inb : ∀ a, off a + SSlab.size a ≤ SImg.size a) (C : SChunk1.Idx → F .f32) (kk : ℕ)
    (h1 : SChunk1.ShapeCasts SChunk) (h2 : SChunk.Transposes [2, 0, 1] SChunkT) (hs : SChunkT.Slices ![kk, 0, 0] SSlab1)
    (hc : SSlab1.ShapeCasts SSlab) (hcc : SSlab.ShapeCasts SSlab)
    (x : (Rect.unit (s := SImg) off SSlab.size inb).shape.Idx) :
    FloatOps.addf (View.canon L ((Rect.unit (s := SImg) off SSlab.size inb).emb x)) (cextF C (x 0).val (x 1).val kk)
      = addf (F := F) (φ := .f32)
          (shapeCast SSlab (v.readCov L (Rect.unit (s := SImg) off SSlab.size inb).toLoadRect) hcc)
          (shapeCast SSlab (extractStridedSlice SSlab1 ![kk, 0, 0] (transpose SChunkT [2, 0, 1] (shapeCast SChunk C h1) h2) hs) hc)
          x := by
  have hk : kk < 64 := lt_of_slices hs
  have l0 : (x 0).val < 83 := (x 0).isLt
  have l1 : (x 1).val < 249 := (x 1).isLt
  have e : cextF C (x 0).val (x 1).val kk = C (ix4 0 ⟨(x 0).val, (x 0).isLt⟩ ⟨(x 1).val, (x 1).isLt⟩ ⟨kk, hk⟩) := by
    unfold cextF
    rw [dif_pos ⟨l0, l1, hk⟩]
  rw [e]
  exact (band_hwF v L off inb C kk hk h1 h2 hs hc hcc x).symm

/-- The same for the buffer with a leading unit axis. -/
theorem band1_stepF {sig : RefSig} {κ : Kind} {sp : Space} (v : View sig κ sp SImg1 .f32)
    (L : List (View.Piece (Elt F) SImg1 .f32))
    (off : Fin 3 → ℕ) (inb : ∀ a, off a + SSlab1.size a ≤ SImg1.size a) (C : SChunk1.Idx → F .f32) (kk : ℕ)
    (h1 : SChunk1.ShapeCasts SChunk) (h2 : SChunk.Transposes [2, 0, 1] SChunkT) (hs : SChunkT.Slices ![kk, 0, 0] SSlab1)
    (hc : SSlab1.ShapeCasts SSlab) (hc1 : SSlab.ShapeCasts SSlab1) (hcl : SSlab1.ShapeCasts SSlab)
    (x : (Rect.unit (s := SImg1) off SSlab1.size inb).shape.Idx) :
    FloatOps.addf (View.canon L ((Rect.unit (s := SImg1) off SSlab1.size inb).emb x)) (cextF C (x 1).val (x 2).val kk)
      = shapeCast SSlab1 (addf (F := F) (φ := .f32)
          (shapeCast SSlab (v.readCov L (Rect.unit (s := SImg1) off SSlab1.size inb).toLoadRect) hcl)
          (shapeCast SSlab (extractStridedSlice SSlab1 ![kk, 0, 0] (transpose SChunkT [2, 0, 1] (shapeCast SChunk C h1) h2) hs) hc))
          hc1 x := by
  have hk : kk < 64 := lt_of_slices hs
  have l1 : (x 1).val < 83 := (x 1).isLt
  have l2 : (x 2).val < 249 := (x 2).isLt
  have e : cextF C (x 1).val (x 2).val kk = C (ix4 0 ⟨(x 1).val, (x 1).isLt⟩ ⟨(x 2).val, (x 2).isLt⟩ ⟨kk, hk⟩) := by
    unfold cextF
    rw [dif_pos ⟨l1, l2, hk⟩]
  rw [e]
  exact (band1_hwF v L off inb C kk hk h1 h2 hs hc hc1 hcl x).symm

/-- The last store of the second kernel, its two sides in the chain's order. -/
theorem quot1_stepF {sig : RefSig} {κ : Kind} {sp : Space} (v : View sig κ sp SImg1 .f32)
    (L : List (View.Piece (Elt F) SImg1 .f32))
    (off : Fin 3 → ℕ) (inb : ∀ a, off a + SImg1.size a ≤ SImg1.size a) (D : SImg.Idx → F .f32)
    (ha : SImg1.ShapeCasts SImg) (hb : SImg.ShapeCasts SImg) (hd : SImg.ShapeCasts SImg1)
    (x : (Rect.unit (s := SImg1) off SImg1.size inb).shape.Idx) :
    FloatOps.divf (View.canon L ((Rect.unit (s := SImg1) off SImg1.size inb).emb x))
        (lift1F D ((Rect.unit (s := SImg1) off SImg1.size inb).emb x))
      = shapeCast SImg1 (divf (F := F) (φ := .f32)
          (shapeCast SImg (v.readCov L (Rect.unit (s := SImg1) off SImg1.size inb).toLoadRect) ha)
          (shapeCast SImg D hb)) hd x :=
  (quot1_hwF v L off inb D ha hb hd x).symm

/-- The accumulation reads slab s only inside window s, at coordinates below the window's extent: slabs that agree
    there give the same accumulation. -/
theorem accGF_congr (r0 c0 : ℕ → ℕ) (nr nc : ℕ) (slab slab' : ℕ → ℕ → ℕ → F .f32) (n : ℕ)
    (h : ∀ s, s < n → ∀ a, a < nr → ∀ b, b < nc → slab s a b = slab' s a b) :
    accGF r0 c0 nr nc slab n = accGF r0 c0 nr nc slab' n := by
  induction n with
  | zero => rfl
  | succ n ih =>
    show addWinF (accGF r0 c0 nr nc slab n) (r0 n) (c0 n) nr nc (slab n)
      = addWinF (accGF r0 c0 nr nc slab' n) (r0 n) (c0 n) nr nc (slab' n)
    rw [ih fun s hs => h s (Nat.lt_succ_of_lt hs)]
    funext p
    unfold addWinF
    by_cases hw : r0 n ≤ (p 0).val ∧ (p 0).val < r0 n + nr ∧ c0 n ≤ (p 1).val ∧ (p 1).val < c0 n + nc
    · rw [if_pos hw, if_pos hw, h n (Nat.lt_succ_self n) _ (by omega) _ (by omega)]
    · rw [if_neg hw, if_neg hw]

/-- Image `n`'s patch array, out of the batch laid out [16, 249, 249, 64]. -/
def patch4F (P : SPatches.Idx → F .f32) (n : Fin 16) : SPatch.Idx → F .f32 := fun q =>
  P (ix4 n ⟨(q 0).val, (q 0).isLt⟩ ⟨(q 1).val, (q 1).isLt⟩ ⟨(q 2).val, (q 2).isLt⟩)

/-- At the extended reals it is the one of the fold. -/
theorem patch4F_ideal (P : SPatches.Idx → EReal) (n : Fin 16) : patch4F (F := Ideal) P n = patch4 P n := rfl

end Cert.FoldSpec

end
-- ==== Proof.KernelChunks.lean ====
/-
  The chunks the two kernels load, read as bands of the arrays in HBM.

  Each kernel works through a patch array [249, 249, 64] in three bands of 83 window rows. Band r is copied from rows
  [83 r, 83 r + 83) of the array in HBM into slot r % 2 of a two-slot scratch buffer [2, 83, 249, 64] and then loaded
  from that slot as a [1, 83, 249, 64] chunk. A write through one slot's view does not touch the other slot, and a later
  write to a slot replaces an earlier one; so, whatever the scratch held before, the chunk loaded for band r is rows
  [83 r, 83 r + 83) of the array in HBM. For the first kernel that array is the counts' patch array; for the second it
  is item n of the batch's patch array [16, 249, 249, 64], n the grid coordinate.
-/
import proofs.«116354_j4801773436971_2_alg».proof.Proof.KernelFrameA
import Idealize.ShloMosaic.Lib.Pipeline.Value
import Idealize.ShloMosaic.Lib.ValueIdx
import Idealize.ShloMosaic.Lib.ValueLayout
import Idealize.ShloMosaic.Lib.Writes

noncomputable section

namespace Cert.Kernel.Chunks

open Cert.Kernel Cert.Kernel.Gen Cert.Kernel.GenP Idealize.ShloMosaic Idealize.ShloMosaic.TcCoe
  Idealize.ShloMosaic.ValueIdx Idealize.SL Idealize.SL.Sem

/-! ## A two-slot scratch buffer

The scratch buffer `[2, 83, 249, 64]` is written one slot at a time, through the view of slot `p` with its unit axis
dropped, and read one slot at a time through the whole buffer at the rectangle `[p, p + 1) × 83 × 249 × 64`. A write
through slot `p` is seen whole by a read of slot `p`, whatever the buffer held before; it is not seen by a read of the
other slot, since the two rectangles are separated on the first axis. -/

section Slots

variable {Val : EltTy → Type}

/-- A read of slot `p` after a write through slot `p`'s view: the payload, at the index with the unit axis dropped. -/
theorem readAt_slot_write_same (M : Memref sig .tc .vmem S2x83x249x64 .f32) (p : ℕ)
    (inb : ∀ a, (![p, 0, 0, 0] : Fin 4 → ℕ) a + S1x83x249x64.size a ≤ S2x83x249x64.size a)
    (hr : ∀ a, (Rect.unit (s := S2x83x249x64) ![p, 0, 0, 0] S1x83x249x64.size inb).stride a = 1)
    (hq : (Rect.unit (s := S2x83x249x64) ![p, 0, 0, 0] S1x83x249x64.size inb).shape.Squeezes S83x249x64)
    (f : M.view.ty.Contents Val) (w : S83x249x64.Idx → Val .f32) (a : Fin 83) (b : Fin 249) (k : Fin 64) :
    View.readAt Val M.view (Rect.unit (s := S2x83x249x64) ![p, 0, 0, 0] S1x83x249x64.size inb).toLoadRect
      (View.write Val ((M.slice (Rect.unit (s := S2x83x249x64) ![p, 0, 0, 0] S1x83x249x64.size inb) hr).squeeze S83x249x64 hq).view
        f w Finset.univ) (ix4 0 a b k) = w (ix3 a b k) := by
  show (M.view.slice (Rect.unit (s := S2x83x249x64) ![p, 0, 0, 0] S1x83x249x64.size inb)).read Val
      (((M.view.slice (Rect.unit (s := S2x83x249x64) ![p, 0, 0, 0] S1x83x249x64.size inb)).reshape S83x249x64 hq.numel_eq).write Val
        f w Finset.univ) (ix4 0 a b k) = w (ix3 a b k)
  rw [View.write_reshape_univ, View.read_write_univ]
  congr 1
  rw [Equiv.symm_apply_eq]
  exact (reshapeEquiv_ix3_1abc _ a b k).symm

/-- A read of slot `p'` after a write through the other slot `p`'s view: what was there before. -/
theorem readAt_slot_write_other (M : Memref sig .tc .vmem S2x83x249x64 .f32) (p p' : ℕ) (hne : p ≠ p')
    (inb : ∀ a, (![p, 0, 0, 0] : Fin 4 → ℕ) a + S1x83x249x64.size a ≤ S2x83x249x64.size a)
    (inb' : ∀ a, (![p', 0, 0, 0] : Fin 4 → ℕ) a + S1x83x249x64.size a ≤ S2x83x249x64.size a)
    (hr : ∀ a, (Rect.unit (s := S2x83x249x64) ![p, 0, 0, 0] S1x83x249x64.size inb).stride a = 1)
    (hq : (Rect.unit (s := S2x83x249x64) ![p, 0, 0, 0] S1x83x249x64.size inb).shape.Squeezes S83x249x64)
    (f : M.view.ty.Contents Val) (w : S83x249x64.Idx → Val .f32) :
    View.readAt Val M.view (Rect.unit (s := S2x83x249x64) ![p', 0, 0, 0] S1x83x249x64.size inb').toLoadRect
      (View.write Val ((M.slice (Rect.unit (s := S2x83x249x64) ![p, 0, 0, 0] S1x83x249x64.size inb) hr).squeeze S83x249x64 hq).view
        f w Finset.univ)
      = View.readAt Val M.view (Rect.unit (s := S2x83x249x64) ![p', 0, 0, 0] S1x83x249x64.size inb').toLoadRect f := by
  show (M.view.slice (Rect.unit (s := S2x83x249x64) ![p', 0, 0, 0] S1x83x249x64.size inb')).read Val
      (((M.view.slice (Rect.unit (s := S2x83x249x64) ![p, 0, 0, 0] S1x83x249x64.size inb)).reshape S83x249x64 hq.numel_eq).write Val
        f w Finset.univ)
    = (M.view.slice (Rect.unit (s := S2x83x249x64) ![p', 0, 0, 0] S1x83x249x64.size inb')).read Val f
  rw [View.write_reshape_univ]
  refine View.read_slice_write_slice_of_disjoint _ _ f _ Finset.univ ?_
  rw [View.setOn_univ, View.set_slice, View.set_slice]
  refine (Finset.disjoint_map _).mpr (Rect.unit_disjoint 0 ?_)
  show p' + 1 ≤ p ∨ p + 1 ≤ p'
  omega

end Slots

/-! ## The first kernel's chunks

Band `r` of the counts' patch array is copied from rows `[83 r, 83 r + 83)` of the array in HBM into slot `r % 2` and
loaded from that slot. -/

section Region0

variable {F : FTy → Type} [FloatOps F]

/-- The copy delivered for band 0 is rows `[0, 83)` of the array in HBM. -/
theorem dma2_apply (c : Dev nD) (fh0 : HbBuf0 (F := F) c hbM0_0) (a : Fin 83) (b : Fin 249) (k : Fin 64) :
    kernelRun0_A.sl.dma2 c fh0 (ix3 a b k) = fh0 (ix3 ⟨a.val, by have := a.isLt; omega⟩ b k) := by
  unfold kernelRun0_A.sl.dma2
  show fh0 _ = fh0 _
  congr 1
  funext ax
  match ax with
  | ⟨0, _⟩ => exact Fin.ext (show 0 + 1 * a.val = a.val by omega)
  | ⟨1, _⟩ => exact Fin.ext (show 0 + 1 * b.val = b.val by omega)
  | ⟨2, _⟩ => exact Fin.ext (show 0 + 1 * k.val = k.val by omega)

/-- The copy delivered for band 1 is rows `[83, 166)`. -/
theorem dma2_1_apply (c : Dev nD) (fh0 : HbBuf0 (F := F) c hbM0_0) (a : Fin 83) (b : Fin 249) (k : Fin 64) :
    kernelRun0_A.sl.dma2_1 c fh0 (ix3 a b k) = fh0 (ix3 ⟨83 + a.val, by have := a.isLt; omega⟩ b k) := by
  unfold kernelRun0_A.sl.dma2_1
  show fh0 _ = fh0 _
  congr 1
  funext ax
  match ax with
  | ⟨0, _⟩ => exact Fin.ext (show 83 + 1 * a.val = 83 + a.val by omega)
  | ⟨1, _⟩ => exact Fin.ext (show 0 + 1 * b.val = b.val by omega)
  | ⟨2, _⟩ => exact Fin.ext (show 0 + 1 * k.val = k.val by omega)

/-- The copy delivered for band 2 is rows `[166, 249)`. -/
theorem dma195_apply (c : Dev nD) (fh0 : HbBuf0 (F := F) c hbM0_0) (a : Fin 83) (b : Fin 249) (k : Fin 64) :
    kernelRun0_A.sl.dma195 c fh0 (ix3 a b k) = fh0 (ix3 ⟨166 + a.val, by have := a.isLt; omega⟩ b k) := by
  unfold kernelRun0_A.sl.dma195
  show fh0 _ = fh0 _
  congr 1
  funext ax
  match ax with
  | ⟨0, _⟩ => exact Fin.ext (show 166 + 1 * a.val = 166 + a.val by omega)
  | ⟨1, _⟩ => exact Fin.ext (show 0 + 1 * b.val = b.val by omega)
  | ⟨2, _⟩ => exact Fin.ext (show 0 + 1 * k.val = k.val by omega)

/-- The chunk loaded for band 0: slot 0 after band 0's copy, band 1's copy into slot 1 not seen. -/
theorem chunk0_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v17 c arg3 fs0 fh0 (ix4 0 a b k) = fh0 (ix3 ⟨a.val, by have := a.isLt; omega⟩ b k) := by
  unfold kernelRun0_A.sl.v17
  rw [readAt_slot_write_other arg3 1 0 (by decide), readAt_slot_write_same arg3 0]
  exact dma2_apply c fh0 a b k

/-- The chunk loaded for band 1: slot 1 after band 1's copy, band 2's copy into slot 0 not seen. -/
theorem chunk1_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v414 c arg3 fs0 fh0 (ix4 0 a b k) = fh0 (ix3 ⟨83 + a.val, by have := a.isLt; omega⟩ b k) := by
  unfold kernelRun0_A.sl.v414
  rw [readAt_slot_write_other arg3 0 1 (by decide), readAt_slot_write_same arg3 1]
  exact dma2_1_apply c fh0 a b k

/-- The chunk loaded for band 2: slot 0 after band 2's copy, which replaced band 0's. -/
theorem chunk2_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v806 c arg3 fs0 fh0 (ix4 0 a b k) = fh0 (ix3 ⟨166 + a.val, by have := a.isLt; omega⟩ b k) := by
  unfold kernelRun0_A.sl.v806
  rw [readAt_slot_write_same arg3 0]
  exact dma195_apply c fh0 a b k

end Region0

/-! ## The second kernel's chunks

The same three bands, of batch item `n` = the grid coordinate: the copies read item `n` of the batch's patch array
`[16, 249, 249, 64]`, its unit axis dropped, at rows `[83 r, 83 r + 83)`. -/

section Region1

variable {F : FTy → Type} [FloatOps F]

/-- Rows `[o, o + 83)` of batch item `i 0`, read through the copies' view of the array in HBM: the item's slab
    `[1, 249, 249, 64]` at the grid coordinate, its unit axis dropped, then the band. -/
theorem band_read (c : Dev nD) (i : grid1.Coords) (fh0 : HbBuf1 (F := F) c hbM1_0) (o : ℕ) (ho : o + 83 ≤ 249)
    (inb1 : ∀ ax, k1_off1 i ax + S1x249x249x64.size ax ≤ S16x249x249x64.size ax)
    (hr1 : ∀ ax, (Rect.unit (s := S16x249x249x64) (k1_off1 i) S1x249x249x64.size inb1).stride ax = 1)
    (hq : (Rect.unit (s := S16x249x249x64) (k1_off1 i) S1x249x249x64.size inb1).shape.Squeezes S249x249x64)
    (inb2 : ∀ ax, (![o, 0, 0] : Fin 3 → ℕ) ax + S83x249x64.size ax ≤ S249x249x64.size ax)
    (hr2 : ∀ ax, (Rect.unit (s := S249x249x64) ![o, 0, 0] S83x249x64.size inb2).stride ax = 1)
    (a : Fin 83) (b : Fin 249) (k : Fin 64) :
    View.read (Elt F)
        ((((Memref.whole main_v8).slice (Rect.unit (s := S16x249x249x64) (k1_off1 i) S1x249x249x64.size inb1) hr1).squeeze
            S249x249x64 hq).slice (Rect.unit (s := S249x249x64) ![o, 0, 0] S83x249x64.size inb2) hr2).view fh0 (ix3 a b k)
      = fh0 (ix4 ⟨(i 0).val, (i 0).isLt⟩ ⟨o + a.val, by have := a.isLt; omega⟩ b k) := by
  show fh0 ((Rect.unit (s := S16x249x249x64) (k1_off1 i) S1x249x249x64.size inb1).emb
      (Shape.reshapeEquiv hq.numel_eq ((Rect.unit (s := S249x249x64) ![o, 0, 0] S83x249x64.size inb2).emb (ix3 a b k)))) = _
  -- the band: rows shifted by o
  have e2 : (Rect.unit (s := S249x249x64) ![o, 0, 0] S83x249x64.size inb2).emb (ix3 a b k)
      = ix3 ⟨o + a.val, by have := a.isLt; omega⟩ b k := by
    funext ax
    match ax with
    | ⟨0, _⟩ => exact Fin.ext (show o + 1 * a.val = o + a.val by omega)
    | ⟨1, _⟩ => exact Fin.ext (show 0 + 1 * b.val = b.val by omega)
    | ⟨2, _⟩ => exact Fin.ext (show 0 + 1 * k.val = k.val by omega)
  rw [e2, reshapeEquiv_ix3_1abc]
  -- the item: the slab at the grid coordinate
  congr 1
  funext ax
  have hk := k1_off1_eq i
  match ax with
  | ⟨0, _⟩ => exact Fin.ext (show k1_off1 i 0 + 1 * 0 = (i 0).val by rw [hk]; show (i 0).val + 1 * 0 = (i 0).val; omega)
  | ⟨1, _⟩ => exact Fin.ext (show k1_off1 i 1 + 1 * (o + a.val) = o + a.val by rw [hk]; show 0 + 1 * (o + a.val) = o + a.val; omega)
  | ⟨2, _⟩ => exact Fin.ext (show k1_off1 i 2 + 1 * b.val = b.val by rw [hk]; show 0 + 1 * b.val = b.val; omega)
  | ⟨3, _⟩ => exact Fin.ext (show k1_off1 i 3 + 1 * k.val = k.val by rw [hk]; show 0 + 1 * k.val = k.val; omega)

/-- The copy delivered for band 0 of item `i 0`. -/
theorem dma2_apply1 (c : Dev nD) (i : grid1.Coords) (fh0 : HbBuf1 (F := F) c hbM1_0) (a : Fin 83) (b : Fin 249) (k : Fin 64) :
    kernelRun1_A.sl.dma2 c i fh0 (ix3 a b k)
      = fh0 (ix4 ⟨(i 0).val, (i 0).isLt⟩ ⟨a.val, by have := a.isLt; omega⟩ b k) := by
  unfold kernelRun1_A.sl.dma2
  refine (band_read c i fh0 0 (by decide) _ _ _ _ _ a b k).trans ?_
  congr 2
  exact Fin.ext (show 0 + a.val = a.val by omega)

/-- The copy delivered for band 1 of item `i 0`. -/
theorem dma2_1_apply1 (c : Dev nD) (i : grid1.Coords) (fh0 : HbBuf1 (F := F) c hbM1_0) (a : Fin 83) (b : Fin 249) (k : Fin 64) :
    kernelRun1_A.sl.dma2_1 c i fh0 (ix3 a b k)
      = fh0 (ix4 ⟨(i 0).val, (i 0).isLt⟩ ⟨83 + a.val, by have := a.isLt; omega⟩ b k) := by
  unfold kernelRun1_A.sl.dma2_1
  exact band_read c i fh0 83 (by decide) _ _ _ _ _ a b k

/-- The copy delivered for band 2 of item `i 0`. -/
theorem dma195_apply1 (c : Dev nD) (i : grid1.Coords) (fh0 : HbBuf1 (F := F) c hbM1_0) (a : Fin 83) (b : Fin 249) (k : Fin 64) :
    kernelRun1_A.sl.dma195 c i fh0 (ix3 a b k)
      = fh0 (ix4 ⟨(i 0).val, (i 0).isLt⟩ ⟨166 + a.val, by have := a.isLt; omega⟩ b k) := by
  unfold kernelRun1_A.sl.dma195
  exact band_read c i fh0 166 (by decide) _ _ _ _ _ a b k

/-- The chunk loaded for band 0 of item `i 0`. -/
theorem chunk0_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v25 c i arg4 fs0 fh0 (ix4 0 a b k)
      = fh0 (ix4 ⟨(i 0).val, (i 0).isLt⟩ ⟨a.val, by have := a.isLt; omega⟩ b k) := by
  unfold kernelRun1_A.sl.v25
  rw [readAt_slot_write_other arg4 1 0 (by decide), readAt_slot_write_same arg4 0]
  exact dma2_apply1 c i fh0 a b k

/-- The chunk loaded for band 1 of item `i 0`. -/
theorem chunk1_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v554 c i arg4 fs0 fh0 (ix4 0 a b k)
      = fh0 (ix4 ⟨(i 0).val, (i 0).isLt⟩ ⟨83 + a.val, by have := a.isLt; omega⟩ b k) := by
  unfold kernelRun1_A.sl.v554
  rw [readAt_slot_write_other arg4 0 1 (by decide), readAt_slot_write_same arg4 1]
  exact dma2_1_apply1 c i fh0 a b k

/-- The chunk loaded for band 2 of item `i 0`. -/
theorem chunk2_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v1076 c i arg4 fs0 fh0 (ix4 0 a b k)
      = fh0 (ix4 ⟨(i 0).val, (i 0).isLt⟩ ⟨166 + a.val, by have := a.isLt; omega⟩ b k) := by
  unfold kernelRun1_A.sl.v1076
  rw [readAt_slot_write_same arg4 0]
  exact dma195_apply1 c i fh0 a b k

end Region1

end Cert.Kernel.Chunks

end
-- ==== Proof.KernelRegion0.lean ====
/-
  What the first kernel's stores leave in its output block, whatever its scratch buffer held before.

  The body zeroes the 256 × 256 block and then, for each band r of 83 window rows (copied into the scratch and loaded
  back as a chunk) and each offset k = 8 i + j, loads the 83 × 249 rectangle with corner (83 r + i, j), adds the
  chunk's slab of offset k and stores it back: 192 stores after the zero store. Read last store first, each store's
  payload is "what the earlier stores left on its rectangle, plus the slab", so the contents after all of them is the
  accumulation `accGF` of the slabs (`ChainF`), one step at a time. The chunk loaded for band r is rows
  [83 r, 83 r + 83) of the array in HBM whatever the scratch held before, so the slabs are entries of that array and
  the result does not depend on the scratch's earlier contents. Stated at any float family: nothing here uses a
  law of addition.
-/
import proofs.«116354_j4801773436971_2_alg».proof.Proof.KernelFrameA
import proofs.«116354_j4801773436971_2_alg».proof.Proof.BandF2
import proofs.«116354_j4801773436971_2_alg».proof.Proof.KernelChunks

set_option maxRecDepth 16384

noncomputable section

namespace Cert.Kernel.Region0

open Cert.Kernel Cert.Kernel.Gen Cert.Kernel.GenP Cert.Kernel.Chunks Cert.FoldSpec
open Idealize.ShloMosaic Idealize.ShloMosaic.TcCoe Idealize.ShloMosaic.ValueIdx Idealize.SL Idealize.SL.Sem

variable {F : FTy → Type} [FloatOps F]
variable (c : Dev nD) (i : grid0.Coords) (arg2 : Memref sig .tc .vmem S256x256 .f32) (harg2 : arg2.IsWhole)
  (arg3 : Memref sig .tc .vmem S2x83x249x64 .f32) (harg3 : arg3.IsWhole)
  (fs0 : BufTy.Contents (Elt F) arg3.view.ty) (fh0 : HbBuf0 (F := F) c hbM0_0)

/-- The chunk the body loaded for band `r`. -/
def chunkOf (r : ℕ) : SChunk1.Idx → F .f32 :=
  if r = 0 then kernelRun0_A.sl.v17 c arg3 fs0 fh0
  else if r = 1 then kernelRun0_A.sl.v414 c arg3 fs0 fh0
  else kernelRun0_A.sl.v806 c arg3 fs0 fh0

/-- Step s = 64 r + k adds offset k's slab of band r's chunk. -/
def cslab (s a b : ℕ) : F .f32 := cextF (chunkOf c arg3 fs0 fh0 (s / 64)) a b (s % 64)

/-- The first store fills the whole block with zeros. -/
theorem chain_zero : ChainF (F := F) kr0 kc0 83 249 (cslab c arg3 fs0 fh0) 0 kernelRun0_A.sl.H0_1 := by
  unfold kernelRun0_A.sl.H0_1
  refine ChainF.zero _ _ (fun y => ?_) (fun _ => rfl)
  rw [Rect.mem_set_unit]
  intro a
  match a with
  | ⟨0, _⟩ =>
    have h : (y 0).val < 256 := (y 0).isLt
    exact ⟨Nat.zero_le _, h⟩
  | ⟨1, _⟩ =>
    have h : (y 1).val < 256 := (y 1).isLt
    exact ⟨Nat.zero_le _, h⟩

set_option maxHeartbeats 4000000 in
/-- The 193 stores, last first, are the zero store and 192 steps, each adding its slab to what the earlier stores left
    on its rectangle: 64 steps of band 2, 64 of band 1, 64 of band 0. -/
theorem chain : ChainF kr0 kc0 83 249 (cslab c arg3 fs0 fh0) 192
    (kernelRun0_A c i arg2 harg2 arg3 harg3 fs0 fh0).1 := by
  unfold kernelRun0_A
  dsimp only
  iterate 64
    refine ChainF.step ?_ _ _ rfl rfl rfl rfl (fun _ => rfl) (fun x =>
      (band_stepF arg2.view _ _ _ (kernelRun0_A.sl.v806 c arg3 fs0 fh0) _ (by decide) (by decide) (by decide) (by decide) (by decide) x).symm)
  iterate 64
    refine ChainF.step ?_ _ _ rfl rfl rfl rfl (fun _ => rfl) (fun x =>
      (band_stepF arg2.view _ _ _ (kernelRun0_A.sl.v414 c arg3 fs0 fh0) _ (by decide) (by decide) (by decide) (by decide) (by decide) x).symm)
  iterate 64
    refine ChainF.step ?_ _ _ rfl rfl rfl rfl (fun _ => rfl) (fun x =>
      (band_stepF arg2.view _ _ _ (kernelRun0_A.sl.v17 c arg3 fs0 fh0) _ (by decide) (by decide) (by decide) (by decide) (by decide) x).symm)
  exact chain_zero c arg3 fs0 fh0

/-- Band r's chunk holds rows [83 r, 83 r + 83) of the array in HBM. -/
theorem chunk_read (r : ℕ) (hr : r < 3) (k a b : ℕ) (hk : k < 64) (ha : a < 83) (hb : b < 249) :
    cextF (chunkOf c arg3 fs0 fh0 r) a b k = extF (fun q => fh0 q) (83 * r + a) b k := by
  unfold cextF extF
  rw [dif_pos ⟨ha, hb, hk⟩, dif_pos ⟨by omega, hb, hk⟩]
  unfold chunkOf
  interval_cases r
  · rw [if_pos rfl, chunk0_eq c arg3 fs0 fh0 ⟨a, ha⟩ ⟨b, hb⟩ ⟨k, hk⟩]
    all_goals (try simp only [Nat.mul_zero, Nat.zero_add])
  · rw [if_neg (by decide), if_pos rfl, chunk1_eq c arg3 fs0 fh0 ⟨a, ha⟩ ⟨b, hb⟩ ⟨k, hk⟩]
    all_goals (try simp only [Nat.mul_one])
  · rw [if_neg (by decide), if_neg (by decide), chunk2_eq c arg3 fs0 fh0 ⟨a, ha⟩ ⟨b, hb⟩ ⟨k, hk⟩]
    all_goals (try simp only [Nat.reduceMul])

/-- What the stores leave: the accumulation of the HBM array's slabs in the kernel's order, whatever the scratch
    held before. -/
theorem canon_eq : View.canon (kernelRun0_A c i arg2 harg2 arg3 harg3 fs0 fh0).1
    = accGF kr0 kc0 83 249 (kslabF (fun q => fh0 q)) 192 :=
  (chain c i arg2 harg2 arg3 harg3 fs0 fh0).canon_eq.trans
    (accGF_congr _ _ _ _ _ _ _ fun s hs a ha b hb =>
      chunk_read c arg3 fs0 fh0 (s / 64) (by omega) (s % 64) a b (Nat.mod_lt _ (by decide)) ha hb)

/-- Every entry of the block is under some store (the zero store covers it). -/
theorem cover (y : S256x256.Idx) : ∃ p ∈ (kernelRun0_A c i arg2 harg2 arg3 harg3 fs0 fh0).1, y ∈ p.1.set :=
  (chain c i arg2 harg2 arg3 harg3 fs0 fh0).cover y

end Cert.Kernel.Region0

end
-- ==== Proof.KernelRegion1.lean ====
/-
  What the second kernel's stores leave in its output block, whatever its scratch buffer held before.

  The body zeroes the 1 × 256 × 256 block and then, for each band r of 83 window rows of its batch item (copied into
  the scratch and loaded back as a chunk) and each offset k = 8 i + j, loads the 1 × 83 × 249 rectangle with corner
  (0, 83 r + i, j), adds the chunk's slab of offset k and stores it back: 192 stores after the zero store. Its last
  store divides the whole block, entry by entry, by the divisor block. Read last store first, each band store's
  payload is "what the earlier stores left on its rectangle, plus the slab", so the contents below the last store is
  the accumulation `accGF` of the slabs (`Chain1F`), one step at a time, and the last store leaves its quotient by the
  divisor block. The chunk loaded for band r is rows [83 r, 83 r + 83) of the item's patch array in HBM whatever the
  scratch held before, so the slabs are entries of that array and the result does not depend on the scratch's
  earlier contents. Stated at any float family: nothing here uses a law of addition or division.
-/
import proofs.«116354_j4801773436971_2_alg».proof.Proof.KernelFrameA
import proofs.«116354_j4801773436971_2_alg».proof.Proof.BandF2
import proofs.«116354_j4801773436971_2_alg».proof.Proof.KernelChunks

set_option maxRecDepth 16384

noncomputable section

namespace Cert.Kernel.Region1

open Cert.Kernel Cert.Kernel.Gen Cert.Kernel.GenP Cert.Kernel.Chunks Cert.FoldSpec
open Idealize.ShloMosaic Idealize.ShloMosaic.TcCoe Idealize.ShloMosaic.ValueIdx Idealize.SL Idealize.SL.Sem

variable {F : FTy → Type} [FloatOps F]
variable (c : Dev nD) (i : grid1.Coords) (arg2 : Memref sig .tc .vmem S256x256 .f32) (harg2 : arg2.IsWhole)
  (arg3 : Memref sig .tc .vmem S1x256x256 .f32) (harg3 : arg3.IsWhole)
  (arg4 : Memref sig .tc .vmem S2x83x249x64 .f32) (harg4 : arg4.IsWhole)
  (fs0 : BufTy.Contents (Elt F) arg4.view.ty) (x0 : Vec F S256x256 .f32) (fh0 : HbBuf1 (F := F) c hbM1_0)

/-- The chunk the body loaded for band `r`. -/
def chunkOf (r : ℕ) : SChunk1.Idx → F .f32 :=
  if r = 0 then kernelRun1_A.sl.v25 c i arg4 fs0 fh0
  else if r = 1 then kernelRun1_A.sl.v554 c i arg4 fs0 fh0
  else kernelRun1_A.sl.v1076 c i arg4 fs0 fh0

/-- Step s = 64 r + k adds offset k's slab of band r's chunk. -/
def cslab (s a b : ℕ) : F .f32 := cextF (chunkOf c i arg4 fs0 fh0 (s / 64)) a b (s % 64)

/-- The first store fills the whole block with zeros. -/
theorem chain_zero : Chain1F (F := F) kr0 kc0 83 249 (cslab c i arg4 fs0 fh0) 0 kernelRun1_A.sl.H1_1 := by
  unfold kernelRun1_A.sl.H1_1
  refine Chain1F.zero _ _ (fun y => ?_) (fun _ => rfl)
  rw [Rect.mem_set_unit]
  intro a
  match a with
  | ⟨0, _⟩ =>
    have h : (y 0).val < 1 := (y 0).isLt
    exact ⟨show 0 ≤ (y 0).val from Nat.zero_le _, show (y 0).val < 0 + 1 by omega⟩
  | ⟨1, _⟩ =>
    have h : (y 1).val < 256 := (y 1).isLt
    exact ⟨show 0 ≤ (y 1).val from Nat.zero_le _, show (y 1).val < 0 + 256 by omega⟩
  | ⟨2, _⟩ =>
    have h : (y 2).val < 256 := (y 2).isLt
    exact ⟨show 0 ≤ (y 2).val from Nat.zero_le _, show (y 2).val < 0 + 256 by omega⟩

set_option maxHeartbeats 4000000 in
/-- The 193 stores below the last one, last first, are the zero store and 192 steps, each adding its slab to what the
    earlier stores left on its rectangle: 64 steps of band 2, 64 of band 1, 64 of band 0. -/
theorem chain : Chain1F kr0 kc0 83 249 (cslab c i arg4 fs0 fh0) 192 (kernelRun1_A.sl.H1_193 c i arg3 arg4 fs0 fh0) := by
  iterate 64
    refine Chain1F.step ?_ _ _ rfl rfl rfl rfl rfl rfl (fun _ => rfl) (fun x =>
      (band1_stepF arg3.view _ _ _ (kernelRun1_A.sl.v1076 c i arg4 fs0 fh0) _ (by decide) (by decide) (by decide) (by decide) (by decide) (by decide) x).symm)
  iterate 64
    refine Chain1F.step ?_ _ _ rfl rfl rfl rfl rfl rfl (fun _ => rfl) (fun x =>
      (band1_stepF arg3.view _ _ _ (kernelRun1_A.sl.v554 c i arg4 fs0 fh0) _ (by decide) (by decide) (by decide) (by decide) (by decide) (by decide) x).symm)
  iterate 64
    refine Chain1F.step ?_ _ _ rfl rfl rfl rfl rfl rfl (fun _ => rfl) (fun x =>
      (band1_stepF arg3.view _ _ _ (kernelRun1_A.sl.v25 c i arg4 fs0 fh0) _ (by decide) (by decide) (by decide) (by decide) (by decide) (by decide) x).symm)
  exact chain_zero c i arg4 fs0 fh0

/-- Band r's chunk holds rows [83 r, 83 r + 83) of item `i 0`'s patch array in HBM. -/
theorem chunk_read (r : ℕ) (hr : r < 3) (k a b : ℕ) (hk : k < 64) (ha : a < 83) (hb : b < 249) :
    cextF (chunkOf c i arg4 fs0 fh0 r) a b k
      = extF (patch4F (fun q => fh0 q) ⟨(i 0).val, (i 0).isLt⟩) (83 * r + a) b k := by
  unfold cextF extF
  rw [dif_pos ⟨ha, hb, hk⟩, dif_pos ⟨by omega, hb, hk⟩]
  unfold chunkOf patch4F
  interval_cases r
  · rw [if_pos rfl, chunk0_eq1 c i arg4 fs0 fh0 ⟨a, ha⟩ ⟨b, hb⟩ ⟨k, hk⟩]
    simp only [Nat.mul_zero, Nat.zero_add]
  · rw [if_neg (by decide), if_pos rfl, chunk1_eq1 c i arg4 fs0 fh0 ⟨a, ha⟩ ⟨b, hb⟩ ⟨k, hk⟩]
  · rw [if_neg (by decide), if_neg (by decide), chunk2_eq1 c i arg4 fs0 fh0 ⟨a, ha⟩ ⟨b, hb⟩ ⟨k, hk⟩]

/-- The divisor block, loaded whole, is the block's contents. -/
theorem divisor_load :
    View.readAt (Elt F) arg2.view (Rect.unit ![0, 0] ![256, 256] inb_S256x256_S256x256_0_0).toLoadRect (harg2.unread x0)
      = x0 := by
  rw [View.readAt_eq_ld, harg2.read_unread]
  exact View.ld_unit_zero (S := S256x256) (funext fun a => by fin_cases a <;> rfl) inb_S256x256_S256x256_0_0 x0

/-- Every entry of the output block is in the whole-block rectangle. -/
theorem mem_whole (y : S1x256x256.Idx) :
    y ∈ (Rect.unit ![0, 0, 0] ![1, 256, 256] inb_S1x256x256_S1x256x256_0_0_0).set := by
  rw [Rect.mem_set_unit]
  intro a
  match a with
  | ⟨0, _⟩ =>
    have h : (y 0).val < 1 := (y 0).isLt
    exact ⟨show 0 ≤ (y 0).val from Nat.zero_le _, show (y 0).val < 0 + 1 by omega⟩
  | ⟨1, _⟩ =>
    have h : (y 1).val < 256 := (y 1).isLt
    exact ⟨show 0 ≤ (y 1).val from Nat.zero_le _, show (y 1).val < 0 + 256 by omega⟩
  | ⟨2, _⟩ =>
    have h : (y 2).val < 256 := (y 2).isLt
    exact ⟨show 0 ≤ (y 2).val from Nat.zero_le _, show (y 2).val < 0 + 256 by omega⟩

/-- What the stores leave: the accumulation of the HBM array's slabs for item `i 0`, in the kernel's order, over the
    divisor block, entry by entry, whatever the scratch held before. -/
theorem canon_eq : View.canon (kernelRun1_A c i arg2 harg2 arg3 harg3 arg4 harg4 x0 fs0 fh0).1
    = lift1F (fun p => FloatOps.divf
        (accGF kr0 kc0 83 249 (kslabF (patch4F (fun q => fh0 q) ⟨(i 0).val, (i 0).isLt⟩)) 192 p) (x0 p)) := by
  have hD := divisor_load arg2 harg2 x0
  unfold kernelRun1_A
  dsimp only
  rw [hD]
  refine ((chain c i arg3 arg4 fs0 fh0).quotient x0 _ _ (mem_whole) (fun x =>
    (quot1_stepF arg3.view _ _ _ x0 (by decide) (by decide) (by decide) x).symm)).trans ?_
  rw [accGF_congr kr0 kc0 83 249 (cslab c i arg4 fs0 fh0)
    (kslabF (patch4F (fun q => fh0 q) ⟨(i 0).val, (i 0).isLt⟩)) 192 fun s hs a ha b hb =>
      chunk_read c i arg4 fs0 fh0 (s / 64) (by omega) (s % 64) a b (Nat.mod_lt _ (by decide)) ha hb]

/-- Every entry of the block is under some store (the zero store covers it). -/
theorem cover (y : S1x256x256.Idx) :
    ∃ p ∈ (kernelRun1_A c i arg2 harg2 arg3 harg3 arg4 harg4 x0 fs0 fh0).1, y ∈ p.1.set := by
  obtain ⟨p, hp, hy⟩ := (chain c i arg3 arg4 fs0 fh0).cover y
  unfold kernelRun1_A
  dsimp only
  exact ⟨p, List.mem_cons_of_mem _ hp, hy⟩

end Cert.Kernel.Region1

end
-- ==== Proof.Chunks.lean ====
/-
  The chunks the two kernels load, read as bands of the arrays in HBM.

  Each kernel works through a patch array [249, 249, 64] in three bands of 83 window rows. Band r is copied from rows
  [83 r, 83 r + 83) of the array in HBM into slot r % 2 of a two-slot scratch buffer [2, 83, 249, 64] and then loaded
  from that slot as a [1, 83, 249, 64] chunk. A write through one slot's view does not touch the other slot, and a later
  write to a slot replaces an earlier one; so, whatever the scratch held before, the chunk loaded for band r is rows
  [83 r, 83 r + 83) of the array in HBM. For the first kernel that array is the counts' patch array; for the second it
  is item n of the batch's patch array [16, 249, 249, 64], n the grid coordinate.
-/
import proofs.«116354_j4801773436971_2_alg».proof.Proof.KernelIdealFrameA
import Idealize.ShloMosaic.Lib.Pipeline.Value
import Idealize.ShloMosaic.Lib.ValueIdx
import Idealize.ShloMosaic.Lib.ValueLayout
import Idealize.ShloMosaic.Lib.Writes

noncomputable section

namespace Cert.KernelIdeal.Chunks

open Cert.KernelIdeal Cert.KernelIdeal.Gen Cert.KernelIdeal.GenP Idealize.ShloMosaic Idealize.ShloMosaic.TcCoe
  Idealize.ShloMosaic.ValueIdx Idealize.SL Idealize.SL.Sem

/-! ## A two-slot scratch buffer

The scratch buffer `[2, 83, 249, 64]` is written one slot at a time, through the view of slot `p` with its unit axis
dropped, and read one slot at a time through the whole buffer at the rectangle `[p, p + 1) × 83 × 249 × 64`. A write
through slot `p` is seen whole by a read of slot `p`, whatever the buffer held before; it is not seen by a read of the
other slot, since the two rectangles are separated on the first axis. -/

section Slots

variable {Val : EltTy → Type}

/-- A read of slot `p` after a write through slot `p`'s view: the payload, at the index with the unit axis dropped. -/
theorem readAt_slot_write_same (M : Memref sig .tc .vmem S2x83x249x64 .f32) (p : ℕ)
    (inb : ∀ a, (![p, 0, 0, 0] : Fin 4 → ℕ) a + S1x83x249x64.size a ≤ S2x83x249x64.size a)
    (hr : ∀ a, (Rect.unit (s := S2x83x249x64) ![p, 0, 0, 0] S1x83x249x64.size inb).stride a = 1)
    (hq : (Rect.unit (s := S2x83x249x64) ![p, 0, 0, 0] S1x83x249x64.size inb).shape.Squeezes S83x249x64)
    (f : M.view.ty.Contents Val) (w : S83x249x64.Idx → Val .f32) (a : Fin 83) (b : Fin 249) (k : Fin 64) :
    View.readAt Val M.view (Rect.unit (s := S2x83x249x64) ![p, 0, 0, 0] S1x83x249x64.size inb).toLoadRect
      (View.write Val ((M.slice (Rect.unit (s := S2x83x249x64) ![p, 0, 0, 0] S1x83x249x64.size inb) hr).squeeze S83x249x64 hq).view
        f w Finset.univ) (ix4 0 a b k) = w (ix3 a b k) := by
  show (M.view.slice (Rect.unit (s := S2x83x249x64) ![p, 0, 0, 0] S1x83x249x64.size inb)).read Val
      (((M.view.slice (Rect.unit (s := S2x83x249x64) ![p, 0, 0, 0] S1x83x249x64.size inb)).reshape S83x249x64 hq.numel_eq).write Val
        f w Finset.univ) (ix4 0 a b k) = w (ix3 a b k)
  rw [View.write_reshape_univ, View.read_write_univ]
  congr 1
  rw [Equiv.symm_apply_eq]
  exact (reshapeEquiv_ix3_1abc _ a b k).symm

/-- A read of slot `p'` after a write through the other slot `p`'s view: what was there before. -/
theorem readAt_slot_write_other (M : Memref sig .tc .vmem S2x83x249x64 .f32) (p p' : ℕ) (hne : p ≠ p')
    (inb : ∀ a, (![p, 0, 0, 0] : Fin 4 → ℕ) a + S1x83x249x64.size a ≤ S2x83x249x64.size a)
    (inb' : ∀ a, (![p', 0, 0, 0] : Fin 4 → ℕ) a + S1x83x249x64.size a ≤ S2x83x249x64.size a)
    (hr : ∀ a, (Rect.unit (s := S2x83x249x64) ![p, 0, 0, 0] S1x83x249x64.size inb).stride a = 1)
    (hq : (Rect.unit (s := S2x83x249x64) ![p, 0, 0, 0] S1x83x249x64.size inb).shape.Squeezes S83x249x64)
    (f : M.view.ty.Contents Val) (w : S83x249x64.Idx → Val .f32) :
    View.readAt Val M.view (Rect.unit (s := S2x83x249x64) ![p', 0, 0, 0] S1x83x249x64.size inb').toLoadRect
      (View.write Val ((M.slice (Rect.unit (s := S2x83x249x64) ![p, 0, 0, 0] S1x83x249x64.size inb) hr).squeeze S83x249x64 hq).view
        f w Finset.univ)
      = View.readAt Val M.view (Rect.unit (s := S2x83x249x64) ![p', 0, 0, 0] S1x83x249x64.size inb').toLoadRect f := by
  show (M.view.slice (Rect.unit (s := S2x83x249x64) ![p', 0, 0, 0] S1x83x249x64.size inb')).read Val
      (((M.view.slice (Rect.unit (s := S2x83x249x64) ![p, 0, 0, 0] S1x83x249x64.size inb)).reshape S83x249x64 hq.numel_eq).write Val
        f w Finset.univ)
    = (M.view.slice (Rect.unit (s := S2x83x249x64) ![p', 0, 0, 0] S1x83x249x64.size inb')).read Val f
  rw [View.write_reshape_univ]
  refine View.read_slice_write_slice_of_disjoint _ _ f _ Finset.univ ?_
  rw [View.setOn_univ, View.set_slice, View.set_slice]
  refine (Finset.disjoint_map _).mpr (Rect.unit_disjoint 0 ?_)
  show p' + 1 ≤ p ∨ p + 1 ≤ p'
  omega

end Slots

/-! ## The first kernel's chunks

Band `r` of the counts' patch array is copied from rows `[83 r, 83 r + 83)` of the array in HBM into slot `r % 2` and
loaded from that slot. -/

section Region0

variable {F : FTy → Type} [FloatOps F]

/-- The copy delivered for band 0 is rows `[0, 83)` of the array in HBM. -/
theorem dma2_apply (c : Dev nD) (fh0 : HbBuf0 (F := F) c hbM0_0) (a : Fin 83) (b : Fin 249) (k : Fin 64) :
    kernelRun0_A.sl.dma2 c fh0 (ix3 a b k) = fh0 (ix3 ⟨a.val, by have := a.isLt; omega⟩ b k) := by
  unfold kernelRun0_A.sl.dma2
  show fh0 _ = fh0 _
  congr 1
  funext ax
  match ax with
  | ⟨0, _⟩ => exact Fin.ext (show 0 + 1 * a.val = a.val by omega)
  | ⟨1, _⟩ => exact Fin.ext (show 0 + 1 * b.val = b.val by omega)
  | ⟨2, _⟩ => exact Fin.ext (show 0 + 1 * k.val = k.val by omega)

/-- The copy delivered for band 1 is rows `[83, 166)`. -/
theorem dma2_1_apply (c : Dev nD) (fh0 : HbBuf0 (F := F) c hbM0_0) (a : Fin 83) (b : Fin 249) (k : Fin 64) :
    kernelRun0_A.sl.dma2_1 c fh0 (ix3 a b k) = fh0 (ix3 ⟨83 + a.val, by have := a.isLt; omega⟩ b k) := by
  unfold kernelRun0_A.sl.dma2_1
  show fh0 _ = fh0 _
  congr 1
  funext ax
  match ax with
  | ⟨0, _⟩ => exact Fin.ext (show 83 + 1 * a.val = 83 + a.val by omega)
  | ⟨1, _⟩ => exact Fin.ext (show 0 + 1 * b.val = b.val by omega)
  | ⟨2, _⟩ => exact Fin.ext (show 0 + 1 * k.val = k.val by omega)

/-- The copy delivered for band 2 is rows `[166, 249)`. -/
theorem dma195_apply (c : Dev nD) (fh0 : HbBuf0 (F := F) c hbM0_0) (a : Fin 83) (b : Fin 249) (k : Fin 64) :
    kernelRun0_A.sl.dma195 c fh0 (ix3 a b k) = fh0 (ix3 ⟨166 + a.val, by have := a.isLt; omega⟩ b k) := by
  unfold kernelRun0_A.sl.dma195
  show fh0 _ = fh0 _
  congr 1
  funext ax
  match ax with
  | ⟨0, _⟩ => exact Fin.ext (show 166 + 1 * a.val = 166 + a.val by omega)
  | ⟨1, _⟩ => exact Fin.ext (show 0 + 1 * b.val = b.val by omega)
  | ⟨2, _⟩ => exact Fin.ext (show 0 + 1 * k.val = k.val by omega)

/-- The chunk loaded for band 0: slot 0 after band 0's copy, band 1's copy into slot 1 not seen. -/
theorem chunk0_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v17 c arg3 fs0 fh0 (ix4 0 a b k) = fh0 (ix3 ⟨a.val, by have := a.isLt; omega⟩ b k) := by
  unfold kernelRun0_A.sl.v17
  rw [readAt_slot_write_other arg3 1 0 (by decide), readAt_slot_write_same arg3 0]
  exact dma2_apply c fh0 a b k

/-- The chunk loaded for band 1: slot 1 after band 1's copy, band 2's copy into slot 0 not seen. -/
theorem chunk1_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v414 c arg3 fs0 fh0 (ix4 0 a b k) = fh0 (ix3 ⟨83 + a.val, by have := a.isLt; omega⟩ b k) := by
  unfold kernelRun0_A.sl.v414
  rw [readAt_slot_write_other arg3 0 1 (by decide), readAt_slot_write_same arg3 1]
  exact dma2_1_apply c fh0 a b k

/-- The chunk loaded for band 2: slot 0 after band 2's copy, which replaced band 0's. -/
theorem chunk2_eq (c : Dev nD) (arg3 : Memref sig .tc .vmem S2x83x249x64 .f32)
    (fs0 : BufTy.Contents (Elt F) arg3.view.ty) (fh0 : HbBuf0 (F := F) c hbM0_0) (a : Fin 83) (b : Fin 249) (k : Fin 64) :
    kernelRun0_A.sl.v806 c arg3 fs0 fh0 (ix4 0 a b k) = fh0 (ix3 ⟨166 + a.val, by have := a.isLt; omega⟩ b k) := by
  unfold kernelRun0_A.sl.v806
  rw [readAt_slot_write_same arg3 0]
  exact dma195_apply c fh0 a b k

end Region0

/-! ## The second kernel's chunks

The same three bands, of batch item `n` = the grid coordinate: the copies read item `n` of the batch's patch array
`[16, 249, 249, 64]`, its unit axis dropped, at rows `[83 r, 83 r + 83)`. -/

section Region1

variable {F : FTy → Type} [FloatOps F]

/-- Rows `[o, o + 83)` of batch item `i 0`, read through the copies' view of the array in HBM: the item's slab
    `[1, 249, 249, 64]` at the grid coordinate, its unit axis dropped, then the band. -/
theorem band_read (c : Dev nD) (i : grid1.Coords) (fh0 : HbBuf1 (F := F) c hbM1_0) (o : ℕ) (ho : o + 83 ≤ 249)
    (inb1 : ∀ ax, k1_off1 i ax + S1x249x249x64.size ax ≤ S16x249x249x64.size ax)
    (hr1 : ∀ ax, (Rect.unit (s := S16x249x249x64) (k1_off1 i) S1x249x249x64.size inb1).stride ax = 1)
    (hq : (Rect.unit (s := S16x249x249x64) (k1_off1 i) S1x249x249x64.size inb1).shape.Squeezes S249x249x64)
    (inb2 : ∀ ax, (![o, 0, 0] : Fin 3 → ℕ) ax + S83x249x64.size ax ≤ S249x249x64.size ax)
    (hr2 : ∀ ax, (Rect.unit (s := S249x249x64) ![o, 0, 0] S83x249x64.size inb2).stride ax = 1)
    (a : Fin 83) (b : Fin 249) (k : Fin 64) :
    View.read (Elt F)
        ((((Memref.whole main_v8).slice (Rect.unit (s := S16x249x249x64) (k1_off1 i) S1x249x249x64.size inb1) hr1).squeeze
            S249x249x64 hq).slice (Rect.unit (s := S249x249x64) ![o, 0, 0] S83x249x64.size inb2) hr2).view fh0 (ix3 a b k)
      = fh0 (ix4 ⟨(i 0).val, (i 0).isLt⟩ ⟨o + a.val, by have := a.isLt; omega⟩ b k) := by
  show fh0 ((Rect.unit (s := S16x249x249x64) (k1_off1 i) S1x249x249x64.size inb1).emb
      (Shape.reshapeEquiv hq.numel_eq ((Rect.unit (s := S249x249x64) ![o, 0, 0] S83x249x64.size inb2).emb (ix3 a b k)))) = _
  -- the band: rows shifted by o
  have e2 : (Rect.unit (s := S249x249x64) ![o, 0, 0] S83x249x64.size inb2).emb (ix3 a b k)
      = ix3 ⟨o + a.val, by have := a.isLt; omega⟩ b k := by
    funext ax
    match ax with
    | ⟨0, _⟩ => exact Fin.ext (show o + 1 * a.val = o + a.val by omega)
    | ⟨1, _⟩ => exact Fin.ext (show 0 + 1 * b.val = b.val by omega)
    | ⟨2, _⟩ => exact Fin.ext (show 0 + 1 * k.val = k.val by omega)
  rw [e2, reshapeEquiv_ix3_1abc]
  -- the item: the slab at the grid coordinate
  congr 1
  funext ax
  have hk := k1_off1_eq i
  match ax with
  | ⟨0, _⟩ => exact Fin.ext (show k1_off1 i 0 + 1 * 0 = (i 0).val by rw [hk]; show (i 0).val + 1 * 0 = (i 0).val; omega)
  | ⟨1, _⟩ => exact Fin.ext (show k1_off1 i 1 + 1 * (o + a.val) = o + a.val by rw [hk]; show 0 + 1 * (o + a.val) = o + a.val; omega)
  | ⟨2, _⟩ => exact Fin.ext (show k1_off1 i 2 + 1 * b.val = b.val by rw [hk]; show 0 + 1 * b.val = b.val; omega)
  | ⟨3, _⟩ => exact Fin.ext (show k1_off1 i 3 + 1 * k.val = k.val by rw [hk]; show 0 + 1 * k.val = k.val; omega)

/-- The copy delivered for band 0 of item `i 0`. -/
theorem dma2_apply1 (c : Dev nD) (i : grid1.Coords) (fh0 : HbBuf1 (F := F) c hbM1_0) (a : Fin 83) (b : Fin 249) (k : Fin 64) :
    kernelRun1_A.sl.dma2 c i fh0 (ix3 a b k)
      = fh0 (ix4 ⟨(i 0).val, (i 0).isLt⟩ ⟨a.val, by have := a.isLt; omega⟩ b k) := by
  unfold kernelRun1_A.sl.dma2
  refine (band_read c i fh0 0 (by decide) _ _ _ _ _ a b k).trans ?_
  congr 2
  exact Fin.ext (show 0 + a.val = a.val by omega)

/-- The copy delivered for band 1 of item `i 0`. -/
theorem dma2_1_apply1 (c : Dev nD) (i : grid1.Coords) (fh0 : HbBuf1 (F := F) c hbM1_0) (a : Fin 83) (b : Fin 249) (k : Fin 64) :
    kernelRun1_A.sl.dma2_1 c i fh0 (ix3 a b k)
      = fh0 (ix4 ⟨(i 0).val, (i 0).isLt⟩ ⟨83 + a.val, by have := a.isLt; omega⟩ b k) := by
  unfold kernelRun1_A.sl.dma2_1
  exact band_read c i fh0 83 (by decide) _ _ _ _ _ a b k

/-- The copy delivered for band 2 of item `i 0`. -/
theorem dma195_apply1 (c : Dev nD) (i : grid1.Coords) (fh0 : HbBuf1 (F := F) c hbM1_0) (a : Fin 83) (b : Fin 249) (k : Fin 64) :
    kernelRun1_A.sl.dma195 c i fh0 (ix3 a b k)
      = fh0 (ix4 ⟨(i 0).val, (i 0).isLt⟩ ⟨166 + a.val, by have := a.isLt; omega⟩ b k) := by
  unfold kernelRun1_A.sl.dma195
  exact band_read c i fh0 166 (by decide) _ _ _ _ _ a b k

/-- The chunk loaded for band 0 of item `i 0`. -/
theorem chunk0_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v25 c i arg4 fs0 fh0 (ix4 0 a b k)
      = fh0 (ix4 ⟨(i 0).val, (i 0).isLt⟩ ⟨a.val, by have := a.isLt; omega⟩ b k) := by
  unfold kernelRun1_A.sl.v25
  rw [readAt_slot_write_other arg4 1 0 (by decide), readAt_slot_write_same arg4 0]
  exact dma2_apply1 c i fh0 a b k

/-- The chunk loaded for band 1 of item `i 0`. -/
theorem chunk1_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v554 c i arg4 fs0 fh0 (ix4 0 a b k)
      = fh0 (ix4 ⟨(i 0).val, (i 0).isLt⟩ ⟨83 + a.val, by have := a.isLt; omega⟩ b k) := by
  unfold kernelRun1_A.sl.v554
  rw [readAt_slot_write_other arg4 0 1 (by decide), readAt_slot_write_same arg4 1]
  exact dma2_1_apply1 c i fh0 a b k

/-- The chunk loaded for band 2 of item `i 0`. -/
theorem chunk2_eq1 (c : Dev nD) (i : grid1.Coords) (arg4 : Memref sig .tc .vmem S2x83x249x64 .f32)
    (fs0 : BufTy.Contents (Elt F) arg4.view.ty) (fh0 : HbBuf1 (F := F) c hbM1_0) (a : Fin 83) (b : Fin 249) (k : Fin 64) :
    kernelRun1_A.sl.v1076 c i arg4 fs0 fh0 (ix4 0 a b k)
      = fh0 (ix4 ⟨(i 0).val, (i 0).isLt⟩ ⟨166 + a.val, by have := a.isLt; omega⟩ b k) := by
  unfold kernelRun1_A.sl.v1076
  rw [readAt_slot_write_same arg4 0]
  exact dma195_apply1 c i fh0 a b k

end Region1

end Cert.KernelIdeal.Chunks

end
-- ==== Proof.Region0.lean ====
/-
  What the first kernel's stores leave in its output block, whatever its scratch buffer held before.

  The body zeroes the 256 × 256 block and then, for each band r of 83 window rows (copied into the scratch and loaded
  back as a chunk) and each offset k = 8 i + j, loads the 83 × 249 rectangle with corner (83 r + i, j), adds the
  chunk's slab of offset k and stores it back: 192 stores after the zero store. Read last store first, each store's
  payload is "what the earlier stores left on its rectangle, plus the slab", so the contents after all of them is the
  accumulation `accGF` of the slabs (`ChainF`), one step at a time. The chunk loaded for band r is rows
  [83 r, 83 r + 83) of the array in HBM whatever the scratch held before, so the slabs are entries of that array and
  the result does not depend on the scratch's earlier contents. Stated at any float family: nothing here uses a
  law of addition.
-/
import proofs.«116354_j4801773436971_2_alg».proof.Proof.KernelIdealFrameA
import proofs.«116354_j4801773436971_2_alg».proof.Proof.BandF2
import proofs.«116354_j4801773436971_2_alg».proof.Proof.Chunks

set_option maxRecDepth 16384

noncomputable section

namespace Cert.KernelIdeal.Region0

open Cert.KernelIdeal Cert.KernelIdeal.Gen Cert.KernelIdeal.GenP Cert.KernelIdeal.Chunks Cert.FoldSpec
open Idealize.ShloMosaic Idealize.ShloMosaic.TcCoe Idealize.ShloMosaic.ValueIdx Idealize.SL Idealize.SL.Sem

variable {F : FTy → Type} [FloatOps F]
variable (c : Dev nD) (i : grid0.Coords) (arg2 : Memref sig .tc .vmem S256x256 .f32) (harg2 : arg2.IsWhole)
  (arg3 : Memref sig .tc .vmem S2x83x249x64 .f32) (harg3 : arg3.IsWhole)
  (fs0 : BufTy.Contents (Elt F) arg3.view.ty) (fh0 : HbBuf0 (F := F) c hbM0_0)

/-- The chunk the body loaded for band `r`. -/
def chunkOf (r : ℕ) : SChunk1.Idx → F .f32 :=
  if r = 0 then kernelRun0_A.sl.v17 c arg3 fs0 fh0
  else if r = 1 then kernelRun0_A.sl.v414 c arg3 fs0 fh0
  else kernelRun0_A.sl.v806 c arg3 fs0 fh0

/-- Step s = 64 r + k adds offset k's slab of band r's chunk. -/
def cslab (s a b : ℕ) : F .f32 := cextF (chunkOf c arg3 fs0 fh0 (s / 64)) a b (s % 64)

/-- The first store fills the whole block with zeros. -/
theorem chain_zero : ChainF (F := F) kr0 kc0 83 249 (cslab c arg3 fs0 fh0) 0 kernelRun0_A.sl.H0_1 := by
  unfold kernelRun0_A.sl.H0_1
  refine ChainF.zero _ _ (fun y => ?_) (fun _ => rfl)
  rw [Rect.mem_set_unit]
  intro a
  match a with
  | ⟨0, _⟩ =>
    have h : (y 0).val < 256 := (y 0).isLt
    exact ⟨Nat.zero_le _, h⟩
  | ⟨1, _⟩ =>
    have h : (y 1).val < 256 := (y 1).isLt
    exact ⟨Nat.zero_le _, h⟩

set_option maxHeartbeats 4000000 in
/-- The 193 stores, last first, are the zero store and 192 steps, each adding its slab to what the earlier stores left
    on its rectangle: 64 steps of band 2, 64 of band 1, 64 of band 0. -/
theorem chain : ChainF kr0 kc0 83 249 (cslab c arg3 fs0 fh0) 192
    (kernelRun0_A c i arg2 harg2 arg3 harg3 fs0 fh0).1 := by
  unfold kernelRun0_A
  dsimp only
  iterate 64
    refine ChainF.step ?_ _ _ rfl rfl rfl rfl (fun _ => rfl) (fun x =>
      (band_stepF arg2.view _ _ _ (kernelRun0_A.sl.v806 c arg3 fs0 fh0) _ (by decide) (by decide) (by decide) (by decide) (by decide) x).symm)
  iterate 64
    refine ChainF.step ?_ _ _ rfl rfl rfl rfl (fun _ => rfl) (fun x =>
      (band_stepF arg2.view _ _ _ (kernelRun0_A.sl.v414 c arg3 fs0 fh0) _ (by decide) (by decide) (by decide) (by decide) (by decide) x).symm)
  iterate 64
    refine ChainF.step ?_ _ _ rfl rfl rfl rfl (fun _ => rfl) (fun x =>
      (band_stepF arg2.view _ _ _ (kernelRun0_A.sl.v17 c arg3 fs0 fh0) _ (by decide) (by decide) (by decide) (by decide) (by decide) x).symm)
  exact chain_zero c arg3 fs0 fh0

/-- Band r's chunk holds rows [83 r, 83 r + 83) of the array in HBM. -/
theorem chunk_read (r : ℕ) (hr : r < 3) (k a b : ℕ) (hk : k < 64) (ha : a < 83) (hb : b < 249) :
    cextF (chunkOf c arg3 fs0 fh0 r) a b k = extF (fun q => fh0 q) (83 * r + a) b k := by
  unfold cextF extF
  rw [dif_pos ⟨ha, hb, hk⟩, dif_pos ⟨by omega, hb, hk⟩]
  unfold chunkOf
  interval_cases r
  · rw [if_pos rfl, chunk0_eq c arg3 fs0 fh0 ⟨a, ha⟩ ⟨b, hb⟩ ⟨k, hk⟩]
    all_goals (try simp only [Nat.mul_zero, Nat.zero_add])
  · rw [if_neg (by decide), if_pos rfl, chunk1_eq c arg3 fs0 fh0 ⟨a, ha⟩ ⟨b, hb⟩ ⟨k, hk⟩]
    all_goals (try simp only [Nat.mul_one])
  · rw [if_neg (by decide), if_neg (by decide), chunk2_eq c arg3 fs0 fh0 ⟨a, ha⟩ ⟨b, hb⟩ ⟨k, hk⟩]
    all_goals (try simp only [Nat.reduceMul])

/-- What the stores leave: the accumulation of the HBM array's slabs in the kernel's order, whatever the scratch
    held before. -/
theorem canon_eq : View.canon (kernelRun0_A c i arg2 harg2 arg3 harg3 fs0 fh0).1
    = accGF kr0 kc0 83 249 (kslabF (fun q => fh0 q)) 192 :=
  (chain c i arg2 harg2 arg3 harg3 fs0 fh0).canon_eq.trans
    (accGF_congr _ _ _ _ _ _ _ fun s hs a ha b hb =>
      chunk_read c arg3 fs0 fh0 (s / 64) (by omega) (s % 64) a b (Nat.mod_lt _ (by decide)) ha hb)

/-- Every entry of the block is under some store (the zero store covers it). -/
theorem cover (y : S256x256.Idx) : ∃ p ∈ (kernelRun0_A c i arg2 harg2 arg3 harg3 fs0 fh0).1, y ∈ p.1.set :=
  (chain c i arg2 harg2 arg3 harg3 fs0 fh0).cover y

end Cert.KernelIdeal.Region0

end
-- ==== Proof.Region1.lean ====
/-
  What the second kernel's stores leave in its output block, whatever its scratch buffer held before.

  The body zeroes the 1 × 256 × 256 block and then, for each band r of 83 window rows of its batch item (copied into
  the scratch and loaded back as a chunk) and each offset k = 8 i + j, loads the 1 × 83 × 249 rectangle with corner
  (0, 83 r + i, j), adds the chunk's slab of offset k and stores it back: 192 stores after the zero store. Its last
  store divides the whole block, entry by entry, by the divisor block. Read last store first, each band store's
  payload is "what the earlier stores left on its rectangle, plus the slab", so the contents below the last store is
  the accumulation `accGF` of the slabs (`Chain1F`), one step at a time, and the last store leaves its quotient by the
  divisor block. The chunk loaded for band r is rows [83 r, 83 r + 83) of the item's patch array in HBM whatever the
  scratch held before, so the slabs are entries of that array and the result does not depend on the scratch's
  earlier contents. Stated at any float family: nothing here uses a law of addition or division.
-/
import proofs.«116354_j4801773436971_2_alg».proof.Proof.KernelIdealFrameA
import proofs.«116354_j4801773436971_2_alg».proof.Proof.BandF2
import proofs.«116354_j4801773436971_2_alg».proof.Proof.Chunks

set_option maxRecDepth 16384

noncomputable section

namespace Cert.KernelIdeal.Region1

open Cert.KernelIdeal Cert.KernelIdeal.Gen Cert.KernelIdeal.GenP Cert.KernelIdeal.Chunks Cert.FoldSpec
open Idealize.ShloMosaic Idealize.ShloMosaic.TcCoe Idealize.ShloMosaic.ValueIdx Idealize.SL Idealize.SL.Sem

variable {F : FTy → Type} [FloatOps F]
variable (c : Dev nD) (i : grid1.Coords) (arg2 : Memref sig .tc .vmem S256x256 .f32) (harg2 : arg2.IsWhole)
  (arg3 : Memref sig .tc .vmem S1x256x256 .f32) (harg3 : arg3.IsWhole)
  (arg4 : Memref sig .tc .vmem S2x83x249x64 .f32) (harg4 : arg4.IsWhole)
  (fs0 : BufTy.Contents (Elt F) arg4.view.ty) (x0 : Vec F S256x256 .f32) (fh0 : HbBuf1 (F := F) c hbM1_0)

/-- The chunk the body loaded for band `r`. -/
def chunkOf (r : ℕ) : SChunk1.Idx → F .f32 :=
  if r = 0 then kernelRun1_A.sl.v25 c i arg4 fs0 fh0
  else if r = 1 then kernelRun1_A.sl.v554 c i arg4 fs0 fh0
  else kernelRun1_A.sl.v1076 c i arg4 fs0 fh0

/-- Step s = 64 r + k adds offset k's slab of band r's chunk. -/
def cslab (s a b : ℕ) : F .f32 := cextF (chunkOf c i arg4 fs0 fh0 (s / 64)) a b (s % 64)

/-- The first store fills the whole block with zeros. -/
theorem chain_zero : Chain1F (F := F) kr0 kc0 83 249 (cslab c i arg4 fs0 fh0) 0 kernelRun1_A.sl.H1_1 := by
  unfold kernelRun1_A.sl.H1_1
  refine Chain1F.zero _ _ (fun y => ?_) (fun _ => rfl)
  rw [Rect.mem_set_unit]
  intro a
  match a with
  | ⟨0, _⟩ =>
    have h : (y 0).val < 1 := (y 0).isLt
    exact ⟨show 0 ≤ (y 0).val from Nat.zero_le _, show (y 0).val < 0 + 1 by omega⟩
  | ⟨1, _⟩ =>
    have h : (y 1).val < 256 := (y 1).isLt
    exact ⟨show 0 ≤ (y 1).val from Nat.zero_le _, show (y 1).val < 0 + 256 by omega⟩
  | ⟨2, _⟩ =>
    have h : (y 2).val < 256 := (y 2).isLt
    exact ⟨show 0 ≤ (y 2).val from Nat.zero_le _, show (y 2).val < 0 + 256 by omega⟩

set_option maxHeartbeats 4000000 in
/-- The 193 stores below the last one, last first, are the zero store and 192 steps, each adding its slab to what the
    earlier stores left on its rectangle: 64 steps of band 2, 64 of band 1, 64 of band 0. -/
theorem chain : Chain1F kr0 kc0 83 249 (cslab c i arg4 fs0 fh0) 192 (kernelRun1_A.sl.H1_193 c i arg3 arg4 fs0 fh0) := by
  iterate 64
    refine Chain1F.step ?_ _ _ rfl rfl rfl rfl rfl rfl (fun _ => rfl) (fun x =>
      (band1_stepF arg3.view _ _ _ (kernelRun1_A.sl.v1076 c i arg4 fs0 fh0) _ (by decide) (by decide) (by decide) (by decide) (by decide) (by decide) x).symm)
  iterate 64
    refine Chain1F.step ?_ _ _ rfl rfl rfl rfl rfl rfl (fun _ => rfl) (fun x =>
      (band1_stepF arg3.view _ _ _ (kernelRun1_A.sl.v554 c i arg4 fs0 fh0) _ (by decide) (by decide) (by decide) (by decide) (by decide) (by decide) x).symm)
  iterate 64
    refine Chain1F.step ?_ _ _ rfl rfl rfl rfl rfl rfl (fun _ => rfl) (fun x =>
      (band1_stepF arg3.view _ _ _ (kernelRun1_A.sl.v25 c i arg4 fs0 fh0) _ (by decide) (by decide) (by decide) (by decide) (by decide) (by decide) x).symm)
  exact chain_zero c i arg4 fs0 fh0

/-- Band r's chunk holds rows [83 r, 83 r + 83) of item `i 0`'s patch array in HBM. -/
theorem chunk_read (r : ℕ) (hr : r < 3) (k a b : ℕ) (hk : k < 64) (ha : a < 83) (hb : b < 249) :
    cextF (chunkOf c i arg4 fs0 fh0 r) a b k
      = extF (patch4F (fun q => fh0 q) ⟨(i 0).val, (i 0).isLt⟩) (83 * r + a) b k := by
  unfold cextF extF
  rw [dif_pos ⟨ha, hb, hk⟩, dif_pos ⟨by omega, hb, hk⟩]
  unfold chunkOf patch4F
  interval_cases r
  · rw [if_pos rfl, chunk0_eq1 c i arg4 fs0 fh0 ⟨a, ha⟩ ⟨b, hb⟩ ⟨k, hk⟩]
    simp only [Nat.mul_zero, Nat.zero_add]
  · rw [if_neg (by decide), if_pos rfl, chunk1_eq1 c i arg4 fs0 fh0 ⟨a, ha⟩ ⟨b, hb⟩ ⟨k, hk⟩]
  · rw [if_neg (by decide), if_neg (by decide), chunk2_eq1 c i arg4 fs0 fh0 ⟨a, ha⟩ ⟨b, hb⟩ ⟨k, hk⟩]

/-- The divisor block, loaded whole, is the block's contents. -/
theorem divisor_load :
    View.readAt (Elt F) arg2.view (Rect.unit ![0, 0] ![256, 256] inb_S256x256_S256x256_0_0).toLoadRect (harg2.unread x0)
      = x0 := by
  rw [View.readAt_eq_ld, harg2.read_unread]
  exact View.ld_unit_zero (S := S256x256) (funext fun a => by fin_cases a <;> rfl) inb_S256x256_S256x256_0_0 x0

/-- Every entry of the output block is in the whole-block rectangle. -/
theorem mem_whole (y : S1x256x256.Idx) :
    y ∈ (Rect.unit ![0, 0, 0] ![1, 256, 256] inb_S1x256x256_S1x256x256_0_0_0).set := by
  rw [Rect.mem_set_unit]
  intro a
  match a with
  | ⟨0, _⟩ =>
    have h : (y 0).val < 1 := (y 0).isLt
    exact ⟨show 0 ≤ (y 0).val from Nat.zero_le _, show (y 0).val < 0 + 1 by omega⟩
  | ⟨1, _⟩ =>
    have h : (y 1).val < 256 := (y 1).isLt
    exact ⟨show 0 ≤ (y 1).val from Nat.zero_le _, show (y 1).val < 0 + 256 by omega⟩
  | ⟨2, _⟩ =>
    have h : (y 2).val < 256 := (y 2).isLt
    exact ⟨show 0 ≤ (y 2).val from Nat.zero_le _, show (y 2).val < 0 + 256 by omega⟩

/-- What the stores leave: the accumulation of the HBM array's slabs for item `i 0`, in the kernel's order, over the
    divisor block, entry by entry, whatever the scratch held before. -/
theorem canon_eq : View.canon (kernelRun1_A c i arg2 harg2 arg3 harg3 arg4 harg4 x0 fs0 fh0).1
    = lift1F (fun p => FloatOps.divf
        (accGF kr0 kc0 83 249 (kslabF (patch4F (fun q => fh0 q) ⟨(i 0).val, (i 0).isLt⟩)) 192 p) (x0 p)) := by
  have hD := divisor_load arg2 harg2 x0
  unfold kernelRun1_A
  dsimp only
  rw [hD]
  refine ((chain c i arg3 arg4 fs0 fh0).quotient x0 _ _ (mem_whole) (fun x =>
    (quot1_stepF arg3.view _ _ _ x0 (by decide) (by decide) (by decide) x).symm)).trans ?_
  rw [accGF_congr kr0 kc0 83 249 (cslab c i arg4 fs0 fh0)
    (kslabF (patch4F (fun q => fh0 q) ⟨(i 0).val, (i 0).isLt⟩)) 192 fun s hs a ha b hb =>
      chunk_read c i arg4 fs0 fh0 (s / 64) (by omega) (s % 64) a b (Nat.mod_lt _ (by decide)) ha hb]

/-- Every entry of the block is under some store (the zero store covers it). -/
theorem cover (y : S1x256x256.Idx) :
    ∃ p ∈ (kernelRun1_A c i arg2 harg2 arg3 harg3 arg4 harg4 x0 fs0 fh0).1, y ∈ p.1.set := by
  obtain ⟨p, hp, hy⟩ := (chain c i arg3 arg4 fs0 fh0).cover y
  unfold kernelRun1_A
  dsimp only
  exact ⟨p, List.mem_cons_of_mem _ hp, hy⟩

end Cert.KernelIdeal.Region1

end
-- ==== Proof.RefFrame.lean ====
/-
  The reference is a host program with no kernel: its frame is its run with the result forgotten.
-/
import proofs.«116354_j4801773436971_2_alg».proof.Defs
import proofs.«116354_j4801773436971_2_alg».proof.Proof.Gen.ReferenceIdeal
import proofs.«116354_j4801773436971_2_alg».proof.Proof.Gen.ReferenceIdeal.Run
import proofs.«116354_j4801773436971_2_alg».proof.Proof.Gen.Pre_finite_inputs

noncomputable section

namespace Cert.Proof.Ref

open Idealize.ShloMosaic Idealize.SL.Sem

/-- Every weakly fair execution of the reference terminates without a fault and leaves its arguments as they were:
    the run says so of every buffer it names, the arguments among them. -/
theorem frame_ref : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.Proof.Ref

end
-- ==== Proof.KernelValue.lean ====
/-
  The kernel program's value.

  The host prefix makes two patch arrays: the batch's, [16, 249, 249, 64], and the counts', [249, 249, 64]. The first
  kernel, one grid point, accumulates the counts' slabs in its own order into the whole [256, 256] array of counts: at
  the extended reals that is the fold of the counts' patch array. The second kernel has 16 grid points; point t
  accumulates image t's slabs in the same order, divides by the counts' array it is handed whole, and writes image t of
  the output [16, 256, 256]. The 16 blocks tile the output, so after the two regions it holds, image by image, the
  image's fold over the counts' fold; the host suffix reshapes it to [2, 8, 256, 256].
-/
import proofs.«116354_j4801773436971_2_alg».proof.Proof.KernelRun
import proofs.«116354_j4801773436971_2_alg».proof.Proof.FoldAlgebra
import proofs.«116354_j4801773436971_2_alg».proof.Proof.BandF2
import proofs.«116354_j4801773436971_2_alg».proof.Proof.BandChain
import Idealize.ShloMosaic.Lib.Pipeline.Value
import Idealize.ShloMosaic.Lib.ValueIdx
import Idealize.ShloMosaic.Lib.StableHlo.Run

noncomputable section

namespace Cert.KernelIdeal.RunValue

open Cert.KernelIdeal Cert.KernelIdeal.Gen Cert.KernelIdeal.GenP Cert.FoldSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each kernel leaves, at the extended reals

The first kernel accumulates, in its own order (192 slabs of 83 × 249), the slabs of the array it copies out of HBM; at
the extended reals that accumulation is the fold. The second does the same for one image of the batch and divides by the
block of counts it is handed. -/

/-- The first kernel's output is the fold of the array it reads. -/
theorem out0_ideal (c : Dev nD) (i : grid0.Coords) (arg2 : Memref sig .tc .vmem S256x256 .f32) (harg2 : arg2.IsWhole)
    (arg3 : Memref sig .tc .vmem S2x83x249x64 .f32) (harg3 : arg3.IsWhole)
    (fh0 : HbBuf0 (F := Idealize.ShloMosaic.Ideal) c hbM0_0) :
    out0_A_0 c i arg2 harg2 arg3 harg3 fh0 = fold (fun q => fh0 q) := by
  unfold out0_A_0
  rw [accGF_ideal, kslabF_ideal, accG_kernel, accK_eq_fold]

/-- The second kernel's output is, as a batch of one, image `i 0`'s fold over the block of counts. -/
theorem out1_ideal (c : Dev nD) (i : grid1.Coords) (arg2 : Memref sig .tc .vmem S256x256 .f32) (harg2 : arg2.IsWhole)
    (arg3 : Memref sig .tc .vmem S1x256x256 .f32) (harg3 : arg3.IsWhole)
    (arg4 : Memref sig .tc .vmem S2x83x249x64 .f32) (harg4 : arg4.IsWhole)
    (x0 : Vec Idealize.ShloMosaic.Ideal S256x256 .f32) (fh0 : HbBuf1 (F := Idealize.ShloMosaic.Ideal) c hbM1_0) :
    out1_A_1 c i arg2 harg2 arg3 harg3 arg4 harg4 x0 fh0
      = lift1 (fun p => Idealize.ShloMosaic.Ideal.div (fold (patch4 (fun q => fh0 q) ⟨(i 0).val, (i 0).isLt⟩) p) (x0 p)) := by
  unfold out1_A_1
  rw [lift1F_ideal, accGF_ideal, kslabF_ideal, accG_kernel, accK_eq_fold, patch4F_ideal]
  rfl

/-! ## The counts' array

The first kernel's grid is one point and its output block the whole `[256, 256]` array: the array after the region is
what that point writes back, the fold of the counts' patch array. -/

section Region0

variable (V : (c : Dev nD) → (b : Ref sig .tc) → Buf (Elt Idealize.ShloMosaic.Ideal) ((c : Thread nD τ).loc b))

/-- The output's block index, decided over the grid: the one block, at the origin. -/
theorem idx0 : ∀ t : Fin cfg0.N, win0_0.index t (0 : Fin 2) = 0 ∧ win0_0.index t (1 : Fin 2) = 0 :=
  (by decide +kernel : ∀ t : Fin grid0.N, _)

/-- What the point writes back is its block of the fold of the counts' patch array as the region finds it. -/
theorem flushed0_eq (c : Dev nD) (t : Fin cfg0.N) :
    (dat0 V c).flushed 0 t
      = ((cfg0.win 0).blk t).view.read (Elt Idealize.ShloMosaic.Ideal) (fold (fun q => V c main_v18 q)) := by
  show (cfg0.win 0).cut (grid0.coords t) ((dat0 V c).after 0 t) = _
  rw [after0_0]
  unfold outsAt0
  rw [out0_ideal]
  obtain ⟨e0, e1⟩ := idx0 t
  funext j
  show fold (fun q => V c main_v18 q) j = fold (fun q => V c main_v18 q) (((cfg0.win 0).blk t).view.emb j)
  congr 1
  funext a; apply Fin.ext
  match a with
  | ⟨0, _⟩ => show (j 0).val = win0_0.index t (0 : Fin 2) * 256 + 1 * (j 0).val; omega
  | ⟨1, _⟩ => show (j 1).val = win0_0.index t (1 : Fin 2) * 256 + 1 * (j 1).val; omega

/-- An index of the array is in the point's block iff each coordinate is in the block's range on its axis. -/
theorem mem_blk0 (t : Fin cfg0.N) (i : S256x256.Idx) :
    i ∈ ((cfg0.win 0).blk t).view.set ↔ ∀ a : Fin 2, win0_0.index t a * S256x256.size a ≤ (i a).val
      ∧ (i a).val < win0_0.index t a * S256x256.size a + S256x256.size a := by
  show i ∈ ((View.whole main_v19).slice (win0_0.rect t)).set ↔ _
  rw [View.set_slice_whole, Rect.mem_set_unit]
  exact Iff.rfl

/-- The one block covers the array. -/
theorem cover0 (i : S256x256.Idx) :
    ∃ t : Fin cfg0.N, (cfg0.win 0).flush t = true ∧ i ∈ ((cfg0.win 0).blk t).view.set := by
  refine ⟨⟨0, by decide⟩, flush0_0 _, ?_⟩
  rw [mem_blk0]
  obtain ⟨e0, e1⟩ := idx0 ⟨0, by decide⟩
  intro a
  match a with
  | ⟨0, _⟩ =>
    show win0_0.index ⟨0, _⟩ (0 : Fin 2) * 256 ≤ (i 0).val ∧ (i 0).val < win0_0.index ⟨0, _⟩ (0 : Fin 2) * 256 + 256
    have hi : (i 0).val < 256 := (i 0).isLt; omega
  | ⟨1, _⟩ =>
    show win0_0.index ⟨0, _⟩ (1 : Fin 2) * 256 ≤ (i 1).val ∧ (i 1).val < win0_0.index ⟨0, _⟩ (1 : Fin 2) * 256 + 256
    have hi : (i 1).val < 256 := (i 1).isLt; omega

/-- The counts' array after the first region, from any entry contents: the fold of the counts' patch array. -/
theorem counts_at (c : Dev nD) : (dat0 V c).arrAt 0 cfg0.N = fold (fun q => V c main_v18 q) :=
  (dat0 V c).arrAt_eq_of_cover 0 _ (fun t _ => flushed0_eq V c t) cover0

end Region0

/-! ## The batch of images

The second kernel's grid has 16 points. Point `t` reads the whole array of counts as its input block, works on image
`t` of the batch, and writes block `t`, one image `[1, 256, 256]`, of the output `[16, 256, 256]`. The 16 blocks tile
the output, so after the region it holds, image by image, the image's fold over the counts. -/

section Region1

variable (V : (c : Dev nD) → (b : Ref sig .tc) → Buf (Elt Idealize.ShloMosaic.Ideal) ((c : Thread nD τ).loc b))

/-- The printed index maps and the grid coordinate, decided over the grid: the output's block is image `t`, the
    counts' block the whole array, and the grid coordinate is `t`. -/
theorem idx1 : ∀ t : Fin cfg1.N, win1_1.index t (0 : Fin 3) = t.val ∧ win1_1.index t (1 : Fin 3) = 0
    ∧ win1_1.index t (2 : Fin 3) = 0 ∧ win1_0.index t (0 : Fin 2) = 0 ∧ win1_0.index t (1 : Fin 2) = 0
    ∧ ((grid1.coords t) 0).val = t.val :=
  (by decide +kernel : ∀ t : Fin grid1.N, _)

/-- The batch of images after the second region, from entry contents `V`: image `n`'s fold over the counts' array. -/
def imagesOf (c : Dev nD) : S16x256x256.Idx → EReal := fun q =>
  Idealize.ShloMosaic.Ideal.div (fold (patch4 (fun q' => V c main_v8 q') ⟨(q 0).val, (q 0).isLt⟩) (pix q))
    (V c main_v19 (pix q))

/-- It read at image `n`, pixel `(a, b)`. -/
theorem imagesOf_ix3 (c : Dev nD) (n : Fin 16) (a b : Fin 256) :
    imagesOf V c (ix3 n a b)
      = Idealize.ShloMosaic.Ideal.div (fold (patch4 (fun q' => V c main_v8 q') n) (ix2 a b)) (V c main_v19 (ix2 a b)) := rfl

/-- What point `t` writes back is its block of `imagesOf`. -/
theorem flushed1_eq (c : Dev nD) (t : Fin cfg1.N) :
    (dat1 V c).flushed 1 t
      = ((cfg1.win 1).blk t).view.read (Elt Idealize.ShloMosaic.Ideal) (imagesOf V c) := by
  show (cfg1.win 1).cut (grid1.coords t) ((dat1 V c).after 1 t) = _
  rw [after1_1]
  unfold outsAt1
  rw [out1_ideal]
  obtain ⟨e0, e1, e2, e3, e4, e5⟩ := idx1 t
  funext j
  have hj0 : (j 0).val < 1 := (j 0).isLt
  have hj1 : (j 1).val < 256 := (j 1).isLt
  have hj2 : (j 2).val < 256 := (j 2).isLt
  show Idealize.ShloMosaic.Ideal.div
      (fold (patch4 (fun q => V c main_v8 q) ⟨(grid1.coords t 0).val, (grid1.coords t 0).isLt⟩)
        (ix2 ⟨(j 1).val, hj1⟩ ⟨(j 2).val, hj2⟩))
      (V c main_v19 (((cfg1.win 0).blk t).view.emb (ix2 ⟨(j 1).val, hj1⟩ ⟨(j 2).val, hj2⟩)))
    = imagesOf V c (((cfg1.win 1).blk t).view.emb j)
  -- the output's block: image t, the pixel as it is
  have hE : ((cfg1.win 1).blk t).view.emb j = ix3 ⟨t.val, t.isLt⟩ ⟨(j 1).val, hj1⟩ ⟨(j 2).val, hj2⟩ := by
    funext a; apply Fin.ext
    match a with
    | ⟨0, _⟩ => show win1_1.index t (0 : Fin 3) * 1 + 1 * (j 0).val = t.val; omega
    | ⟨1, _⟩ => show win1_1.index t (1 : Fin 3) * 256 + 1 * (j 1).val = (j 1).val; omega
    | ⟨2, _⟩ => show win1_1.index t (2 : Fin 3) * 256 + 1 * (j 2).val = (j 2).val; omega
  -- the counts' block: the whole array
  have hB : ((cfg1.win 0).blk t).view.emb (ix2 ⟨(j 1).val, hj1⟩ ⟨(j 2).val, hj2⟩) = ix2 ⟨(j 1).val, hj1⟩ ⟨(j 2).val, hj2⟩ := by
    funext a; apply Fin.ext
    match a with
    | ⟨0, _⟩ => show win1_0.index t (0 : Fin 2) * 256 + 1 * (j 1).val = (j 1).val; omega
    | ⟨1, _⟩ => show win1_0.index t (1 : Fin 2) * 256 + 1 * (j 2).val = (j 2).val; omega
  -- the grid coordinate: t
  have hn : (⟨(grid1.coords t 0).val, (grid1.coords t 0).isLt⟩ : Fin 16) = ⟨t.val, t.isLt⟩ := Fin.ext e5
  rw [hE]
  refine Eq.trans ?_ (imagesOf_ix3 V c ⟨t.val, t.isLt⟩ ⟨(j 1).val, hj1⟩ ⟨(j 2).val, hj2⟩).symm
  rw [hB, hn]

/-- An index of the output is in point `t`'s block iff each coordinate is in the block's range on its axis. -/
theorem mem_blk1 (t : Fin cfg1.N) (i : S16x256x256.Idx) :
    i ∈ ((cfg1.win 1).blk t).view.set ↔ ∀ a : Fin 3, win1_1.index t a * S1x256x256.size a ≤ (i a).val
      ∧ (i a).val < win1_1.index t a * S1x256x256.size a + S1x256x256.size a := by
  show i ∈ ((View.whole main_v20).slice (win1_1.rect t)).set ↔ _
  rw [View.set_slice_whole, Rect.mem_set_unit]
  exact Iff.rfl

/-- The 16 blocks cover the output: index `(n, y, x)` is in point `n`'s block. -/
theorem cover1 (i : S16x256x256.Idx) :
    ∃ t : Fin cfg1.N, (cfg1.win 1).flush t = true ∧ i ∈ ((cfg1.win 1).blk t).view.set := by
  have hi0 : (i 0).val < 16 := (i 0).isLt
  have hi1 : (i 1).val < 256 := (i 1).isLt
  have hi2 : (i 2).val < 256 := (i 2).isLt
  refine ⟨⟨(i 0).val, hi0⟩, flush1_1 _, ?_⟩
  rw [mem_blk1]
  obtain ⟨e0, e1, e2, -, -, -⟩ := idx1 ⟨(i 0).val, hi0⟩
  intro a
  match a with
  | ⟨0, _⟩ =>
    show win1_1.index ⟨(i 0).val, hi0⟩ (0 : Fin 3) * 1 ≤ (i 0).val
      ∧ (i 0).val < win1_1.index ⟨(i 0).val, hi0⟩ (0 : Fin 3) * 1 + 1
    have e0' : win1_1.index ⟨(i 0).val, hi0⟩ (0 : Fin 3) = (i 0).val := e0
    omega
  | ⟨1, _⟩ =>
    show win1_1.index ⟨(i 0).val, hi0⟩ (1 : Fin 3) * 256 ≤ (i 1).val
      ∧ (i 1).val < win1_1.index ⟨(i 0).val, hi0⟩ (1 : Fin 3) * 256 + 256
    omega
  | ⟨2, _⟩ =>
    show win1_1.index ⟨(i 0).val, hi0⟩ (2 : Fin 3) * 256 ≤ (i 2).val
      ∧ (i 2).val < win1_1.index ⟨(i 0).val, hi0⟩ (2 : Fin 3) * 256 + 256
    omega

/-- The batch of images after the second region, from any entry contents. -/
theorem images_at (c : Dev nD) : (dat1 V c).arrAt 1 cfg1.N = imagesOf V c :=
  (dat1 V c).arrAt_eq_of_cover 1 _ (fun t _ => flushed1_eq V c t) cover1

end Region1

/-! ## The run

The program's host prefix makes the two patch arrays; the first region turns the counts' patch array into the counts'
fold; the second, entered with that array and with the batch's patch array untouched, turns the batch into the quotient
of folds; the host suffix reshapes it. -/

section Run

variable (m : (ℓ : Loc nD τ sig) → Buf (Elt Idealize.ShloMosaic.Ideal) ℓ) (ρ : Dev nD → PrngReg)

/-- After the first region the counts' array is the fold of the counts' patch array. -/
theorem counts_eq (c : Dev nD) : (dat0 (V1 m ρ) c).arrAt 0 cfg0.N = fold (fun q => V1 m ρ c main_v18 q) :=
  counts_at (V1 m ρ) c

/-- After the second region the batch is, image by image, the image's fold over the counts' fold. -/
theorem images_eq (c : Dev nD) :
    (dat1 (V2 m ρ) c).arrAt 1 cfg1.N
      = normed (fun n => patch4 (fun q => V1 m ρ c main_v8 q) n) (fun q => V1 m ρ c main_v18 q) := by
  rw [images_at]
  -- the second region is entered with the first's output and with the batch's patch array as the host left it
  have h19 : V2 m ρ c main_v19 = fold (fun q => V1 m ρ c main_v18 q) := (W2_arr m ρ c 0).trans (counts_eq m ρ c)
  have h8 : V2 m ρ c main_v8 = V1 m ρ c main_v8 := W2_of_ne m ρ c main_v8 (by decide)
  funext q
  show Idealize.ShloMosaic.Ideal.div (fold (patch4 (fun q' => V2 m ρ c main_v8 q') ⟨(q 0).val, (q 0).isLt⟩) (pix q))
      (V2 m ρ c main_v19 (pix q))
    = Idealize.ShloMosaic.Ideal.div (fold (patch4 (fun q' => V1 m ρ c main_v8 q') ⟨(q 0).val, (q 0).isLt⟩) (pix q))
      (fold (fun q' => V1 m ρ c main_v18 q') (pix q))
  rw [h19, h8]

/-- The result buffer at the last boundary: the batch reshaped. -/
theorem result_eq (c : Dev nD) :
    W4 m ρ c (Proc.devRef .tc main_v21)
      = shapeCast S2x8x256x256 (normed (fun n => patch4 (fun q => V1 m ρ c main_v8 q) n) (fun q => V1 m ρ c main_v18 q))
          shapeCasts_S16x256x256_S2x8x256x256 := by
  show StableHlo.after (hostOps2 (F := Idealize.ShloMosaic.Ideal)) (W3 m ρ c) (Proc.devRef .tc main_v21) = _
  simp only [hostOps2]
  after_results
  rw [← images_eq m ρ c, ← W3_arr m ρ c 1]
  rfl

/-- THE KERNEL PROGRAM'S RUN: every weakly fair execution terminates with the result buffer at the quotient of the folds
    of the two patch arrays the host prefix makes, reshaped, and the arguments as launched. -/
theorem kernel_run : θ_run defs (onTc (τ := τ) (main (F := Idealize.ShloMosaic.Ideal))) ⟨m, fun _ => 0, ρ⟩ (fun r => ∀ c : Dev nD,
      r.2.mem ((c.tc : Thread nD τ).loc main_v21)
        = shapeCast S2x8x256x256
            (normed
              (fun n => patch4 (fun q => StableHlo.after (hostOps0 (F := Idealize.ShloMosaic.Ideal)) (W0 m ρ c) (Proc.devRef .tc main_v8) q) n)
              (fun q => StableHlo.after (hostOps0 (F := Idealize.ShloMosaic.Ideal)) (W0 m ρ c) (Proc.devRef .tc main_v18) q))
            shapeCasts_S16x256x256_S2x8x256x256
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2.1, (h c).2.2⟩) (run_result m ρ)

end Run

end Cert.KernelIdeal.RunValue

end
-- ==== Proof.ScatterRead.lean ====
/-
  The reference's scatters, read as overlap-adds.

  The reference adds each slab with a scatter at one constant start index whose update is a whole window. A scatter is
  a left fold of point updates over the update indices; read at one operand index it is the operand's value when no
  update index lands there, and the body applied to the operand's value and the one update that lands there when no two
  update indices collide. For a whole `[249, 249]` window at start `[i, j]` with `i, j < 8`, update index `(a, b)` lands
  on pixel `(a + i, b + j)`, inside the `256 × 256` image, so the scatter with an additive body is `addWin` at corner
  `(i, j)`; for a batch of 16 images the same holds image by image.
-/
import proofs.«116354_j4801773436971_2_alg».proof.Proof.FoldBatch
import Idealize.ShloMosaic.PureOps.Ideal
import Idealize.ShloMosaic.Lib.ValueIdx
import Mathlib.Algebra.BigOperators.Fin

noncomputable section

namespace Cert.FoldSpec

open Idealize.ShloMosaic Idealize.ShloMosaic.ValueIdx

/-! ## A scatter read at one operand index

`Host.scatter` is a left fold of point updates over the update indices in row-major order. Read at one operand
index `i`, a step whose update index does not land on `i` leaves the value at `i` alone; so when no update index lands
on `i` the fold returns the operand's value there, and when exactly one does it returns the body applied to the
operand's value and that one update. -/

section Generic

variable {s si u : Shape} {w : ℕ} {α : Type}

/-- One step of the fold: the update index numbered `n` replaces the element it lands on, or is dropped. -/
def scatStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of that step. -/
theorem scatter_eq_foldl (d : ScatterDims s si u) (f : α → α → α) (x : s.Idx → α) (idx : IVec si w) (upd : u.Idx → α) :
    Host.scatter d f x idx upd = (List.finRange u.numel).foldl (scatStep d f idx upd) x := rfl

/-- A step whose update index does not land on `i` leaves the value at `i`. -/
theorem scatStep_miss (d : ScatterDims s si u) (f : α → α → α) (idx : IVec si w) (upd : u.Idx → α)
    (r : s.Idx → α) (n : Fin u.numel) (i : s.Idx) (h : d.resultIdx? (u.rowMajor.symm n) idx ≠ some i) :
    scatStep d f idx upd r n i = r i := by
  unfold scatStep
  cases hr : d.resultIdx? (u.rowMajor.symm n) idx with
  | none => rfl
  | some i0 =>
    have hne : i ≠ i0 := fun e => h (by rw [hr, e])
    simp only [if_neg hne]

/-- A step whose update index lands on `i` applies the body there. -/
theorem scatStep_hit (d : ScatterDims s si u) (f : α → α → α) (idx : IVec si w) (upd : u.Idx → α)
    (r : s.Idx → α) (n : Fin u.numel) (i : s.Idx) (h : d.resultIdx? (u.rowMajor.symm n) idx = some i) :
    scatStep d f idx upd r n i = f (r i) (upd (u.rowMajor.symm n)) := by
  unfold scatStep
  rw [h]
  simp only [if_true]

/-- Over any list of update indices none of which lands on `i`, the fold leaves the value at `i`. -/
theorem foldl_scatStep_miss (d : ScatterDims s si u) (f : α → α → α) (idx : IVec si w) (upd : u.Idx → α) (i : s.Idx)
    (l : List (Fin u.numel)) (x : s.Idx → α) (h : ∀ n ∈ l, d.resultIdx? (u.rowMajor.symm n) idx ≠ some i) :
    l.foldl (scatStep d f idx upd) x i = x i := by
  induction l generalizing x with
  | nil => rfl
  | cons a l ih =>
    rw [List.foldl_cons, ih _ (fun n hn => h n (List.mem_cons_of_mem _ hn)),
      scatStep_miss d f idx upd x a i (h a List.mem_cons_self)]

/-- Over a list without repetition in which `n0` is the only update index landing on `i`, the fold applies the body
    once, to the starting value at `i` and `n0`'s update: no earlier step touched `i`, and no later one does. -/
theorem foldl_scatStep_hit (d : ScatterDims s si u) (f : α → α → α) (idx : IVec si w) (upd : u.Idx → α) (i : s.Idx)
    (n0 : Fin u.numel) (h0 : d.resultIdx? (u.rowMajor.symm n0) idx = some i)
    (l : List (Fin u.numel)) (x : s.Idx → α) (hnd : l.Nodup) (hmem : n0 ∈ l)
    (honly : ∀ n ∈ l, d.resultIdx? (u.rowMajor.symm n) idx = some i → n = n0) :
    l.foldl (scatStep d f idx upd) x i = f (x i) (upd (u.rowMajor.symm n0)) := by
  induction l generalizing x with
  | nil => exact absurd hmem List.not_mem_nil
  | cons a l ih =>
    rw [List.foldl_cons]
    have hnd' := List.nodup_cons.mp hnd
    by_cases ha : a = n0
    · subst ha
      rw [foldl_scatStep_miss d f idx upd i l _ (fun n hn hr => hnd'.1 (honly n (List.mem_cons_of_mem _ hn) hr ▸ hn)),
        scatStep_hit d f idx upd x a i h0]
    · have hmem' : n0 ∈ l := by
        rcases List.mem_cons.mp hmem with e | e
        · exact absurd e.symm ha
        · exact e
      rw [ih _ hnd'.2 hmem' (fun n hn => honly n (List.mem_cons_of_mem _ hn)),
        scatStep_miss d f idx upd x a i (fun hr => ha (honly a List.mem_cons_self hr))]

/-- When no two update indices land on the same operand index, the scatter at an index that update `j` lands on is the
    body applied to the operand's element and `j`'s update. -/
theorem scatter_apply_of_hit (d : ScatterDims s si u) (f : α → α → α) (x : s.Idx → α) (idx : IVec si w)
    (upd : u.Idx → α)
    (hinj : ∀ j j' i, d.resultIdx? j idx = some i → d.resultIdx? j' idx = some i → j = j') (j : u.Idx) (i : s.Idx)
    (hj : d.resultIdx? j idx = some i) :
    Host.scatter d f x idx upd i = f (x i) (upd j) := by
  rw [scatter_eq_foldl]
  have h0 : d.resultIdx? (u.rowMajor.symm (u.rowMajor j)) idx = some i := by
    rw [Equiv.symm_apply_apply]; exact hj
  have := foldl_scatStep_hit d f idx upd i (u.rowMajor j) h0 (List.finRange u.numel) x (List.nodup_finRange _)
    (List.mem_finRange _) (fun n _ hr => by
      have e := hinj _ _ _ hr hj
      rw [← e, Equiv.apply_symm_apply])
  rw [this, Equiv.symm_apply_apply]

/-- At an operand index no update index lands on, the scatter returns the operand's element. -/
theorem scatter_apply_of_miss (d : ScatterDims s si u) (f : α → α → α) (x : s.Idx → α) (idx : IVec si w)
    (upd : u.Idx → α) (i : s.Idx) (hmiss : ∀ j, d.resultIdx? j idx ≠ some i) :
    Host.scatter d f x idx upd i = x i := by
  rw [scatter_eq_foldl]
  exact foldl_scatStep_miss d f idx upd i _ x (fun n _ => hmiss _)

end Generic

/-- An update index whose start plus window coordinate is, on every axis, the coordinate of an operand index `t` lands
    on `t`. -/
theorem resultIdx?_eq_some {s si u : Shape} {w : ℕ} (d : ScatterDims s si u) (q : u.Idx) (idx : IVec si w) (t : s.Idx)
    (h : ∀ a, d.start q idx a + d.window q a = ((t a).val : Int)) : d.resultIdx? q idx = some t := by
  unfold ScatterDims.resultIdx?
  have hc : ∀ a, 0 ≤ d.start q idx a + d.window q a ∧ d.start q idx a + d.window q a < s.size a := by
    intro a; rw [h a]; exact ⟨Int.natCast_nonneg _, by exact_mod_cast (t a).isLt⟩
  rw [dif_pos hc]
  congr 1; funext a; refine Fin.ext ?_
  show (d.start q idx a + d.window q a).toNat = (t a).val
  rw [h a]; exact Int.toNat_natCast _

/-! ## The two scatters of the reference

Both add a whole window at ONE start index `[i, j]` with `i, j < 8`. On the scattered axes the start is the index
component (read signed: a word below 8 is its own value) and the window coordinate is the update's coordinate, so update
index `(a, b)` lands on pixel `(a + i, b + j)`, always inside the image since `a + i ≤ 248 + 7`. Distinct update
indices land on distinct pixels, and the pixels hit are exactly the 249 × 249 window with corner `(i, j)`. -/

/-- A word below 8, read signed, is its value. -/
theorem toInt_ofNat_lt8 (i : ℕ) (hi : i < 8) : (BitVec.ofNat 32 i).toInt = (i : Int) := by
  interval_cases i <;> rfl

section Two

variable (wf : ScatterDims.WF SImg SIx2 SUpd2 [0, 1] [] [0, 1] 0)

/-- The dimension numbers of the scatter that folds the overlap counts: a `[249, 249]` window into a `[256, 256]` image. -/
abbrev dims2 : ScatterDims SImg SIx2 SUpd2 :=
  { updateWindowDims := [0, 1], insertedWindowDims := [], scatterDimsToOperandDims := [0, 1], indexVectorDim := 0, wf := wf }

theorem dims2_window (q : SUpd2.Idx) (a : Fin 2) : (dims2 wf).window q a = (q a).val := by
  match a with
  | ⟨0, _⟩ => rfl
  | ⟨1, _⟩ => rfl

theorem dims2_start0 (q : SUpd2.Idx) (idx : IVec SIx2 32) : (dims2 wf).start q idx 0 = (idx (ix1 0)).toInt := by
  unfold ScatterDims.start
  rw [dif_pos (show (0 : Fin SImg.rank) ∈ ([0, 1] : List (Fin SImg.rank)) from by decide)]
  congr 2
  funext b; refine Fin.ext ?_
  match b with
  | ⟨0, _⟩ => rfl

theorem dims2_start1 (q : SUpd2.Idx) (idx : IVec SIx2 32) : (dims2 wf).start q idx 1 = (idx (ix1 1)).toInt := by
  unfold ScatterDims.start
  rw [dif_pos (show (1 : Fin SImg.rank) ∈ ([0, 1] : List (Fin SImg.rank)) from by decide)]
  congr 2
  funext b; refine Fin.ext ?_
  match b with
  | ⟨0, _⟩ => rfl

/-- Update index `(a, b)` lands on pixel `(a + i, b + j)`. -/
theorem dims2_resultIdx (idx : IVec SIx2 32) (i j : ℕ) (hi : i < 8) (hj : j < 8)
    (h0 : idx (ix1 0) = BitVec.ofNat 32 i) (h1 : idx (ix1 1) = BitVec.ofNat 32 j) (a b : Fin 249) :
    (dims2 wf).resultIdx? (ix2 a b) idx = some (ix2 ⟨a.val + i, by omega⟩ ⟨b.val + j, by omega⟩) := by
  apply resultIdx?_eq_some
  intro a'
  match a' with
  | ⟨0, _⟩ =>
    show (dims2 wf).start (ix2 a b) idx 0 + (((dims2 wf).window (ix2 a b) 0 : ℕ) : Int) = ((a.val + i : ℕ) : Int)
    rw [dims2_start0, dims2_window, h0, toInt_ofNat_lt8 i hi]
    show (i : Int) + ((a.val : ℕ) : Int) = ((a.val + i : ℕ) : Int)
    omega
  | ⟨1, _⟩ =>
    show (dims2 wf).start (ix2 a b) idx 1 + (((dims2 wf).window (ix2 a b) 1 : ℕ) : Int) = ((b.val + j : ℕ) : Int)
    rw [dims2_start1, dims2_window, h1, toInt_ofNat_lt8 j hj]
    show (j : Int) + ((b.val : ℕ) : Int) = ((b.val + j : ℕ) : Int)
    omega

/-- The scatter of a whole `[249, 249]` window at the start index `[i, j]` is the overlap-add of that window at corner
    `(i, j)`. -/
theorem scatter2_addWin (f : EReal → EReal → EReal) (hf : ∀ a b, f a b = a + b)
    (A : SImg.Idx → EReal) (idx : IVec SIx2 32) (U : SUpd2.Idx → EReal) (i j : ℕ) (hi : i < 8) (hj : j < 8)
    (h0 : idx (ix1 0) = BitVec.ofNat 32 i) (h1 : idx (ix1 1) = BitVec.ofNat 32 j) :
    Host.scatter ({ updateWindowDims := [0, 1], insertedWindowDims := [], scatterDimsToOperandDims := [0, 1], indexVectorDim := 0, wf := wf } : ScatterDims SImg SIx2 SUpd2) f A idx U
      = addWin A i j 249 249 (ext2 U) := by
  have hres := dims2_resultIdx wf idx i j hi hj h0 h1
  -- distinct update indices land on distinct pixels
  have hinj : ∀ q q' t, (dims2 wf).resultIdx? q idx = some t → (dims2 wf).resultIdx? q' idx = some t → q = q' := by
    intro q q' t hq hq'
    obtain ⟨a, b, rfl⟩ : ∃ a b, q = ix2 a b := ⟨q 0, q 1, eq_ix2 q⟩
    obtain ⟨a', b', rfl⟩ : ∃ a b, q' = ix2 a b := ⟨q' 0, q' 1, eq_ix2 q'⟩
    rw [hres] at hq hq'
    have e := Option.some.inj (hq.trans hq'.symm)
    have e0 : a.val + i = a'.val + i := congrArg (fun t : SImg.Idx => (t 0).val) e
    have e1 : b.val + j = b'.val + j := congrArg (fun t : SImg.Idx => (t 1).val) e
    have ha : a = a' := Fin.ext (by omega)
    have hb : b = b' := Fin.ext (by omega)
    rw [ha, hb]
  funext p
  obtain ⟨y, x, rfl⟩ : ∃ y x, p = ix2 y x := ⟨p 0, p 1, eq_ix2 p⟩
  show Host.scatter (dims2 wf) f A idx U (ix2 y x)
    = if i ≤ y.val ∧ y.val < i + 249 ∧ j ≤ x.val ∧ x.val < j + 249
      then A (ix2 y x) + ext2 U (y.val - i) (x.val - j) else A (ix2 y x)
  have hy := y.isLt
  have hx := x.isLt
  by_cases hin : i ≤ y.val ∧ y.val < i + 249 ∧ j ≤ x.val ∧ x.val < j + 249
  · -- inside the window: the one update index (y - i, x - j) lands here
    rw [if_pos hin]
    have hab : y.val - i < 249 ∧ x.val - j < 249 := by omega
    have hland : (dims2 wf).resultIdx? (ix2 ⟨y.val - i, hab.1⟩ ⟨x.val - j, hab.2⟩) idx = some (ix2 y x) := by
      rw [hres]
      congr 1
      funext d
      match d with
      | ⟨0, _⟩ => exact Fin.ext (show y.val - i + i = y.val by omega)
      | ⟨1, _⟩ => exact Fin.ext (show x.val - j + j = x.val by omega)
    rw [scatter_apply_of_hit (dims2 wf) f A idx U hinj _ _ hland, hf]
    unfold ext2
    rw [dif_pos hab]
  · -- outside: no update index lands here
    rw [if_neg hin]
    apply scatter_apply_of_miss
    intro q hq
    obtain ⟨a, b, rfl⟩ : ∃ a b, q = ix2 a b := ⟨q 0, q 1, eq_ix2 q⟩
    rw [hres] at hq
    have e := Option.some.inj hq
    have e0 : a.val + i = y.val := congrArg (fun t : SImg.Idx => (t 0).val) e
    have e1 : b.val + j = x.val := congrArg (fun t : SImg.Idx => (t 1).val) e
    have ha := a.isLt
    have hb := b.isLt
    exact hin (by omega)

end Two

section Three

variable (wf : ScatterDims.WF SImgs SIx2 SUpd3 [0, 1, 2] [] [1, 2] 0)

/-- The dimension numbers of the scatter that folds the batch: a `[16, 249, 249]` window into `[16, 256, 256]`, the
    start index naming the two image axes and the batch axis starting at zero. -/
abbrev dims3 : ScatterDims SImgs SIx2 SUpd3 :=
  { updateWindowDims := [0, 1, 2], insertedWindowDims := [], scatterDimsToOperandDims := [1, 2], indexVectorDim := 0, wf := wf }

theorem dims3_window (q : SUpd3.Idx) (a : Fin 3) : (dims3 wf).window q a = (q a).val := by
  match a with
  | ⟨0, _⟩ => rfl
  | ⟨1, _⟩ => rfl
  | ⟨2, _⟩ => rfl

/-- The batch axis is not a scattered one: its start is zero. -/
theorem dims3_start0 (q : SUpd3.Idx) (idx : IVec SIx2 32) : (dims3 wf).start q idx 0 = 0 := by
  unfold ScatterDims.start
  rw [dif_neg (show ¬ (0 : Fin SImgs.rank) ∈ ([1, 2] : List (Fin SImgs.rank)) from by decide)]

theorem dims3_start1 (q : SUpd3.Idx) (idx : IVec SIx2 32) : (dims3 wf).start q idx 1 = (idx (ix1 0)).toInt := by
  unfold ScatterDims.start
  rw [dif_pos (show (1 : Fin SImgs.rank) ∈ ([1, 2] : List (Fin SImgs.rank)) from by decide)]
  congr 2
  funext b; refine Fin.ext ?_
  match b with
  | ⟨0, _⟩ => rfl

theorem dims3_start2 (q : SUpd3.Idx) (idx : IVec SIx2 32) : (dims3 wf).start q idx 2 = (idx (ix1 1)).toInt := by
  unfold ScatterDims.start
  rw [dif_pos (show (2 : Fin SImgs.rank) ∈ ([1, 2] : List (Fin SImgs.rank)) from by decide)]
  congr 2
  funext b; refine Fin.ext ?_
  match b with
  | ⟨0, _⟩ => rfl

/-- Update index `(m, a, b)` lands on pixel `(a + i, b + j)` of image `m`. -/
theorem dims3_resultIdx (idx : IVec SIx2 32) (i j : ℕ) (hi : i < 8) (hj : j < 8)
    (h0 : idx (ix1 0) = BitVec.ofNat 32 i) (h1 : idx (ix1 1) = BitVec.ofNat 32 j) (m : Fin 16) (a b : Fin 249) :
    (dims3 wf).resultIdx? (ix3 m a b) idx = some (ix3 m ⟨a.val + i, by omega⟩ ⟨b.val + j, by omega⟩) := by
  apply resultIdx?_eq_some
  intro a'
  match a' with
  | ⟨0, _⟩ =>
    show (dims3 wf).start (ix3 m a b) idx 0 + (((dims3 wf).window (ix3 m a b) 0 : ℕ) : Int) = ((m.val : ℕ) : Int)
    rw [dims3_start0, dims3_window]
    show (0 : Int) + ((m.val : ℕ) : Int) = ((m.val : ℕ) : Int)
    omega
  | ⟨1, _⟩ =>
    show (dims3 wf).start (ix3 m a b) idx 1 + (((dims3 wf).window (ix3 m a b) 1 : ℕ) : Int) = ((a.val + i : ℕ) : Int)
    rw [dims3_start1, dims3_window, h0, toInt_ofNat_lt8 i hi]
    show (i : Int) + ((a.val : ℕ) : Int) = ((a.val + i : ℕ) : Int)
    omega
  | ⟨2, _⟩ =>
    show (dims3 wf).start (ix3 m a b) idx 2 + (((dims3 wf).window (ix3 m a b) 2 : ℕ) : Int) = ((b.val + j : ℕ) : Int)
    rw [dims3_start2, dims3_window, h1, toInt_ofNat_lt8 j hj]
    show (j : Int) + ((b.val : ℕ) : Int) = ((b.val + j : ℕ) : Int)
    omega

/-- The batch scatter read at pixel `(y, x)` of image `m`: inside the window with corner `(i, j)` the image's value plus
    the slab's entry, outside it the image's value. -/
theorem scatter3_apply (f : EReal → EReal → EReal) (hf : ∀ a b, f a b = a + b)
    (A : SImgs.Idx → EReal) (idx : IVec SIx2 32) (U : SUpd3.Idx → EReal) (i j : ℕ) (hi : i < 8) (hj : j < 8)
    (h0 : idx (ix1 0) = BitVec.ofNat 32 i) (h1 : idx (ix1 1) = BitVec.ofNat 32 j) (m : Fin 16) (y x : Fin 256) :
    Host.scatter (dims3 wf) f A idx U (ix3 m y x)
      = if i ≤ y.val ∧ y.val < i + 249 ∧ j ≤ x.val ∧ x.val < j + 249
        then A (ix3 m y x) + ext3 U m (y.val - i) (x.val - j) else A (ix3 m y x) := by
  have hres := dims3_resultIdx wf idx i j hi hj h0 h1
  -- distinct update indices land on distinct elements
  have hinj : ∀ q q' t, (dims3 wf).resultIdx? q idx = some t → (dims3 wf).resultIdx? q' idx = some t → q = q' := by
    intro q q' t hq hq'
    obtain ⟨c, a, b, rfl⟩ : ∃ c a b, q = ix3 c a b := ⟨q 0, q 1, q 2, eq_ix3 q⟩
    obtain ⟨c', a', b', rfl⟩ : ∃ c a b, q' = ix3 c a b := ⟨q' 0, q' 1, q' 2, eq_ix3 q'⟩
    rw [hres] at hq hq'
    have e := Option.some.inj (hq.trans hq'.symm)
    have ec : c.val = c'.val := congrArg (fun t : SImgs.Idx => (t 0).val) e
    have e0 : a.val + i = a'.val + i := congrArg (fun t : SImgs.Idx => (t 1).val) e
    have e1 : b.val + j = b'.val + j := congrArg (fun t : SImgs.Idx => (t 2).val) e
    have hc : c = c' := Fin.ext ec
    have ha : a = a' := Fin.ext (by omega)
    have hb : b = b' := Fin.ext (by omega)
    rw [hc, ha, hb]
  have hy := y.isLt
  have hx := x.isLt
  by_cases hin : i ≤ y.val ∧ y.val < i + 249 ∧ j ≤ x.val ∧ x.val < j + 249
  · -- inside the window: the one update index (m, y - i, x - j) lands here
    rw [if_pos hin]
    have hab : y.val - i < 249 ∧ x.val - j < 249 := by omega
    have hland : (dims3 wf).resultIdx? (ix3 m ⟨y.val - i, hab.1⟩ ⟨x.val - j, hab.2⟩) idx = some (ix3 m y x) := by
      rw [hres]
      congr 1
      funext d
      match d with
      | ⟨0, _⟩ => rfl
      | ⟨1, _⟩ => exact Fin.ext (show y.val - i + i = y.val by omega)
      | ⟨2, _⟩ => exact Fin.ext (show x.val - j + j = x.val by omega)
    rw [scatter_apply_of_hit (dims3 wf) f A idx U hinj _ _ hland, hf]
    unfold ext3
    rw [dif_pos hab]
  · -- outside: no update index lands here
    rw [if_neg hin]
    apply scatter_apply_of_miss
    intro q hq
    obtain ⟨c, a, b, rfl⟩ : ∃ c a b, q = ix3 c a b := ⟨q 0, q 1, q 2, eq_ix3 q⟩
    rw [hres] at hq
    have e := Option.some.inj hq
    have e0 : a.val + i = y.val := congrArg (fun t : SImgs.Idx => (t 1).val) e
    have e1 : b.val + j = x.val := congrArg (fun t : SImgs.Idx => (t 2).val) e
    have ha := a.isLt
    have hb := b.isLt
    exact hin (by omega)

/-- The scatter of a whole `[16, 249, 249]` window at the start index `[i, j]` is, image by image, the overlap-add of
    that image's slab at corner `(i, j)`. -/
theorem scatter3_addWin (f : EReal → EReal → EReal) (hf : ∀ a b, f a b = a + b)
    (A : SImgs.Idx → EReal) (idx : IVec SIx2 32) (U : SUpd3.Idx → EReal) (i j : ℕ) (hi : i < 8) (hj : j < 8)
    (h0 : idx (ix1 0) = BitVec.ofNat 32 i) (h1 : idx (ix1 1) = BitVec.ofNat 32 j) (n : Fin 16) :
    item (Host.scatter ({ updateWindowDims := [0, 1, 2], insertedWindowDims := [], scatterDimsToOperandDims := [1, 2], indexVectorDim := 0, wf := wf } : ScatterDims SImgs SIx2 SUpd3) f A idx U) n
      = addWin (item A n) i j 249 249 (ext3 U n) := by
  funext p
  have key := scatter3_apply wf f hf A idx U i j hi hj h0 h1 n ⟨(p 0).val, idx2_lt0 p⟩ ⟨(p 1).val, idx2_lt1 p⟩
  unfold item addWin
  exact key

end Three

end Cert.FoldSpec

end
-- ==== Proof.RefChain.lean ====
/-
  The reference's run, read as the overlap-add fold.

  The reference scatters the patches into a batch laid out [16, 249, 249, 8, 8] and the ones map into [249, 249, 8, 8],
  then adds, offset by offset, the (i, j) slice of each into an image that starts at zero: 64 scatters for the batch of
  images and 64 for the overlap counts, and at the end divides the first by the second, broadcast along the batch.
  Each scatter is one overlap-add at corner (i, j) of offset 8 i + j's slab, so n of them in order are `accR` after n
  offsets, 64 of them the fold; the quotient is `normed`.
-/
import proofs.«116354_j4801773436971_2_alg».proof.Proof.Gen.ReferenceIdeal.Run
import proofs.«116354_j4801773436971_2_alg».proof.Proof.ScatterRead
import proofs.«116354_j4801773436971_2_alg».proof.Proof.FoldAlgebra
import Idealize.ShloMosaic.Lib.Pipeline.Value
import Idealize.ShloMosaic.Lib.ValueIdx
import Idealize.ShloMosaic.PureOps.Ideal.Laws

noncomputable section

namespace Cert.RefChain

open Cert.ReferenceIdeal Cert.ReferenceIdeal.Gen Cert.ReferenceIdeal.Value Cert.FoldSpec Idealize.ShloMosaic Idealize.ShloMosaic.ValueIdx

/-! ## One step of each fold

Every step of the reference adds one offset's slab: the start index is the pair `[i, j]` made by concatenating two
broadcast constants, and the slab is the `(i, j)` slice of the patch array laid out `[…, 8, 8]`, reshaped to drop the two
unit axes. Read at natural-number coordinates that slab is offset `8 i + j` of the patch array laid out `[…, 64]`. -/

/-- The first component of the start index is `i`. -/
theorem startIdx_0 (i j : ℕ) :
    (concatenate S2 0 [⟨S1, broadcastInDim S1 ![] bcast_S_S1 (constantI S_ 32 (BitVec.ofNat 32 i))⟩,
      ⟨S1, broadcastInDim S1 ![] bcast_S_S1 (constantI S_ 32 (BitVec.ofNat 32 j))⟩] concatenates_S1_S1_S2_d0 : IVec S2 32) (ix1 0)
      = BitVec.ofNat 32 i := by
  refine (concatenate_pair_apply_left (0 : Fin S2.rank) _ _ concatenates_S1_S1_S2_d0 (ix1 0) rfl (ix1 0) ?_).trans rfl
  intro b
  match b with
  | ⟨0, _⟩ => rfl

/-- The second component of the start index is `j`. -/
theorem startIdx_1 (i j : ℕ) :
    (concatenate S2 0 [⟨S1, broadcastInDim S1 ![] bcast_S_S1 (constantI S_ 32 (BitVec.ofNat 32 i))⟩,
      ⟨S1, broadcastInDim S1 ![] bcast_S_S1 (constantI S_ 32 (BitVec.ofNat 32 j))⟩] concatenates_S1_S1_S2_d0 : IVec S2 32) (ix1 1)
      = BitVec.ofNat 32 j := by
  refine (concatenate_pair_apply_right (0 : Fin S2.rank) _ _ concatenates_S1_S1_S2_d0 (ix1 1) rfl rfl (ix1 0) ?_ rfl).trans rfl
  intro b hb
  exact absurd (Subsingleton.elim _ _) hb

/-- The batch's slab for offset `(i, j)`, read at natural-number coordinates, is offset `8 i + j` of image `n`'s
    patch array. -/
theorem slab3 (P : SPatches5.Idx → EReal) (i j : ℕ) (hi : i < 8) (hj : j < 8)
    (hs : S16x249x249x8x8.Slices ![0, 0, 0, i, j] S16x249x249x1x1) (n : Fin 16) (a b : ℕ) :
    ext3 (shapeCast _ (extractStridedSlice S16x249x249x1x1 ![0, 0, 0, i, j] P hs) shapeCasts_S16x249x249x1x1_S16x249x249) n a b
      = ext (patch5 P n) a b (8 * i + j) := by
  unfold ext3 ext
  by_cases h : a < 249 ∧ b < 249
  · rw [dif_pos h, dif_pos (show a < 249 ∧ b < 249 ∧ 8 * i + j < 64 from ⟨h.1, h.2, by omega⟩)]
    -- the reshape drops the two unit axes: same row-major position
    refine (shapeCast_apply _ _ (ix3 n ⟨a, h.1⟩ ⟨b, h.2⟩) (ix5 n ⟨a, h.1⟩ ⟨b, h.2⟩ 0 0) ?_).trans ?_
    · rw [Shape.rowMajor_val_five, Shape.rowMajor_val_three]
      show (((n.val * 249 + a) * 249 + b) * 1 + 0) * 1 + 0 = (n.val * 249 + a) * 249 + b
      omega
    -- the slice shifts the last two coordinates to (i, j)
    refine (extractStridedSlice_apply _ P hs _ (ix5 n ⟨a, h.1⟩ ⟨b, h.2⟩ ⟨i, hi⟩ ⟨j, hj⟩) ?_).trans ?_
    · intro ax
      match ax with
      | ⟨0, _⟩ => show n.val = 0 + n.val; omega
      | ⟨1, _⟩ => show a = 0 + a; omega
      | ⟨2, _⟩ => show b = 0 + b; omega
      | ⟨3, _⟩ => show i = i + 0; omega
      | ⟨4, _⟩ => show j = j + 0; omega
    · unfold patch5
      congr 1
      funext ax
      match ax with
      | ⟨0, _⟩ => rfl
      | ⟨1, _⟩ => rfl
      | ⟨2, _⟩ => rfl
      | ⟨3, _⟩ => exact Fin.ext (show i = (8 * i + j) / 8 by omega)
      | ⟨4, _⟩ => exact Fin.ext (show j = (8 * i + j) % 8 by omega)
  · rw [dif_neg h, dif_neg (fun h' => h ⟨h'.1, h'.2.1⟩)]

/-- One step of the batch fold, image by image: the overlap-add of offset `8 i + j`'s slab at corner `(i, j)`. -/
theorem step3 (A : SImgs.Idx → EReal) (P : SPatches5.Idx → EReal) (i j : ℕ) (hi : i < 8) (hj : j < 8)
    (hs : S16x249x249x8x8.Slices ![0, 0, 0, i, j] S16x249x249x1x1) (n : Fin 16) :
    item (Host.scatter scatter_S16x256x256_S2_S16x249x249_012_n_12_0 (FloatOps.addf (F := Ideal) (φ := .f32)) A
        (concatenate S2 0 [⟨S1, broadcastInDim S1 ![] bcast_S_S1 (constantI S_ 32 (BitVec.ofNat 32 i))⟩,
          ⟨S1, broadcastInDim S1 ![] bcast_S_S1 (constantI S_ 32 (BitVec.ofNat 32 j))⟩] concatenates_S1_S1_S2_d0)
        (shapeCast _ (extractStridedSlice S16x249x249x1x1 ![0, 0, 0, i, j] P hs) shapeCasts_S16x249x249x1x1_S16x249x249)) n
      = addWin (item A n) i j 249 249 (fun a b => ext (patch5 P n) a b (8 * i + j)) := by
  refine (scatter3_addWin _ _ (fun _ _ => rfl) A _ _ i j hi hj (startIdx_0 i j) (startIdx_1 i j) n).trans ?_
  congr 1
  funext a b
  exact slab3 P i j hi hj hs n a b

/-- The counts' slab for offset `(i, j)`, read at natural-number coordinates, is offset `8 i + j` of the counts'
    patch array. -/
theorem slab2 (Q : SPatch4.Idx → EReal) (i j : ℕ) (hi : i < 8) (hj : j < 8)
    (hs : S249x249x8x8.Slices ![0, 0, i, j] S249x249x1x1) (a b : ℕ) :
    ext2 (shapeCast _ (extractStridedSlice S249x249x1x1 ![0, 0, i, j] Q hs) shapeCasts_S249x249x1x1_S249x249) a b
      = ext (patchQ4 Q) a b (8 * i + j) := by
  unfold ext2 ext
  by_cases h : a < 249 ∧ b < 249
  · rw [dif_pos h, dif_pos (show a < 249 ∧ b < 249 ∧ 8 * i + j < 64 from ⟨h.1, h.2, by omega⟩)]
    -- the reshape drops the two unit axes: same row-major position
    refine (shapeCast_apply _ _ (ix2 ⟨a, h.1⟩ ⟨b, h.2⟩) (ix4 ⟨a, h.1⟩ ⟨b, h.2⟩ 0 0) ?_).trans ?_
    · rw [Shape.rowMajor_val_four, Shape.rowMajor_val_two]
      show ((a * 249 + b) * 1 + 0) * 1 + 0 = a * 249 + b
      omega
    -- the slice shifts the last two coordinates to (i, j)
    refine (extractStridedSlice_apply _ Q hs _ (ix4 ⟨a, h.1⟩ ⟨b, h.2⟩ ⟨i, hi⟩ ⟨j, hj⟩) ?_).trans ?_
    · intro ax
      match ax with
      | ⟨0, _⟩ => show a = 0 + a; omega
      | ⟨1, _⟩ => show b = 0 + b; omega
      | ⟨2, _⟩ => show i = i + 0; omega
      | ⟨3, _⟩ => show j = j + 0; omega
    · unfold patchQ4
      congr 1
      funext ax
      match ax with
      | ⟨0, _⟩ => rfl
      | ⟨1, _⟩ => rfl
      | ⟨2, _⟩ => exact Fin.ext (show i = (8 * i + j) / 8 by omega)
      | ⟨3, _⟩ => exact Fin.ext (show j = (8 * i + j) % 8 by omega)
  · rw [dif_neg h, dif_neg (fun h' => h ⟨h'.1, h'.2.1⟩)]

/-- One step of the counts' fold: the overlap-add of offset `8 i + j`'s slab at corner `(i, j)`. -/
theorem step2 (A : SImg.Idx → EReal) (Q : SPatch4.Idx → EReal) (i j : ℕ) (hi : i < 8) (hj : j < 8)
    (hs : S249x249x8x8.Slices ![0, 0, i, j] S249x249x1x1) :
    Host.scatter scatter_S256x256_S2_S249x249_01_n_01_0 (FloatOps.addf (F := Ideal) (φ := .f32)) A
        (concatenate S2 0 [⟨S1, broadcastInDim S1 ![] bcast_S_S1 (constantI S_ 32 (BitVec.ofNat 32 i))⟩,
          ⟨S1, broadcastInDim S1 ![] bcast_S_S1 (constantI S_ 32 (BitVec.ofNat 32 j))⟩] concatenates_S1_S1_S2_d0)
        (shapeCast _ (extractStridedSlice S249x249x1x1 ![0, 0, i, j] Q hs) shapeCasts_S249x249x1x1_S249x249)
      = addWin A i j 249 249 (fun a b => ext (patchQ4 Q) a b (8 * i + j)) := by
  refine (scatter2_addWin _ _ (fun _ _ => rfl) A _ _ i j hi hj (startIdx_0 i j) (startIdx_1 i j)).trans ?_
  congr 1
  funext a b
  exact slab2 Q i j hi hj hs a b

/-! ## The folds, step by step

`accR X (k + 1)` is `accR X k` with offset `k`'s slab added at corner `(k / 8, k % 8)`; the reference's step for
`(i, j)` adds offset `8 i + j`'s slab at corner `(i, j)`. So each scatter of the reference advances `accR` by one, and
both folds start from the zero image. -/

/-- One scatter of the batch fold advances image `n`'s accumulation from `k = 8 i + j` offsets to `k + 1`. -/
theorem chain3 (A : SImgs.Idx → EReal) (P : SPatches5.Idx → EReal) (i j : ℕ) (hi : i < 8) (hj : j < 8)
    (hs : S16x249x249x8x8.Slices ![0, 0, 0, i, j] S16x249x249x1x1) (n : Fin 16) (k : ℕ) (hk : 8 * i + j = k)
    (hprev : item A n = accR (patch5 P n) k) :
    item (Host.scatter scatter_S16x256x256_S2_S16x249x249_012_n_12_0 (FloatOps.addf (F := Ideal) (φ := .f32)) A
        (concatenate S2 0 [⟨S1, broadcastInDim S1 ![] bcast_S_S1 (constantI S_ 32 (BitVec.ofNat 32 i))⟩,
          ⟨S1, broadcastInDim S1 ![] bcast_S_S1 (constantI S_ 32 (BitVec.ofNat 32 j))⟩] concatenates_S1_S1_S2_d0)
        (shapeCast _ (extractStridedSlice S16x249x249x1x1 ![0, 0, 0, i, j] P hs) shapeCasts_S16x249x249x1x1_S16x249x249)) n
      = accR (patch5 P n) (k + 1) := by
  rw [step3 A P i j hi hj hs n, hprev]
  subst hk
  show _ = addWin (accR (patch5 P n) (8 * i + j)) ((8 * i + j) / 8) ((8 * i + j) % 8) 249 249
    (fun a b => ext (patch5 P n) a b (8 * i + j))
  rw [show (8 * i + j) / 8 = i by omega, show (8 * i + j) % 8 = j by omega]

/-- One scatter of the counts' fold advances the accumulation from `k = 8 i + j` offsets to `k + 1`. -/
theorem chain2 (A : SImg.Idx → EReal) (Q : SPatch4.Idx → EReal) (i j : ℕ) (hi : i < 8) (hj : j < 8)
    (hs : S249x249x8x8.Slices ![0, 0, i, j] S249x249x1x1) (k : ℕ) (hk : 8 * i + j = k)
    (hprev : A = accR (patchQ4 Q) k) :
    Host.scatter scatter_S256x256_S2_S249x249_01_n_01_0 (FloatOps.addf (F := Ideal) (φ := .f32)) A
        (concatenate S2 0 [⟨S1, broadcastInDim S1 ![] bcast_S_S1 (constantI S_ 32 (BitVec.ofNat 32 i))⟩,
          ⟨S1, broadcastInDim S1 ![] bcast_S_S1 (constantI S_ 32 (BitVec.ofNat 32 j))⟩] concatenates_S1_S1_S2_d0)
        (shapeCast _ (extractStridedSlice S249x249x1x1 ![0, 0, i, j] Q hs) shapeCasts_S249x249x1x1_S249x249)
      = accR (patchQ4 Q) (k + 1) := by
  rw [step2 A Q i j hi hj hs, hprev]
  subst hk
  show _ = addWin (accR (patchQ4 Q) (8 * i + j)) ((8 * i + j) / 8) ((8 * i + j) % 8) 249 249
    (fun a b => ext (patchQ4 Q) a b (8 * i + j))
  rw [show (8 * i + j) / 8 = i by omega, show (8 * i + j) % 8 = j by omega]

/-- The batch fold starts from the zero image. -/
theorem item_zero (X : SPatch.Idx → EReal) (n : Fin 16) :
    item (broadcastInDim S16x256x256 ![] bcast_S_S16x256x256 (constant (F := Ideal) S_ .f32 0x00000000#32)) n = accR X 0 := by
  funext p
  exact Ideal.ofBits_zero_f32

/-- The counts' fold starts from the zero image. -/
theorem zero2 (X : SPatch.Idx → EReal) :
    broadcastInDim S256x256 ![] bcast_S_S256x256 (constant (F := Ideal) S_ .f32 0x00000000#32) = accR X 0 := by
  funext p
  exact Ideal.ofBits_zero_f32

/-! ### The batch fold, ten offsets at a time

The run names the image batch after every ten scatters. Each of these is ten steps over the one before; every step
finds its offset `(i, j)`, and the count `k = 8 i + j` so far, in the scatter it is applied to. -/

set_option maxRecDepth 8192 in
/-- After offsets 0 to 9. -/
theorem item_v69 (V0 : Valuation τ sig (Elt Ideal)) (n : Fin 16) :
    item (res_main_v69 (F := Ideal) V0) n = accR (patch5 (res_main_v8 V0) n) 10 := by
  unfold res_main_v69
  iterate 10 refine chain3 _ _ _ _ (by decide) (by decide) _ _ _ rfl ?_
  exact item_zero _ n

set_option maxRecDepth 8192 in
/-- After offsets 10 to 19. -/
theorem item_v129 (V0 : Valuation τ sig (Elt Ideal)) (n : Fin 16) :
    item (res_main_v129 (F := Ideal) V0) n = accR (patch5 (res_main_v8 V0) n) 20 := by
  unfold res_main_v129
  iterate 10 refine chain3 _ _ _ _ (by decide) (by decide) _ _ _ rfl ?_
  exact item_v69 V0 n

set_option maxRecDepth 8192 in
/-- After offsets 20 to 29. -/
theorem item_v189 (V0 : Valuation τ sig (Elt Ideal)) (n : Fin 16) :
    item (res_main_v189 (F := Ideal) V0) n = accR (patch5 (res_main_v8 V0) n) 30 := by
  unfold res_main_v189
  iterate 10 refine chain3 _ _ _ _ (by decide) (by decide) _ _ _ rfl ?_
  exact item_v129 V0 n

set_option maxRecDepth 8192 in
/-- After offsets 30 to 39. -/
theorem item_v249 (V0 : Valuation τ sig (Elt Ideal)) (n : Fin 16) :
    item (res_main_v249 (F := Ideal) V0) n = accR (patch5 (res_main_v8 V0) n) 40 := by
  unfold res_main_v249
  iterate 10 refine chain3 _ _ _ _ (by decide) (by decide) _ _ _ rfl ?_
  exact item_v189 V0 n

set_option maxRecDepth 8192 in
/-- After offsets 40 to 49. -/
theorem item_v309 (V0 : Valuation τ sig (Elt Ideal)) (n : Fin 16) :
    item (res_main_v309 (F := Ideal) V0) n = accR (patch5 (res_main_v8 V0) n) 50 := by
  unfold res_main_v309
  iterate 10 refine chain3 _ _ _ _ (by decide) (by decide) _ _ _ rfl ?_
  exact item_v249 V0 n

set_option maxRecDepth 8192 in
/-- After offsets 50 to 59. -/
theorem item_v369 (V0 : Valuation τ sig (Elt Ideal)) (n : Fin 16) :
    item (res_main_v369 (F := Ideal) V0) n = accR (patch5 (res_main_v8 V0) n) 60 := by
  unfold res_main_v369
  iterate 10 refine chain3 _ _ _ _ (by decide) (by decide) _ _ _ rfl ?_
  exact item_v309 V0 n

/-! ### The counts' fold, ten offsets at a time -/

set_option maxRecDepth 8192 in
/-- After offsets 0 to 9. -/
theorem cnt_v464 (V0 : Valuation τ sig (Elt Ideal)) :
    (res_main_v464 (F := Ideal) V0 : SImg.Idx → EReal) = accR (patchQ4 (res_main_v403 V0)) 10 := by
  unfold res_main_v464
  iterate 10 refine chain2 _ _ _ _ (by decide) (by decide) _ _ rfl ?_
  exact zero2 _

set_option maxRecDepth 8192 in
/-- After offsets 10 to 19. -/
theorem cnt_v524 (V0 : Valuation τ sig (Elt Ideal)) :
    (res_main_v524 (F := Ideal) V0 : SImg.Idx → EReal) = accR (patchQ4 (res_main_v403 V0)) 20 := by
  unfold res_main_v524
  iterate 10 refine chain2 _ _ _ _ (by decide) (by decide) _ _ rfl ?_
  exact cnt_v464 V0

set_option maxRecDepth 8192 in
/-- After offsets 20 to 29. -/
theorem cnt_v584 (V0 : Valuation τ sig (Elt Ideal)) :
    (res_main_v584 (F := Ideal) V0 : SImg.Idx → EReal) = accR (patchQ4 (res_main_v403 V0)) 30 := by
  unfold res_main_v584
  iterate 10 refine chain2 _ _ _ _ (by decide) (by decide) _ _ rfl ?_
  exact cnt_v524 V0

set_option maxRecDepth 8192 in
/-- After offsets 30 to 39. -/
theorem cnt_v644 (V0 : Valuation τ sig (Elt Ideal)) :
    (res_main_v644 (F := Ideal) V0 : SImg.Idx → EReal) = accR (patchQ4 (res_main_v403 V0)) 40 := by
  unfold res_main_v644
  iterate 10 refine chain2 _ _ _ _ (by decide) (by decide) _ _ rfl ?_
  exact cnt_v584 V0

set_option maxRecDepth 8192 in
/-- After offsets 40 to 49. -/
theorem cnt_v704 (V0 : Valuation τ sig (Elt Ideal)) :
    (res_main_v704 (F := Ideal) V0 : SImg.Idx → EReal) = accR (patchQ4 (res_main_v403 V0)) 50 := by
  unfold res_main_v704
  iterate 10 refine chain2 _ _ _ _ (by decide) (by decide) _ _ rfl ?_
  exact cnt_v644 V0

set_option maxRecDepth 8192 in
/-- After offsets 50 to 59. -/
theorem cnt_v764 (V0 : Valuation τ sig (Elt Ideal)) :
    (res_main_v764 (F := Ideal) V0 : SImg.Idx → EReal) = accR (patchQ4 (res_main_v403 V0)) 60 := by
  unfold res_main_v764
  iterate 10 refine chain2 _ _ _ _ (by decide) (by decide) _ _ rfl ?_
  exact cnt_v704 V0

/-! ## The quotient

The reference divides the batch of folded images by the folded counts, the count image broadcast first to one image
`[1, 256, 256]` and then along the batch to `[16, 256, 256]`: at `(n, y, x)` the denominator is the count image at
`(y, x)`. -/

/-- The count image broadcast along the batch, read at `(n, y, x)`, is the count image at `(y, x)`. -/
theorem bcast_counts_apply (C : SImg.Idx → EReal) (q : SImgs.Idx) :
    broadcastInDim S16x256x256 ![0, 1, 2] bcast_S1x256x256_S16x256x256_0_1_2
      (broadcastInDim S1x256x256 ![1, 2] bcast_S256x256_S1x256x256_1_2 C) q = C (pix q) := by
  refine (broadcastInDim_apply _ _ _ q (ix3 0 ⟨(q 1).val, (q 1).isLt⟩ ⟨(q 2).val, (q 2).isLt⟩) ?_).trans ?_
  · intro ax
    match ax with
    | ⟨0, _⟩ => rfl
    | ⟨1, _⟩ => rfl
    | ⟨2, _⟩ => rfl
  refine (broadcastInDim_apply _ _ _ _ (pix q) ?_).trans rfl
  intro ax
  match ax with
  | ⟨0, _⟩ => rfl
  | ⟨1, _⟩ => rfl

/-- A batch whose every image is a fold, over a count image that is a fold, is `normed`. -/
theorem divf_eq_normed (N : SImgs.Idx → EReal) (C : SImg.Idx → EReal) (X : Fin 16 → SPatch.Idx → EReal)
    (Q : SPatch.Idx → EReal) (hN : ∀ n, item N n = fold (X n)) (hC : C = fold Q) :
    Host.divf (F := Ideal) (φ := .f32) N
      (broadcastInDim S16x256x256 ![0, 1, 2] bcast_S1x256x256_S16x256x256_0_1_2
        (broadcastInDim S1x256x256 ![1, 2] bcast_S256x256_S1x256x256_1_2 C)) = normed X Q := by
  funext q
  show Ideal.div (N q) _ = Ideal.div (fold (X ⟨(q 0).val, (q 0).isLt⟩) (pix q)) (fold Q (pix q))
  rw [bcast_counts_apply, hC, ← hN ⟨(q 0).val, (q 0).isLt⟩]
  congr 1
  show N q = N (ix3 ⟨(q 0).val, (q 0).isLt⟩ ⟨(q 1).val, _⟩ ⟨(q 2).val, _⟩)
  congr 1
  funext ax
  match ax with
  | ⟨0, _⟩ => rfl
  | ⟨1, _⟩ => rfl
  | ⟨2, _⟩ => rfl

/-! ## The reference's value -/

set_option maxRecDepth 8192 in
/-- What the reference leaves in its result: image by image the fold of the scattered patches over the fold of the
    scattered ones, reshaped. -/
theorem ref_value (V0 : Valuation τ sig (Elt Ideal)) :
    val18 V0 (Proc.devRef .tc main_v792)
      = shapeCast _ (normed (fun n => patch5 (res_main_v8 V0) n) (patchQ4 (res_main_v403 V0)))
          shapeCasts_S16x256x256_S2x8x256x256 := by
  refine (val18_main_v792 V0).trans ?_
  refine congrArg (fun z => shapeCast _ z shapeCasts_S16x256x256_S2x8x256x256) ?_
  refine divf_eq_normed _ _ _ _ (fun n => ?_) ?_
  · -- the last four offsets of the batch fold, then the fold
    refine Eq.trans ?_ (accR_eq_fold _)
    iterate 4 refine chain3 _ _ _ _ (by decide) (by decide) _ _ _ rfl ?_
    exact item_v369 V0 n
  · -- the last four offsets of the counts' fold, then the fold
    refine Eq.trans ?_ (accR_eq_fold _)
    iterate 4 refine chain2 _ _ _ _ (by decide) (by decide) _ _ rfl ?_
    exact cnt_v764 V0

end Cert.RefChain

end
-- ==== Proof.HostK.lean ====
/-
  What the kernel's program holds in its two patch arrays before its first kernel runs.

  Before its kernels the program wraps the negative entries of its integer argument (entry + 62001 where the entry
  is negative), scatters the rows of its float argument into a zero array of shape [16, 62001, 64] at those
  positions (of two updates to one position the later wins) and reshapes the result to [16, 249, 249, 64]; and it
  scatters rows of ones into a zero array of shape [62001, 64] in the same way and reshapes that to [249, 249, 64].
  Each operation rewrites its own result buffer with its function of its operands' buffers and leaves every other
  buffer, so read back through the list of operations, from any contents W, each of the two reshaped buffers is the
  composed term of W's two arguments: the operations' own functions, nested in the order the program applies them.
-/
import proofs.«116354_j4801773436971_2_alg».proof.Proof.Gen.KernelIdeal.Launch
import Idealize.ShloMosaic.Lib.StableHlo.Run

noncomputable section

namespace Cert.KernelIdeal.HostK

open Cert.KernelIdeal Cert.KernelIdeal.Gen Idealize.ShloMosaic Idealize.ShloMosaic.TcCoe Idealize.ShloMosaic.StableHlo
  Idealize.SL.Sem

variable {F : FTy → Type} [FloatOps F]

set_option maxRecDepth 8192 in
set_option maxHeartbeats 2000000 in
/-- The batch's patch array [16, 249, 249, 64]: the float argument's rows scattered into zeros at the wrapped
    positions, reshaped. -/
theorem v8_eq (W : Valuation τ sig (Elt F)) :
    StableHlo.after (hostOps0 (F := F)) W (Proc.devRef .tc main_v8)
      = shapeCast _ (Host.scatter scatter_S16x62001x64_S62001x1_S16x62001x64_02_1_1_1 (fun _ b => b)
          (broadcastInDim S16x62001x64 ![] bcast_S_S16x62001x64 (constant S_ .f32 0x00000000#32))
          (broadcastInDim S62001x1 ![0] bcast_S62001_S62001x1_0
            (select (cmpi .slt (W (Proc.devRef .tc main_arg1)) (broadcastInDim S62001 ![] bcast_S_S62001 (constantI S_ 32 0#32)))
              (addi (W (Proc.devRef .tc main_arg1)) (broadcastInDim S62001 ![] bcast_S_S62001 (constantI S_ 32 62001#32)))
              (W (Proc.devRef .tc main_arg1))))
          (W (Proc.devRef .tc main_arg0))) shapeCasts_S16x62001x64_S16x249x249x64 := by
  simp only [hostOps0]
  after_results_simp
  rfl

set_option maxRecDepth 8192 in
set_option maxHeartbeats 2000000 in
/-- The counts' patch array [249, 249, 64]: rows of ones scattered into zeros at the wrapped positions, reshaped. -/
theorem v18_eq (W : Valuation τ sig (Elt F)) :
    StableHlo.after (hostOps0 (F := F)) W (Proc.devRef .tc main_v18)
      = shapeCast _ (Host.scatter scatter_S62001x64_S62001x1_S62001x64_1_0_0_1 (fun _ b => b)
          (broadcastInDim S62001x64 ![] bcast_S_S62001x64 (constant S_ .f32 0x00000000#32))
          (broadcastInDim S62001x1 ![0] bcast_S62001_S62001x1_0
            (select (cmpi .slt (W (Proc.devRef .tc main_arg1)) (broadcastInDim S62001 ![] bcast_S_S62001 (constantI S_ 32 0#32)))
              (addi (W (Proc.devRef .tc main_arg1)) (broadcastInDim S62001 ![] bcast_S_S62001 (constantI S_ 32 62001#32)))
              (W (Proc.devRef .tc main_arg1))))
          (broadcastInDim S62001x64 ![] bcast_S_S62001x64 (constant S_ .f32 0x3F800000#32))) shapeCasts_S62001x64_S249x249x64 := by
  simp only [hostOps0]
  after_results_simp
  rfl

end Cert.KernelIdeal.HostK

end
-- ==== Proof.Relayout.lean ====
/-
  One flat array, two reshapes, the same patch array.

  The scattered batch has shape [16, 62001, 64]: position 249 a + b of its middle axis is window position (a, b), and
  entry k of its last axis is offset k. One program reshapes it to [16, 249, 249, 64], the other to
  [16, 249, 249, 8, 8], where offset k sits at (k / 8, k % 8). A reshape keeps every element's row-major position, so
  image n's patch array read at (a, b, k) is, either way, the flat array at (n, 249 a + b, k): the two positions
  ((n · 249 + a) · 249 + b) · 64 + k and ((((n · 249 + a) · 249 + b) · 8 + k / 8) · 8 + k % 8 are both
  (n · 62001 + (249 a + b)) · 64 + k, since 62001 = 249 · 249 and 8 (k / 8) + k % 8 = k. The counts' array, of shape
  [62001, 64], is the same with the image axis dropped.
-/
import proofs.«116354_j4801773436971_2_alg».proof.Proof.FoldBatch
import Idealize.ShloMosaic.Lib.Pipeline.Value

noncomputable section

namespace Cert.FoldSpec

open Idealize.ShloMosaic Idealize.ShloMosaic.ValueIdx

abbrev SFlat3 : Shape := ⟨3, ![16, 62001, 64]⟩
abbrev SFlat2 : Shape := ⟨2, ![62001, 64]⟩

/-- Image n's patch array is the same whether the flat batch is reshaped to [16, 249, 249, 8, 8] or to
    [16, 249, 249, 64]: both read the flat batch at (n, 249 a + b, k). -/
theorem patch5_shapeCast (S : SFlat3.Idx → EReal) (h5 : SFlat3.ShapeCasts SPatches5) (h4 : SFlat3.ShapeCasts SPatches)
    (n : Fin 16) : patch5 (shapeCast SPatches5 S h5) n = patch4 (shapeCast SPatches S h4) n := by
  funext q
  have h0 : (q 0).val < 249 := (q 0).isLt
  have h1 : (q 1).val < 249 := (q 1).isLt
  have h2 : (q 2).val < 64 := (q 2).isLt
  have hm : 249 * (q 0).val + (q 1).val < 62001 := by omega
  unfold patch5 patch4
  rw [shapeCast_apply S h5 _ (ix3 n ⟨249 * (q 0).val + (q 1).val, hm⟩ ⟨(q 2).val, h2⟩) (by
        rw [Shape.rowMajor_val_three, Shape.rowMajor_val_five]
        show (n.val * 62001 + (249 * (q 0).val + (q 1).val)) * 64 + (q 2).val
          = (((n.val * 249 + (q 0).val) * 249 + (q 1).val) * 8 + (q 2).val / 8) * 8 + (q 2).val % 8
        omega),
      shapeCast_apply S h4 _ (ix3 n ⟨249 * (q 0).val + (q 1).val, hm⟩ ⟨(q 2).val, h2⟩) (by
        rw [Shape.rowMajor_val_three, Shape.rowMajor_val_four]
        show (n.val * 62001 + (249 * (q 0).val + (q 1).val)) * 64 + (q 2).val
          = ((n.val * 249 + (q 0).val) * 249 + (q 1).val) * 64 + (q 2).val
        omega)]

/-- The counts' patch array likewise: the flat counts reshaped to [249, 249, 8, 8] and read as [249, 249, 64] are
    the flat counts reshaped to [249, 249, 64]; both read the flat counts at (249 a + b, k). -/
theorem patchQ4_shapeCast (SQ : SFlat2.Idx → EReal) (h4 : SFlat2.ShapeCasts SPatch4) (h3 : SFlat2.ShapeCasts SPatch) :
    patchQ4 (shapeCast SPatch4 SQ h4) = shapeCast SPatch SQ h3 := by
  funext q
  have h0 : (q 0).val < 249 := (q 0).isLt
  have h1 : (q 1).val < 249 := (q 1).isLt
  have h2 : (q 2).val < 64 := (q 2).isLt
  have hm : 249 * (q 0).val + (q 1).val < 62001 := by omega
  unfold patchQ4
  rw [shapeCast_apply SQ h4 _ (ix2 ⟨249 * (q 0).val + (q 1).val, hm⟩ ⟨(q 2).val, h2⟩) (by
        rw [Shape.rowMajor_val_two, Shape.rowMajor_val_four]
        show (249 * (q 0).val + (q 1).val) * 64 + (q 2).val
          = (((q 0).val * 249 + (q 1).val) * 8 + (q 2).val / 8) * 8 + (q 2).val % 8
        omega),
      shapeCast_apply SQ h3 q (ix2 ⟨249 * (q 0).val + (q 1).val, hm⟩ ⟨(q 2).val, h2⟩) (by
        rw [Shape.rowMajor_val_two, Shape.rowMajor_val_three]
        show (249 * (q 0).val + (q 1).val) * 64 + (q 2).val
          = ((q 0).val * 249 + (q 1).val) * 64 + (q 2).val
        omega)]

end Cert.FoldSpec

end
-- ==== Proof.Bridge.lean ====
/-
  The reference's value, over the kernel program's two patch arrays.

  Both programs begin alike. The negative entries of the integer argument are wrapped; the float argument's rows are
  scattered into a zero array [16, 62001, 64] at those positions, and rows of ones into a zero array [62001, 64]. The
  reference reshapes the two to [16, 249, 249, 8, 8] and [249, 249, 8, 8], the kernel program to [16, 249, 249, 64] and
  [249, 249, 64]. Read image by image as a patch array [249, 249, 64] these are the same, so the reference's value, the
  quotient of the two folds, is the quotient of the folds of the kernel program's two arrays.
-/
import proofs.«116354_j4801773436971_2_alg».proof.Proof.RefChain
import proofs.«116354_j4801773436971_2_alg».proof.Proof.HostK
import proofs.«116354_j4801773436971_2_alg».proof.Proof.Relayout
import Idealize.ShloMosaic.PureOps.Ideal
import Idealize.ShloMosaic.Lib.ValueIdx
import Idealize.ShloMosaic.Lib.StableHlo.Run

noncomputable section

namespace Cert.Bridge

open Idealize.ShloMosaic Idealize.ShloMosaic.ValueIdx Cert.FoldSpec

/-! ## The two programs' flat patch arrays

Both programs begin alike: the negative entries of the integer argument are wrapped, the float argument's rows are
scattered into a zero array `[16, 62001, 64]` at those positions, and rows of ones into a zero array `[62001, 64]`. Each
program writes this with its own names for the shapes, for the scatter's dimension numbers and for the side conditions;
the shapes are the same literals and the dimension numbers the same lists, so the two arrays are the same function of
the two arguments. -/

section Flat

variable {F : FTy → Type} [FloatOps F]

section Reference
open Cert.ReferenceIdeal Cert.ReferenceIdeal.Gen

/-- The reference's flat batch, as a function of the two arguments. -/
def flatR (a0 : SFlat3.Idx → F .f32) (a1 : IVec ⟨1, ![62001]⟩ 32) : SFlat3.Idx → F .f32 :=
  Host.scatter scatter_S16x62001x64_S62001x1_S16x62001x64_02_1_1_1 (fun _ b => b)
    (broadcastInDim S16x62001x64 ![] bcast_S_S16x62001x64 (constant S_ .f32 0x00000000#32))
    (broadcastInDim S62001x1 ![0] bcast_S62001_S62001x1_0
      (select (cmpi .slt a1 (broadcastInDim S62001 ![] bcast_S_S62001 (constantI S_ 32 0#32)))
        (addi a1 (broadcastInDim S62001 ![] bcast_S_S62001 (constantI S_ 32 62001#32))) a1))
    a0

/-- The reference's flat counts, as a function of the integer argument. -/
def flatQR (a1 : IVec ⟨1, ![62001]⟩ 32) : SFlat2.Idx → F .f32 :=
  Host.scatter scatter_S62001x64_S62001x1_S62001x64_1_0_0_1 (fun _ b => b)
    (broadcastInDim S62001x64 ![] bcast_S_S62001x64 (constant S_ .f32 0x00000000#32))
    (broadcastInDim S62001x1 ![0] bcast_S62001_S62001x1_0
      (select (cmpi .slt a1 (broadcastInDim S62001 ![] bcast_S_S62001 (constantI S_ 32 0#32)))
        (addi a1 (broadcastInDim S62001 ![] bcast_S_S62001 (constantI S_ 32 62001#32))) a1))
    (broadcastInDim S62001x64 ![] bcast_S_S62001x64 (constant S_ .f32 0x3F800000#32))

end Reference

section Kernel
open Cert.KernelIdeal Cert.KernelIdeal.Gen

/-- The kernel program's flat batch, as a function of the two arguments. -/
def flatK (a0 : SFlat3.Idx → F .f32) (a1 : IVec ⟨1, ![62001]⟩ 32) : SFlat3.Idx → F .f32 :=
  Host.scatter scatter_S16x62001x64_S62001x1_S16x62001x64_02_1_1_1 (fun _ b => b)
    (broadcastInDim S16x62001x64 ![] bcast_S_S16x62001x64 (constant S_ .f32 0x00000000#32))
    (broadcastInDim S62001x1 ![0] bcast_S62001_S62001x1_0
      (select (cmpi .slt a1 (broadcastInDim S62001 ![] bcast_S_S62001 (constantI S_ 32 0#32)))
        (addi a1 (broadcastInDim S62001 ![] bcast_S_S62001 (constantI S_ 32 62001#32))) a1))
    a0

/-- The kernel program's flat counts, as a function of the integer argument. -/
def flatQK (a1 : IVec ⟨1, ![62001]⟩ 32) : SFlat2.Idx → F .f32 :=
  Host.scatter scatter_S62001x64_S62001x1_S62001x64_1_0_0_1 (fun _ b => b)
    (broadcastInDim S62001x64 ![] bcast_S_S62001x64 (constant S_ .f32 0x00000000#32))
    (broadcastInDim S62001x1 ![0] bcast_S62001_S62001x1_0
      (select (cmpi .slt a1 (broadcastInDim S62001 ![] bcast_S_S62001 (constantI S_ 32 0#32)))
        (addi a1 (broadcastInDim S62001 ![] bcast_S_S62001 (constantI S_ 32 62001#32))) a1))
    (broadcastInDim S62001x64 ![] bcast_S_S62001x64 (constant S_ .f32 0x3F800000#32))

end Kernel

/-- The two flat batches are the same function. -/
theorem flatR_eq_flatK (a0 : SFlat3.Idx → F .f32) (a1 : IVec ⟨1, ![62001]⟩ 32) : flatR a0 a1 = flatK a0 a1 := rfl

/-- The two flat counts are the same function. -/
theorem flatQR_eq_flatQK (a1 : IVec ⟨1, ![62001]⟩ 32) : (flatQR a1 : SFlat2.Idx → F .f32) = flatQK a1 := rfl

end Flat

/-! ## The reference's value over the kernel program's patch arrays

The reference reshapes its flat batch to `[16, 249, 249, 8, 8]` and its flat counts to `[249, 249, 8, 8]`; the kernel
program reshapes the same two arrays to `[16, 249, 249, 64]` and `[249, 249, 64]`. Image by image these are the same
patch array, so the reference's value, the quotient of the two folds, is the quotient of the folds of the kernel
program's two arrays. -/

set_option maxRecDepth 8192 in
/-- With the same two arguments, the reference leaves in its result the quotient of the folds of the kernel program's
    batch patch array and counts' patch array, reshaped. -/
theorem ref_meets_kernel (WK : Valuation Cert.KernelIdeal.τ Cert.KernelIdeal.sig (Elt Ideal))
    (V0 : Valuation Cert.ReferenceIdeal.τ Cert.ReferenceIdeal.sig (Elt Ideal))
    (h0 : V0 (Proc.devRef .tc Cert.ReferenceIdeal.main_arg0) = WK (Proc.devRef .tc Cert.KernelIdeal.main_arg0))
    (h1 : V0 (Proc.devRef .tc Cert.ReferenceIdeal.main_arg1) = WK (Proc.devRef .tc Cert.KernelIdeal.main_arg1)) :
    Cert.ReferenceIdeal.Value.val18 V0 (Proc.devRef .tc Cert.ReferenceIdeal.main_v792)
      = shapeCast Cert.KernelIdeal.S2x8x256x256
          (Cert.FoldSpec.normed
            (fun n => Cert.FoldSpec.patch4
              (StableHlo.after (Cert.KernelIdeal.Gen.hostOps0 (F := Ideal)) WK (Proc.devRef .tc Cert.KernelIdeal.main_v8)) n)
            (StableHlo.after (Cert.KernelIdeal.Gen.hostOps0 (F := Ideal)) WK (Proc.devRef .tc Cert.KernelIdeal.main_v18)))
          Cert.KernelIdeal.Gen.shapeCasts_S16x256x256_S2x8x256x256 := by
  -- image by image, the batch's patch array
  have hX : (fun n => patch5 (Cert.ReferenceIdeal.Value.res_main_v8 V0) n)
      = fun n => patch4
          (StableHlo.after (Cert.KernelIdeal.Gen.hostOps0 (F := Ideal)) WK (Proc.devRef .tc Cert.KernelIdeal.main_v8)) n := by
    funext n
    rw [Cert.KernelIdeal.HostK.v8_eq]
    unfold Cert.ReferenceIdeal.Value.res_main_v8
    rw [h0, h1]
    have e : patch5 (shapeCast SPatches5 (flatR (F := Ideal)
          (WK (Proc.devRef .tc Cert.KernelIdeal.main_arg0)) (WK (Proc.devRef .tc Cert.KernelIdeal.main_arg1)))
          Cert.ReferenceIdeal.Gen.shapeCasts_S16x62001x64_S16x249x249x8x8) n
        = patch4 (shapeCast SPatches (flatK (F := Ideal)
          (WK (Proc.devRef .tc Cert.KernelIdeal.main_arg0)) (WK (Proc.devRef .tc Cert.KernelIdeal.main_arg1)))
          Cert.KernelIdeal.Gen.shapeCasts_S16x62001x64_S16x249x249x64) n := by
      rw [flatR_eq_flatK]
      exact patch5_shapeCast _ _ _ n
    exact e
  -- the counts' patch array
  have hQ : patchQ4 (Cert.ReferenceIdeal.Value.res_main_v403 V0)
      = StableHlo.after (Cert.KernelIdeal.Gen.hostOps0 (F := Ideal)) WK (Proc.devRef .tc Cert.KernelIdeal.main_v18) := by
    rw [Cert.KernelIdeal.HostK.v18_eq]
    unfold Cert.ReferenceIdeal.Value.res_main_v403
    rw [h1]
    have e : patchQ4 (shapeCast SPatch4 (flatQR (F := Ideal) (WK (Proc.devRef .tc Cert.KernelIdeal.main_arg1)))
          Cert.ReferenceIdeal.Gen.shapeCasts_S62001x64_S249x249x8x8)
        = shapeCast SPatch (flatQK (F := Ideal) (WK (Proc.devRef .tc Cert.KernelIdeal.main_arg1)))
          Cert.KernelIdeal.Gen.shapeCasts_S62001x64_S249x249x64 := by
      rw [flatQR_eq_flatQK]
      exact patchQ4_shapeCast _ _ _
    exact e
  -- both sides are now the same reshape of the same quotient
  rw [Cert.RefChain.ref_value, hX, hQ]

end Cert.Bridge

end
-- ==== Proof.RefRunValue.lean ====
/-
  The reference's run with its result named: the generated run states the result at its long composed term; the same
  run states it at the last window's contents, which is where the read-back of the folds starts.
-/
import proofs.«116354_j4801773436971_2_alg».proof.Proof.Gen.ReferenceIdeal.Run

set_option maxRecDepth 16384

noncomputable section

namespace Cert.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Every weakly fair execution of the reference terminates with its result buffer at the last window's contents and
    its arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v792) = val18 (launchContents m c) (Proc.devRef .tc main_v792)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (val18_main_v792 (launchContents m c)).symm, (h c).2.1, (h c).2.2⟩)
    (run m ρ)

end Cert.RefRun

end
-- ==== Proof.Algebraic.lean ====
/-
  The two idealized programs end with equal results.

  The kernel program's result buffer holds, after its run, the reshaped `normed` image batch of what its host prefix
  scattered (the run's post, read back through both kernels); the reference's result is the same `normed` batch of the
  same scatters (its generated run, read back through its 128 fold steps, and the bridge between the two programs'
  host prefixes). Memories that agree on the two arguments give the same scatters, hence the same result.
-/
import proofs.«116354_j4801773436971_2_alg».proof.Defs
import proofs.«116354_j4801773436971_2_alg».proof.Proof.KernelValue
import proofs.«116354_j4801773436971_2_alg».proof.Proof.Bridge
import proofs.«116354_j4801773436971_2_alg».proof.Proof.RefRunValue
import proofs.«116354_j4801773436971_2_alg».proof.Proof.Gen.KernelIdeal
import proofs.«116354_j4801773436971_2_alg».proof.Proof.Gen.ReferenceIdeal
import proofs.«116354_j4801773436971_2_alg».proof.Proof.Gen.Pre_finite_inputs

set_option maxRecDepth 16384

noncomputable section

namespace Cert.Proof.Alg

open Idealize.ShloMosaic Idealize.ShloMosaic.TcCoe Idealize.SL.Sem Cert.FoldSpec

/-- The `normed` batch of two buffers of a valuation is the same whether the buffers are named as functions or entry
    by entry. Stated for any valuation, so that it is used at the host prefix's contents without looking inside them. -/
theorem normed_eta (Wh : Valuation Cert.KernelIdeal.τ Cert.KernelIdeal.sig (Elt Idealize.ShloMosaic.Ideal)) :
    shapeCast Cert.KernelIdeal.S2x8x256x256
        (normed (fun n => patch4 (fun q => Wh (Proc.devRef .tc Cert.KernelIdeal.main_v8) q) n)
          (fun q => Wh (Proc.devRef .tc Cert.KernelIdeal.main_v18) q))
        Cert.KernelIdeal.Gen.shapeCasts_S16x256x256_S2x8x256x256
      = shapeCast Cert.KernelIdeal.S2x8x256x256
        (normed (fun n => patch4 (Wh (Proc.devRef .tc Cert.KernelIdeal.main_v8)) n)
          (Wh (Proc.devRef .tc Cert.KernelIdeal.main_v18)))
        Cert.KernelIdeal.Gen.shapeCasts_S16x256x256_S2x8x256x256 := rfl

/-- From memories agreeing on the arguments both programs run and leave the same result: the kernel program's by its
    run with the result named, the reference's by its generated run joined to the kernel program's host prefix. The
    precondition is not used: the equality holds on all extended reals. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => shapeCast Cert.KernelIdeal.S2x8x256x256
      (normed
        (fun n => patch4 (fun q => StableHlo.after (Cert.KernelIdeal.Gen.hostOps0 (F := Idealize.ShloMosaic.Ideal))
          (Cert.KernelIdeal.GenP.W0 m ρ c) (Proc.devRef .tc Cert.KernelIdeal.main_v8) q) n)
        (fun q => StableHlo.after (Cert.KernelIdeal.Gen.hostOps0 (F := Idealize.ShloMosaic.Ideal))
          (Cert.KernelIdeal.GenP.W0 m ρ c) (Proc.devRef .tc Cert.KernelIdeal.main_v18) q))
      Cert.KernelIdeal.Gen.shapeCasts_S16x256x256_S2x8x256x256, ?_, ?_⟩
  · exact Cert.KernelIdeal.RunValue.kernel_run m ρ
  · refine (θ_run Cert.ReferenceIdeal.defs _ _).mono (fun r h c => ⟨?_, (h c).2.1, (h c).2.2⟩)
      (Cert.RefRun.run_val (F := Idealize.ShloMosaic.Ideal) m' ρ')
    exact (h c).1.trans
      ((Cert.Bridge.ref_meets_kernel (Cert.KernelIdeal.GenP.W0 m ρ c) (StableHlo.launchContents m' c)
          (hagree c).1 (hagree c).2).trans
        (normed_eta (StableHlo.after (Cert.KernelIdeal.Gen.hostOps0 (F := Idealize.ShloMosaic.Ideal))
          (Cert.KernelIdeal.GenP.W0 m ρ c))).symm)

end Cert.Proof.Alg

end
-- ==== Proof.lean ====
/-
  The certificate: an overlap-add fold of 8 × 8 patches into 256 × 256 images, normalised by the overlap counts.

  Both programs scatter the rows of a [16, 62001, 64] batch by an integer index array, read the result as 249 × 249
  window positions of 64 patch entries, add entry k = 8 i + j of position (a, b) onto pixel (a + i, b + j), and divide
  by the same fold of a scattered array of ones. The kernel program does the fold in two kernels (the counts once, then
  one image per grid point), each adding 192 slabs of 83 × 249 band by band; the reference adds 64 slabs of 249 × 249
  per fold. Over the extended reals addition is a commutative monoid, so the two orders give one sum (Proof/FoldAlgebra);
  the kernels' stores are read back to that sum in Proof/Region0 and Proof/Region1 (on Proof/BandF), the reference's
  scatters in Proof/RefChain (on Proof/ScatterRead), the two host prefixes are joined in Proof/Bridge, and
  Proof/Algebraic pairs the runs. The three frames are the programs' runs with the results forgotten; the ideal pass
  rewrote nothing, so there is nothing to preserve.
-/
import proofs.«116354_j4801773436971_2_alg».proof.Defs
import proofs.«116354_j4801773436971_2_alg».proof.Proof.Gen.Kernel
import proofs.«116354_j4801773436971_2_alg».proof.Proof.Gen.KernelIdeal
import proofs.«116354_j4801773436971_2_alg».proof.Proof.Gen.ReferenceIdeal
import proofs.«116354_j4801773436971_2_alg».proof.Proof.Gen.Pre_finite_inputs
import proofs.«116354_j4801773436971_2_alg».proof.Proof.KernelFrameB
import proofs.«116354_j4801773436971_2_alg».proof.Proof.KernelIdealFrameB
import proofs.«116354_j4801773436971_2_alg».proof.Proof.RefFrame
import proofs.«116354_j4801773436971_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ,
    fun m ρ _ => Cert.KernelIdeal.GenP.frame m ρ,
    Cert.Proof.Ref.frame_ref,
    trivial,
    Cert.Proof.Alg.algebraic⟩

end Cert.Proof

end
